-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S5x128 1) : IVec S_ 1 :=
  let main_c_26 : IVec S_ 1 := constantI S_ 1 1#1
  let main_v68 : IVec S_ 1 := (fun x v => Host.reduce IntOp.andi x v reducesTo_S5x128_S_d0_1 h_S_) main_v67 main_c_26
  let main_v69 : IVec S_ 1 := andi main_v63 main_v68
  main_v69

def fn_part3 {F : FTy → Type} [FloatOps F] (main_arg7 : FVec F S5x128 .f32) (main_arg12 : FVec F S128x10 .f32) (main_arg13 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg12
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_cst_24 : FVec F S_ .f32 := constant S_ .f32 0x3727C5AC#32
  let main_v64 : FVec F S5x128 .f32 := broadcastInDim S5x128 ![] bcast_S_S5x128 main_cst_24
  let main_v65 : FVec F S5x128 .f32 := addf main_arg7 main_v64
  let main_cst_25 : FVec F S_ .f32 := constant S_ .f32 0x00000000#32
  let main_v66 : FVec F S5x128 .f32 := broadcastInDim S5x128 ![] bcast_S_S5x128 main_cst_25
  let main_v67 : IVec S5x128 1 := cmpf .ogt main_v65 main_v66
  fn_part4 (F := F) main_v63 main_v67

def fn_part2 {F : FTy → Type} [FloatOps F] (main_arg7 : FVec F S5x128 .f32) (main_arg8 : FVec F S5x128x128 .f32) (main_arg9 : FVec F S5x128 .f32) (main_arg10 : FVec F S128x128 .f32) (main_arg11 : FVec F S128 .f32) (main_arg12 : FVec F S128x10 .f32) (main_arg13 : FVec F S10 .f32) (main_v33 : IVec S_ 1) : IVec S_ 1 :=
  let main_v34 : FVec F S5x128x128 .f32 := Host.absf main_arg8
  let main_cst_12 : FVec F S_ .f32 := constant S_ .f32 0x7F800000#32
  let main_v35 : FVec F S5x128x128 .f32 := broadcastInDim S5x128x128 ![] bcast_S_S5x128x128 main_cst_12
  let main_v36 : IVec S5x128x128 1 := cmpf .olt main_v34 main_v35
  let main_c_13 : IVec S_ 1 := constantI S_ 1 1#1
  let main_v37 : IVec S_ 1 := (fun x v => Host.reduce IntOp.andi x v reducesTo_S5x128x128_S_d0_1_2 h_S_) main_v36 main_c_13
  let main_v38 : IVec S_ 1 := andi main_v33 main_v37
  let main_v39 : FVec F S5x128 .f32 := Host.absf main_arg9
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg7 main_arg12 main_arg13 main_v48 main_v49 main_v50

def fn_part1 {F : FTy → Type} [FloatOps F] (main_arg5 : FVec F S5x128 .f32) (main_arg6 : FVec F S5x128 .f32) (main_arg7 : FVec F S5x128 .f32) (main_arg8 : FVec F S5x128x128 .f32) (main_arg9 : FVec F S5x128 .f32) (main_arg10 : FVec F S128x128 .f32) (main_arg11 : FVec F S128 .f32) (main_arg12 : FVec F S128x10 .f32) (main_arg13 : FVec F S10 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg5
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg6
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg7
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : IVec S2x1600000 32) (main_arg2 : FVec F S5x128x128 .f32) (main_arg3 : FVec F S5x128 .f32) (main_arg4 : FVec F S5x128 .f32) (main_arg5 : FVec F S5x128 .f32) (main_arg6 : FVec F S5x128 .f32) (main_arg7 : FVec F S5x128 .f32) (main_arg8 : FVec F S5x128x128 .f32) (main_arg9 : FVec F S5x128 .f32) (main_arg10 : FVec F S128x128 .f32) (main_arg11 : FVec F S128 .f32) (main_arg12 : FVec F S128x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x128 .f32 := Host.absf main_arg2
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg3
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128 .f32 := Host.absf main_arg4
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S100000x10 : Shape := ⟨2, ![100000, 10]⟩

abbrev nBuf : Space → Nat
  | .hbm => 185
  | .vmem => 68
  | .smem => 0
  | _ => 0

abbrev hbmTy0_0 (i : Nat) : BufTy := match i % 128 with
  | 0 => ⟨S100000x128, .f32⟩
  | 1 => ⟨S2x1600000, .i32⟩
  | 2 => ⟨S5x128x128, .f32⟩
  | 3 => ⟨S5x128, .f32⟩
  | 4 => ⟨S5x128, .f32⟩
  | 5 => ⟨S5x128, .f32⟩
  | 6 => ⟨S5x128, .f32⟩
  | 7 => ⟨S5x128, .f32⟩
  | 8 => ⟨S5x128x128, .f32⟩
  | 9 => ⟨S5x128, .f32⟩
  | 10 => ⟨S128x128, .f32⟩
  | 11 => ⟨S128, .f32⟩
  | 12 => ⟨S128x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S5x128, .f32⟩
  | 20 => ⟨S5x128, .f32⟩
  | 21 => ⟨S5x128, .f32⟩
  | 22 => ⟨S5x128, .f32⟩
  | 23 => ⟨S5x128, .f32⟩
  | 24 => ⟨S5x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S1x128, .f32⟩
  | 52 => ⟨S1x128, .f32⟩
  | 53 => ⟨S1x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S1x128, .f32⟩
  | 82 => ⟨S1x128, .f32⟩
  | 83 => ⟨S1x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128x128, .f32⟩
  | 107 => ⟨S128x128, .f32⟩
  | 108 => ⟨S1x128, .f32⟩
  | 109 => ⟨S128, .f32⟩
  | 110 => ⟨S1x128, .f32⟩
  | 111 => ⟨S1x128, .f32⟩
  | 112 => ⟨S1x128, .f32⟩
  | 113 => ⟨S1x128, .f32⟩
  | 114 => ⟨S100000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S1x128, .f32⟩
  | 14 => ⟨S1x128, .f32⟩
  | 15 => ⟨S1x128, .f32⟩
  | 16 => ⟨S100000x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S1x128, .f32⟩
  | 45 => ⟨S1x128, .f32⟩
  | 46 => ⟨S100000x128, .f32⟩
  | 47 => ⟨S_, .i32⟩
  | 48 => ⟨S_, .f32⟩
  | 49 => ⟨S128x128, .f32⟩
  | 50 => ⟨S_, .i32⟩
  | 51 => ⟨S_, .f32⟩
  | 52 => ⟨S128, .f32⟩
  | 53 => ⟨S1x128, .f32⟩
  | 54 => ⟨S1x128, .f32⟩
  | 55 => ⟨S100000x128, .f32⟩
  | 56 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S4000x128, .f32⟩
  | .local _ .vmem, ⟨59, _⟩ => ⟨S4000x128, .f32⟩
  | .local _ .vmem, ⟨60, _⟩ => ⟨S4000x128, .f32⟩
  | .local _ .vmem, ⟨61, _⟩ => ⟨S4000x128, .f32⟩
  | .local _ .vmem, ⟨62, _⟩ => ⟨S128x128, .f32⟩
  | .local _ .vmem, ⟨63, _⟩ => ⟨S1x128, .f32⟩
  | .local _ .vmem, ⟨64, _⟩ => ⟨S128x128, .f32⟩
  | .local _ .vmem, ⟨65, _⟩ => ⟨S1x128, .f32⟩
  | .local _ .vmem, ⟨66, _⟩ => ⟨S4000x128, .f32⟩
  | .local _ .vmem, ⟨67, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_2 : Ref sig .tc := ⟨.hbm, 55, rfl⟩
abbrev main_v37 : Ref sig .tc := ⟨.hbm, 56, rfl⟩
abbrev main_v38 : Ref sig .tc := ⟨.hbm, 57, rfl⟩
abbrev main_c_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_5 : Ref sig .tc := ⟨.hbm, 85, rfl⟩
abbrev main_v64 : Ref sig .tc := ⟨.hbm, 86, rfl⟩
abbrev main_v65 : Ref sig .tc := ⟨.hbm, 87, rfl⟩
abbrev main_c_6 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_7 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_8 : Ref sig .tc := ⟨.hbm, 115, rfl⟩
abbrev main_v91 : Ref sig .tc := ⟨.hbm, 116, rfl⟩
abbrev main_v92 : Ref sig .tc := ⟨.hbm, 117, rfl⟩
abbrev main_c_9 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_10 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_c_11 : Ref sig .tc := ⟨.hbm, 145, rfl⟩
abbrev main_v118 : Ref sig .tc := ⟨.hbm, 146, rfl⟩
abbrev main_v119 : Ref sig .tc := ⟨.hbm, 147, rfl⟩
abbrev main_c_12 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_13 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_c_14 : Ref sig .tc := ⟨.hbm, 175, rfl⟩
abbrev main_call0_v0 : Ref sig .tc := ⟨.hbm, 176, rfl⟩
abbrev main_v145 : Ref sig .tc := ⟨.hbm, 177, rfl⟩
abbrev main_c_15 : Ref sig .tc := ⟨.hbm, 178, rfl⟩
abbrev main_call1_v0 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg7_0 : Ref sig .tc := ⟨.vmem, 57, rfl⟩
abbrev cc4_stg8_0 : Ref sig .tc := ⟨.vmem, 58, rfl⟩
abbrev cc4_stg8_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem5_0 : DmaSem sig := 55
abbrev cc4_sem6_0 : DmaSem sig := 56
abbrev cc4_sem7_0 : DmaSem sig := 57
abbrev cc4_sem8_0 : DmaSem sig := 58
abbrev cc4_sem8_1 : DmaSem sig := 59
abbrev cc5_sem0_0 : DmaSem sig := 60
abbrev cc5_sem0_1 : DmaSem sig := 61
abbrev cc5_sem1_0 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem5_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S4000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S5x128 : S_.BroadcastsInDim S5x128 (![] : Fin 0 → Fin S5x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  pads_S128x10_S128x128_000_01180 : S128x10.Pads (![0, 0] : Fin 2 → Nat) ![0, 118] ![0, 0] S128x128
  h_S_ : 0 < S_.numel
  pads_S10_S128_01180 : S10.Pads (![0] : Fin 1 → Nat) ![118] ![0] S128
  iota_S4000x128_d1_w32 : S4000x128.Iotas .tc 32 [1]
  reduces_S4000x128_S4000 : S4000x128.Reduces [1] S4000
  shapeCasts_S4000_S4000x1 : S4000.ShapeCasts S4000x1
  broadcasts_S4000x1_S4000x128 : S4000x1.Broadcasts S4000x128
  slices_S100000x128_S100000x10_0_0 : S100000x128.Slices ![0, 0] S100000x10
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S100000x128.size a
  hwx2_8 : ∀ i : grid2.Coords, EltTy.bits .f32 = 32 ∨ (Rect.block (s := S100000x128) S4000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x128.size a ≤ S100000x128.size a
  hwx3_8 : ∀ i : grid3.Coords, EltTy.bits .f32 = 32 ∨ (Rect.block (s := S100000x128) S4000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S4000x128.size a ≤ S100000x128.size a
  hwx4_8 : ∀ i : grid4.Coords, EltTy.bits .f32 = 32 ∨ (Rect.block (s := S100000x128) S4000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S100000x128.size a
  hwx5_5 : ∀ i : grid5.Coords, EltTy.bits .f32 = 32 ∨ (Rect.block (s := S100000x128) S4000x128.size (cc5_transform_5 i) (hinb5_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v63) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v63) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v83) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v89) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v90) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v90) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v102) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v113) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v114) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v115) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v110) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v116) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v117) S4000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v117) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v127) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v129) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v140) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v141) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v142) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v137) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v143) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v144) S4000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v144) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v147) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v145) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v148) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v149) S4000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S100000x10 : Shape := ⟨2, ![100000, 10]⟩
abbrev S1x10 : Shape := ⟨2, ![1, 10]⟩
abbrev S100000 : Shape := ⟨1, ![100000]⟩
abbrev S100000x1 : Shape := ⟨2, ![100000, 1]⟩

abbrev nBuf : Space → Nat
  | .hbm => 334
  | .vmem => 0
  | .smem => 0
  | _ => 0

abbrev hbmTy0_0 (i : Nat) : BufTy := match i % 128 with
  | 0 => ⟨S100000x128, .f32⟩
  | 1 => ⟨S2x1600000, .i32⟩
  | 2 => ⟨S5x128x128, .f32⟩
  | 3 => ⟨S5x128, .f32⟩
  | 4 => ⟨S5x128, .f32⟩
  | 5 => ⟨S5x128, .f32⟩
  | 6 => ⟨S5x128, .f32⟩
  | 7 => ⟨S5x128, .f32⟩
  | 8 => ⟨S5x128x128, .f32⟩
  | 9 => ⟨S5x128, .f32⟩
  | 10 => ⟨S128x128, .f32⟩
  | 11 => ⟨S128, .f32⟩
  | 12 => ⟨S128x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S100000x128, .f32⟩
  | 32 => ⟨S1x128x128, .f32⟩
  | 33 => ⟨S128x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S1x128x128, .f32⟩
  | 66 => ⟨S128x128, .f32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S128, .f32⟩
  | 107 => ⟨S_, .f32⟩
  | 108 => ⟨S128, .f32⟩
  | 109 => ⟨S128, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S100000x128, .f32⟩
  | 20 => ⟨S1x128x128, .f32⟩
  | 21 => ⟨S128x128, .f32⟩
  | 22 => ⟨S100000x128, .f32⟩
  | 23 => ⟨S1x128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S128, .f32⟩
  | 37 => ⟨S_, .f32⟩
  | 38 => ⟨S128, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x128x128, .f32⟩
  | 54 => ⟨S128x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_2 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S128, .f32⟩
  | 25 => ⟨S_, .f32⟩
  | 26 => ⟨S128, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S1x128x128, .f32⟩
  | 42 => ⟨S128x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x10, .f32⟩
  | 60 => ⟨S1x10, .f32⟩
  | 61 => ⟨S100000x10, .f32⟩
  | 62 => ⟨S100000x10, .f32⟩
  | 63 => ⟨S_, .f32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x10, .f32⟩
  | 70 => ⟨S100000x10, .f32⟩
  | 71 => ⟨S100000x10, .f32⟩
  | 72 => ⟨S_, .f32⟩
  | 73 => ⟨S100000, .f32⟩
  | 74 => ⟨S100000x1, .f32⟩
  | 75 => ⟨S100000x1, .f32⟩
  | 76 => ⟨S100000x10, .f32⟩
  | 77 => ⟨S100000x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_c_2 : Ref sig .tc := ⟨.hbm, 76, rfl⟩
abbrev main_v54 : Ref sig .tc := ⟨.hbm, 77, rfl⟩
abbrev main_v55 : Ref sig .tc := ⟨.hbm, 78, rfl⟩
abbrev main_c_3 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_5 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_call2_cst : Ref sig .tc := ⟨.hbm, 120, rfl⟩
abbrev main_call2_v0 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_call3_cst : Ref sig .tc := ⟨.hbm, 131, rfl⟩
abbrev main_call3_v0 : Ref sig .tc := ⟨.hbm, 132, rfl⟩
abbrev main_v103 : Ref sig .tc := ⟨.hbm, 133, rfl⟩
abbrev main_c_6 : Ref sig .tc := ⟨.hbm, 134, rfl⟩
abbrev main_v104 : Ref sig .tc := ⟨.hbm, 135, rfl⟩
abbrev main_v105 : Ref sig .tc := ⟨.hbm, 136, rfl⟩
abbrev main_c_7 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_8 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_9 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_call4_cst : Ref sig .tc := ⟨.hbm, 178, rfl⟩
abbrev main_call4_v0 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_call5_cst : Ref sig .tc := ⟨.hbm, 189, rfl⟩
abbrev main_call5_v0 : Ref sig .tc := ⟨.hbm, 190, rfl⟩
abbrev main_v153 : Ref sig .tc := ⟨.hbm, 191, rfl⟩
abbrev main_c_10 : Ref sig .tc := ⟨.hbm, 192, rfl⟩
abbrev main_v154 : Ref sig .tc := ⟨.hbm, 193, rfl⟩
abbrev main_v155 : Ref sig .tc := ⟨.hbm, 194, rfl⟩
abbrev main_c_11 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_12 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_cst_13 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_call6_cst : Ref sig .tc := ⟨.hbm, 236, rfl⟩
abbrev main_call6_v0 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_call7_cst : Ref sig .tc := ⟨.hbm, 247, rfl⟩
abbrev main_call7_v0 : Ref sig .tc := ⟨.hbm, 248, rfl⟩
abbrev main_v203 : Ref sig .tc := ⟨.hbm, 249, rfl⟩
abbrev main_c_14 : Ref sig .tc := ⟨.hbm, 250, rfl⟩
abbrev main_v204 : Ref sig .tc := ⟨.hbm, 251, rfl⟩
abbrev main_v205 : Ref sig .tc := ⟨.hbm, 252, rfl⟩
abbrev main_c_15 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_cst_16 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_cst_17 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_call8_cst : Ref sig .tc := ⟨.hbm, 294, rfl⟩
abbrev main_call8_v0 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_call9_cst : Ref sig .tc := ⟨.hbm, 305, rfl⟩
abbrev main_call9_v0 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_call10_cst : Ref sig .tc := ⟨.hbm, 312, rfl⟩
abbrev main_call10_v0 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_call11_cst : Ref sig .tc := ⟨.hbm, 319, rfl⟩
abbrev main_call11_v0 : Ref sig .tc := ⟨.hbm, 320, rfl⟩
abbrev main_call11_cst_0 : Ref sig .tc := ⟨.hbm, 321, rfl⟩
abbrev main_call11_v1 : Ref sig .tc := ⟨.hbm, 322, rfl⟩
abbrev main_call11_v2 : Ref sig .tc := ⟨.hbm, 323, rfl⟩
abbrev main_call11_v3 : Ref sig .tc := ⟨.hbm, 324, rfl⟩
abbrev main_call11_v4 : Ref sig .tc := ⟨.hbm, 325, rfl⟩
abbrev main_call11_v5 : Ref sig .tc := ⟨.hbm, 326, rfl⟩
abbrev main_call11_v6 : Ref sig .tc := ⟨.hbm, 327, rfl⟩
abbrev main_call11_cst_1 : Ref sig .tc := ⟨.hbm, 328, rfl⟩
abbrev main_call11_v7 : Ref sig .tc := ⟨.hbm, 329, rfl⟩
abbrev main_call11_v8 : Ref sig .tc := ⟨.hbm, 330, rfl⟩
abbrev main_call11_v9 : Ref sig .tc := ⟨.hbm, 331, rfl⟩
abbrev main_call11_v10 : Ref sig .tc := ⟨.hbm, 332, rfl⟩
abbrev main_v263 : Ref sig .tc := ⟨.hbm, 333, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.Spec.lean ====
/-
  The mathematics of the certificate, with no program in sight: a five-layer graph-isomorphism network on 100000 nodes
  with 128 features, then a two-layer classifier and a row-wise log-softmax over 10 classes, all over the extended
  reals.  A row of a layer's output depends on one row `u = h + agg` of its input only:
    z_k   = max (((∑_q u_q · W1_{q,k} + b1_k) - μ_k) · s_k + β_k) 0,   s_k = γ_k / √(var_k + ε)
    out_j = max (∑_k z_k · W2_{k,j} + b2_j) 0.
  The kernel applies the batch normalisation folded, `(…) · s_k + (β_k - μ_k · s_k)`; the two agree when `μ_k`, `s_k`,
  `β_k` are real (`bn_fold`), whatever the extended real in front.  The kernel's classifier works on 128 lanes, the
  lanes from 10 on masked to `⊥` before the row maximum and the sum of exponentials; `⊥` is neutral for `max`, and
  `exp (⊥ - m) = 0` is neutral for the sum, so the first 10 lanes carry the 10-class log-softmax (`lsmK_eq_lsmR`).
-/
import Idealize.ShloMosaic.PureOps.Ideal
import Idealize.ShloMosaic.Lib.ValueIdx

noncomputable section

namespace Cert.GinSpec

open Idealize.ShloMosaic Idealize.ShloMosaic.ValueIdx

/-! ## Shapes -/

abbrev SN : Shape := ⟨2, ![100000, 128]⟩
abbrev SW : Shape := ⟨2, ![128, 128]⟩
abbrev SR : Shape := ⟨2, ![1, 128]⟩
abbrev S3 : Shape := ⟨3, ![5, 128, 128]⟩
abbrev S5 : Shape := ⟨2, ![5, 128]⟩
abbrev SV : Shape := ⟨1, ![128]⟩
abbrev SL : Shape := ⟨2, ![128, 10]⟩
abbrev SC : Shape := ⟨1, ![10]⟩
abbrev SO : Shape := ⟨2, ![100000, 10]⟩

/-! ## One row -/

/-- The affine image of a row: `∑_k u_k · W_{k,j} + b_j`. -/
def aff {n : Nat} (u : Fin 128 → EReal) (W : Fin 128 → Fin n → EReal) (b : Fin n → EReal) (j : Fin n) : EReal :=
  (∑ k : Fin 128, u k * W k j) + b j

/-- The hidden row with the normalisation FOLDED into a scale and a shift (the kernel's order). -/
def hidK (u : Fin 128 → EReal) (W1 : Fin 128 → Fin 128 → EReal) (b1 s sh : Fin 128 → EReal) (k : Fin 128) : EReal :=
  max (aff u W1 b1 k * s k + sh k) 0

/-- The hidden row with the normalisation as written: subtract the mean, scale, add the offset. -/
def hidR (u : Fin 128 → EReal) (W1 : Fin 128 → Fin 128 → EReal) (b1 mu s be : Fin 128 → EReal) (k : Fin 128) : EReal :=
  max ((aff u W1 b1 k - mu k) * s k + be k) 0

/-- The second affine map and its rectifier. -/
def outL (z : Fin 128 → EReal) (W2 : Fin 128 → Fin 128 → EReal) (b2 : Fin 128 → EReal) (j : Fin 128) : EReal :=
  max (aff z W2 b2 j) 0

/-- The row maximum as the kernel's lane reduction and the host's reduce take it: a fold of `max` from `⊥`. -/
def rowMax {n : Nat} (f : Fin n → EReal) : EReal := (Finset.univ : Finset (Fin n)).fold max ⊥ f

/-- The kernel's log-softmax of a row of 128 lanes of which the first 10 are classes: the other lanes masked to `⊥`. -/
def lsmK (lg : Fin 128 → EReal) (j : Fin 128) : EReal :=
  let msk : Fin 128 → EReal := fun j => if j.val < 10 then lg j else ⊥
  (msk j - rowMax msk) - Ideal.log (∑ j' : Fin 128, Ideal.exp (msk j' - rowMax msk))

/-- The log-softmax of a row of 10 classes, as jax writes it: the maximum taken once more against `⊥`, the sum from `0`. -/
def lsmR (lg : Fin 10 → EReal) (j : Fin 10) : EReal :=
  (lg j - max ⊥ (rowMax lg)) - Ideal.log (0 + ∑ j' : Fin 10, Ideal.exp (lg j' - max ⊥ (rowMax lg)))

/-! ## Whole arrays -/

/-- What one layer's kernel leaves, as a function of the eight arrays its windows read: node features, aggregated
    neighbour features, the two weight matrices, and the four row vectors (held as `1 × 128` arrays). -/
def mlp (H A : SN.Idx → EReal) (W1 : SW.Idx → EReal) (B1 S SH : SR.Idx → EReal) (W2 : SW.Idx → EReal) (B2 : SR.Idx → EReal) :
    SN.Idx → EReal := fun i =>
  outL (hidK (fun q => H (ix2 (i 0) q) + A (ix2 (i 0) q)) (fun q k => W1 (ix2 q k)) (fun k => B1 (ix2 0 k))
      (fun k => S (ix2 0 k)) (fun k => SH (ix2 0 k)))
    (fun k j => W2 (ix2 k j)) (fun j => B2 (ix2 0 j)) (i 1)

/-- The batch-normalisation scale of layer `l`: `γ / √(var + ε)`. -/
def bnScale (eps : EReal) (a4 a7 : S5.Idx → EReal) (l : Fin 5) (k : Fin 128) : EReal :=
  Ideal.div (a4 (ix2 l k)) (Ideal.sqrt (a7 (ix2 l k) + eps))

/-- Layer `l` of the network as the reference writes it, from the node features `H`, the aggregated features `A` and the
    stacked parameters. -/
def layer (eps : EReal) (l : Fin 5) (H A : SN.Idx → EReal) (a2 : S3.Idx → EReal) (a3 a4 a5 a6 a7 : S5.Idx → EReal)
    (a8 : S3.Idx → EReal) (a9 : S5.Idx → EReal) : SN.Idx → EReal := fun i =>
  outL (hidR (fun q => H (ix2 (i 0) q) + A (ix2 (i 0) q)) (fun q k => a2 (ix3 l q k)) (fun k => a3 (ix2 l k))
      (fun k => a6 (ix2 l k)) (bnScale eps a4 a7 l) (fun k => a5 (ix2 l k)))
    (fun k j => a8 (ix3 l k j)) (fun j => a9 (ix2 l j)) (i 1)

/-- What the classifier kernel leaves in its 128-lane output array, as a function of the five arrays its windows read. -/
def clsArr (H : SN.Idx → EReal) (W : SW.Idx → EReal) (B : SR.Idx → EReal) (P : SW.Idx → EReal) (Bp : SR.Idx → EReal) :
    SN.Idx → EReal := fun i =>
  lsmK (aff (fun k => max (aff (fun q => H (ix2 (i 0) q)) (fun q k => W (ix2 q k)) (fun k => B (ix2 0 k)) k) 0)
      (fun k j => P (ix2 k j)) (fun j => Bp (ix2 0 j))) (i 1)

/-- The classifier and the log-softmax as the reference writes them. -/
def cls (H : SN.Idx → EReal) (a10 : SW.Idx → EReal) (a11 : SV.Idx → EReal) (a12 : SL.Idx → EReal) (a13 : SC.Idx → EReal) :
    SO.Idx → EReal := fun i =>
  lsmR (aff (fun k => max (aff (fun q => H (ix2 (i 0) q)) (fun q k => a10 (ix2 q k)) (fun k => a11 (ix1 k)) k) 0)
      (fun k j => a12 (ix2 k j)) (fun j => a13 (ix1 j))) (i 1)

/-- The whole network: five layers, each from the previous layer's features and their aggregation `agg` over the graph
    (a function carried opaquely: both programs compute it by the same gather and scatter), then the classifier. -/
def net (agg : (SN.Idx → EReal) → (SN.Idx → EReal)) (eps : EReal) (x : SN.Idx → EReal) (a2 : S3.Idx → EReal)
    (a3 a4 a5 a6 a7 : S5.Idx → EReal) (a8 : S3.Idx → EReal) (a9 : S5.Idx → EReal) (a10 : SW.Idx → EReal) (a11 : SV.Idx → EReal)
    (a12 : SL.Idx → EReal) (a13 : SC.Idx → EReal) : SO.Idx → EReal :=
  let L : Fin 5 → (SN.Idx → EReal) → (SN.Idx → EReal) := fun l H => layer eps l H (agg H) a2 a3 a4 a5 a6 a7 a8 a9
  cls (L 4 (L 3 (L 2 (L 1 (L 0 x))))) a10 a11 a12 a13

end Cert.GinSpec

end
-- ==== Proof.KAgg.lean ====
/-
  The kernel's program aggregates over the graph by host operations between its regions: the source indices (wrapped once
  if negative) gather rows of the features, which are scatter-added into a zero array at the destination indices; the two
  index vectors are the rows of the edge list.  `aggK E H` is that aggregate as ONE function of the edge list `E` and the
  features `H`; every layer uses it.  Also: the fourteen argument arrays of a launch memory at their literal types.
-/
import proofs.«114683_j20864951124664_1_alg».proof.Proof.Gen.KernelIdeal.Frame
import proofs.«114683_j20864951124664_1_alg».proof.Proof.Spec

noncomputable section

namespace Cert.KernelIdeal.KValue

open Cert.KernelIdeal Cert.KernelIdeal.Gen Idealize.ShloMosaic Idealize.ShloMosaic.TcCoe Idealize.SL.Sem Idealize.ShloMosaic.StableHlo

/-- ε of the batch normalisation: the value of the f32 word both programs print. -/
abbrev eps : EReal := Ideal.ofBits .f32 0x3727C5AC#32

/-- Row 0 of the edge list: the source node of every edge. -/
def srcOf (E : IVec S2x1600000 32) : IVec S1600000 32 := fun i =>
  shapeCast S1600000 (extractStridedSlice S1x1600000 ![0, 0] E slices_S2x1600000_S1x1600000_0_0) shapeCasts_S1x1600000_S1600000 i
/-- Row 1 of the edge list: the destination node of every edge. -/
def dstOf (E : IVec S2x1600000 32) : IVec S1600000 32 := fun i =>
  shapeCast S1600000 (extractStridedSlice S1x1600000 ![1, 0] E slices_S2x1600000_S1x1600000_1_0) shapeCasts_S1x1600000_S1600000 i

/-- The aggregate from the two index vectors. -/
def aggOf (src dst : IVec S1600000 32) (H : FVec Ideal S100000x128 .f32) : FVec Ideal S100000x128 .f32 :=
  Host.scatterAdd scatter_S100000x128_S1600000x1_S1600000x128_1_0_0_1
    (broadcastInDim S100000x128 ![] bcast_S_S100000x128 (constant S_ .f32 0#32))
    (broadcastInDim S1600000x1 ![0] bcast_S1600000_S1600000x1_0 dst)
    (Host.gather gather_S100000x128_S1600000x1_S1600000x128_1_0_n_n_0_1_1128 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The aggregate from the edge list. -/
def aggK (E : IVec S2x1600000 32) (H : FVec Ideal S100000x128 .f32) : FVec Ideal S100000x128 .f32 := aggOf (srcOf E) (dstOf E) H

variable (m : (ℓ : Loc nD τ sig) → Buf (Elt Ideal) ℓ)

/-! The launch memory's argument arrays on device `c`. -/
abbrev x0 (c : Dev nD) : FVec Ideal S100000x128 .f32 := m ((c : Thread nD τ).loc main_arg0)
abbrev x1 (c : Dev nD) : IVec S2x1600000 32 := m ((c : Thread nD τ).loc main_arg1)
abbrev x2 (c : Dev nD) : FVec Ideal S5x128x128 .f32 := m ((c : Thread nD τ).loc main_arg2)
abbrev x3 (c : Dev nD) : FVec Ideal S5x128 .f32 := m ((c : Thread nD τ).loc main_arg3)
abbrev x4 (c : Dev nD) : FVec Ideal S5x128 .f32 := m ((c : Thread nD τ).loc main_arg4)
abbrev x5 (c : Dev nD) : FVec Ideal S5x128 .f32 := m ((c : Thread nD τ).loc main_arg5)
abbrev x6 (c : Dev nD) : FVec Ideal S5x128 .f32 := m ((c : Thread nD τ).loc main_arg6)
abbrev x7 (c : Dev nD) : FVec Ideal S5x128 .f32 := m ((c : Thread nD τ).loc main_arg7)
abbrev x8 (c : Dev nD) : FVec Ideal S5x128x128 .f32 := m ((c : Thread nD τ).loc main_arg8)
abbrev x9 (c : Dev nD) : FVec Ideal S5x128 .f32 := m ((c : Thread nD τ).loc main_arg9)
abbrev x10 (c : Dev nD) : FVec Ideal S128x128 .f32 := m ((c : Thread nD τ).loc main_arg10)
abbrev x11 (c : Dev nD) : FVec Ideal S128 .f32 := m ((c : Thread nD τ).loc main_arg11)
abbrev x12 (c : Dev nD) : FVec Ideal S128x10 .f32 := m ((c : Thread nD τ).loc main_arg12)
abbrev x13 (c : Dev nD) : FVec Ideal S10 .f32 := m ((c : Thread nD τ).loc main_arg13)

end Cert.KernelIdeal.KValue

end
-- ==== Proof.KPersist.lean ====
/-
  Buffers that outlive the stretch that wrote them.  The stacked parameters, the classifier's parameters, the two edge
  index vectors and the normalisation's scale and shift are written once (at launch, or by the first stretch of host
  operations) and read by stretches and regions much later; no later host operation writes them and no region has them
  as an output array, so at every later boundary of @main's segments they hold what they held after the first stretch.
  Likewise each layer's output array is not touched by the host operations that run before the next region reads it.
-/
import proofs.«114683_j20864951124664_1_alg».proof.Proof.Gen.KernelIdeal.Frame

set_option maxRecDepth 16384

noncomputable section

namespace Cert.KernelIdeal.KPersist

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- One step back through a stretch of host operations: the buffer is the target of none of them, so it is unchanged. -/
local macro "host_step " ops:ident : term =>
  `(StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- The buffers kept from the first stretch on. -/
def kept : List (Ref sig .tc) :=
  [main_arg2, main_arg3, main_arg8, main_arg9, main_arg10, main_arg11, main_arg12, main_arg13, main_v1, main_v3, main_v7, main_v9]

/-- After the first stretch every argument buffer still holds its launch contents. -/
theorem W1_arg (c : Dev nD) : ∀ b ∈ [main_arg0, main_arg1, main_arg2, main_arg3, main_arg4, main_arg5, main_arg6, main_arg7, main_arg8,
      main_arg9, main_arg10, main_arg11, main_arg12, main_arg13],
    W1 (F := Ideal) m ρ c (Proc.devRef .tc b) = m ((c : Thread nD τ).loc b) := by
  intro b hb
  simp only [List.mem_cons, List.mem_singleton, List.not_mem_nil, or_false] at hb
  rcases hb with rfl | rfl | rfl | rfl | rfl | rfl | rfl | rfl | rfl | rfl | rfl | rfl | rfl | rfl <;>
    exact Eq.trans (host_step hostOps0) rfl

theorem keep2 (c : Dev nD) : ∀ b ∈ kept, W2 (F := Ideal) m ρ c (Proc.devRef .tc b) = W1 (F := Ideal) m ρ c (Proc.devRef .tc b) := by
  intro b hb
  simp only [kept, List.mem_cons, List.mem_singleton, List.not_mem_nil, or_false] at hb
  rcases hb with rfl | rfl | rfl | rfl | rfl | rfl | rfl | rfl | rfl | rfl | rfl | rfl <;>
    exact W2_of_ne m ρ c _ (by decide)
theorem keep3 (c : Dev nD) : ∀ b ∈ kept, W3 (F := Ideal) m ρ c (Proc.devRef .tc b) = W1 (F := Ideal) m ρ c (Proc.devRef .tc b) := by
  intro b hb
  refine Eq.trans ?_ (keep2 m ρ c b hb)
  simp only [kept, List.mem_cons, List.mem_singleton, List.not_mem_nil, or_false] at hb
  rcases hb with rfl | rfl | rfl | rfl | rfl | rfl | rfl | rfl | rfl | rfl | rfl | rfl <;>
    exact host_step hostOps1
theorem keep4 (c : Dev nD) : ∀ b ∈ kept, W4 (F := Ideal) m ρ c (Proc.devRef .tc b) = W1 (F := Ideal) m ρ c (Proc.devRef .tc b) := by
  intro b hb
  refine Eq.trans ?_ (keep3 m ρ c b hb)
  simp only [kept, List.mem_cons, List.mem_singleton, List.not_mem_nil, or_false] at hb
  rcases hb with rfl | rfl | rfl | rfl | rfl | rfl | rfl | rfl | rfl | rfl | rfl | rfl <;>
    exact W4_of_ne m ρ c _ (by decide)
theorem keep5 (c : Dev nD) : ∀ b ∈ kept, W5 (F := Ideal) m ρ c (Proc.devRef .tc b) = W1 (F := Ideal) m ρ c (Proc.devRef .tc b) := by
  intro b hb
  refine Eq.trans ?_ (keep4 m ρ c b hb)
  simp only [kept, List.mem_cons, List.mem_singleton, List.not_mem_nil, or_false] at hb
  rcases hb with rfl | rfl | rfl | rfl | rfl | rfl | rfl | rfl | rfl | rfl | rfl | rfl <;>
    exact host_step hostOps2
theorem keep6 (c : Dev nD) : ∀ b ∈ kept, W6 (F := Ideal) m ρ c (Proc.devRef .tc b) = W1 (F := Ideal) m ρ c (Proc.devRef .tc b) := by
  intro b hb
  refine Eq.trans ?_ (keep5 m ρ c b hb)
  simp only [kept, List.mem_cons, List.mem_singleton, List.not_mem_nil, or_false] at hb
  rcases hb with rfl | rfl | rfl | rfl | rfl | rfl | rfl | rfl | rfl | rfl | rfl | rfl <;>
    exact W6_of_ne m ρ c _ (by decide)
theorem keep7 (c : Dev nD) : ∀ b ∈ kept, W7 (F := Ideal) m ρ c (Proc.devRef .tc b) = W1 (F := Ideal) m ρ c (Proc.devRef .tc b) := by
  intro b hb
  refine Eq.trans ?_ (keep6 m ρ c b hb)
  simp only [kept, List.mem_cons, List.mem_singleton, List.not_mem_nil, or_false] at hb
  rcases hb with rfl | rfl | rfl | rfl | rfl | rfl | rfl | rfl | rfl | rfl | rfl | rfl <;>
    exact host_step hostOps3
theorem keep8 (c : Dev nD) : ∀ b ∈ kept, W8 (F := Ideal) m ρ c (Proc.devRef .tc b) = W1 (F := Ideal) m ρ c (Proc.devRef .tc b) := by
  intro b hb
  refine Eq.trans ?_ (keep7 m ρ c b hb)
  simp only [kept, List.mem_cons, List.mem_singleton, List.not_mem_nil, or_false] at hb
  rcases hb with rfl | rfl | rfl | rfl | rfl | rfl | rfl | rfl | rfl | rfl | rfl | rfl <;>
    exact W8_of_ne m ρ c _ (by decide)
theorem keep9 (c : Dev nD) : ∀ b ∈ kept, W9 (F := Ideal) m ρ c (Proc.devRef .tc b) = W1 (F := Ideal) m ρ c (Proc.devRef .tc b) := by
  intro b hb
  refine Eq.trans ?_ (keep8 m ρ c b hb)
  simp only [kept, List.mem_cons, List.mem_singleton, List.not_mem_nil, or_false] at hb
  rcases hb with rfl | rfl | rfl | rfl | rfl | rfl | rfl | rfl | rfl | rfl | rfl | rfl <;>
    exact host_step hostOps4
theorem keep10 (c : Dev nD) : ∀ b ∈ kept, W10 (F := Ideal) m ρ c (Proc.devRef .tc b) = W1 (F := Ideal) m ρ c (Proc.devRef .tc b) := by
  intro b hb
  refine Eq.trans ?_ (keep9 m ρ c b hb)
  simp only [kept, List.mem_cons, List.mem_singleton, List.not_mem_nil, or_false] at hb
  rcases hb with rfl | rfl | rfl | rfl | rfl | rfl | rfl | rfl | rfl | rfl | rfl | rfl <;>
    exact W10_of_ne m ρ c _ (by decide)
theorem keep11 (c : Dev nD) : ∀ b ∈ kept, W11 (F := Ideal) m ρ c (Proc.devRef .tc b) = W1 (F := Ideal) m ρ c (Proc.devRef .tc b) := by
  intro b hb
  refine Eq.trans ?_ (keep10 m ρ c b hb)
  simp only [kept, List.mem_cons, List.mem_singleton, List.not_mem_nil, or_false] at hb
  rcases hb with rfl | rfl | rfl | rfl | rfl | rfl | rfl | rfl | rfl | rfl | rfl | rfl <;>
    exact host_step hostOps5
theorem keep12 (c : Dev nD) : ∀ b ∈ kept, W12 (F := Ideal) m ρ c (Proc.devRef .tc b) = W1 (F := Ideal) m ρ c (Proc.devRef .tc b) := by
  intro b hb
  refine Eq.trans ?_ (keep11 m ρ c b hb)
  simp only [kept, List.mem_cons, List.mem_singleton, List.not_mem_nil, or_false] at hb
  rcases hb with rfl | rfl | rfl | rfl | rfl | rfl | rfl | rfl | rfl | rfl | rfl | rfl <;>
    exact host_step hostOps5_1
theorem keep13 (c : Dev nD) : ∀ b ∈ kept, W13 (F := Ideal) m ρ c (Proc.devRef .tc b) = W1 (F := Ideal) m ρ c (Proc.devRef .tc b) := by
  intro b hb
  refine Eq.trans ?_ (keep12 m ρ c b hb)
  simp only [kept, List.mem_cons, List.mem_singleton, List.not_mem_nil, or_false] at hb
  rcases hb with rfl | rfl | rfl | rfl | rfl | rfl | rfl | rfl | rfl | rfl | rfl | rfl <;>
    exact host_step hostOps5_2
theorem keep14 (c : Dev nD) : ∀ b ∈ kept, W14 (F := Ideal) m ρ c (Proc.devRef .tc b) = W1 (F := Ideal) m ρ c (Proc.devRef .tc b) := by
  intro b hb
  refine Eq.trans ?_ (keep13 m ρ c b hb)
  simp only [kept, List.mem_cons, List.mem_singleton, List.not_mem_nil, or_false] at hb
  rcases hb with rfl | rfl | rfl | rfl | rfl | rfl | rfl | rfl | rfl | rfl | rfl | rfl <;>
    exact host_step hostOps5_3
theorem keep15 (c : Dev nD) : ∀ b ∈ kept, W15 (F := Ideal) m ρ c (Proc.devRef .tc b) = W1 (F := Ideal) m ρ c (Proc.devRef .tc b) := by
  intro b hb
  refine Eq.trans ?_ (keep14 m ρ c b hb)
  simp only [kept, List.mem_cons, List.mem_singleton, List.not_mem_nil, or_false] at hb
  rcases hb with rfl | rfl | rfl | rfl | rfl | rfl | rfl | rfl | rfl | rfl | rfl | rfl <;>
    exact host_step hostOps5_4

/-- A layer's output array is as the region left it when the next region (and the gather before it) reads it. -/
theorem h1_kept (c : Dev nD) : W3 (F := Ideal) m ρ c (Proc.devRef .tc main_v36) = W2 (F := Ideal) m ρ c (Proc.devRef .tc main_v36) := by
  exact host_step hostOps1
theorem h2_kept (c : Dev nD) : W5 (F := Ideal) m ρ c (Proc.devRef .tc main_v63) = W4 (F := Ideal) m ρ c (Proc.devRef .tc main_v63) := by
  exact host_step hostOps2
theorem h3_kept (c : Dev nD) : W7 (F := Ideal) m ρ c (Proc.devRef .tc main_v90) = W6 (F := Ideal) m ρ c (Proc.devRef .tc main_v90) := by
  exact host_step hostOps3
theorem h4_kept (c : Dev nD) : W9 (F := Ideal) m ρ c (Proc.devRef .tc main_v117) = W8 (F := Ideal) m ρ c (Proc.devRef .tc main_v117) := by
  exact host_step hostOps4
theorem h5_kept (c : Dev nD) : W15 (F := Ideal) m ρ c (Proc.devRef .tc main_v144) = W10 (F := Ideal) m ρ c (Proc.devRef .tc main_v144) := by
  calc W15 m ρ c (Proc.devRef .tc main_v144)
    _ = W14 m ρ c (Proc.devRef .tc main_v144) := host_step hostOps5_4
    _ = W13 m ρ c (Proc.devRef .tc main_v144) := host_step hostOps5_3
    _ = W12 m ρ c (Proc.devRef .tc main_v144) := host_step hostOps5_2
    _ = W11 m ρ c (Proc.devRef .tc main_v144) := host_step hostOps5_1
    _ = W10 m ρ c (Proc.devRef .tc main_v144) := host_step hostOps5
/-- The padded classifier weight, written by the second stretch of the tail, is kept to the classifier region's entry. -/
theorem pad_kept (c : Dev nD) : W15 (F := Ideal) m ρ c (Proc.devRef .tc main_v145) = W12 (F := Ideal) m ρ c (Proc.devRef .tc main_v145) := by
  calc W15 m ρ c (Proc.devRef .tc main_v145)
    _ = W14 m ρ c (Proc.devRef .tc main_v145) := host_step hostOps5_4
    _ = W13 m ρ c (Proc.devRef .tc main_v145) := host_step hostOps5_3
    _ = W12 m ρ c (Proc.devRef .tc main_v145) := host_step hostOps5_2

end Cert.KernelIdeal.KPersist

end
-- ==== Proof.KIdx.lean ====
/-
  The layout operations of the kernel's host program read at an index, over variables: a slice of a stacked parameter
  array reshaped to the shape a window wants holds, at an index, the stacked array's entry at that slice; the
  normalisation's scale and shift arrays hold `γ / √(var + ε)` and `β - μ · γ / √(var + ε)` entry by entry; a vector reshaped to
  a `1 × 128` row holds its entries; zero-padding a `128 × 10` matrix (a 10-vector) to 128 lanes keeps the first 10 lanes;
  the first 10 lanes of a `100000 × 128` array sliced out.
-/
import proofs.«114683_j20864951124664_1_alg».proof.Proof.Gen.KernelIdeal.Frame
import proofs.«114683_j20864951124664_1_alg».proof.Proof.Spec
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.KIdx

open Cert.KernelIdeal Cert.KernelIdeal.Gen Idealize.ShloMosaic Idealize.ShloMosaic.ValueIdx

/-- ε of the batch normalisation: the value of the f32 word both programs print. -/
abbrev eps : EReal := Ideal.ofBits .f32 0x3727C5AC#32

/-- Slice `l` of a stacked `5 × 128 × 128` array (the cut starts at `o = l` on the stacking axis), reshaped to a matrix,
    read at `(q, k)`: dropping the unit axis keeps `(q, k)`, and the cut moves the stacking coordinate from `0` to `l`. -/
theorem sliceW_apply (o : Nat) (l : Fin 5) (hl : l.val = o) (a : FVec Ideal S5x128x128 .f32)
    (h : S5x128x128.Slices ![o, 0, 0] S1x128x128) (q k : Fin 128) :
    shapeCast S128x128 (extractStridedSlice S1x128x128 ![o, 0, 0] a h) shapeCasts_S1x128x128_S128x128 (ix2 q k)
      = a (ix3 l q k) := by
  refine (shapeCast_1ab_ab_apply _ shapeCasts_S1x128x128_S128x128 q k).trans ?_
  exact extractStridedSlice_apply _ a h _ (ix3 l q k) (fun ax => by
    match ax with
    | ⟨0, _⟩ => exact hl.trans (Nat.add_zero o).symm
    | ⟨1, _⟩ => exact (Nat.zero_add _).symm
    | ⟨2, _⟩ => exact (Nat.zero_add _).symm)

/-- Row `l` of a stacked `5 × 128` array (the cut starts at `o = l`), reshaped to a vector and back to a `1 × 128` row,
    read at lane `k`: the two reshapes keep the lane, and the cut moves the row coordinate from `0` to `l`. -/
theorem sliceRow_apply (o : Nat) (l : Fin 5) (hl : l.val = o) (a : FVec Ideal S5x128 .f32)
    (h : S5x128.Slices ![o, 0] S1x128) (k : Fin 128) :
    shapeCast S1x128 (fun i => shapeCast S128 (extractStridedSlice S1x128 ![o, 0] a h) shapeCasts_S1x128_S128 i)
        shapeCasts_S128_S1x128 (ix2 0 k)
      = a (ix2 l k) := by
  refine (shapeCast_a_1a_apply _ shapeCasts_S128_S1x128 0 k).trans ?_
  refine (shapeCast_1a_a_apply _ shapeCasts_S1x128_S128 k).trans ?_
  exact slice2_axis0_apply o a h 0 k l (hl.trans (Nat.add_zero o).symm)

/-- Slice 0 of a stacked `5 × 128 × 128` array, reshaped to a matrix, read at `(q, k)`. -/
theorem sliceW0_apply (a : FVec Ideal S5x128x128 .f32) (q k : Fin 128) :
    shapeCast S128x128 (extractStridedSlice S1x128x128 ![0, 0, 0] a slices_S5x128x128_S1x128x128_0_0_0) shapeCasts_S1x128x128_S128x128 (ix2 q k)
      = a (ix3 0 q k) :=
  sliceW_apply 0 0 rfl a _ q k
/-- Row 0 of a stacked `5 × 128` array, reshaped to a vector and back to a `1 × 128` row, read at lane `k`. -/
theorem sliceRow0_apply (a : FVec Ideal S5x128 .f32) (k : Fin 128) :
    shapeCast S1x128 (fun i => shapeCast S128 (extractStridedSlice S1x128 ![0, 0] a slices_S5x128_S1x128_0_0) shapeCasts_S1x128_S128 i)
        shapeCasts_S128_S1x128 (ix2 0 k)
      = a (ix2 0 k) :=
  sliceRow_apply 0 0 rfl a _ k

/-- Slice 1 of a stacked `5 × 128 × 128` array, reshaped to a matrix, read at `(q, k)`. -/
theorem sliceW1_apply (a : FVec Ideal S5x128x128 .f32) (q k : Fin 128) :
    shapeCast S128x128 (extractStridedSlice S1x128x128 ![1, 0, 0] a slices_S5x128x128_S1x128x128_1_0_0) shapeCasts_S1x128x128_S128x128 (ix2 q k)
      = a (ix3 1 q k) :=
  sliceW_apply 1 1 rfl a _ q k
/-- Row 1 of a stacked `5 × 128` array, reshaped to a vector and back to a `1 × 128` row, read at lane `k`. -/
theorem sliceRow1_apply (a : FVec Ideal S5x128 .f32) (k : Fin 128) :
    shapeCast S1x128 (fun i => shapeCast S128 (extractStridedSlice S1x128 ![1, 0] a slices_S5x128_S1x128_1_0) shapeCasts_S1x128_S128 i)
        shapeCasts_S128_S1x128 (ix2 0 k)
      = a (ix2 1 k) :=
  sliceRow_apply 1 1 rfl a _ k

/-- Slice 2 of a stacked `5 × 128 × 128` array, reshaped to a matrix, read at `(q, k)`. -/
theorem sliceW2_apply (a : FVec Ideal S5x128x128 .f32) (q k : Fin 128) :
    shapeCast S128x128 (extractStridedSlice S1x128x128 ![2, 0, 0] a slices_S5x128x128_S1x128x128_2_0_0) shapeCasts_S1x128x128_S128x128 (ix2 q k)
      = a (ix3 2 q k) :=
  sliceW_apply 2 2 rfl a _ q k
/-- Row 2 of a stacked `5 × 128` array, reshaped to a vector and back to a `1 × 128` row, read at lane `k`. -/
theorem sliceRow2_apply (a : FVec Ideal S5x128 .f32) (k : Fin 128) :
    shapeCast S1x128 (fun i => shapeCast S128 (extractStridedSlice S1x128 ![2, 0] a slices_S5x128_S1x128_2_0) shapeCasts_S1x128_S128 i)
        shapeCasts_S128_S1x128 (ix2 0 k)
      = a (ix2 2 k) :=
  sliceRow_apply 2 2 rfl a _ k

/-- Slice 3 of a stacked `5 × 128 × 128` array, reshaped to a matrix, read at `(q, k)`. -/
theorem sliceW3_apply (a : FVec Ideal S5x128x128 .f32) (q k : Fin 128) :
    shapeCast S128x128 (extractStridedSlice S1x128x128 ![3, 0, 0] a slices_S5x128x128_S1x128x128_3_0_0) shapeCasts_S1x128x128_S128x128 (ix2 q k)
      = a (ix3 3 q k) :=
  sliceW_apply 3 3 rfl a _ q k
/-- Row 3 of a stacked `5 × 128` array, reshaped to a vector and back to a `1 × 128` row, read at lane `k`. -/
theorem sliceRow3_apply (a : FVec Ideal S5x128 .f32) (k : Fin 128) :
    shapeCast S1x128 (fun i => shapeCast S128 (extractStridedSlice S1x128 ![3, 0] a slices_S5x128_S1x128_3_0) shapeCasts_S1x128_S128 i)
        shapeCasts_S128_S1x128 (ix2 0 k)
      = a (ix2 3 k) :=
  sliceRow_apply 3 3 rfl a _ k

/-- Slice 4 of a stacked `5 × 128 × 128` array, reshaped to a matrix, read at `(q, k)`. -/
theorem sliceW4_apply (a : FVec Ideal S5x128x128 .f32) (q k : Fin 128) :
    shapeCast S128x128 (extractStridedSlice S1x128x128 ![4, 0, 0] a slices_S5x128x128_S1x128x128_4_0_0) shapeCasts_S1x128x128_S128x128 (ix2 q k)
      = a (ix3 4 q k) :=
  sliceW_apply 4 4 rfl a _ q k
/-- Row 4 of a stacked `5 × 128` array, reshaped to a vector and back to a `1 × 128` row, read at lane `k`. -/
theorem sliceRow4_apply (a : FVec Ideal S5x128 .f32) (k : Fin 128) :
    shapeCast S1x128 (fun i => shapeCast S128 (extractStridedSlice S1x128 ![4, 0] a slices_S5x128_S1x128_4_0) shapeCasts_S1x128_S128 i)
        shapeCasts_S128_S1x128 (ix2 0 k)
      = a (ix2 4 k) :=
  sliceRow_apply 4 4 rfl a _ k

/-- The host's scale array `γ / √(var + ε)` at `(l, k)`. -/
theorem scale_apply (a4 a7 : FVec Ideal S5x128 .f32) (l : Fin 5) (k : Fin 128) :
    Host.divf a4 (Host.sqrt (addf a7 (broadcastInDim S5x128 ![] bcast_S_S5x128 (constant S_ .f32 925353388#32)))) (ix2 l k)
      = Cert.GinSpec.bnScale eps a4 a7 l k := by
  unfold Cert.GinSpec.bnScale
  rfl
/-- The host's shift array `β - μ · scale` at `(l, k)`. -/
theorem shift_apply (a4 a5 a6 a7 : FVec Ideal S5x128 .f32) (l : Fin 5) (k : Fin 128) :
    subf a5 (mulf a6 (Host.divf a4 (Host.sqrt (addf a7 (broadcastInDim S5x128 ![] bcast_S_S5x128 (constant S_ .f32 925353388#32)))))) (ix2 l k)
      = a5 (ix2 l k) - a6 (ix2 l k) * Cert.GinSpec.bnScale eps a4 a7 l k := by
  unfold Cert.GinSpec.bnScale
  rfl

/-- A 128-vector reshaped to a `1 × 128` row, read at lane `k`. -/
theorem row_apply (a : FVec Ideal S128 .f32) (k : Fin 128) : shapeCast S1x128 a shapeCasts_S128_S1x128 (ix2 0 k) = a (ix1 k) :=
  shapeCast_a_1a_apply a shapeCasts_S128_S1x128 0 k
/-- A `128 × 10` matrix zero-padded to 128 lanes keeps its first 10 lanes. -/
theorem padW_apply (a : FVec Ideal S128x10 .f32) (v : FVec Ideal S_ .f32) (k : Fin 128) (j : Fin 10) :
    pad S128x128 ![0, 0] ![0, 118] ![0, 0] a v pads_S128x10_S128x128_000_01180 h_S_ (ix2 k ⟨j.val, by have := j.isLt; omega⟩) = a (ix2 k j) :=
  pad_apply_of_inside _ _ _ a v pads_S128x10_S128x128_000_01180 h_S_ _ (ix2 k j) (fun ax => by
    match ax with
    | ⟨0, _⟩ => show k.val = 0 + k.val * (0 + 1); omega
    | ⟨1, _⟩ => show j.val = 0 + j.val * (0 + 1); omega)
/-- A 10-vector zero-padded to 128 lanes keeps its first 10 lanes. -/
theorem padB_apply (a : FVec Ideal S10 .f32) (v : FVec Ideal S_ .f32) (j : Fin 10) :
    pad S128 ![0] ![118] ![0] a v pads_S10_S128_01180 h_S_ (ix1 ⟨j.val, by have := j.isLt; omega⟩) = a (ix1 j) :=
  pad_apply_of_inside _ _ _ a v pads_S10_S128_01180 h_S_ _ (ix1 j) (fun ax => by
    match ax with
    | ⟨0, _⟩ => show j.val = 0 + j.val * (0 + 1); omega)
/-- The first 10 lanes sliced out of a `100000 × 128` array. -/
theorem slice10_apply (a : FVec Ideal S100000x128 .f32) (r : Fin 100000) (j : Fin 10) :
    extractStridedSlice S100000x10 ![0, 0] a slices_S100000x128_S100000x10_0_0 (ix2 r j) = a (ix2 r ⟨j.val, by have := j.isLt; omega⟩) :=
  slice2_axis1_apply 0 a slices_S100000x128_S100000x10_0_0 r j _ (Nat.zero_add _).symm

end Cert.KernelIdeal.KIdx

end
-- ==== Proof.SpecLaws.lean ====
/-
  The two algebraic laws that join the kernel's arrangement to the reference's, over the extended reals.
  (1) Folding a batch normalisation into one scale and one shift: `z · s + (β - μ · s) = (z - μ) · s + β` for real
      `μ, s, β` and ANY extended real `z` (at `z = ±∞` both sides are the infinity of the sign of `±s`, or `β` when `s = 0`).
  (2) A log-softmax over 128 lanes whose lanes from 10 on are masked to `⊥` is, on its first 10 lanes, the log-softmax over
      those 10: `⊥` is neutral for the maximum, `⊥ - m = ⊥` for every `m`, and `exp ⊥ = 0` is neutral for the sum.
-/
import proofs.«114683_j20864951124664_1_alg».proof.Proof.Spec
import Mathlib.Data.EReal.Operations
import Mathlib.Data.Finset.Fold
import Mathlib.Algebra.BigOperators.Fin
import Mathlib.Tactic.Ring

noncomputable section

namespace Cert.GinSpec

open Idealize.ShloMosaic

/-- Folding the normalisation is sound when the mean, the scale and the offset are real, whatever extended real
    is normalised: `z · s + (β - μ · s) = (z - μ) · s + β`. -/
theorem bn_fold (z : EReal) (mu s be : ℝ) :
    z * (s : EReal) + ((be : EReal) - (mu : EReal) * (s : EReal)) = (z - (mu : EReal)) * (s : EReal) + (be : EReal) := by
  induction z using EReal.rec with
  | bot =>
    -- `⊥ - μ = ⊥`; then `⊥ · s` is `⊤`, `0` or `⊥` by the sign of `s`, and a real summand does not move it.
    rw [EReal.bot_sub]
    rcases lt_trichotomy s 0 with hs | hs | hs
    · rw [EReal.bot_mul_coe_of_neg hs, ← EReal.coe_mul, ← EReal.coe_sub, EReal.top_add_coe, EReal.top_add_coe]
    · subst hs
      simp
    · rw [EReal.bot_mul_coe_of_pos hs, EReal.bot_add, EReal.bot_add]
  | coe r =>
    -- All four numbers real: the identity of the field.
    rw [← EReal.coe_mul, ← EReal.coe_mul, ← EReal.coe_sub, ← EReal.coe_add, ← EReal.coe_sub, ← EReal.coe_mul,
      ← EReal.coe_add]
    congr 1
    ring
  | top =>
    -- `⊤ - μ = ⊤`; then `⊤ · s` is `⊥`, `0` or `⊤` by the sign of `s`.
    rw [EReal.top_sub_coe]
    rcases lt_trichotomy s 0 with hs | hs | hs
    · rw [EReal.top_mul_coe_of_neg hs, EReal.bot_add, EReal.bot_add]
    · subst hs
      simp
    · rw [EReal.top_mul_coe_of_pos hs, ← EReal.coe_mul, ← EReal.coe_sub, EReal.top_add_coe, EReal.top_add_coe]

theorem hidK_eq_hidR (u : Fin 128 → EReal) (W1 : Fin 128 → Fin 128 → EReal) (b1 mu s be : Fin 128 → EReal)
    (hmu : ∀ k, ∃ r : ℝ, mu k = r) (hs : ∀ k, ∃ r : ℝ, s k = r) (hbe : ∀ k, ∃ r : ℝ, be k = r) :
    hidK u W1 b1 s (fun k => be k - mu k * s k) = hidR u W1 b1 mu s be := by
  funext k
  obtain ⟨a, ha⟩ := hmu k
  obtain ⟨b, hb⟩ := hs k
  obtain ⟨c, hc⟩ := hbe k
  simp only [hidK, hidR, ha, hb, hc]
  rw [bn_fold]

/-- Masking the lanes from 10 on to `⊥` leaves the row maximum of the first 10 lanes: `⊥` is the fold's start and
    is below everything. -/
theorem rowMax_mask (lg : Fin 128 → EReal) (lg' : Fin 10 → EReal)
    (h : ∀ j : Fin 10, lg ⟨j.val, by have := j.isLt; omega⟩ = lg' j) :
    rowMax (fun j : Fin 128 => if j.val < 10 then lg j else ⊥) = rowMax lg' := by
  unfold rowMax
  apply le_antisymm
  · rw [Finset.fold_max_le]
    refine ⟨bot_le, fun x _ => ?_⟩
    by_cases hx : x.val < 10
    · rw [if_pos hx, Finset.le_fold_max]
      right
      exact ⟨⟨x.val, hx⟩, Finset.mem_univ _, (h ⟨x.val, hx⟩).le⟩
    · rw [if_neg hx]
      exact bot_le
  · rw [Finset.fold_max_le]
    refine ⟨bot_le, fun x _ => ?_⟩
    rw [Finset.le_fold_max]
    right
    refine ⟨⟨x.val, by have := x.isLt; omega⟩, Finset.mem_univ _, ?_⟩
    rw [if_pos x.isLt]
    exact (h x).ge

/-- A sum over 128 lanes whose terms from lane 10 on vanish is the sum over the first 10 lanes. -/
theorem sum_mask (F : Fin 128 → EReal) (hF : ∀ j : Fin 128, ¬ j.val < 10 → F j = 0) :
    ∑ j : Fin 128, F j = ∑ j : Fin 10, F ⟨j.val, by have := j.isLt; omega⟩ := by
  have hsplit := Fin.sum_univ_add (a := 10) (b := 118) F
  rw [hsplit]
  have hz : ∑ i : Fin 118, F (Fin.natAdd 10 i) = 0 := by
    apply Finset.sum_eq_zero
    intro i _
    apply hF
    simp [Fin.natAdd]
  rw [hz, add_zero]
  rfl

/-- The first 10 lanes of the masked 128-lane log-softmax are the 10-class log-softmax. -/
theorem lsmK_eq_lsmR (lg : Fin 128 → EReal) (lg' : Fin 10 → EReal)
    (h : ∀ j : Fin 10, lg ⟨j.val, by have := j.isLt; omega⟩ = lg' j) (j : Fin 10) :
    lsmK lg ⟨j.val, by have := j.isLt; omega⟩ = lsmR lg' j := by
  simp only [lsmK, lsmR]
  rw [rowMax_mask lg lg' h, max_bot_left, zero_add]
  -- Lane `j` is a class lane, so its mask is the logit itself.
  rw [if_pos j.isLt, h j]
  -- The masked lanes contribute `exp (⊥ - m) = exp ⊥ = 0` to the sum.
  rw [sum_mask _ (fun x hx => by rw [if_neg hx, EReal.bot_sub]; rfl)]
  congr 2
  apply Finset.sum_congr rfl
  intro x _
  dsimp only
  rw [if_pos x.isLt, h x]

end Cert.GinSpec

end
-- ==== Proof.BnReal.lean ====
/-
  The batch-normalisation scale `γ / √(var + ε)` is a real number wherever `γ` is real and `var + ε` is positive: a positive
  real has a positive real square root, by which a real is divided to a real; and should `var + ε` be `+∞` the quotient is `0`.
-/
import proofs.«114683_j20864951124664_1_alg».proof.Proof.Spec
import Mathlib.Data.EReal.Inv
import Mathlib.Analysis.Real.Sqrt

noncomputable section

namespace Cert.GinSpec

open Idealize.ShloMosaic Idealize.ShloMosaic.ValueIdx

theorem bnScale_real (eps : EReal) (a4 a7 : S5.Idx → EReal) (h4 : ∀ i, ∃ r : ℝ, a4 i = (r : EReal))
    (hpos : ∀ i, (0 : EReal) < a7 i + eps) (l : Fin 5) (k : Fin 128) : ∃ r : ℝ, bnScale eps a4 a7 l k = (r : EReal) := by
  obtain ⟨g, hg⟩ := h4 (ix2 l k)
  have hp := hpos (ix2 l k)
  unfold bnScale
  rw [hg]
  generalize a7 (ix2 l k) + eps = v at hp
  induction v using EReal.rec with
  | bot =>
    -- `0 < ⊥` is absurd.
    exact absurd hp not_lt_bot
  | coe r =>
    -- A positive real has a positive real root; a real times the inverse of a nonzero real is real.
    have hr : 0 < r := EReal.coe_pos.1 hp
    have hs : 0 < Real.sqrt r := Real.sqrt_pos.2 hr
    have hsq : Ideal.sqrt (r : EReal) = (Real.sqrt r : EReal) := by
      show (if r < 0 then (⊥ : EReal) else (Real.sqrt r : EReal)) = _
      rw [if_neg (not_lt.2 hr.le)]
    refine ⟨g * (Real.sqrt r)⁻¹, ?_⟩
    rw [hsq]
    unfold Ideal.div
    rw [if_neg (EReal.coe_ne_zero.2 hs.ne'), ← EReal.coe_inv, ← EReal.coe_mul]
  | top =>
    -- `√⊤ = ⊤` and `⊤⁻¹ = 0`: the quotient is `0`.
    have hsq : Ideal.sqrt (⊤ : EReal) = ⊤ := rfl
    refine ⟨0, ?_⟩
    rw [hsq]
    unfold Ideal.div
    rw [if_neg EReal.top_ne_zero, EReal.inv_top, mul_zero, EReal.coe_zero]

end Cert.GinSpec

end
-- ==== Proof.MlpLayer.lean ====
/-
  From the kernel's arrangement to the reference's, array by array.  A layer's kernel reads its parameters through six
  window arrays; when those hold, index by index, slice `l` of the stacked parameters — the scale window `γ / √(var + ε)` and
  the shift window `β - μ · scale` — the kernel's `mlp` is the reference's `layer l`, by folding the normalisation
  (`hidK_eq_hidR`: the mean, the scale and the offset are real).  The classifier's 128-lane output, read on its first 10
  lanes, is the reference's 10-class classifier when the padded second weight and bias agree with the unpadded ones on
  those lanes (`lsmK_eq_lsmR`).
-/
import proofs.«114683_j20864951124664_1_alg».proof.Proof.Spec
import proofs.«114683_j20864951124664_1_alg».proof.Proof.SpecLaws
import proofs.«114683_j20864951124664_1_alg».proof.Proof.BnReal

noncomputable section

namespace Cert.GinSpec

open Idealize.ShloMosaic Idealize.ShloMosaic.ValueIdx

theorem mlp_eq_layer (eps : EReal) (l : Fin 5) (H A : SN.Idx → EReal) (W1a : SW.Idx → EReal) (B1a Sa SHa : SR.Idx → EReal)
    (W2a : SW.Idx → EReal) (B2a : SR.Idx → EReal) (a2 : S3.Idx → EReal) (a3 a4 a5 a6 a7 : S5.Idx → EReal) (a8 : S3.Idx → EReal)
    (a9 : S5.Idx → EReal)
    (hW1 : ∀ q k : Fin 128, W1a (ix2 q k) = a2 (ix3 l q k)) (hB1 : ∀ k : Fin 128, B1a (ix2 0 k) = a3 (ix2 l k))
    (hS : ∀ k : Fin 128, Sa (ix2 0 k) = bnScale eps a4 a7 l k)
    (hSH : ∀ k : Fin 128, SHa (ix2 0 k) = a5 (ix2 l k) - a6 (ix2 l k) * bnScale eps a4 a7 l k)
    (hW2 : ∀ k j : Fin 128, W2a (ix2 k j) = a8 (ix3 l k j)) (hB2 : ∀ j : Fin 128, B2a (ix2 0 j) = a9 (ix2 l j))
    (h4 : ∀ i, ∃ r : ℝ, a4 i = (r : EReal)) (h5 : ∀ i, ∃ r : ℝ, a5 i = (r : EReal)) (h6 : ∀ i, ∃ r : ℝ, a6 i = (r : EReal))
    (hpos : ∀ i, (0 : EReal) < a7 i + eps) :
    mlp H A W1a B1a Sa SHa W2a B2a = layer eps l H A a2 a3 a4 a5 a6 a7 a8 a9 := by
  funext i
  have hs : (fun k => Sa (ix2 0 k)) = bnScale eps a4 a7 l := funext hS
  have hsh : (fun k => SHa (ix2 0 k)) = fun k => a5 (ix2 l k) - a6 (ix2 l k) * bnScale eps a4 a7 l k := funext hSH
  have hw1 : (fun q k => W1a (ix2 q k)) = fun q k => a2 (ix3 l q k) := funext fun q => funext fun k => hW1 q k
  have hb1 : (fun k => B1a (ix2 0 k)) = fun k => a3 (ix2 l k) := funext hB1
  have hw2 : (fun k j => W2a (ix2 k j)) = fun k j => a8 (ix3 l k j) := funext fun k => funext fun j => hW2 k j
  have hb2 : (fun j => B2a (ix2 0 j)) = fun j => a9 (ix2 l j) := funext hB2
  -- The mean, the scale and the offset of slice `l` are real, so the folded normalisation is the written one.
  have key := hidK_eq_hidR (fun q => H (ix2 (i 0) q) + A (ix2 (i 0) q)) (fun q k => a2 (ix3 l q k)) (fun k => a3 (ix2 l k))
    (fun k => a6 (ix2 l k)) (bnScale eps a4 a7 l) (fun k => a5 (ix2 l k))
    (fun k => h6 (ix2 l k)) (bnScale_real eps a4 a7 h4 hpos l) (fun k => h5 (ix2 l k))
  show outL (hidK (fun q => H (ix2 (i 0) q) + A (ix2 (i 0) q)) (fun q k => W1a (ix2 q k)) (fun k => B1a (ix2 0 k))
      (fun k => Sa (ix2 0 k)) (fun k => SHa (ix2 0 k))) (fun k j => W2a (ix2 k j)) (fun j => B2a (ix2 0 j)) (i 1)
    = outL (hidR (fun q => H (ix2 (i 0) q) + A (ix2 (i 0) q)) (fun q k => a2 (ix3 l q k)) (fun k => a3 (ix2 l k))
      (fun k => a6 (ix2 l k)) (bnScale eps a4 a7 l) (fun k => a5 (ix2 l k)))
      (fun k j => a8 (ix3 l k j)) (fun j => a9 (ix2 l j)) (i 1)
  rw [hs, hsh, hw1, hb1, hw2, hb2]
  exact congrArg (fun z => outL z (fun k j => a8 (ix3 l k j)) (fun j => a9 (ix2 l j)) (i 1)) key

theorem clsArr_eq_cls (H : SN.Idx → EReal) (Wa : SW.Idx → EReal) (Ba : SR.Idx → EReal) (P : SW.Idx → EReal) (Bp : SR.Idx → EReal)
    (a10 : SW.Idx → EReal) (a11 : SV.Idx → EReal) (a12 : SL.Idx → EReal) (a13 : SC.Idx → EReal)
    (hW : ∀ q k : Fin 128, Wa (ix2 q k) = a10 (ix2 q k)) (hB : ∀ k : Fin 128, Ba (ix2 0 k) = a11 (ix1 k))
    (hP : ∀ (k : Fin 128) (j : Fin 10), P (ix2 k ⟨j.val, by have := j.isLt; omega⟩) = a12 (ix2 k j))
    (hBp : ∀ j : Fin 10, Bp (ix2 0 ⟨j.val, by have := j.isLt; omega⟩) = a13 (ix1 j))
    (r : Fin 100000) (j : Fin 10) :
    clsArr H Wa Ba P Bp (ix2 r ⟨j.val, by have := j.isLt; omega⟩) = cls H a10 a11 a12 a13 (ix2 r j) := by
  have hw : (fun q k => Wa (ix2 q k)) = fun q k => a10 (ix2 q k) := funext fun q => funext fun k => hW q k
  have hb : (fun k => Ba (ix2 0 k)) = fun k => a11 (ix1 k) := funext hB
  -- The 128 logits of the row agree with its 10 logits on the first 10 lanes.
  have hlg : ∀ j' : Fin 10,
      aff (fun k => max (aff (fun q => H (ix2 r q)) (fun q k => a10 (ix2 q k)) (fun k => a11 (ix1 k)) k) 0)
          (fun k j => P (ix2 k j)) (fun j => Bp (ix2 0 j)) ⟨j'.val, by have := j'.isLt; omega⟩
        = aff (fun k => max (aff (fun q => H (ix2 r q)) (fun q k => a10 (ix2 q k)) (fun k => a11 (ix1 k)) k) 0)
          (fun k j => a12 (ix2 k j)) (fun j => a13 (ix1 j)) j' := by
    intro j'
    unfold aff
    show (∑ k : Fin 128, _ * P (ix2 k ⟨j'.val, _⟩)) + Bp (ix2 0 ⟨j'.val, _⟩) = (∑ k : Fin 128, _ * a12 (ix2 k j')) + a13 (ix1 j')
    rw [hBp j']
    exact congrArg (· + a13 (ix1 j')) (Finset.sum_congr rfl fun k _ => by rw [hP k j'])
  show lsmK (aff (fun k => max (aff (fun q => H (ix2 r q)) (fun q k => Wa (ix2 q k)) (fun k => Ba (ix2 0 k)) k) 0)
      (fun k j => P (ix2 k j)) (fun j => Bp (ix2 0 j))) ⟨j.val, by have := j.isLt; omega⟩
    = lsmR (aff (fun k => max (aff (fun q => H (ix2 r q)) (fun q k => a10 (ix2 q k)) (fun k => a11 (ix1 k)) k) 0)
      (fun k j => a12 (ix2 k j)) (fun j => a13 (ix1 j))) j
  rw [hw, hb]
  exact lsmK_eq_lsmR _ _ hlg j

end Cert.GinSpec

end
-- ==== Proof.PayGin.lean ====
/-
  One grid point of a layer's kernel, as arithmetic: the 4000 × 128 block the body stores, read at row `r` and lane `j`,
  from the blocks it loads — node features `x0`, aggregated features `x1`, the weight matrices `x2`, `x6` and the four
  `1 × 128` rows `x3` (bias), `x4` (scale), `x5` (shift), `x7` (bias).  At the extended reals a change of float format is the
  identity and a matrix product into a zero accumulator is the plain sum over the contracted axis, so the entry is
    max (∑_k max ((∑_q (x0 r q + x1 r q) · x2 q k + x3 k) · x4 k + x5 k) 0 · x6 k j + x7 j) 0.
-/
import proofs.«114683_j20864951124664_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayGin

open Cert.KernelIdeal Cert.KernelIdeal.Gen Idealize.ShloMosaic Idealize.ShloMosaic.ValueIdx

/-! ## The layer's building blocks, as the body writes them -/

/-- A `1 × 128` row (cast to its own shape) broadcast over the 4000 rows. -/
abbrev row (v : Vec Ideal S1x128 .f32) : FVec Ideal S4000x128 .f32 :=
  broadcastTo S4000x128 (shapeCast S1x128 v shapeCasts_S1x128_S1x128) broadcasts_S1x128_S4000x128

/-- A dense step: the block times the weight matrix, both through a change of float format, into the zero block, plus
    the bias row. -/
abbrev dense (a : FVec Ideal S4000x128 .f32) (w : Vec Ideal S128x128 .f32) (b : Vec Ideal S1x128 .f32) :
    FVec Ideal S4000x128 .f32 :=
  addf (matmul dot_S4000x128_S128x128_S4000x128_1_0_0_1_n_n none (truncf .bf16 a bitsLt_bf16_f32)
      (truncf .bf16 (shapeCast S128x128 w shapeCasts_S128x128_S128x128 : FVec Ideal S128x128 .f32) bitsLt_bf16_f32)
      (constant S4000x128 .f32 0x00000000#32))
    (row b)

/-- The maximum with the zero splat. -/
abbrev relu (v : FVec Ideal S4000x128 .f32) : FVec Ideal S4000x128 .f32 :=
  maximumf v (broadcast S4000x128 (Scalar.ofBits .f32 0x00000000#32))

/-- The layer from the summed block `a` on: dense, scale and shift, maximum with zero, dense, maximum with zero. -/
abbrev layer (a : FVec Ideal S4000x128 .f32) (x2 : Vec Ideal S128x128 .f32) (x3 x4 x5 : Vec Ideal S1x128 .f32)
    (x6 : Vec Ideal S128x128 .f32) (x7 : Vec Ideal S1x128 .f32) : FVec Ideal S4000x128 .f32 :=
  relu (dense (relu (addf (mulf (dense a x2 x3) (row x4)) (row x5))) x6 x7)

/-! ## The matrix product into a zero accumulator, read at an entry -/

/-- The left operand's index keeps the output row on its first axis … -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and carries the contracted coordinate on its second. -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index carries the contracted coordinate on its first axis … -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and keeps the output lane on its second. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a 4000 × 128 block with a 128 × 128 matrix into the zero block: entry `(r, j)` is `∑ k, lhs r k · rhs k j`. -/
theorem matmul_zero_apply (lhs : FVec Ideal S4000x128 .bf16) (rhs : FVec Ideal S128x128 .bf16) (r : Fin 4000) (j : Fin 128) :
    matmul dot_S4000x128_S128x128_S4000x128_1_0_0_1_n_n none lhs rhs (constant S4000x128 .f32 0x00000000#32) (ix2 r j)
      = ∑ k : Fin 128, lhs (ix2 r k) * rhs (ix2 k j) := by
  refine (Ideal.matmul_constant_zero_apply dot_S4000x128_S128x128_S4000x128_1_0_0_1_n_n none lhs rhs (ix2 r j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## The building blocks read at an entry -/

/-- The broadcast row at `(r, j)` is the row at `j`. -/
theorem row_apply (v : Vec Ideal S1x128 .f32) (r : Fin 4000) (j : Fin 128) : row v (ix2 r j) = v (ix2 0 j) := by
  show broadcastTo S4000x128 (shapeCast S1x128 v shapeCasts_S1x128_S1x128) broadcasts_S1x128_S4000x128 (ix2 r j) = _
  rw [shapeCast_self]
  exact broadcastTo_1b_ab_apply v broadcasts_S1x128_S4000x128 r j

/-- The dense step at `(r, j)` is `∑ k, a r k · w k j + b j`: a change of float format is the identity at the extended
    reals and the product into the zero block is the plain sum. -/
theorem dense_apply (a : FVec Ideal S4000x128 .f32) (w : Vec Ideal S128x128 .f32) (b : Vec Ideal S1x128 .f32)
    (r : Fin 4000) (j : Fin 128) :
    dense a w b (ix2 r j) = (∑ k : Fin 128, a (ix2 r k) * w (ix2 k j)) + b (ix2 0 j) := by
  refine (addf_apply _ _ _).trans ?_
  refine congrArg₂ (· + ·) ?_ (row_apply b r j)
  refine (matmul_zero_apply _ _ r j).trans ?_
  refine Finset.sum_congr rfl fun k _ => ?_
  rw [shapeCast_self]
  rfl

/-- The maximum with the zero splat is the maximum with `0`. -/
theorem relu_apply (v : FVec Ideal S4000x128 .f32) (i : S4000x128.Idx) : relu v i = max (v i) 0 := by
  refine (maximumf_apply _ _ _).trans ?_
  exact congrArg (max (v i)) Ideal.ofBits_zero_f32

/-- The layer at `(r, j)`. -/
theorem layer_apply (a : FVec Ideal S4000x128 .f32) (x2 : Vec Ideal S128x128 .f32) (x3 x4 x5 : Vec Ideal S1x128 .f32)
    (x6 : Vec Ideal S128x128 .f32) (x7 : Vec Ideal S1x128 .f32) (r : Fin 4000) (j : Fin 128) :
    layer a x2 x3 x4 x5 x6 x7 (ix2 r j)
      = max ((∑ k : Fin 128,
              max (((∑ q : Fin 128, a (ix2 r q) * x2 (ix2 q k)) + x3 (ix2 0 k)) * x4 (ix2 0 k) + x5 (ix2 0 k)) 0
                * x6 (ix2 k j)) + x7 (ix2 0 j)) 0 := by
  refine (relu_apply _ _).trans ?_
  refine congrArg (max · 0) ?_
  refine (dense_apply _ x6 x7 r j).trans ?_
  refine congrArg (· + x7 (ix2 0 j)) ?_
  refine Finset.sum_congr rfl fun k _ => ?_
  refine congrArg (· * x6 (ix2 k j)) ?_
  refine (relu_apply _ _).trans ?_
  refine congrArg (max · 0) ?_
  refine (addf_apply _ _ _).trans ?_
  refine congrArg₂ (· + ·) ?_ (row_apply x5 r k)
  refine (mulf_apply _ _ _).trans ?_
  exact congrArg₂ (· * ·) (dense_apply a x2 x3 r k) (row_apply x4 r k)

/-- The layer on the sum of two loaded blocks, each possibly cast to its own shape first (the identity), at `(r, j)`. -/
theorem layer_add_apply (a0 a1 : FVec Ideal S4000x128 .f32) (x0 x1 : Vec Ideal S4000x128 .f32) (h0 : a0 = x0) (h1 : a1 = x1)
    (x2 : Vec Ideal S128x128 .f32) (x3 x4 x5 : Vec Ideal S1x128 .f32)
    (x6 : Vec Ideal S128x128 .f32) (x7 : Vec Ideal S1x128 .f32) (r : Fin 4000) (j : Fin 128) :
    layer (addf a0 a1) x2 x3 x4 x5 x6 x7 (ix2 r j)
      = max ((∑ k : Fin 128,
              max (((∑ q : Fin 128, (x0 (ix2 r q) + x1 (ix2 r q)) * x2 (ix2 q k)) + x3 (ix2 0 k)) * x4 (ix2 0 k) + x5 (ix2 0 k)) 0
                * x6 (ix2 k j)) + x7 (ix2 0 j)) 0 := by
  subst h0 h1
  exact layer_apply _ x2 x3 x4 x5 x6 x7 r j

/-! ## The five kernels' stored blocks -/

/-- The stored block of the first layer's kernel at row `r`, lane `j`. -/
theorem k0_pay1_apply (x0 x1 : Vec Ideal S4000x128 .f32) (x2 : Vec Ideal S128x128 .f32) (x3 x4 x5 : Vec Ideal S1x128 .f32)
    (x6 : Vec Ideal S128x128 .f32) (x7 : Vec Ideal S1x128 .f32) (r : Fin 4000) (j : Fin 128) :
    k0_pay1 (F := Ideal) x0 x1 x2 x3 x4 x5 x6 x7 (ix2 r j)
      = max ((∑ k : Fin 128,
              max (((∑ q : Fin 128, (x0 (ix2 r q) + x1 (ix2 r q)) * x2 (ix2 q k)) + x3 (ix2 0 k)) * x4 (ix2 0 k) + x5 (ix2 0 k)) 0
                * x6 (ix2 k j)) + x7 (ix2 0 j)) 0 := by
  have h : k0_pay1 (F := Ideal) x0 x1 x2 x3 x4 x5 x6 x7
      = layer (addf x0 (shapeCast S4000x128 x1 shapeCasts_S4000x128_S4000x128)) x2 x3 x4 x5 x6 x7 := rfl
  exact (congrFun h (ix2 r j)).trans
    (layer_add_apply _ _ x0 x1 rfl (shapeCast_self x1 _) x2 x3 x4 x5 x6 x7 r j)

/-- The same for layer 2's kernel (the same body). -/
theorem k1_pay1_apply (x0 x1 : Vec Ideal S4000x128 .f32) (x2 : Vec Ideal S128x128 .f32) (x3 x4 x5 : Vec Ideal S1x128 .f32)
    (x6 : Vec Ideal S128x128 .f32) (x7 : Vec Ideal S1x128 .f32) (r : Fin 4000) (j : Fin 128) :
    k1_pay1 (F := Ideal) x0 x1 x2 x3 x4 x5 x6 x7 (ix2 r j)
      = max ((∑ k : Fin 128,
              max (((∑ q : Fin 128, (x0 (ix2 r q) + x1 (ix2 r q)) * x2 (ix2 q k)) + x3 (ix2 0 k)) * x4 (ix2 0 k) + x5 (ix2 0 k)) 0
                * x6 (ix2 k j)) + x7 (ix2 0 j)) 0 := by
  have h : k1_pay1 (F := Ideal) x0 x1 x2 x3 x4 x5 x6 x7
      = layer (addf (shapeCast S4000x128 x0 shapeCasts_S4000x128_S4000x128)
          (shapeCast S4000x128 x1 shapeCasts_S4000x128_S4000x128)) x2 x3 x4 x5 x6 x7 := rfl
  exact (congrFun h (ix2 r j)).trans
    (layer_add_apply _ _ x0 x1 (shapeCast_self x0 _) (shapeCast_self x1 _) x2 x3 x4 x5 x6 x7 r j)

/-- The same for layer 3's kernel (the same body). -/
theorem k2_pay1_apply (x0 x1 : Vec Ideal S4000x128 .f32) (x2 : Vec Ideal S128x128 .f32) (x3 x4 x5 : Vec Ideal S1x128 .f32)
    (x6 : Vec Ideal S128x128 .f32) (x7 : Vec Ideal S1x128 .f32) (r : Fin 4000) (j : Fin 128) :
    k2_pay1 (F := Ideal) x0 x1 x2 x3 x4 x5 x6 x7 (ix2 r j)
      = max ((∑ k : Fin 128,
              max (((∑ q : Fin 128, (x0 (ix2 r q) + x1 (ix2 r q)) * x2 (ix2 q k)) + x3 (ix2 0 k)) * x4 (ix2 0 k) + x5 (ix2 0 k)) 0
                * x6 (ix2 k j)) + x7 (ix2 0 j)) 0 := by
  have h : k2_pay1 (F := Ideal) x0 x1 x2 x3 x4 x5 x6 x7
      = layer (addf (shapeCast S4000x128 x0 shapeCasts_S4000x128_S4000x128)
          (shapeCast S4000x128 x1 shapeCasts_S4000x128_S4000x128)) x2 x3 x4 x5 x6 x7 := rfl
  exact (congrFun h (ix2 r j)).trans
    (layer_add_apply _ _ x0 x1 (shapeCast_self x0 _) (shapeCast_self x1 _) x2 x3 x4 x5 x6 x7 r j)

/-- The same for layer 4's kernel (the same body). -/
theorem k3_pay1_apply (x0 x1 : Vec Ideal S4000x128 .f32) (x2 : Vec Ideal S128x128 .f32) (x3 x4 x5 : Vec Ideal S1x128 .f32)
    (x6 : Vec Ideal S128x128 .f32) (x7 : Vec Ideal S1x128 .f32) (r : Fin 4000) (j : Fin 128) :
    k3_pay1 (F := Ideal) x0 x1 x2 x3 x4 x5 x6 x7 (ix2 r j)
      = max ((∑ k : Fin 128,
              max (((∑ q : Fin 128, (x0 (ix2 r q) + x1 (ix2 r q)) * x2 (ix2 q k)) + x3 (ix2 0 k)) * x4 (ix2 0 k) + x5 (ix2 0 k)) 0
                * x6 (ix2 k j)) + x7 (ix2 0 j)) 0 := by
  have h : k3_pay1 (F := Ideal) x0 x1 x2 x3 x4 x5 x6 x7
      = layer (addf (shapeCast S4000x128 x0 shapeCasts_S4000x128_S4000x128)
          (shapeCast S4000x128 x1 shapeCasts_S4000x128_S4000x128)) x2 x3 x4 x5 x6 x7 := rfl
  exact (congrFun h (ix2 r j)).trans
    (layer_add_apply _ _ x0 x1 (shapeCast_self x0 _) (shapeCast_self x1 _) x2 x3 x4 x5 x6 x7 r j)

/-- The same for layer 5's kernel (the same body). -/
theorem k4_pay1_apply (x0 x1 : Vec Ideal S4000x128 .f32) (x2 : Vec Ideal S128x128 .f32) (x3 x4 x5 : Vec Ideal S1x128 .f32)
    (x6 : Vec Ideal S128x128 .f32) (x7 : Vec Ideal S1x128 .f32) (r : Fin 4000) (j : Fin 128) :
    k4_pay1 (F := Ideal) x0 x1 x2 x3 x4 x5 x6 x7 (ix2 r j)
      = max ((∑ k : Fin 128,
              max (((∑ q : Fin 128, (x0 (ix2 r q) + x1 (ix2 r q)) * x2 (ix2 q k)) + x3 (ix2 0 k)) * x4 (ix2 0 k) + x5 (ix2 0 k)) 0
                * x6 (ix2 k j)) + x7 (ix2 0 j)) 0 := by
  have h : k4_pay1 (F := Ideal) x0 x1 x2 x3 x4 x5 x6 x7
      = layer (addf (shapeCast S4000x128 x0 shapeCasts_S4000x128_S4000x128)
          (shapeCast S4000x128 x1 shapeCasts_S4000x128_S4000x128)) x2 x3 x4 x5 x6 x7 := rfl
  exact (congrFun h (ix2 r j)).trans
    (layer_add_apply _ _ x0 x1 (shapeCast_self x0 _) (shapeCast_self x1 _) x2 x3 x4 x5 x6 x7 r j)

end Cert.KernelIdeal.PayGin

end
-- ==== Proof.Region0.lean ====
/-
  What region 0 of the kernel's program (layer 1's kernel over its 25 grid points) leaves in its output array, as ONE
  function of the eight arrays its windows read, whatever those hold when the region is entered: grid point `t` reads rows
  `4000 t … 4000 t + 3999` of the feature and aggregate arrays and the whole of the six parameter arrays, and writes those
  rows of the output; a row of the output depends on the same row of the inputs only, so the 25 blocks are the
  restrictions of one whole-array function, `GinSpec.mlp`, and they cover the array.
-/
import proofs.«114683_j20864951124664_1_alg».proof.Proof.Gen.KernelIdeal.Frame
import proofs.«114683_j20864951124664_1_alg».proof.Proof.PayGin
import proofs.«114683_j20864951124664_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The eight arrays the region's windows read, as the region finds them, at their literal types. -/
abbrev arr0 (c : Dev nD) : FVec Ideal S100000x128 .f32 := V c (Pipeline.arrRef spec0 0)
abbrev arr1 (c : Dev nD) : FVec Ideal S100000x128 .f32 := V c (Pipeline.arrRef spec0 1)
abbrev arr2 (c : Dev nD) : FVec Ideal S128x128 .f32 := V c (Pipeline.arrRef spec0 2)
abbrev arr3 (c : Dev nD) : FVec Ideal S1x128 .f32 := V c (Pipeline.arrRef spec0 3)
abbrev arr4 (c : Dev nD) : FVec Ideal S1x128 .f32 := V c (Pipeline.arrRef spec0 4)
abbrev arr5 (c : Dev nD) : FVec Ideal S1x128 .f32 := V c (Pipeline.arrRef spec0 5)
abbrev arr6 (c : Dev nD) : FVec Ideal S128x128 .f32 := V c (Pipeline.arrRef spec0 6)
abbrev arr7 (c : Dev nD) : FVec Ideal S1x128 .f32 := V c (Pipeline.arrRef spec0 7)

/-- The eight blocks grid point `t` loads, at their literal types. -/
abbrev blk0 (c : Dev nD) (t : Fin cfg0.N) : Vec Ideal S4000x128 .f32 := iblk0 V c 0 t
abbrev blk1 (c : Dev nD) (t : Fin cfg0.N) : Vec Ideal S4000x128 .f32 := iblk0 V c 1 t
abbrev blk2 (c : Dev nD) (t : Fin cfg0.N) : Vec Ideal S128x128 .f32 := iblk0 V c 2 t
abbrev blk3 (c : Dev nD) (t : Fin cfg0.N) : Vec Ideal S1x128 .f32 := iblk0 V c 3 t
abbrev blk4 (c : Dev nD) (t : Fin cfg0.N) : Vec Ideal S1x128 .f32 := iblk0 V c 4 t
abbrev blk5 (c : Dev nD) (t : Fin cfg0.N) : Vec Ideal S1x128 .f32 := iblk0 V c 5 t
abbrev blk6 (c : Dev nD) (t : Fin cfg0.N) : Vec Ideal S128x128 .f32 := iblk0 V c 6 t
abbrev blk7 (c : Dev nD) (t : Fin cfg0.N) : Vec Ideal S1x128 .f32 := iblk0 V c 7 t

/-- The offsets `![0, 0]` are the zero offsets. -/
theorem zero_off : (![0, 0] : Fin 2 → Nat) = fun _ => 0 :=
  funext fun a => match a with | ⟨0, _⟩ => rfl | ⟨1, _⟩ => rfl

/-- The index maps, decided over the 25 grid points: the feature, aggregate and output windows sit at block `(t, 0)`, the
    six parameter windows at block `(0, 0)`. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The blocks read, entry by entry -/

/-- Row `r` of the feature block at point `t` is row `4000 t + r` of the feature array. -/
theorem blk0_apply (c : Dev nD) (t : Fin cfg0.N) (r : Fin 4000) (q : Fin 128) (n : Fin 100000)
    (hn : n.val = t.val * 4000 + r.val) : blk0 V c t (ix2 r q) = arr0 V c (ix2 n q) := by
  obtain ⟨e0, e1, -⟩ := index_maps t
  show arr0 V c (((cfg0.win 0).blk t).view.emb (ix2 r q)) = arr0 V c (ix2 n q)
  refine congrArg (arr0 V c) ?_
  funext a; apply Fin.ext
  match a with
  | ⟨0, _⟩ => show win0_0.index t (0 : Fin 2) * 4000 + 1 * r.val = n.val; omega
  | ⟨1, _⟩ => show win0_0.index t (1 : Fin 2) * 128 + 1 * q.val = q.val; omega

/-- Row `r` of the aggregate block at point `t` is row `4000 t + r` of the aggregate array. -/
theorem blk1_apply (c : Dev nD) (t : Fin cfg0.N) (r : Fin 4000) (q : Fin 128) (n : Fin 100000)
    (hn : n.val = t.val * 4000 + r.val) : blk1 V c t (ix2 r q) = arr1 V c (ix2 n q) := by
  obtain ⟨-, -, e0, e1, -⟩ := index_maps t
  show arr1 V c (((cfg0.win 1).blk t).view.emb (ix2 r q)) = arr1 V c (ix2 n q)
  refine congrArg (arr1 V c) ?_
  funext a; apply Fin.ext
  match a with
  | ⟨0, _⟩ => show win0_1.index t (0 : Fin 2) * 4000 + 1 * r.val = n.val; omega
  | ⟨1, _⟩ => show win0_1.index t (1 : Fin 2) * 128 + 1 * q.val = q.val; omega

/-- Each parameter block is its whole array, at every point. -/
theorem blk2_apply (c : Dev nD) (t : Fin cfg0.N) (q k : Fin 128) : blk2 V c t (ix2 q k) = arr2 V c (ix2 q k) := by
  obtain ⟨-, -, -, -, e0, e1, -⟩ := index_maps t
  show arr2 V c (((cfg0.win 2).blk t).view.emb (ix2 q k)) = arr2 V c (ix2 q k)
  refine congrArg (arr2 V c) ?_
  funext a; apply Fin.ext
  match a with
  | ⟨0, _⟩ => show win0_2.index t (0 : Fin 2) * 128 + 1 * q.val = q.val; omega
  | ⟨1, _⟩ => show win0_2.index t (1 : Fin 2) * 128 + 1 * k.val = k.val; omega

theorem blk3_apply (c : Dev nD) (t : Fin cfg0.N) (z : Fin 1) (k : Fin 128) : blk3 V c t (ix2 z k) = arr3 V c (ix2 z k) := by
  obtain ⟨-, -, -, -, -, -, e0, e1, -⟩ := index_maps t
  show arr3 V c (((cfg0.win 3).blk t).view.emb (ix2 z k)) = arr3 V c (ix2 z k)
  refine congrArg (arr3 V c) ?_
  funext a; apply Fin.ext
  match a with
  | ⟨0, _⟩ => show win0_3.index t (0 : Fin 2) * 1 + 1 * z.val = z.val; omega
  | ⟨1, _⟩ => show win0_3.index t (1 : Fin 2) * 128 + 1 * k.val = k.val; omega

theorem blk4_apply (c : Dev nD) (t : Fin cfg0.N) (z : Fin 1) (k : Fin 128) : blk4 V c t (ix2 z k) = arr4 V c (ix2 z k) := by
  obtain ⟨-, -, -, -, -, -, -, -, e0, e1, -⟩ := index_maps t
  show arr4 V c (((cfg0.win 4).blk t).view.emb (ix2 z k)) = arr4 V c (ix2 z k)
  refine congrArg (arr4 V c) ?_
  funext a; apply Fin.ext
  match a with
  | ⟨0, _⟩ => show win0_4.index t (0 : Fin 2) * 1 + 1 * z.val = z.val; omega
  | ⟨1, _⟩ => show win0_4.index t (1 : Fin 2) * 128 + 1 * k.val = k.val; omega

theorem blk5_apply (c : Dev nD) (t : Fin cfg0.N) (z : Fin 1) (k : Fin 128) : blk5 V c t (ix2 z k) = arr5 V c (ix2 z k) := by
  obtain ⟨-, -, -, -, -, -, -, -, -, -, e0, e1, -⟩ := index_maps t
  show arr5 V c (((cfg0.win 5).blk t).view.emb (ix2 z k)) = arr5 V c (ix2 z k)
  refine congrArg (arr5 V c) ?_
  funext a; apply Fin.ext
  match a with
  | ⟨0, _⟩ => show win0_5.index t (0 : Fin 2) * 1 + 1 * z.val = z.val; omega
  | ⟨1, _⟩ => show win0_5.index t (1 : Fin 2) * 128 + 1 * k.val = k.val; omega

theorem blk6_apply (c : Dev nD) (t : Fin cfg0.N) (k j : Fin 128) : blk6 V c t (ix2 k j) = arr6 V c (ix2 k j) := by
  obtain ⟨-, -, -, -, -, -, -, -, -, -, -, -, e0, e1, -⟩ := index_maps t
  show arr6 V c (((cfg0.win 6).blk t).view.emb (ix2 k j)) = arr6 V c (ix2 k j)
  refine congrArg (arr6 V c) ?_
  funext a; apply Fin.ext
  match a with
  | ⟨0, _⟩ => show win0_6.index t (0 : Fin 2) * 128 + 1 * k.val = k.val; omega
  | ⟨1, _⟩ => show win0_6.index t (1 : Fin 2) * 128 + 1 * j.val = j.val; omega

theorem blk7_apply (c : Dev nD) (t : Fin cfg0.N) (z : Fin 1) (j : Fin 128) : blk7 V c t (ix2 z j) = arr7 V c (ix2 z j) := by
  obtain ⟨-, -, -, -, -, -, -, -, -, -, -, -, -, -, e0, e1, -⟩ := index_maps t
  show arr7 V c (((cfg0.win 7).blk t).view.emb (ix2 z j)) = arr7 V c (ix2 z j)
  refine congrArg (arr7 V c) ?_
  funext a; apply Fin.ext
  match a with
  | ⟨0, _⟩ => show win0_7.index t (0 : Fin 2) * 1 + 1 * z.val = z.val; omega
  | ⟨1, _⟩ => show win0_7.index t (1 : Fin 2) * 128 + 1 * j.val = j.val; omega

/-! ## One entry of the stored block -/

/-- Entry `(r, j)` of the block point `t` stores is entry `(4000 t + r, j)` of `GinSpec.mlp` of the eight arrays. -/
theorem stored_entry (c : Dev nD) (t : Fin cfg0.N) (r : Fin 4000) (j : Fin 128) (n : Fin 100000)
    (hn : n.val = t.val * 4000 + r.val) :
    k0_pay1 (F := Ideal) (blk0 V c t) (blk1 V c t) (blk2 V c t) (blk3 V c t) (blk4 V c t) (blk5 V c t) (blk6 V c t) (blk7 V c t) (ix2 r j)
      = Cert.GinSpec.mlp (arr0 V c) (arr1 V c) (arr2 V c) (arr3 V c) (arr4 V c) (arr5 V c) (arr6 V c) (arr7 V c) (ix2 n j) := by
  rw [PayGin.k0_pay1_apply]
  simp only [blk0_apply V c t r _ n hn, blk1_apply V c t r _ n hn, blk2_apply V c t, blk3_apply V c t, blk4_apply V c t,
    blk5_apply V c t, blk6_apply V c t, blk7_apply V c t]
  rfl

/-- The same at any index `y` of the block and any index `i` of the array whose row is `4000 t` plus `y`'s and whose
    lane is `y`'s. -/
theorem stored_at (c : Dev nD) (t : Fin cfg0.N) (y : S4000x128.Idx) (i : S100000x128.Idx)
    (h0 : (i 0).val = t.val * 4000 + (y 0).val) (h1 : (i 1).val = (y 1).val) :
    k0_pay1 (F := Ideal) (blk0 V c t) (blk1 V c t) (blk2 V c t) (blk3 V c t) (blk4 V c t) (blk5 V c t) (blk6 V c t) (blk7 V c t) y
      = Cert.GinSpec.mlp (arr0 V c) (arr1 V c) (arr2 V c) (arr3 V c) (arr4 V c) (arr5 V c) (arr6 V c) (arr7 V c) i := by
  obtain ⟨r, j, rfl⟩ : ∃ (r : Fin 4000) (j : Fin 128), y = ix2 r j := ⟨y 0, y 1, eq_ix2 y⟩
  obtain ⟨n, j', rfl⟩ : ∃ (n : Fin 100000) (j' : Fin 128), i = ix2 n j' := ⟨i 0, i 1, eq_ix2 i⟩
  obtain rfl : j' = j := Fin.ext h1
  exact stored_entry V c t r j' n h0

/-! ## What a point writes back, and the cover -/

/-- WHAT POINT `t` WRITES BACK is block `t` of `GinSpec.mlp` of the arrays as the region finds them. -/
theorem flushed_eq (c : Dev nD) (t : Fin cfg0.N) :
    (dat0 (F := Ideal) V c).flushed 8 t = ((cfg0.win 8).blk t).view.read (Elt Ideal)
      (Cert.GinSpec.mlp (arr0 V c) (arr1 V c) (arr2 V c) (arr3 V c) (arr4 V c) (arr5 V c) (arr6 V c) (arr7 V c)) := by
  show (cfg0.win 8).cut (grid0.coords t) ((dat0 (F := Ideal) V c).after 8 t) = _
  rw [after0_8]
  unfold out0_8
  rw [View.canon_unit_zero zero_off]
  simp only [View.ld_unit_zero (S := S4000x128) zero_off, View.ld_unit_zero (S := S128x128) zero_off,
    View.ld_unit_zero (S := S1x128) zero_off]
  obtain ⟨-, -, -, -, -, -, -, -, -, -, -, -, -, -, -, -, e0, e1⟩ := index_maps t
  funext y
  refine stored_at V c t ((cfg0.win 8).xinj (grid0.coords t) y) (((cfg0.win 8).blk t).view.emb y) ?_ ?_
  · show win0_8.index t (0 : Fin 2) * 4000 + 1 * (y 0).val = t.val * 4000 + (y 0).val; omega
  · show win0_8.index t (1 : Fin 2) * 128 + 1 * (y 1).val = (y 1).val; omega

/-- An index of the array is in point `t`'s block iff each coordinate is in the block's range on its axis. -/
theorem mem_block (t : Fin cfg0.N) (i : S100000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v36).slice (win0_8.rect t)).set ↔ _
  rw [View.set_slice_whole, Rect.mem_set_unit]
  exact Iff.rfl

/-- Every index of the array is in some point's block: row `n` is in the block of point `n / 4000`, and
    `25 · 4000 = 100000`. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, -, -, -, -, -, -, e0, e1⟩ := index_maps ⟨(i 0).val / 4000, ht⟩
  have e0' : win0_8.index ⟨(i 0).val / 4000, ht⟩ (0 : Fin 2) = (i 0).val / 4000 := e0
  refine ⟨⟨(i 0).val / 4000, ht⟩, flush0_8 _, ?_⟩
  rw [mem_block]
  intro a
  match a with
  | ⟨0, _⟩ =>
    show win0_8.index ⟨(i 0).val / 4000, ht⟩ (0 : Fin 2) * 4000 ≤ (i 0).val
      ∧ (i 0).val < win0_8.index ⟨(i 0).val / 4000, ht⟩ (0 : Fin 2) * 4000 + 4000
    omega
  | ⟨1, _⟩ =>
    show win0_8.index ⟨(i 0).val / 4000, ht⟩ (1 : Fin 2) * 128 ≤ (i 1).val
      ∧ (i 1).val < win0_8.index ⟨(i 0).val / 4000, ht⟩ (1 : Fin 2) * 128 + 128
    omega

/-- THE OUTPUT ARRAY after the region: `GinSpec.mlp` of the arrays read. -/
theorem out_array (c : Dev nD) :
    (dat0 (F := Ideal) V c).arrAt 8 cfg0.N
      = Cert.GinSpec.mlp (arr0 V c) (arr1 V c) (arr2 V c) (arr3 V c) (arr4 V c) (arr5 V c) (arr6 V c) (arr7 V c) :=
  (dat0 (F := Ideal) V c).arrAt_eq_of_cover 8
    (Cert.GinSpec.mlp (arr0 V c) (arr1 V c) (arr2 V c) (arr3 V c) (arr4 V c) (arr5 V c) (arr6 V c) (arr7 V c))
    (fun t _ => flushed_eq V c t) cover

end Cert.KernelIdeal.Region0

end
-- ==== Proof.KLayer0.lean ====
/-
  Layer 1 on the kernel's side: the host operations before region 0 put into its windows' arrays the features, their
  aggregate over the graph, and slice 0 of the stacked parameters (the normalisation already folded into a scale row and a
  shift row); the region leaves `GinSpec.mlp` of those in its output array; and that is the reference's `GinSpec.layer 0` of
  the features, the aggregate and the stacked parameters, because the normalisation's parameters are real.
-/
import proofs.«114683_j20864951124664_1_alg».proof.Proof.Gen.KernelIdeal.Frame
import proofs.«114683_j20864951124664_1_alg».proof.Proof.Spec
import proofs.«114683_j20864951124664_1_alg».proof.Proof.KAgg
import proofs.«114683_j20864951124664_1_alg».proof.Proof.KPersist
import proofs.«114683_j20864951124664_1_alg».proof.Proof.KIdx
import proofs.«114683_j20864951124664_1_alg».proof.Proof.MlpLayer
import proofs.«114683_j20864951124664_1_alg».proof.Proof.Region0

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What region 0's windows' arrays hold at its entry -/

/-- Window 0: the node features, as launched. -/
theorem win0 (c : Dev nD) : Region0.arr0 (V1 (F := Ideal) m ρ) c = x0 m c :=
  KPersist.W1_arg m ρ c main_arg0 (by simp)

set_option maxHeartbeats 4000000 in
/-- Window 1: the features aggregated over the graph. -/
theorem win1 (c : Dev nD) : Region0.arr1 (V1 (F := Ideal) m ρ) c = aggK (x1 m c) (x0 m c) := by
  show StableHlo.after hostOps0 (W0 m ρ c) (Proc.devRef .tc main_v19) = _
  after_results_simp
  all_goals rfl

set_option maxHeartbeats 4000000 in
/-- Window 2: slice 0 of the first stacked weight. -/
theorem win2 (c : Dev nD) (q k : Fin 128) : Region0.arr2 (V1 (F := Ideal) m ρ) c (ix2 q k) = x2 m c (ix3 0 q k) := by
  show StableHlo.after hostOps0 (W0 m ρ c) (Proc.devRef .tc main_v21) (ix2 q k) = _
  after_results_simp
  exact KIdx.sliceW0_apply (x2 m c) q k

set_option maxHeartbeats 4000000 in
/-- Window 3: row 0 of the first stacked bias. -/
theorem win3 (c : Dev nD) (k : Fin 128) : Region0.arr3 (V1 (F := Ideal) m ρ) c (ix2 0 k) = x3 m c (ix2 0 k) := by
  show StableHlo.after hostOps0 (W0 m ρ c) (Proc.devRef .tc main_v32) (ix2 0 k) = _
  after_results_simp
  exact KIdx.sliceRow0_apply (x3 m c) k

set_option maxHeartbeats 4000000 in
/-- Window 4: row 0 of the normalisation's scale `γ / √(var + ε)`. -/
theorem win4 (c : Dev nD) (k : Fin 128) :
    Region0.arr4 (V1 (F := Ideal) m ρ) c (ix2 0 k) = Cert.GinSpec.bnScale eps (x4 m c) (x7 m c) 0 k := by
  show StableHlo.after hostOps0 (W0 m ρ c) (Proc.devRef .tc main_v33) (ix2 0 k) = _
  after_results_simp
  refine (KIdx.sliceRow0_apply _ k).trans ?_
  exact KIdx.scale_apply (x4 m c) (x7 m c) 0 k

set_option maxHeartbeats 4000000 in
/-- Window 5: row 0 of the normalisation's shift `β - μ · scale`. -/
theorem win5 (c : Dev nD) (k : Fin 128) :
    Region0.arr5 (V1 (F := Ideal) m ρ) c (ix2 0 k)
      = x5 m c (ix2 0 k) - x6 m c (ix2 0 k) * Cert.GinSpec.bnScale eps (x4 m c) (x7 m c) 0 k := by
  show StableHlo.after hostOps0 (W0 m ρ c) (Proc.devRef .tc main_v34) (ix2 0 k) = _
  after_results_simp
  refine (KIdx.sliceRow0_apply _ k).trans ?_
  exact KIdx.shift_apply (x4 m c) (x5 m c) (x6 m c) (x7 m c) 0 k

set_option maxHeartbeats 4000000 in
/-- Window 6: slice 0 of the second stacked weight. -/
theorem win6 (c : Dev nD) (k j : Fin 128) : Region0.arr6 (V1 (F := Ideal) m ρ) c (ix2 k j) = x8 m c (ix3 0 k j) := by
  show StableHlo.after hostOps0 (W0 m ρ c) (Proc.devRef .tc main_v29) (ix2 k j) = _
  after_results_simp
  exact KIdx.sliceW0_apply (x8 m c) k j

set_option maxHeartbeats 4000000 in
/-- Window 7: row 0 of the second stacked bias. -/
theorem win7 (c : Dev nD) (j : Fin 128) : Region0.arr7 (V1 (F := Ideal) m ρ) c (ix2 0 j) = x9 m c (ix2 0 j) := by
  show StableHlo.after hostOps0 (W0 m ρ c) (Proc.devRef .tc main_v35) (ix2 0 j) = _
  after_results_simp
  exact KIdx.sliceRow0_apply (x9 m c) j

/-! ## The layer -/

/-- The first layer's output array at region 0's exit is the reference's layer 0 of the features, their aggregate and the
    stacked parameters. -/
theorem layer0_out (c : Dev nD) (h4 : ∀ i, ∃ r : ℝ, x4 m c i = (r : EReal)) (h5 : ∀ i, ∃ r : ℝ, x5 m c i = (r : EReal)) (h6 : ∀ i, ∃ r : ℝ, x6 m c i = (r : EReal))
    (hpos : ∀ i, (0 : EReal) < x7 m c i + eps) :
    (W2 (F := Ideal) m ρ c (Proc.devRef .tc main_v36) : FVec Ideal S100000x128 .f32)
      = Cert.GinSpec.layer eps 0 (x0 m c) (aggK (x1 m c) (x0 m c)) (x2 m c) (x3 m c) (x4 m c) (x5 m c) (x6 m c) (x7 m c) (x8 m c) (x9 m c) := by
  refine (W2_arr m ρ c 8).trans ?_
  refine (Region0.out_array (V1 m ρ) c).trans ?_
  rw [win0 m ρ c, win1 m ρ c]
  exact Cert.GinSpec.mlp_eq_layer eps 0 _ _ _ _ _ _ _ _ (x2 m c) (x3 m c) (x4 m c) (x5 m c) (x6 m c) (x7 m c) (x8 m c) (x9 m c)
    (win2 m ρ c) (win3 m ρ c) (win4 m ρ c) (win5 m ρ c) (win6 m ρ c) (win7 m ρ c) h4 h5 h6 hpos

end Cert.KernelIdeal.KValue

end
-- ==== Proof.Region1.lean ====
/-
  What region 1 of the kernel's program (layer 2's kernel over its 25 grid points) leaves in its output array, as ONE
  function of the eight arrays its windows read, whatever those hold when the region is entered: grid point `t` reads rows
  `4000 t … 4000 t + 3999` of the feature and aggregate arrays and the whole of the six parameter arrays, and writes those
  rows of the output; a row of the output depends on the same row of the inputs only, so the 25 blocks are the
  restrictions of one whole-array function, `GinSpec.mlp`, and they cover the array.
-/
import proofs.«114683_j20864951124664_1_alg».proof.Proof.Gen.KernelIdeal.Frame
import proofs.«114683_j20864951124664_1_alg».proof.Proof.PayGin
import proofs.«114683_j20864951124664_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The eight arrays the region's windows read, as the region finds them, at their literal types. -/
abbrev arr0 (c : Dev nD) : FVec Ideal S100000x128 .f32 := V c (Pipeline.arrRef spec1 0)
abbrev arr1 (c : Dev nD) : FVec Ideal S100000x128 .f32 := V c (Pipeline.arrRef spec1 1)
abbrev arr2 (c : Dev nD) : FVec Ideal S128x128 .f32 := V c (Pipeline.arrRef spec1 2)
abbrev arr3 (c : Dev nD) : FVec Ideal S1x128 .f32 := V c (Pipeline.arrRef spec1 3)
abbrev arr4 (c : Dev nD) : FVec Ideal S1x128 .f32 := V c (Pipeline.arrRef spec1 4)
abbrev arr5 (c : Dev nD) : FVec Ideal S1x128 .f32 := V c (Pipeline.arrRef spec1 5)
abbrev arr6 (c : Dev nD) : FVec Ideal S128x128 .f32 := V c (Pipeline.arrRef spec1 6)
abbrev arr7 (c : Dev nD) : FVec Ideal S1x128 .f32 := V c (Pipeline.arrRef spec1 7)

/-- The eight blocks grid point `t` loads, at their literal types. -/
abbrev blk0 (c : Dev nD) (t : Fin cfg1.N) : Vec Ideal S4000x128 .f32 := iblk1 V c 0 t
abbrev blk1 (c : Dev nD) (t : Fin cfg1.N) : Vec Ideal S4000x128 .f32 := iblk1 V c 1 t
abbrev blk2 (c : Dev nD) (t : Fin cfg1.N) : Vec Ideal S128x128 .f32 := iblk1 V c 2 t
abbrev blk3 (c : Dev nD) (t : Fin cfg1.N) : Vec Ideal S1x128 .f32 := iblk1 V c 3 t
abbrev blk4 (c : Dev nD) (t : Fin cfg1.N) : Vec Ideal S1x128 .f32 := iblk1 V c 4 t
abbrev blk5 (c : Dev nD) (t : Fin cfg1.N) : Vec Ideal S1x128 .f32 := iblk1 V c 5 t
abbrev blk6 (c : Dev nD) (t : Fin cfg1.N) : Vec Ideal S128x128 .f32 := iblk1 V c 6 t
abbrev blk7 (c : Dev nD) (t : Fin cfg1.N) : Vec Ideal S1x128 .f32 := iblk1 V c 7 t

/-- The offsets `![0, 0]` are the zero offsets. -/
theorem zero_off : (![0, 0] : Fin 2 → Nat) = fun _ => 0 :=
  funext fun a => match a with | ⟨0, _⟩ => rfl | ⟨1, _⟩ => rfl

/-- The index maps, decided over the 25 grid points: the feature, aggregate and output windows sit at block `(t, 0)`, the
    six parameter windows at block `(0, 0)`. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ## The blocks read, entry by entry -/

/-- Row `r` of the feature block at point `t` is row `4000 t + r` of the feature array. -/
theorem blk0_apply (c : Dev nD) (t : Fin cfg1.N) (r : Fin 4000) (q : Fin 128) (n : Fin 100000)
    (hn : n.val = t.val * 4000 + r.val) : blk0 V c t (ix2 r q) = arr0 V c (ix2 n q) := by
  obtain ⟨e0, e1, -⟩ := index_maps t
  show arr0 V c (((cfg1.win 0).blk t).view.emb (ix2 r q)) = arr0 V c (ix2 n q)
  refine congrArg (arr0 V c) ?_
  funext a; apply Fin.ext
  match a with
  | ⟨0, _⟩ => show win1_0.index t (0 : Fin 2) * 4000 + 1 * r.val = n.val; omega
  | ⟨1, _⟩ => show win1_0.index t (1 : Fin 2) * 128 + 1 * q.val = q.val; omega

/-- Row `r` of the aggregate block at point `t` is row `4000 t + r` of the aggregate array. -/
theorem blk1_apply (c : Dev nD) (t : Fin cfg1.N) (r : Fin 4000) (q : Fin 128) (n : Fin 100000)
    (hn : n.val = t.val * 4000 + r.val) : blk1 V c t (ix2 r q) = arr1 V c (ix2 n q) := by
  obtain ⟨-, -, e0, e1, -⟩ := index_maps t
  show arr1 V c (((cfg1.win 1).blk t).view.emb (ix2 r q)) = arr1 V c (ix2 n q)
  refine congrArg (arr1 V c) ?_
  funext a; apply Fin.ext
  match a with
  | ⟨0, _⟩ => show win1_1.index t (0 : Fin 2) * 4000 + 1 * r.val = n.val; omega
  | ⟨1, _⟩ => show win1_1.index t (1 : Fin 2) * 128 + 1 * q.val = q.val; omega

/-- Each parameter block is its whole array, at every point. -/
theorem blk2_apply (c : Dev nD) (t : Fin cfg1.N) (q k : Fin 128) : blk2 V c t (ix2 q k) = arr2 V c (ix2 q k) := by
  obtain ⟨-, -, -, -, e0, e1, -⟩ := index_maps t
  show arr2 V c (((cfg1.win 2).blk t).view.emb (ix2 q k)) = arr2 V c (ix2 q k)
  refine congrArg (arr2 V c) ?_
  funext a; apply Fin.ext
  match a with
  | ⟨0, _⟩ => show win1_2.index t (0 : Fin 2) * 128 + 1 * q.val = q.val; omega
  | ⟨1, _⟩ => show win1_2.index t (1 : Fin 2) * 128 + 1 * k.val = k.val; omega

theorem blk3_apply (c : Dev nD) (t : Fin cfg1.N) (z : Fin 1) (k : Fin 128) : blk3 V c t (ix2 z k) = arr3 V c (ix2 z k) := by
  obtain ⟨-, -, -, -, -, -, e0, e1, -⟩ := index_maps t
  show arr3 V c (((cfg1.win 3).blk t).view.emb (ix2 z k)) = arr3 V c (ix2 z k)
  refine congrArg (arr3 V c) ?_
  funext a; apply Fin.ext
  match a with
  | ⟨0, _⟩ => show win1_3.index t (0 : Fin 2) * 1 + 1 * z.val = z.val; omega
  | ⟨1, _⟩ => show win1_3.index t (1 : Fin 2) * 128 + 1 * k.val = k.val; omega

theorem blk4_apply (c : Dev nD) (t : Fin cfg1.N) (z : Fin 1) (k : Fin 128) : blk4 V c t (ix2 z k) = arr4 V c (ix2 z k) := by
  obtain ⟨-, -, -, -, -, -, -, -, e0, e1, -⟩ := index_maps t
  show arr4 V c (((cfg1.win 4).blk t).view.emb (ix2 z k)) = arr4 V c (ix2 z k)
  refine congrArg (arr4 V c) ?_
  funext a; apply Fin.ext
  match a with
  | ⟨0, _⟩ => show win1_4.index t (0 : Fin 2) * 1 + 1 * z.val = z.val; omega
  | ⟨1, _⟩ => show win1_4.index t (1 : Fin 2) * 128 + 1 * k.val = k.val; omega

theorem blk5_apply (c : Dev nD) (t : Fin cfg1.N) (z : Fin 1) (k : Fin 128) : blk5 V c t (ix2 z k) = arr5 V c (ix2 z k) := by
  obtain ⟨-, -, -, -, -, -, -, -, -, -, e0, e1, -⟩ := index_maps t
  show arr5 V c (((cfg1.win 5).blk t).view.emb (ix2 z k)) = arr5 V c (ix2 z k)
  refine congrArg (arr5 V c) ?_
  funext a; apply Fin.ext
  match a with
  | ⟨0, _⟩ => show win1_5.index t (0 : Fin 2) * 1 + 1 * z.val = z.val; omega
  | ⟨1, _⟩ => show win1_5.index t (1 : Fin 2) * 128 + 1 * k.val = k.val; omega

theorem blk6_apply (c : Dev nD) (t : Fin cfg1.N) (k j : Fin 128) : blk6 V c t (ix2 k j) = arr6 V c (ix2 k j) := by
  obtain ⟨-, -, -, -, -, -, -, -, -, -, -, -, e0, e1, -⟩ := index_maps t
  show arr6 V c (((cfg1.win 6).blk t).view.emb (ix2 k j)) = arr6 V c (ix2 k j)
  refine congrArg (arr6 V c) ?_
  funext a; apply Fin.ext
  match a with
  | ⟨0, _⟩ => show win1_6.index t (0 : Fin 2) * 128 + 1 * k.val = k.val; omega
  | ⟨1, _⟩ => show win1_6.index t (1 : Fin 2) * 128 + 1 * j.val = j.val; omega

theorem blk7_apply (c : Dev nD) (t : Fin cfg1.N) (z : Fin 1) (j : Fin 128) : blk7 V c t (ix2 z j) = arr7 V c (ix2 z j) := by
  obtain ⟨-, -, -, -, -, -, -, -, -, -, -, -, -, -, e0, e1, -⟩ := index_maps t
  show arr7 V c (((cfg1.win 7).blk t).view.emb (ix2 z j)) = arr7 V c (ix2 z j)
  refine congrArg (arr7 V c) ?_
  funext a; apply Fin.ext
  match a with
  | ⟨0, _⟩ => show win1_7.index t (0 : Fin 2) * 1 + 1 * z.val = z.val; omega
  | ⟨1, _⟩ => show win1_7.index t (1 : Fin 2) * 128 + 1 * j.val = j.val; omega

/-! ## One entry of the stored block -/

/-- Entry `(r, j)` of the block point `t` stores is entry `(4000 t + r, j)` of `GinSpec.mlp` of the eight arrays. -/
theorem stored_entry (c : Dev nD) (t : Fin cfg1.N) (r : Fin 4000) (j : Fin 128) (n : Fin 100000)
    (hn : n.val = t.val * 4000 + r.val) :
    k1_pay1 (F := Ideal) (blk0 V c t) (blk1 V c t) (blk2 V c t) (blk3 V c t) (blk4 V c t) (blk5 V c t) (blk6 V c t) (blk7 V c t) (ix2 r j)
      = Cert.GinSpec.mlp (arr0 V c) (arr1 V c) (arr2 V c) (arr3 V c) (arr4 V c) (arr5 V c) (arr6 V c) (arr7 V c) (ix2 n j) := by
  rw [PayGin.k1_pay1_apply]
  simp only [blk0_apply V c t r _ n hn, blk1_apply V c t r _ n hn, blk2_apply V c t, blk3_apply V c t, blk4_apply V c t,
    blk5_apply V c t, blk6_apply V c t, blk7_apply V c t]
  rfl

/-- The same at any index `y` of the block and any index `i` of the array whose row is `4000 t` plus `y`'s and whose
    lane is `y`'s. -/
theorem stored_at (c : Dev nD) (t : Fin cfg1.N) (y : S4000x128.Idx) (i : S100000x128.Idx)
    (h0 : (i 0).val = t.val * 4000 + (y 0).val) (h1 : (i 1).val = (y 1).val) :
    k1_pay1 (F := Ideal) (blk0 V c t) (blk1 V c t) (blk2 V c t) (blk3 V c t) (blk4 V c t) (blk5 V c t) (blk6 V c t) (blk7 V c t) y
      = Cert.GinSpec.mlp (arr0 V c) (arr1 V c) (arr2 V c) (arr3 V c) (arr4 V c) (arr5 V c) (arr6 V c) (arr7 V c) i := by
  obtain ⟨r, j, rfl⟩ : ∃ (r : Fin 4000) (j : Fin 128), y = ix2 r j := ⟨y 0, y 1, eq_ix2 y⟩
  obtain ⟨n, j', rfl⟩ : ∃ (n : Fin 100000) (j' : Fin 128), i = ix2 n j' := ⟨i 0, i 1, eq_ix2 i⟩
  obtain rfl : j' = j := Fin.ext h1
  exact stored_entry V c t r j' n h0

/-! ## What a point writes back, and the cover -/

/-- WHAT POINT `t` WRITES BACK is block `t` of `GinSpec.mlp` of the arrays as the region finds them. -/
theorem flushed_eq (c : Dev nD) (t : Fin cfg1.N) :
    (dat1 (F := Ideal) V c).flushed 8 t = ((cfg1.win 8).blk t).view.read (Elt Ideal)
      (Cert.GinSpec.mlp (arr0 V c) (arr1 V c) (arr2 V c) (arr3 V c) (arr4 V c) (arr5 V c) (arr6 V c) (arr7 V c)) := by
  show (cfg1.win 8).cut (grid1.coords t) ((dat1 (F := Ideal) V c).after 8 t) = _
  rw [after1_8]
  unfold out1_8
  rw [View.canon_unit_zero zero_off]
  simp only [View.ld_unit_zero (S := S4000x128) zero_off, View.ld_unit_zero (S := S128x128) zero_off,
    View.ld_unit_zero (S := S1x128) zero_off]
  obtain ⟨-, -, -, -, -, -, -, -, -, -, -, -, -, -, -, -, e0, e1⟩ := index_maps t
  funext y
  refine stored_at V c t ((cfg1.win 8).xinj (grid1.coords t) y) (((cfg1.win 8).blk t).view.emb y) ?_ ?_
  · show win1_8.index t (0 : Fin 2) * 4000 + 1 * (y 0).val = t.val * 4000 + (y 0).val; omega
  · show win1_8.index t (1 : Fin 2) * 128 + 1 * (y 1).val = (y 1).val; omega

/-- An index of the array is in point `t`'s block iff each coordinate is in the block's range on its axis. -/
theorem mem_block (t : Fin cfg1.N) (i : S100000x128.Idx) :
    i ∈ ((cfg1.win 8).blk t).view.set ↔ ∀ a : Fin 2, win1_8.index t a * S4000x128.size a ≤ (i a).val
      ∧ (i a).val < win1_8.index t a * S4000x128.size a + S4000x128.size a := by
  show i ∈ ((View.whole main_v63).slice (win1_8.rect t)).set ↔ _
  rw [View.set_slice_whole, Rect.mem_set_unit]
  exact Iff.rfl

/-- Every index of the array is in some point's block: row `n` is in the block of point `n / 4000`, and
    `25 · 4000 = 100000`. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨-, -, -, -, -, -, -, -, -, -, -, -, -, -, -, -, e0, e1⟩ := index_maps ⟨(i 0).val / 4000, ht⟩
  have e0' : win1_8.index ⟨(i 0).val / 4000, ht⟩ (0 : Fin 2) = (i 0).val / 4000 := e0
  refine ⟨⟨(i 0).val / 4000, ht⟩, flush1_8 _, ?_⟩
  rw [mem_block]
  intro a
  match a with
  | ⟨0, _⟩ =>
    show win1_8.index ⟨(i 0).val / 4000, ht⟩ (0 : Fin 2) * 4000 ≤ (i 0).val
      ∧ (i 0).val < win1_8.index ⟨(i 0).val / 4000, ht⟩ (0 : Fin 2) * 4000 + 4000
    omega
  | ⟨1, _⟩ =>
    show win1_8.index ⟨(i 0).val / 4000, ht⟩ (1 : Fin 2) * 128 ≤ (i 1).val
      ∧ (i 1).val < win1_8.index ⟨(i 0).val / 4000, ht⟩ (1 : Fin 2) * 128 + 128
    omega

/-- THE OUTPUT ARRAY after the region: `GinSpec.mlp` of the arrays read. -/
theorem out_array (c : Dev nD) :
    (dat1 (F := Ideal) V c).arrAt 8 cfg1.N
      = Cert.GinSpec.mlp (arr0 V c) (arr1 V c) (arr2 V c) (arr3 V c) (arr4 V c) (arr5 V c) (arr6 V c) (arr7 V c) :=
  (dat1 (F := Ideal) V c).arrAt_eq_of_cover 8
    (Cert.GinSpec.mlp (arr0 V c) (arr1 V c) (arr2 V c) (arr3 V c) (arr4 V c) (arr5 V c) (arr6 V c) (arr7 V c))
    (fun t _ => flushed_eq V c t) cover

end Cert.KernelIdeal.Region1

end
-- ==== Proof.KW1.lean ====
/-
  What the first stretch of host operations leaves in the four buffers every later layer reads: the two rows of the edge
  list as index vectors, and the normalisation's scale and shift arrays, each as a function of the launch memory's arguments.
-/
import proofs.«114683_j20864951124664_1_alg».proof.Proof.Gen.KernelIdeal.Frame
import proofs.«114683_j20864951124664_1_alg».proof.Proof.Spec
import proofs.«114683_j20864951124664_1_alg».proof.Proof.KAgg

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- Row 0 of the edge list, as the first stretch leaves it: the source index vector. -/
theorem W1_v1 (c : Dev nD) : (W1 (F := Ideal) m ρ c (Proc.devRef .tc main_v1) : IVec S1600000 32)
    = srcOf (x1 m c) := by
  show StableHlo.after hostOps0 (W0 m ρ c) (Proc.devRef .tc main_v1) = _
  after_results_simp
  rfl

set_option maxHeartbeats 4000000 in
/-- Row 1 of the edge list: the destination index vector. -/
theorem W1_v3 (c : Dev nD) : (W1 (F := Ideal) m ρ c (Proc.devRef .tc main_v3) : IVec S1600000 32)
    = dstOf (x1 m c) := by
  show StableHlo.after hostOps0 (W0 m ρ c) (Proc.devRef .tc main_v3) = _
  after_results_simp
  rfl

set_option maxHeartbeats 4000000 in
/-- The normalisation's scale array `γ / √(var + ε)`, all five layers stacked. -/
theorem W1_v7 (c : Dev nD) : (W1 (F := Ideal) m ρ c (Proc.devRef .tc main_v7) : FVec Ideal S5x128 .f32)
    = Host.divf (x4 m c) (Host.sqrt (addf (x7 m c) (broadcastInDim S5x128 ![] bcast_S_S5x128 (constant S_ .f32 925353388#32)))) := by
  show StableHlo.after hostOps0 (W0 m ρ c) (Proc.devRef .tc main_v7) = _
  after_results_simp

set_option maxHeartbeats 4000000 in
/-- The normalisation's shift array `β - μ · γ / √(var + ε)`. -/
theorem W1_v9 (c : Dev nD) : (W1 (F := Ideal) m ρ c (Proc.devRef .tc main_v9) : FVec Ideal S5x128 .f32)
    = subf (x5 m c) (mulf (x6 m c) (Host.divf (x4 m c) (Host.sqrt (addf (x7 m c) (broadcastInDim S5x128 ![] bcast_S_S5x128 (constant S_ .f32 925353388#32)))))) := by
  show StableHlo.after hostOps0 (W0 m ρ c) (Proc.devRef .tc main_v9) = _
  after_results_simp

end Cert.KernelIdeal.KValue

end
-- ==== Proof.KLayer1.lean ====
/-
  Layer 2 on the kernel's side: the host operations before region 1 put into its windows' arrays the features, their
  aggregate over the graph, and slice 1 of the stacked parameters (the normalisation already folded into a scale row and a
  shift row); the region leaves `GinSpec.mlp` of those in its output array; and that is the reference's `GinSpec.layer 1` of
  the features, the aggregate and the stacked parameters, because the normalisation's parameters are real.
-/
import proofs.«114683_j20864951124664_1_alg».proof.Proof.Gen.KernelIdeal.Frame
import proofs.«114683_j20864951124664_1_alg».proof.Proof.Spec
import proofs.«114683_j20864951124664_1_alg».proof.Proof.KAgg
import proofs.«114683_j20864951124664_1_alg».proof.Proof.KPersist
import proofs.«114683_j20864951124664_1_alg».proof.Proof.KIdx
import proofs.«114683_j20864951124664_1_alg».proof.Proof.MlpLayer
import proofs.«114683_j20864951124664_1_alg».proof.Proof.Region1
import proofs.«114683_j20864951124664_1_alg».proof.Proof.KW1

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The features this layer starts from: what the previous region left in its output array. -/
abbrev hprev1 (c : Dev nD) : FVec Ideal S100000x128 .f32 := W2 (F := Ideal) m ρ c (Proc.devRef .tc main_v36)

set_option maxHeartbeats 4000000 in
/-- Window 1 holds the aggregate of the incoming features over the graph. -/
theorem l1_agg (c : Dev nD) :
    (W3 (F := Ideal) m ρ c (Proc.devRef .tc main_v46) : FVec Ideal S100000x128 .f32) = aggK (x1 m c) (hprev1 m ρ c) := by
  show StableHlo.after hostOps1 (W2 m ρ c) (Proc.devRef .tc main_v46) = _
  after_results_simp
  rw [KPersist.keep2 m ρ c main_v1 (by simp [KPersist.kept]), KPersist.keep2 m ρ c main_v3 (by simp [KPersist.kept]), W1_v1, W1_v3]
  rfl

set_option maxHeartbeats 4000000 in
/-- Window 2 holds slice 1 of the first weight stack. -/
theorem l1_W1 (c : Dev nD) (q k : Fin 128) :
    (W3 (F := Ideal) m ρ c (Proc.devRef .tc main_v48) : FVec Ideal S128x128 .f32) (ix2 q k) = x2 m c (ix3 1 q k) := by
  show StableHlo.after hostOps1 (W2 m ρ c) (Proc.devRef .tc main_v48) (ix2 q k) = _
  after_results_simp
  rw [KPersist.keep2 m ρ c main_arg2 (by simp [KPersist.kept]), KPersist.W1_arg m ρ c main_arg2 (by simp)]
  exact KIdx.sliceW1_apply (x2 m c) q k

set_option maxHeartbeats 4000000 in
/-- Window 3 holds row 1 of the first bias stack. -/
theorem l1_B1 (c : Dev nD) (k : Fin 128) :
    (W3 (F := Ideal) m ρ c (Proc.devRef .tc main_v59) : FVec Ideal S1x128 .f32) (ix2 0 k) = x3 m c (ix2 1 k) := by
  show StableHlo.after hostOps1 (W2 m ρ c) (Proc.devRef .tc main_v59) (ix2 0 k) = _
  after_results_simp
  rw [KPersist.keep2 m ρ c main_arg3 (by simp [KPersist.kept]), KPersist.W1_arg m ρ c main_arg3 (by simp)]
  exact KIdx.sliceRow1_apply (x3 m c) k

set_option maxHeartbeats 4000000 in
/-- Window 4 holds row 1 of the normalisation's scale. -/
theorem l1_S (c : Dev nD) (k : Fin 128) :
    (W3 (F := Ideal) m ρ c (Proc.devRef .tc main_v60) : FVec Ideal S1x128 .f32) (ix2 0 k) = Cert.GinSpec.bnScale eps (x4 m c) (x7 m c) 1 k := by
  show StableHlo.after hostOps1 (W2 m ρ c) (Proc.devRef .tc main_v60) (ix2 0 k) = _
  after_results_simp
  rw [KPersist.keep2 m ρ c main_v7 (by simp [KPersist.kept]), W1_v7]
  exact (KIdx.sliceRow1_apply _ k).trans (KIdx.scale_apply (x4 m c) (x7 m c) 1 k)

set_option maxHeartbeats 4000000 in
/-- Window 5 holds row 1 of the normalisation's shift. -/
theorem l1_SH (c : Dev nD) (k : Fin 128) :
    (W3 (F := Ideal) m ρ c (Proc.devRef .tc main_v61) : FVec Ideal S1x128 .f32) (ix2 0 k)
      = x5 m c (ix2 1 k) - x6 m c (ix2 1 k) * Cert.GinSpec.bnScale eps (x4 m c) (x7 m c) 1 k := by
  show StableHlo.after hostOps1 (W2 m ρ c) (Proc.devRef .tc main_v61) (ix2 0 k) = _
  after_results_simp
  rw [KPersist.keep2 m ρ c main_v9 (by simp [KPersist.kept]), W1_v9]
  exact (KIdx.sliceRow1_apply _ k).trans (KIdx.shift_apply (x4 m c) (x5 m c) (x6 m c) (x7 m c) 1 k)

set_option maxHeartbeats 4000000 in
/-- Window 6 holds slice 1 of the second weight stack. -/
theorem l1_W2 (c : Dev nD) (k j : Fin 128) :
    (W3 (F := Ideal) m ρ c (Proc.devRef .tc main_v56) : FVec Ideal S128x128 .f32) (ix2 k j) = x8 m c (ix3 1 k j) := by
  show StableHlo.after hostOps1 (W2 m ρ c) (Proc.devRef .tc main_v56) (ix2 k j) = _
  after_results_simp
  rw [KPersist.keep2 m ρ c main_arg8 (by simp [KPersist.kept]), KPersist.W1_arg m ρ c main_arg8 (by simp)]
  exact KIdx.sliceW1_apply (x8 m c) k j

set_option maxHeartbeats 4000000 in
/-- Window 7 holds row 1 of the second bias stack. -/
theorem l1_B2 (c : Dev nD) (j : Fin 128) :
    (W3 (F := Ideal) m ρ c (Proc.devRef .tc main_v62) : FVec Ideal S1x128 .f32) (ix2 0 j) = x9 m c (ix2 1 j) := by
  show StableHlo.after hostOps1 (W2 m ρ c) (Proc.devRef .tc main_v62) (ix2 0 j) = _
  after_results_simp
  rw [KPersist.keep2 m ρ c main_arg9 (by simp [KPersist.kept]), KPersist.W1_arg m ρ c main_arg9 (by simp)]
  exact KIdx.sliceRow1_apply (x9 m c) j

theorem layer1_out (c : Dev nD) (h4 : ∀ i, ∃ r : ℝ, x4 m c i = (r : EReal)) (h5 : ∀ i, ∃ r : ℝ, x5 m c i = (r : EReal)) (h6 : ∀ i, ∃ r : ℝ, x6 m c i = (r : EReal))
    (hpos : ∀ i, (0 : EReal) < x7 m c i + eps) :
    (W4 (F := Ideal) m ρ c (Proc.devRef .tc main_v63) : FVec Ideal S100000x128 .f32)
      = Cert.GinSpec.layer eps 1 (hprev1 m ρ c) (aggK (x1 m c) (hprev1 m ρ c)) (x2 m c) (x3 m c) (x4 m c) (x5 m c) (x6 m c) (x7 m c) (x8 m c) (x9 m c) := by
  -- The output window's array is what the region leaves: the row-wise network of its eight input arrays.
  have hout : (W4 (F := Ideal) m ρ c (Proc.devRef .tc main_v63) : FVec Ideal S100000x128 .f32)
      = Cert.GinSpec.mlp (Region1.arr0 (V3 m ρ) c) (Region1.arr1 (V3 m ρ) c) (Region1.arr2 (V3 m ρ) c) (Region1.arr3 (V3 m ρ) c) (Region1.arr4 (V3 m ρ) c) (Region1.arr5 (V3 m ρ) c) (Region1.arr6 (V3 m ρ) c) (Region1.arr7 (V3 m ρ) c) :=
    (W4_arr m ρ c 8).trans (Region1.out_array (V3 m ρ) c)
  -- Windows 0 and 1: the incoming features, untouched by the host operations, and their aggregate.
  have e0 : Region1.arr0 (V3 m ρ) c = hprev1 m ρ c := KPersist.h1_kept m ρ c
  have e1 : Region1.arr1 (V3 m ρ) c = aggK (x1 m c) (hprev1 m ρ c) := l1_agg m ρ c
  rw [hout, e0, e1]
  -- Windows 2 to 7 are slice 1 of the stacked parameters, the normalisation folded: the reference's layer.
  exact Cert.GinSpec.mlp_eq_layer eps 1 _ _ _ _ _ _ _ _ (x2 m c) (x3 m c) (x4 m c) (x5 m c) (x6 m c) (x7 m c) (x8 m c) (x9 m c)
    (l1_W1 m ρ c) (l1_B1 m ρ c) (l1_S m ρ c) (l1_SH m ρ c) (l1_W2 m ρ c) (l1_B2 m ρ c) h4 h5 h6 hpos

end Cert.KernelIdeal.KValue

end
-- ==== Proof.Region2.lean ====
/-
  What region 2 of the kernel's program (layer 3's kernel over its 25 grid points) leaves in its output array, as ONE
  function of the eight arrays its windows read, whatever those hold when the region is entered: grid point `t` reads rows
  `4000 t … 4000 t + 3999` of the feature and aggregate arrays and the whole of the six parameter arrays, and writes those
  rows of the output; a row of the output depends on the same row of the inputs only, so the 25 blocks are the
  restrictions of one whole-array function, `GinSpec.mlp`, and they cover the array.
-/
import proofs.«114683_j20864951124664_1_alg».proof.Proof.Gen.KernelIdeal.Frame
import proofs.«114683_j20864951124664_1_alg».proof.Proof.PayGin
import proofs.«114683_j20864951124664_1_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The eight arrays the region's windows read, as the region finds them, at their literal types. -/
abbrev arr0 (c : Dev nD) : FVec Ideal S100000x128 .f32 := V c (Pipeline.arrRef spec2 0)
abbrev arr1 (c : Dev nD) : FVec Ideal S100000x128 .f32 := V c (Pipeline.arrRef spec2 1)
abbrev arr2 (c : Dev nD) : FVec Ideal S128x128 .f32 := V c (Pipeline.arrRef spec2 2)
abbrev arr3 (c : Dev nD) : FVec Ideal S1x128 .f32 := V c (Pipeline.arrRef spec2 3)
abbrev arr4 (c : Dev nD) : FVec Ideal S1x128 .f32 := V c (Pipeline.arrRef spec2 4)
abbrev arr5 (c : Dev nD) : FVec Ideal S1x128 .f32 := V c (Pipeline.arrRef spec2 5)
abbrev arr6 (c : Dev nD) : FVec Ideal S128x128 .f32 := V c (Pipeline.arrRef spec2 6)
abbrev arr7 (c : Dev nD) : FVec Ideal S1x128 .f32 := V c (Pipeline.arrRef spec2 7)

/-- The eight blocks grid point `t` loads, at their literal types. -/
abbrev blk0 (c : Dev nD) (t : Fin cfg2.N) : Vec Ideal S4000x128 .f32 := iblk2 V c 0 t
abbrev blk1 (c : Dev nD) (t : Fin cfg2.N) : Vec Ideal S4000x128 .f32 := iblk2 V c 1 t
abbrev blk2 (c : Dev nD) (t : Fin cfg2.N) : Vec Ideal S128x128 .f32 := iblk2 V c 2 t
abbrev blk3 (c : Dev nD) (t : Fin cfg2.N) : Vec Ideal S1x128 .f32 := iblk2 V c 3 t
abbrev blk4 (c : Dev nD) (t : Fin cfg2.N) : Vec Ideal S1x128 .f32 := iblk2 V c 4 t
abbrev blk5 (c : Dev nD) (t : Fin cfg2.N) : Vec Ideal S1x128 .f32 := iblk2 V c 5 t
abbrev blk6 (c : Dev nD) (t : Fin cfg2.N) : Vec Ideal S128x128 .f32 := iblk2 V c 6 t
abbrev blk7 (c : Dev nD) (t : Fin cfg2.N) : Vec Ideal S1x128 .f32 := iblk2 V c 7 t

/-- The offsets `![0, 0]` are the zero offsets. -/
theorem zero_off : (![0, 0] : Fin 2 → Nat) = fun _ => 0 :=
  funext fun a => match a with | ⟨0, _⟩ => rfl | ⟨1, _⟩ => rfl

/-- The index maps, decided over the 25 grid points: the feature, aggregate and output windows sit at block `(t, 0)`, the
    six parameter windows at block `(0, 0)`. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-! ## The blocks read, entry by entry -/

/-- Row `r` of the feature block at point `t` is row `4000 t + r` of the feature array. -/
theorem blk0_apply (c : Dev nD) (t : Fin cfg2.N) (r : Fin 4000) (q : Fin 128) (n : Fin 100000)
    (hn : n.val = t.val * 4000 + r.val) : blk0 V c t (ix2 r q) = arr0 V c (ix2 n q) := by
  obtain ⟨e0, e1, -⟩ := index_maps t
  show arr0 V c (((cfg2.win 0).blk t).view.emb (ix2 r q)) = arr0 V c (ix2 n q)
  refine congrArg (arr0 V c) ?_
  funext a; apply Fin.ext
  match a with
  | ⟨0, _⟩ => show win2_0.index t (0 : Fin 2) * 4000 + 1 * r.val = n.val; omega
  | ⟨1, _⟩ => show win2_0.index t (1 : Fin 2) * 128 + 1 * q.val = q.val; omega

/-- Row `r` of the aggregate block at point `t` is row `4000 t + r` of the aggregate array. -/
theorem blk1_apply (c : Dev nD) (t : Fin cfg2.N) (r : Fin 4000) (q : Fin 128) (n : Fin 100000)
    (hn : n.val = t.val * 4000 + r.val) : blk1 V c t (ix2 r q) = arr1 V c (ix2 n q) := by
  obtain ⟨-, -, e0, e1, -⟩ := index_maps t
  show arr1 V c (((cfg2.win 1).blk t).view.emb (ix2 r q)) = arr1 V c (ix2 n q)
  refine congrArg (arr1 V c) ?_
  funext a; apply Fin.ext
  match a with
  | ⟨0, _⟩ => show win2_1.index t (0 : Fin 2) * 4000 + 1 * r.val = n.val; omega
  | ⟨1, _⟩ => show win2_1.index t (1 : Fin 2) * 128 + 1 * q.val = q.val; omega

/-- Each parameter block is its whole array, at every point. -/
theorem blk2_apply (c : Dev nD) (t : Fin cfg2.N) (q k : Fin 128) : blk2 V c t (ix2 q k) = arr2 V c (ix2 q k) := by
  obtain ⟨-, -, -, -, e0, e1, -⟩ := index_maps t
  show arr2 V c (((cfg2.win 2).blk t).view.emb (ix2 q k)) = arr2 V c (ix2 q k)
  refine congrArg (arr2 V c) ?_
  funext a; apply Fin.ext
  match a with
  | ⟨0, _⟩ => show win2_2.index t (0 : Fin 2) * 128 + 1 * q.val = q.val; omega
  | ⟨1, _⟩ => show win2_2.index t (1 : Fin 2) * 128 + 1 * k.val = k.val; omega

theorem blk3_apply (c : Dev nD) (t : Fin cfg2.N) (z : Fin 1) (k : Fin 128) : blk3 V c t (ix2 z k) = arr3 V c (ix2 z k) := by
  obtain ⟨-, -, -, -, -, -, e0, e1, -⟩ := index_maps t
  show arr3 V c (((cfg2.win 3).blk t).view.emb (ix2 z k)) = arr3 V c (ix2 z k)
  refine congrArg (arr3 V c) ?_
  funext a; apply Fin.ext
  match a with
  | ⟨0, _⟩ => show win2_3.index t (0 : Fin 2) * 1 + 1 * z.val = z.val; omega
  | ⟨1, _⟩ => show win2_3.index t (1 : Fin 2) * 128 + 1 * k.val = k.val; omega

theorem blk4_apply (c : Dev nD) (t : Fin cfg2.N) (z : Fin 1) (k : Fin 128) : blk4 V c t (ix2 z k) = arr4 V c (ix2 z k) := by
  obtain ⟨-, -, -, -, -, -, -, -, e0, e1, -⟩ := index_maps t
  show arr4 V c (((cfg2.win 4).blk t).view.emb (ix2 z k)) = arr4 V c (ix2 z k)
  refine congrArg (arr4 V c) ?_
  funext a; apply Fin.ext
  match a with
  | ⟨0, _⟩ => show win2_4.index t (0 : Fin 2) * 1 + 1 * z.val = z.val; omega
  | ⟨1, _⟩ => show win2_4.index t (1 : Fin 2) * 128 + 1 * k.val = k.val; omega

theorem blk5_apply (c : Dev nD) (t : Fin cfg2.N) (z : Fin 1) (k : Fin 128) : blk5 V c t (ix2 z k) = arr5 V c (ix2 z k) := by
  obtain ⟨-, -, -, -, -, -, -, -, -, -, e0, e1, -⟩ := index_maps t
  show arr5 V c (((cfg2.win 5).blk t).view.emb (ix2 z k)) = arr5 V c (ix2 z k)
  refine congrArg (arr5 V c) ?_
  funext a; apply Fin.ext
  match a with
  | ⟨0, _⟩ => show win2_5.index t (0 : Fin 2) * 1 + 1 * z.val = z.val; omega
  | ⟨1, _⟩ => show win2_5.index t (1 : Fin 2) * 128 + 1 * k.val = k.val; omega

theorem blk6_apply (c : Dev nD) (t : Fin cfg2.N) (k j : Fin 128) : blk6 V c t (ix2 k j) = arr6 V c (ix2 k j) := by
  obtain ⟨-, -, -, -, -, -, -, -, -, -, -, -, e0, e1, -⟩ := index_maps t
  show arr6 V c (((cfg2.win 6).blk t).view.emb (ix2 k j)) = arr6 V c (ix2 k j)
  refine congrArg (arr6 V c) ?_
  funext a; apply Fin.ext
  match a with
  | ⟨0, _⟩ => show win2_6.index t (0 : Fin 2) * 128 + 1 * k.val = k.val; omega
  | ⟨1, _⟩ => show win2_6.index t (1 : Fin 2) * 128 + 1 * j.val = j.val; omega

theorem blk7_apply (c : Dev nD) (t : Fin cfg2.N) (z : Fin 1) (j : Fin 128) : blk7 V c t (ix2 z j) = arr7 V c (ix2 z j) := by
  obtain ⟨-, -, -, -, -, -, -, -, -, -, -, -, -, -, e0, e1, -⟩ := index_maps t
  show arr7 V c (((cfg2.win 7).blk t).view.emb (ix2 z j)) = arr7 V c (ix2 z j)
  refine congrArg (arr7 V c) ?_
  funext a; apply Fin.ext
  match a with
  | ⟨0, _⟩ => show win2_7.index t (0 : Fin 2) * 1 + 1 * z.val = z.val; omega
  | ⟨1, _⟩ => show win2_7.index t (1 : Fin 2) * 128 + 1 * j.val = j.val; omega

/-! ## One entry of the stored block -/

/-- Entry `(r, j)` of the block point `t` stores is entry `(4000 t + r, j)` of `GinSpec.mlp` of the eight arrays. -/
theorem stored_entry (c : Dev nD) (t : Fin cfg2.N) (r : Fin 4000) (j : Fin 128) (n : Fin 100000)
    (hn : n.val = t.val * 4000 + r.val) :
    k2_pay1 (F := Ideal) (blk0 V c t) (blk1 V c t) (blk2 V c t) (blk3 V c t) (blk4 V c t) (blk5 V c t) (blk6 V c t) (blk7 V c t) (ix2 r j)
      = Cert.GinSpec.mlp (arr0 V c) (arr1 V c) (arr2 V c) (arr3 V c) (arr4 V c) (arr5 V c) (arr6 V c) (arr7 V c) (ix2 n j) := by
  rw [PayGin.k2_pay1_apply]
  simp only [blk0_apply V c t r _ n hn, blk1_apply V c t r _ n hn, blk2_apply V c t, blk3_apply V c t, blk4_apply V c t,
    blk5_apply V c t, blk6_apply V c t, blk7_apply V c t]
  rfl

/-- The same at any index `y` of the block and any index `i` of the array whose row is `4000 t` plus `y`'s and whose
    lane is `y`'s. -/
theorem stored_at (c : Dev nD) (t : Fin cfg2.N) (y : S4000x128.Idx) (i : S100000x128.Idx)
    (h0 : (i 0).val = t.val * 4000 + (y 0).val) (h1 : (i 1).val = (y 1).val) :
    k2_pay1 (F := Ideal) (blk0 V c t) (blk1 V c t) (blk2 V c t) (blk3 V c t) (blk4 V c t) (blk5 V c t) (blk6 V c t) (blk7 V c t) y
      = Cert.GinSpec.mlp (arr0 V c) (arr1 V c) (arr2 V c) (arr3 V c) (arr4 V c) (arr5 V c) (arr6 V c) (arr7 V c) i := by
  obtain ⟨r, j, rfl⟩ : ∃ (r : Fin 4000) (j : Fin 128), y = ix2 r j := ⟨y 0, y 1, eq_ix2 y⟩
  obtain ⟨n, j', rfl⟩ : ∃ (n : Fin 100000) (j' : Fin 128), i = ix2 n j' := ⟨i 0, i 1, eq_ix2 i⟩
  obtain rfl : j' = j := Fin.ext h1
  exact stored_entry V c t r j' n h0

/-! ## What a point writes back, and the cover -/

/-- WHAT POINT `t` WRITES BACK is block `t` of `GinSpec.mlp` of the arrays as the region finds them. -/
theorem flushed_eq (c : Dev nD) (t : Fin cfg2.N) :
    (dat2 (F := Ideal) V c).flushed 8 t = ((cfg2.win 8).blk t).view.read (Elt Ideal)
      (Cert.GinSpec.mlp (arr0 V c) (arr1 V c) (arr2 V c) (arr3 V c) (arr4 V c) (arr5 V c) (arr6 V c) (arr7 V c)) := by
  show (cfg2.win 8).cut (grid2.coords t) ((dat2 (F := Ideal) V c).after 8 t) = _
  rw [after2_8]
  unfold out2_8
  rw [View.canon_unit_zero zero_off]
  simp only [View.ld_unit_zero (S := S4000x128) zero_off, View.ld_unit_zero (S := S128x128) zero_off,
    View.ld_unit_zero (S := S1x128) zero_off]
  obtain ⟨-, -, -, -, -, -, -, -, -, -, -, -, -, -, -, -, e0, e1⟩ := index_maps t
  funext y
  refine stored_at V c t ((cfg2.win 8).xinj (grid2.coords t) y) (((cfg2.win 8).blk t).view.emb y) ?_ ?_
  · show win2_8.index t (0 : Fin 2) * 4000 + 1 * (y 0).val = t.val * 4000 + (y 0).val; omega
  · show win2_8.index t (1 : Fin 2) * 128 + 1 * (y 1).val = (y 1).val; omega

/-- An index of the array is in point `t`'s block iff each coordinate is in the block's range on its axis. -/
theorem mem_block (t : Fin cfg2.N) (i : S100000x128.Idx) :
    i ∈ ((cfg2.win 8).blk t).view.set ↔ ∀ a : Fin 2, win2_8.index t a * S4000x128.size a ≤ (i a).val
      ∧ (i a).val < win2_8.index t a * S4000x128.size a + S4000x128.size a := by
  show i ∈ ((View.whole main_v90).slice (win2_8.rect t)).set ↔ _
  rw [View.set_slice_whole, Rect.mem_set_unit]
  exact Iff.rfl

/-- Every index of the array is in some point's block: row `n` is in the block of point `n / 4000`, and
    `25 · 4000 = 100000`. -/
theorem cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 25 := N_2
  have ht : (i 0).val / 4000 < cfg2.N := by rw [hN]; omega
  obtain ⟨-, -, -, -, -, -, -, -, -, -, -, -, -, -, -, -, e0, e1⟩ := index_maps ⟨(i 0).val / 4000, ht⟩
  have e0' : win2_8.index ⟨(i 0).val / 4000, ht⟩ (0 : Fin 2) = (i 0).val / 4000 := e0
  refine ⟨⟨(i 0).val / 4000, ht⟩, flush2_8 _, ?_⟩
  rw [mem_block]
  intro a
  match a with
  | ⟨0, _⟩ =>
    show win2_8.index ⟨(i 0).val / 4000, ht⟩ (0 : Fin 2) * 4000 ≤ (i 0).val
      ∧ (i 0).val < win2_8.index ⟨(i 0).val / 4000, ht⟩ (0 : Fin 2) * 4000 + 4000
    omega
  | ⟨1, _⟩ =>
    show win2_8.index ⟨(i 0).val / 4000, ht⟩ (1 : Fin 2) * 128 ≤ (i 1).val
      ∧ (i 1).val < win2_8.index ⟨(i 0).val / 4000, ht⟩ (1 : Fin 2) * 128 + 128
    omega

/-- THE OUTPUT ARRAY after the region: `GinSpec.mlp` of the arrays read. -/
theorem out_array (c : Dev nD) :
    (dat2 (F := Ideal) V c).arrAt 8 cfg2.N
      = Cert.GinSpec.mlp (arr0 V c) (arr1 V c) (arr2 V c) (arr3 V c) (arr4 V c) (arr5 V c) (arr6 V c) (arr7 V c) :=
  (dat2 (F := Ideal) V c).arrAt_eq_of_cover 8
    (Cert.GinSpec.mlp (arr0 V c) (arr1 V c) (arr2 V c) (arr3 V c) (arr4 V c) (arr5 V c) (arr6 V c) (arr7 V c))
    (fun t _ => flushed_eq V c t) cover

end Cert.KernelIdeal.Region2

end
-- ==== Proof.KLayer2.lean ====
/-
  Layer 3 on the kernel's side: the host operations before region 2 put into its windows' arrays the features, their
  aggregate over the graph, and slice 2 of the stacked parameters (the normalisation already folded into a scale row and a
  shift row); the region leaves `GinSpec.mlp` of those in its output array; and that is the reference's `GinSpec.layer 2` of
  the features, the aggregate and the stacked parameters, because the normalisation's parameters are real.
-/
import proofs.«114683_j20864951124664_1_alg».proof.Proof.Gen.KernelIdeal.Frame
import proofs.«114683_j20864951124664_1_alg».proof.Proof.Spec
import proofs.«114683_j20864951124664_1_alg».proof.Proof.KAgg
import proofs.«114683_j20864951124664_1_alg».proof.Proof.KPersist
import proofs.«114683_j20864951124664_1_alg».proof.Proof.KIdx
import proofs.«114683_j20864951124664_1_alg».proof.Proof.MlpLayer
import proofs.«114683_j20864951124664_1_alg».proof.Proof.Region2
import proofs.«114683_j20864951124664_1_alg».proof.Proof.KW1

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The features this layer starts from: what the previous region left in its output array. -/
abbrev hprev2 (c : Dev nD) : FVec Ideal S100000x128 .f32 := W4 (F := Ideal) m ρ c (Proc.devRef .tc main_v63)

set_option maxHeartbeats 4000000 in
/-- Window 1 holds the aggregate of the incoming features over the graph. -/
theorem l2_agg (c : Dev nD) :
    (W5 (F := Ideal) m ρ c (Proc.devRef .tc main_v73) : FVec Ideal S100000x128 .f32) = aggK (x1 m c) (hprev2 m ρ c) := by
  show StableHlo.after hostOps2 (W4 m ρ c) (Proc.devRef .tc main_v73) = _
  after_results_simp
  rw [KPersist.keep4 m ρ c main_v1 (by simp [KPersist.kept]), KPersist.keep4 m ρ c main_v3 (by simp [KPersist.kept]), W1_v1, W1_v3]
  rfl

set_option maxHeartbeats 4000000 in
/-- Window 2 holds slice 2 of the first weight stack. -/
theorem l2_W1 (c : Dev nD) (q k : Fin 128) :
    (W5 (F := Ideal) m ρ c (Proc.devRef .tc main_v75) : FVec Ideal S128x128 .f32) (ix2 q k) = x2 m c (ix3 2 q k) := by
  show StableHlo.after hostOps2 (W4 m ρ c) (Proc.devRef .tc main_v75) (ix2 q k) = _
  after_results_simp
  rw [KPersist.keep4 m ρ c main_arg2 (by simp [KPersist.kept]), KPersist.W1_arg m ρ c main_arg2 (by simp)]
  exact KIdx.sliceW2_apply (x2 m c) q k

set_option maxHeartbeats 4000000 in
/-- Window 3 holds row 2 of the first bias stack. -/
theorem l2_B1 (c : Dev nD) (k : Fin 128) :
    (W5 (F := Ideal) m ρ c (Proc.devRef .tc main_v86) : FVec Ideal S1x128 .f32) (ix2 0 k) = x3 m c (ix2 2 k) := by
  show StableHlo.after hostOps2 (W4 m ρ c) (Proc.devRef .tc main_v86) (ix2 0 k) = _
  after_results_simp
  rw [KPersist.keep4 m ρ c main_arg3 (by simp [KPersist.kept]), KPersist.W1_arg m ρ c main_arg3 (by simp)]
  exact KIdx.sliceRow2_apply (x3 m c) k

set_option maxHeartbeats 4000000 in
/-- Window 4 holds row 2 of the normalisation's scale. -/
theorem l2_S (c : Dev nD) (k : Fin 128) :
    (W5 (F := Ideal) m ρ c (Proc.devRef .tc main_v87) : FVec Ideal S1x128 .f32) (ix2 0 k) = Cert.GinSpec.bnScale eps (x4 m c) (x7 m c) 2 k := by
  show StableHlo.after hostOps2 (W4 m ρ c) (Proc.devRef .tc main_v87) (ix2 0 k) = _
  after_results_simp
  rw [KPersist.keep4 m ρ c main_v7 (by simp [KPersist.kept]), W1_v7]
  exact (KIdx.sliceRow2_apply _ k).trans (KIdx.scale_apply (x4 m c) (x7 m c) 2 k)

set_option maxHeartbeats 4000000 in
/-- Window 5 holds row 2 of the normalisation's shift. -/
theorem l2_SH (c : Dev nD) (k : Fin 128) :
    (W5 (F := Ideal) m ρ c (Proc.devRef .tc main_v88) : FVec Ideal S1x128 .f32) (ix2 0 k)
      = x5 m c (ix2 2 k) - x6 m c (ix2 2 k) * Cert.GinSpec.bnScale eps (x4 m c) (x7 m c) 2 k := by
  show StableHlo.after hostOps2 (W4 m ρ c) (Proc.devRef .tc main_v88) (ix2 0 k) = _
  after_results_simp
  rw [KPersist.keep4 m ρ c main_v9 (by simp [KPersist.kept]), W1_v9]
  exact (KIdx.sliceRow2_apply _ k).trans (KIdx.shift_apply (x4 m c) (x5 m c) (x6 m c) (x7 m c) 2 k)

set_option maxHeartbeats 4000000 in
/-- Window 6 holds slice 2 of the second weight stack. -/
theorem l2_W2 (c : Dev nD) (k j : Fin 128) :
    (W5 (F := Ideal) m ρ c (Proc.devRef .tc main_v83) : FVec Ideal S128x128 .f32) (ix2 k j) = x8 m c (ix3 2 k j) := by
  show StableHlo.after hostOps2 (W4 m ρ c) (Proc.devRef .tc main_v83) (ix2 k j) = _
  after_results_simp
  rw [KPersist.keep4 m ρ c main_arg8 (by simp [KPersist.kept]), KPersist.W1_arg m ρ c main_arg8 (by simp)]
  exact KIdx.sliceW2_apply (x8 m c) k j

set_option maxHeartbeats 4000000 in
/-- Window 7 holds row 2 of the second bias stack. -/
theorem l2_B2 (c : Dev nD) (j : Fin 128) :
    (W5 (F := Ideal) m ρ c (Proc.devRef .tc main_v89) : FVec Ideal S1x128 .f32) (ix2 0 j) = x9 m c (ix2 2 j) := by
  show StableHlo.after hostOps2 (W4 m ρ c) (Proc.devRef .tc main_v89) (ix2 0 j) = _
  after_results_simp
  rw [KPersist.keep4 m ρ c main_arg9 (by simp [KPersist.kept]), KPersist.W1_arg m ρ c main_arg9 (by simp)]
  exact KIdx.sliceRow2_apply (x9 m c) j

theorem layer2_out (c : Dev nD) (h4 : ∀ i, ∃ r : ℝ, x4 m c i = (r : EReal)) (h5 : ∀ i, ∃ r : ℝ, x5 m c i = (r : EReal)) (h6 : ∀ i, ∃ r : ℝ, x6 m c i = (r : EReal))
    (hpos : ∀ i, (0 : EReal) < x7 m c i + eps) :
    (W6 (F := Ideal) m ρ c (Proc.devRef .tc main_v90) : FVec Ideal S100000x128 .f32)
      = Cert.GinSpec.layer eps 2 (hprev2 m ρ c) (aggK (x1 m c) (hprev2 m ρ c)) (x2 m c) (x3 m c) (x4 m c) (x5 m c) (x6 m c) (x7 m c) (x8 m c) (x9 m c) := by
  -- The output window's array is what the region leaves: the row-wise network of its eight input arrays.
  have hout : (W6 (F := Ideal) m ρ c (Proc.devRef .tc main_v90) : FVec Ideal S100000x128 .f32)
      = Cert.GinSpec.mlp (Region2.arr0 (V5 m ρ) c) (Region2.arr1 (V5 m ρ) c) (Region2.arr2 (V5 m ρ) c) (Region2.arr3 (V5 m ρ) c) (Region2.arr4 (V5 m ρ) c) (Region2.arr5 (V5 m ρ) c) (Region2.arr6 (V5 m ρ) c) (Region2.arr7 (V5 m ρ) c) :=
    (W6_arr m ρ c 8).trans (Region2.out_array (V5 m ρ) c)
  -- Windows 0 and 1: the incoming features, untouched by the host operations, and their aggregate.
  have e0 : Region2.arr0 (V5 m ρ) c = hprev2 m ρ c := KPersist.h2_kept m ρ c
  have e1 : Region2.arr1 (V5 m ρ) c = aggK (x1 m c) (hprev2 m ρ c) := l2_agg m ρ c
  rw [hout, e0, e1]
  -- Windows 2 to 7 are slice 2 of the stacked parameters, the normalisation folded: the reference's layer.
  exact Cert.GinSpec.mlp_eq_layer eps 2 _ _ _ _ _ _ _ _ (x2 m c) (x3 m c) (x4 m c) (x5 m c) (x6 m c) (x7 m c) (x8 m c) (x9 m c)
    (l2_W1 m ρ c) (l2_B1 m ρ c) (l2_S m ρ c) (l2_SH m ρ c) (l2_W2 m ρ c) (l2_B2 m ρ c) h4 h5 h6 hpos

end Cert.KernelIdeal.KValue

end
-- ==== Proof.Region3.lean ====
/-
  What region 3 of the kernel's program (layer 4's kernel over its 25 grid points) leaves in its output array, as ONE
  function of the eight arrays its windows read, whatever those hold when the region is entered: grid point `t` reads rows
  `4000 t … 4000 t + 3999` of the feature and aggregate arrays and the whole of the six parameter arrays, and writes those
  rows of the output; a row of the output depends on the same row of the inputs only, so the 25 blocks are the
  restrictions of one whole-array function, `GinSpec.mlp`, and they cover the array.
-/
import proofs.«114683_j20864951124664_1_alg».proof.Proof.Gen.KernelIdeal.Frame
import proofs.«114683_j20864951124664_1_alg».proof.Proof.PayGin
import proofs.«114683_j20864951124664_1_alg».proof.Proof.Spec
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The eight arrays the region's windows read, as the region finds them, at their literal types. -/
abbrev arr0 (c : Dev nD) : FVec Ideal S100000x128 .f32 := V c (Pipeline.arrRef spec3 0)
abbrev arr1 (c : Dev nD) : FVec Ideal S100000x128 .f32 := V c (Pipeline.arrRef spec3 1)
abbrev arr2 (c : Dev nD) : FVec Ideal S128x128 .f32 := V c (Pipeline.arrRef spec3 2)
abbrev arr3 (c : Dev nD) : FVec Ideal S1x128 .f32 := V c (Pipeline.arrRef spec3 3)
abbrev arr4 (c : Dev nD) : FVec Ideal S1x128 .f32 := V c (Pipeline.arrRef spec3 4)
abbrev arr5 (c : Dev nD) : FVec Ideal S1x128 .f32 := V c (Pipeline.arrRef spec3 5)
abbrev arr6 (c : Dev nD) : FVec Ideal S128x128 .f32 := V c (Pipeline.arrRef spec3 6)
abbrev arr7 (c : Dev nD) : FVec Ideal S1x128 .f32 := V c (Pipeline.arrRef spec3 7)

/-- The eight blocks grid point `t` loads, at their literal types. -/
abbrev blk0 (c : Dev nD) (t : Fin cfg3.N) : Vec Ideal S4000x128 .f32 := iblk3 V c 0 t
abbrev blk1 (c : Dev nD) (t : Fin cfg3.N) : Vec Ideal S4000x128 .f32 := iblk3 V c 1 t
abbrev blk2 (c : Dev nD) (t : Fin cfg3.N) : Vec Ideal S128x128 .f32 := iblk3 V c 2 t
abbrev blk3 (c : Dev nD) (t : Fin cfg3.N) : Vec Ideal S1x128 .f32 := iblk3 V c 3 t
abbrev blk4 (c : Dev nD) (t : Fin cfg3.N) : Vec Ideal S1x128 .f32 := iblk3 V c 4 t
abbrev blk5 (c : Dev nD) (t : Fin cfg3.N) : Vec Ideal S1x128 .f32 := iblk3 V c 5 t
abbrev blk6 (c : Dev nD) (t : Fin cfg3.N) : Vec Ideal S128x128 .f32 := iblk3 V c 6 t
abbrev blk7 (c : Dev nD) (t : Fin cfg3.N) : Vec Ideal S1x128 .f32 := iblk3 V c 7 t

/-- The offsets `![0, 0]` are the zero offsets. -/
theorem zero_off : (![0, 0] : Fin 2 → Nat) = fun _ => 0 :=
  funext fun a => match a with | ⟨0, _⟩ => rfl | ⟨1, _⟩ => rfl

/-- The index maps, decided over the 25 grid points: the feature, aggregate and output windows sit at block `(t, 0)`, the
    six parameter windows at block `(0, 0)`. -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-! ## The blocks read, entry by entry -/

/-- Row `r` of the feature block at point `t` is row `4000 t + r` of the feature array. -/
theorem blk0_apply (c : Dev nD) (t : Fin cfg3.N) (r : Fin 4000) (q : Fin 128) (n : Fin 100000)
    (hn : n.val = t.val * 4000 + r.val) : blk0 V c t (ix2 r q) = arr0 V c (ix2 n q) := by
  obtain ⟨e0, e1, -⟩ := index_maps t
  show arr0 V c (((cfg3.win 0).blk t).view.emb (ix2 r q)) = arr0 V c (ix2 n q)
  refine congrArg (arr0 V c) ?_
  funext a; apply Fin.ext
  match a with
  | ⟨0, _⟩ => show win3_0.index t (0 : Fin 2) * 4000 + 1 * r.val = n.val; omega
  | ⟨1, _⟩ => show win3_0.index t (1 : Fin 2) * 128 + 1 * q.val = q.val; omega

/-- Row `r` of the aggregate block at point `t` is row `4000 t + r` of the aggregate array. -/
theorem blk1_apply (c : Dev nD) (t : Fin cfg3.N) (r : Fin 4000) (q : Fin 128) (n : Fin 100000)
    (hn : n.val = t.val * 4000 + r.val) : blk1 V c t (ix2 r q) = arr1 V c (ix2 n q) := by
  obtain ⟨-, -, e0, e1, -⟩ := index_maps t
  show arr1 V c (((cfg3.win 1).blk t).view.emb (ix2 r q)) = arr1 V c (ix2 n q)
  refine congrArg (arr1 V c) ?_
  funext a; apply Fin.ext
  match a with
  | ⟨0, _⟩ => show win3_1.index t (0 : Fin 2) * 4000 + 1 * r.val = n.val; omega
  | ⟨1, _⟩ => show win3_1.index t (1 : Fin 2) * 128 + 1 * q.val = q.val; omega

/-- Each parameter block is its whole array, at every point. -/
theorem blk2_apply (c : Dev nD) (t : Fin cfg3.N) (q k : Fin 128) : blk2 V c t (ix2 q k) = arr2 V c (ix2 q k) := by
  obtain ⟨-, -, -, -, e0, e1, -⟩ := index_maps t
  show arr2 V c (((cfg3.win 2).blk t).view.emb (ix2 q k)) = arr2 V c (ix2 q k)
  refine congrArg (arr2 V c) ?_
  funext a; apply Fin.ext
  match a with
  | ⟨0, _⟩ => show win3_2.index t (0 : Fin 2) * 128 + 1 * q.val = q.val; omega
  | ⟨1, _⟩ => show win3_2.index t (1 : Fin 2) * 128 + 1 * k.val = k.val; omega

theorem blk3_apply (c : Dev nD) (t : Fin cfg3.N) (z : Fin 1) (k : Fin 128) : blk3 V c t (ix2 z k) = arr3 V c (ix2 z k) := by
  obtain ⟨-, -, -, -, -, -, e0, e1, -⟩ := index_maps t
  show arr3 V c (((cfg3.win 3).blk t).view.emb (ix2 z k)) = arr3 V c (ix2 z k)
  refine congrArg (arr3 V c) ?_
  funext a; apply Fin.ext
  match a with
  | ⟨0, _⟩ => show win3_3.index t (0 : Fin 2) * 1 + 1 * z.val = z.val; omega
  | ⟨1, _⟩ => show win3_3.index t (1 : Fin 2) * 128 + 1 * k.val = k.val; omega

theorem blk4_apply (c : Dev nD) (t : Fin cfg3.N) (z : Fin 1) (k : Fin 128) : blk4 V c t (ix2 z k) = arr4 V c (ix2 z k) := by
  obtain ⟨-, -, -, -, -, -, -, -, e0, e1, -⟩ := index_maps t
  show arr4 V c (((cfg3.win 4).blk t).view.emb (ix2 z k)) = arr4 V c (ix2 z k)
  refine congrArg (arr4 V c) ?_
  funext a; apply Fin.ext
  match a with
  | ⟨0, _⟩ => show win3_4.index t (0 : Fin 2) * 1 + 1 * z.val = z.val; omega
  | ⟨1, _⟩ => show win3_4.index t (1 : Fin 2) * 128 + 1 * k.val = k.val; omega

theorem blk5_apply (c : Dev nD) (t : Fin cfg3.N) (z : Fin 1) (k : Fin 128) : blk5 V c t (ix2 z k) = arr5 V c (ix2 z k) := by
  obtain ⟨-, -, -, -, -, -, -, -, -, -, e0, e1, -⟩ := index_maps t
  show arr5 V c (((cfg3.win 5).blk t).view.emb (ix2 z k)) = arr5 V c (ix2 z k)
  refine congrArg (arr5 V c) ?_
  funext a; apply Fin.ext
  match a with
  | ⟨0, _⟩ => show win3_5.index t (0 : Fin 2) * 1 + 1 * z.val = z.val; omega
  | ⟨1, _⟩ => show win3_5.index t (1 : Fin 2) * 128 + 1 * k.val = k.val; omega

theorem blk6_apply (c : Dev nD) (t : Fin cfg3.N) (k j : Fin 128) : blk6 V c t (ix2 k j) = arr6 V c (ix2 k j) := by
  obtain ⟨-, -, -, -, -, -, -, -, -, -, -, -, e0, e1, -⟩ := index_maps t
  show arr6 V c (((cfg3.win 6).blk t).view.emb (ix2 k j)) = arr6 V c (ix2 k j)
  refine congrArg (arr6 V c) ?_
  funext a; apply Fin.ext
  match a with
  | ⟨0, _⟩ => show win3_6.index t (0 : Fin 2) * 128 + 1 * k.val = k.val; omega
  | ⟨1, _⟩ => show win3_6.index t (1 : Fin 2) * 128 + 1 * j.val = j.val; omega

theorem blk7_apply (c : Dev nD) (t : Fin cfg3.N) (z : Fin 1) (j : Fin 128) : blk7 V c t (ix2 z j) = arr7 V c (ix2 z j) := by
  obtain ⟨-, -, -, -, -, -, -, -, -, -, -, -, -, -, e0, e1, -⟩ := index_maps t
  show arr7 V c (((cfg3.win 7).blk t).view.emb (ix2 z j)) = arr7 V c (ix2 z j)
  refine congrArg (arr7 V c) ?_
  funext a; apply Fin.ext
  match a with
  | ⟨0, _⟩ => show win3_7.index t (0 : Fin 2) * 1 + 1 * z.val = z.val; omega
  | ⟨1, _⟩ => show win3_7.index t (1 : Fin 2) * 128 + 1 * j.val = j.val; omega

/-! ## One entry of the stored block -/

/-- Entry `(r, j)` of the block point `t` stores is entry `(4000 t + r, j)` of `GinSpec.mlp` of the eight arrays. -/
theorem stored_entry (c : Dev nD) (t : Fin cfg3.N) (r : Fin 4000) (j : Fin 128) (n : Fin 100000)
    (hn : n.val = t.val * 4000 + r.val) :
    k3_pay1 (F := Ideal) (blk0 V c t) (blk1 V c t) (blk2 V c t) (blk3 V c t) (blk4 V c t) (blk5 V c t) (blk6 V c t) (blk7 V c t) (ix2 r j)
      = Cert.GinSpec.mlp (arr0 V c) (arr1 V c) (arr2 V c) (arr3 V c) (arr4 V c) (arr5 V c) (arr6 V c) (arr7 V c) (ix2 n j) := by
  rw [PayGin.k3_pay1_apply]
  simp only [blk0_apply V c t r _ n hn, blk1_apply V c t r _ n hn, blk2_apply V c t, blk3_apply V c t, blk4_apply V c t,
    blk5_apply V c t, blk6_apply V c t, blk7_apply V c t]
  rfl

/-- The same at any index `y` of the block and any index `i` of the array whose row is `4000 t` plus `y`'s and whose
    lane is `y`'s. -/
theorem stored_at (c : Dev nD) (t : Fin cfg3.N) (y : S4000x128.Idx) (i : S100000x128.Idx)
    (h0 : (i 0).val = t.val * 4000 + (y 0).val) (h1 : (i 1).val = (y 1).val) :
    k3_pay1 (F := Ideal) (blk0 V c t) (blk1 V c t) (blk2 V c t) (blk3 V c t) (blk4 V c t) (blk5 V c t) (blk6 V c t) (blk7 V c t) y
      = Cert.GinSpec.mlp (arr0 V c) (arr1 V c) (arr2 V c) (arr3 V c) (arr4 V c) (arr5 V c) (arr6 V c) (arr7 V c) i := by
  obtain ⟨r, j, rfl⟩ : ∃ (r : Fin 4000) (j : Fin 128), y = ix2 r j := ⟨y 0, y 1, eq_ix2 y⟩
  obtain ⟨n, j', rfl⟩ : ∃ (n : Fin 100000) (j' : Fin 128), i = ix2 n j' := ⟨i 0, i 1, eq_ix2 i⟩
  obtain rfl : j' = j := Fin.ext h1
  exact stored_entry V c t r j' n h0

/-! ## What a point writes back, and the cover -/

/-- WHAT POINT `t` WRITES BACK is block `t` of `GinSpec.mlp` of the arrays as the region finds them. -/
theorem flushed_eq (c : Dev nD) (t : Fin cfg3.N) :
    (dat3 (F := Ideal) V c).flushed 8 t = ((cfg3.win 8).blk t).view.read (Elt Ideal)
      (Cert.GinSpec.mlp (arr0 V c) (arr1 V c) (arr2 V c) (arr3 V c) (arr4 V c) (arr5 V c) (arr6 V c) (arr7 V c)) := by
  show (cfg3.win 8).cut (grid3.coords t) ((dat3 (F := Ideal) V c).after 8 t) = _
  rw [after3_8]
  unfold out3_8
  rw [View.canon_unit_zero zero_off]
  simp only [View.ld_unit_zero (S := S4000x128) zero_off, View.ld_unit_zero (S := S128x128) zero_off,
    View.ld_unit_zero (S := S1x128) zero_off]
  obtain ⟨-, -, -, -, -, -, -, -, -, -, -, -, -, -, -, -, e0, e1⟩ := index_maps t
  funext y
  refine stored_at V c t ((cfg3.win 8).xinj (grid3.coords t) y) (((cfg3.win 8).blk t).view.emb y) ?_ ?_
  · show win3_8.index t (0 : Fin 2) * 4000 + 1 * (y 0).val = t.val * 4000 + (y 0).val; omega
  · show win3_8.index t (1 : Fin 2) * 128 + 1 * (y 1).val = (y 1).val; omega

/-- An index of the array is in point `t`'s block iff each coordinate is in the block's range on its axis. -/
theorem mem_block (t : Fin cfg3.N) (i : S100000x128.Idx) :
    i ∈ ((cfg3.win 8).blk t).view.set ↔ ∀ a : Fin 2, win3_8.index t a * S4000x128.size a ≤ (i a).val
      ∧ (i a).val < win3_8.index t a * S4000x128.size a + S4000x128.size a := by
  show i ∈ ((View.whole main_v117).slice (win3_8.rect t)).set ↔ _
  rw [View.set_slice_whole, Rect.mem_set_unit]
  exact Iff.rfl

/-- Every index of the array is in some point's block: row `n` is in the block of point `n / 4000`, and
    `25 · 4000 = 100000`. -/
theorem cover (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  have hN : cfg3.N = 25 := N_3
  have ht : (i 0).val / 4000 < cfg3.N := by rw [hN]; omega
  obtain ⟨-, -, -, -, -, -, -, -, -, -, -, -, -, -, -, -, e0, e1⟩ := index_maps ⟨(i 0).val / 4000, ht⟩
  have e0' : win3_8.index ⟨(i 0).val / 4000, ht⟩ (0 : Fin 2) = (i 0).val / 4000 := e0
  refine ⟨⟨(i 0).val / 4000, ht⟩, flush3_8 _, ?_⟩
  rw [mem_block]
  intro a
  match a with
  | ⟨0, _⟩ =>
    show win3_8.index ⟨(i 0).val / 4000, ht⟩ (0 : Fin 2) * 4000 ≤ (i 0).val
      ∧ (i 0).val < win3_8.index ⟨(i 0).val / 4000, ht⟩ (0 : Fin 2) * 4000 + 4000
    omega
  | ⟨1, _⟩ =>
    show win3_8.index ⟨(i 0).val / 4000, ht⟩ (1 : Fin 2) * 128 ≤ (i 1).val
      ∧ (i 1).val < win3_8.index ⟨(i 0).val / 4000, ht⟩ (1 : Fin 2) * 128 + 128
    omega

/-- THE OUTPUT ARRAY after the region: `GinSpec.mlp` of the arrays read. -/
theorem out_array (c : Dev nD) :
    (dat3 (F := Ideal) V c).arrAt 8 cfg3.N
      = Cert.GinSpec.mlp (arr0 V c) (arr1 V c) (arr2 V c) (arr3 V c) (arr4 V c) (arr5 V c) (arr6 V c) (arr7 V c) :=
  (dat3 (F := Ideal) V c).arrAt_eq_of_cover 8
    (Cert.GinSpec.mlp (arr0 V c) (arr1 V c) (arr2 V c) (arr3 V c) (arr4 V c) (arr5 V c) (arr6 V c) (arr7 V c))
    (fun t _ => flushed_eq V c t) cover

end Cert.KernelIdeal.Region3

end
-- ==== Proof.KLayer3.lean ====
/-
  Layer 4 on the kernel's side: the host operations before region 3 put into its windows' arrays the features, their
  aggregate over the graph, and slice 3 of the stacked parameters (the normalisation already folded into a scale row and a
  shift row); the region leaves `GinSpec.mlp` of those in its output array; and that is the reference's `GinSpec.layer 3` of
  the features, the aggregate and the stacked parameters, because the normalisation's parameters are real.
-/
import proofs.«114683_j20864951124664_1_alg».proof.Proof.Gen.KernelIdeal.Frame
import proofs.«114683_j20864951124664_1_alg».proof.Proof.Spec
import proofs.«114683_j20864951124664_1_alg».proof.Proof.KAgg
import proofs.«114683_j20864951124664_1_alg».proof.Proof.KPersist
import proofs.«114683_j20864951124664_1_alg».proof.Proof.KIdx
import proofs.«114683_j20864951124664_1_alg».proof.Proof.MlpLayer
import proofs.«114683_j20864951124664_1_alg».proof.Proof.Region3
import proofs.«114683_j20864951124664_1_alg».proof.Proof.KW1

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The features this layer starts from: what the previous region left in its output array. -/
abbrev hprev3 (c : Dev nD) : FVec Ideal S100000x128 .f32 := W6 (F := Ideal) m ρ c (Proc.devRef .tc main_v90)

set_option maxHeartbeats 4000000 in
/-- Window 1 holds the aggregate of the incoming features over the graph. -/
theorem l3_agg (c : Dev nD) :
    (W7 (F := Ideal) m ρ c (Proc.devRef .tc main_v100) : FVec Ideal S100000x128 .f32) = aggK (x1 m c) (hprev3 m ρ c) := by
  show StableHlo.after hostOps3 (W6 m ρ c) (Proc.devRef .tc main_v100) = _
  after_results_simp
  rw [KPersist.keep6 m ρ c main_v1 (by simp [KPersist.kept]), KPersist.keep6 m ρ c main_v3 (by simp [KPersist.kept]), W1_v1, W1_v3]
  rfl

set_option maxHeartbeats 4000000 in
/-- Window 2 holds slice 3 of the first weight stack. -/
theorem l3_W1 (c : Dev nD) (q k : Fin 128) :
    (W7 (F := Ideal) m ρ c (Proc.devRef .tc main_v102) : FVec Ideal S128x128 .f32) (ix2 q k) = x2 m c (ix3 3 q k) := by
  show StableHlo.after hostOps3 (W6 m ρ c) (Proc.devRef .tc main_v102) (ix2 q k) = _
  after_results_simp
  rw [KPersist.keep6 m ρ c main_arg2 (by simp [KPersist.kept]), KPersist.W1_arg m ρ c main_arg2 (by simp)]
  exact KIdx.sliceW3_apply (x2 m c) q k

set_option maxHeartbeats 4000000 in
/-- Window 3 holds row 3 of the first bias stack. -/
theorem l3_B1 (c : Dev nD) (k : Fin 128) :
    (W7 (F := Ideal) m ρ c (Proc.devRef .tc main_v113) : FVec Ideal S1x128 .f32) (ix2 0 k) = x3 m c (ix2 3 k) := by
  show StableHlo.after hostOps3 (W6 m ρ c) (Proc.devRef .tc main_v113) (ix2 0 k) = _
  after_results_simp
  rw [KPersist.keep6 m ρ c main_arg3 (by simp [KPersist.kept]), KPersist.W1_arg m ρ c main_arg3 (by simp)]
  exact KIdx.sliceRow3_apply (x3 m c) k

set_option maxHeartbeats 4000000 in
/-- Window 4 holds row 3 of the normalisation's scale. -/
theorem l3_S (c : Dev nD) (k : Fin 128) :
    (W7 (F := Ideal) m ρ c (Proc.devRef .tc main_v114) : FVec Ideal S1x128 .f32) (ix2 0 k) = Cert.GinSpec.bnScale eps (x4 m c) (x7 m c) 3 k := by
  show StableHlo.after hostOps3 (W6 m ρ c) (Proc.devRef .tc main_v114) (ix2 0 k) = _
  after_results_simp
  rw [KPersist.keep6 m ρ c main_v7 (by simp [KPersist.kept]), W1_v7]
  exact (KIdx.sliceRow3_apply _ k).trans (KIdx.scale_apply (x4 m c) (x7 m c) 3 k)

set_option maxHeartbeats 4000000 in
/-- Window 5 holds row 3 of the normalisation's shift. -/
theorem l3_SH (c : Dev nD) (k : Fin 128) :
    (W7 (F := Ideal) m ρ c (Proc.devRef .tc main_v115) : FVec Ideal S1x128 .f32) (ix2 0 k)
      = x5 m c (ix2 3 k) - x6 m c (ix2 3 k) * Cert.GinSpec.bnScale eps (x4 m c) (x7 m c) 3 k := by
  show StableHlo.after hostOps3 (W6 m ρ c) (Proc.devRef .tc main_v115) (ix2 0 k) = _
  after_results_simp
  rw [KPersist.keep6 m ρ c main_v9 (by simp [KPersist.kept]), W1_v9]
  exact (KIdx.sliceRow3_apply _ k).trans (KIdx.shift_apply (x4 m c) (x5 m c) (x6 m c) (x7 m c) 3 k)

set_option maxHeartbeats 4000000 in
/-- Window 6 holds slice 3 of the second weight stack. -/
theorem l3_W2 (c : Dev nD) (k j : Fin 128) :
    (W7 (F := Ideal) m ρ c (Proc.devRef .tc main_v110) : FVec Ideal S128x128 .f32) (ix2 k j) = x8 m c (ix3 3 k j) := by
  show StableHlo.after hostOps3 (W6 m ρ c) (Proc.devRef .tc main_v110) (ix2 k j) = _
  after_results_simp
  rw [KPersist.keep6 m ρ c main_arg8 (by simp [KPersist.kept]), KPersist.W1_arg m ρ c main_arg8 (by simp)]
  exact KIdx.sliceW3_apply (x8 m c) k j

set_option maxHeartbeats 4000000 in
/-- Window 7 holds row 3 of the second bias stack. -/
theorem l3_B2 (c : Dev nD) (j : Fin 128) :
    (W7 (F := Ideal) m ρ c (Proc.devRef .tc main_v116) : FVec Ideal S1x128 .f32) (ix2 0 j) = x9 m c (ix2 3 j) := by
  show StableHlo.after hostOps3 (W6 m ρ c) (Proc.devRef .tc main_v116) (ix2 0 j) = _
  after_results_simp
  rw [KPersist.keep6 m ρ c main_arg9 (by simp [KPersist.kept]), KPersist.W1_arg m ρ c main_arg9 (by simp)]
  exact KIdx.sliceRow3_apply (x9 m c) j

theorem layer3_out (c : Dev nD) (h4 : ∀ i, ∃ r : ℝ, x4 m c i = (r : EReal)) (h5 : ∀ i, ∃ r : ℝ, x5 m c i = (r : EReal)) (h6 : ∀ i, ∃ r : ℝ, x6 m c i = (r : EReal))
    (hpos : ∀ i, (0 : EReal) < x7 m c i + eps) :
    (W8 (F := Ideal) m ρ c (Proc.devRef .tc main_v117) : FVec Ideal S100000x128 .f32)
      = Cert.GinSpec.layer eps 3 (hprev3 m ρ c) (aggK (x1 m c) (hprev3 m ρ c)) (x2 m c) (x3 m c) (x4 m c) (x5 m c) (x6 m c) (x7 m c) (x8 m c) (x9 m c) := by
  -- The output window's array is what the region leaves: the row-wise network of its eight input arrays.
  have hout : (W8 (F := Ideal) m ρ c (Proc.devRef .tc main_v117) : FVec Ideal S100000x128 .f32)
      = Cert.GinSpec.mlp (Region3.arr0 (V7 m ρ) c) (Region3.arr1 (V7 m ρ) c) (Region3.arr2 (V7 m ρ) c) (Region3.arr3 (V7 m ρ) c) (Region3.arr4 (V7 m ρ) c) (Region3.arr5 (V7 m ρ) c) (Region3.arr6 (V7 m ρ) c) (Region3.arr7 (V7 m ρ) c) :=
    (W8_arr m ρ c 8).trans (Region3.out_array (V7 m ρ) c)
  -- Windows 0 and 1: the incoming features, untouched by the host operations, and their aggregate.
  have e0 : Region3.arr0 (V7 m ρ) c = hprev3 m ρ c := KPersist.h3_kept m ρ c
  have e1 : Region3.arr1 (V7 m ρ) c = aggK (x1 m c) (hprev3 m ρ c) := l3_agg m ρ c
  rw [hout, e0, e1]
  -- Windows 2 to 7 are slice 3 of the stacked parameters, the normalisation folded: the reference's layer.
  exact Cert.GinSpec.mlp_eq_layer eps 3 _ _ _ _ _ _ _ _ (x2 m c) (x3 m c) (x4 m c) (x5 m c) (x6 m c) (x7 m c) (x8 m c) (x9 m c)
    (l3_W1 m ρ c) (l3_B1 m ρ c) (l3_S m ρ c) (l3_SH m ρ c) (l3_W2 m ρ c) (l3_B2 m ρ c) h4 h5 h6 hpos

end Cert.KernelIdeal.KValue

end
-- ==== Proof.Region4.lean ====
/-
  What region 4 of the kernel's program (layer 5's kernel over its 25 grid points) leaves in its output array, as ONE
  function of the eight arrays its windows read, whatever those hold when the region is entered: grid point `t` reads rows
  `4000 t … 4000 t + 3999` of the feature and aggregate arrays and the whole of the six parameter arrays, and writes those
  rows of the output; a row of the output depends on the same row of the inputs only, so the 25 blocks are the
  restrictions of one whole-array function, `GinSpec.mlp`, and they cover the array.
-/
import proofs.«114683_j20864951124664_1_alg».proof.Proof.Gen.KernelIdeal.Frame
import proofs.«114683_j20864951124664_1_alg».proof.Proof.PayGin
import proofs.«114683_j20864951124664_1_alg».proof.Proof.Spec
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The eight arrays the region's windows read, as the region finds them, at their literal types. -/
abbrev arr0 (c : Dev nD) : FVec Ideal S100000x128 .f32 := V c (Pipeline.arrRef spec4 0)
abbrev arr1 (c : Dev nD) : FVec Ideal S100000x128 .f32 := V c (Pipeline.arrRef spec4 1)
abbrev arr2 (c : Dev nD) : FVec Ideal S128x128 .f32 := V c (Pipeline.arrRef spec4 2)
abbrev arr3 (c : Dev nD) : FVec Ideal S1x128 .f32 := V c (Pipeline.arrRef spec4 3)
abbrev arr4 (c : Dev nD) : FVec Ideal S1x128 .f32 := V c (Pipeline.arrRef spec4 4)
abbrev arr5 (c : Dev nD) : FVec Ideal S1x128 .f32 := V c (Pipeline.arrRef spec4 5)
abbrev arr6 (c : Dev nD) : FVec Ideal S128x128 .f32 := V c (Pipeline.arrRef spec4 6)
abbrev arr7 (c : Dev nD) : FVec Ideal S1x128 .f32 := V c (Pipeline.arrRef spec4 7)

/-- The eight blocks grid point `t` loads, at their literal types. -/
abbrev blk0 (c : Dev nD) (t : Fin cfg4.N) : Vec Ideal S4000x128 .f32 := iblk4 V c 0 t
abbrev blk1 (c : Dev nD) (t : Fin cfg4.N) : Vec Ideal S4000x128 .f32 := iblk4 V c 1 t
abbrev blk2 (c : Dev nD) (t : Fin cfg4.N) : Vec Ideal S128x128 .f32 := iblk4 V c 2 t
abbrev blk3 (c : Dev nD) (t : Fin cfg4.N) : Vec Ideal S1x128 .f32 := iblk4 V c 3 t
abbrev blk4 (c : Dev nD) (t : Fin cfg4.N) : Vec Ideal S1x128 .f32 := iblk4 V c 4 t
abbrev blk5 (c : Dev nD) (t : Fin cfg4.N) : Vec Ideal S1x128 .f32 := iblk4 V c 5 t
abbrev blk6 (c : Dev nD) (t : Fin cfg4.N) : Vec Ideal S128x128 .f32 := iblk4 V c 6 t
abbrev blk7 (c : Dev nD) (t : Fin cfg4.N) : Vec Ideal S1x128 .f32 := iblk4 V c 7 t

/-- The offsets `![0, 0]` are the zero offsets. -/
theorem zero_off : (![0, 0] : Fin 2 → Nat) = fun _ => 0 :=
  funext fun a => match a with | ⟨0, _⟩ => rfl | ⟨1, _⟩ => rfl

/-- The index maps, decided over the 25 grid points: the feature, aggregate and output windows sit at block `(t, 0)`, the
    six parameter windows at block `(0, 0)`. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-! ## The blocks read, entry by entry -/

/-- Row `r` of the feature block at point `t` is row `4000 t + r` of the feature array. -/
theorem blk0_apply (c : Dev nD) (t : Fin cfg4.N) (r : Fin 4000) (q : Fin 128) (n : Fin 100000)
    (hn : n.val = t.val * 4000 + r.val) : blk0 V c t (ix2 r q) = arr0 V c (ix2 n q) := by
  obtain ⟨e0, e1, -⟩ := index_maps t
  show arr0 V c (((cfg4.win 0).blk t).view.emb (ix2 r q)) = arr0 V c (ix2 n q)
  refine congrArg (arr0 V c) ?_
  funext a; apply Fin.ext
  match a with
  | ⟨0, _⟩ => show win4_0.index t (0 : Fin 2) * 4000 + 1 * r.val = n.val; omega
  | ⟨1, _⟩ => show win4_0.index t (1 : Fin 2) * 128 + 1 * q.val = q.val; omega

/-- Row `r` of the aggregate block at point `t` is row `4000 t + r` of the aggregate array. -/
theorem blk1_apply (c : Dev nD) (t : Fin cfg4.N) (r : Fin 4000) (q : Fin 128) (n : Fin 100000)
    (hn : n.val = t.val * 4000 + r.val) : blk1 V c t (ix2 r q) = arr1 V c (ix2 n q) := by
  obtain ⟨-, -, e0, e1, -⟩ := index_maps t
  show arr1 V c (((cfg4.win 1).blk t).view.emb (ix2 r q)) = arr1 V c (ix2 n q)
  refine congrArg (arr1 V c) ?_
  funext a; apply Fin.ext
  match a with
  | ⟨0, _⟩ => show win4_1.index t (0 : Fin 2) * 4000 + 1 * r.val = n.val; omega
  | ⟨1, _⟩ => show win4_1.index t (1 : Fin 2) * 128 + 1 * q.val = q.val; omega

/-- Each parameter block is its whole array, at every point. -/
theorem blk2_apply (c : Dev nD) (t : Fin cfg4.N) (q k : Fin 128) : blk2 V c t (ix2 q k) = arr2 V c (ix2 q k) := by
  obtain ⟨-, -, -, -, e0, e1, -⟩ := index_maps t
  show arr2 V c (((cfg4.win 2).blk t).view.emb (ix2 q k)) = arr2 V c (ix2 q k)
  refine congrArg (arr2 V c) ?_
  funext a; apply Fin.ext
  match a with
  | ⟨0, _⟩ => show win4_2.index t (0 : Fin 2) * 128 + 1 * q.val = q.val; omega
  | ⟨1, _⟩ => show win4_2.index t (1 : Fin 2) * 128 + 1 * k.val = k.val; omega

theorem blk3_apply (c : Dev nD) (t : Fin cfg4.N) (z : Fin 1) (k : Fin 128) : blk3 V c t (ix2 z k) = arr3 V c (ix2 z k) := by
  obtain ⟨-, -, -, -, -, -, e0, e1, -⟩ := index_maps t
  show arr3 V c (((cfg4.win 3).blk t).view.emb (ix2 z k)) = arr3 V c (ix2 z k)
  refine congrArg (arr3 V c) ?_
  funext a; apply Fin.ext
  match a with
  | ⟨0, _⟩ => show win4_3.index t (0 : Fin 2) * 1 + 1 * z.val = z.val; omega
  | ⟨1, _⟩ => show win4_3.index t (1 : Fin 2) * 128 + 1 * k.val = k.val; omega

theorem blk4_apply (c : Dev nD) (t : Fin cfg4.N) (z : Fin 1) (k : Fin 128) : blk4 V c t (ix2 z k) = arr4 V c (ix2 z k) := by
  obtain ⟨-, -, -, -, -, -, -, -, e0, e1, -⟩ := index_maps t
  show arr4 V c (((cfg4.win 4).blk t).view.emb (ix2 z k)) = arr4 V c (ix2 z k)
  refine congrArg (arr4 V c) ?_
  funext a; apply Fin.ext
  match a with
  | ⟨0, _⟩ => show win4_4.index t (0 : Fin 2) * 1 + 1 * z.val = z.val; omega
  | ⟨1, _⟩ => show win4_4.index t (1 : Fin 2) * 128 + 1 * k.val = k.val; omega

theorem blk5_apply (c : Dev nD) (t : Fin cfg4.N) (z : Fin 1) (k : Fin 128) : blk5 V c t (ix2 z k) = arr5 V c (ix2 z k) := by
  obtain ⟨-, -, -, -, -, -, -, -, -, -, e0, e1, -⟩ := index_maps t
  show arr5 V c (((cfg4.win 5).blk t).view.emb (ix2 z k)) = arr5 V c (ix2 z k)
  refine congrArg (arr5 V c) ?_
  funext a; apply Fin.ext
  match a with
  | ⟨0, _⟩ => show win4_5.index t (0 : Fin 2) * 1 + 1 * z.val = z.val; omega
  | ⟨1, _⟩ => show win4_5.index t (1 : Fin 2) * 128 + 1 * k.val = k.val; omega

theorem blk6_apply (c : Dev nD) (t : Fin cfg4.N) (k j : Fin 128) : blk6 V c t (ix2 k j) = arr6 V c (ix2 k j) := by
  obtain ⟨-, -, -, -, -, -, -, -, -, -, -, -, e0, e1, -⟩ := index_maps t
  show arr6 V c (((cfg4.win 6).blk t).view.emb (ix2 k j)) = arr6 V c (ix2 k j)
  refine congrArg (arr6 V c) ?_
  funext a; apply Fin.ext
  match a with
  | ⟨0, _⟩ => show win4_6.index t (0 : Fin 2) * 128 + 1 * k.val = k.val; omega
  | ⟨1, _⟩ => show win4_6.index t (1 : Fin 2) * 128 + 1 * j.val = j.val; omega

theorem blk7_apply (c : Dev nD) (t : Fin cfg4.N) (z : Fin 1) (j : Fin 128) : blk7 V c t (ix2 z j) = arr7 V c (ix2 z j) := by
  obtain ⟨-, -, -, -, -, -, -, -, -, -, -, -, -, -, e0, e1, -⟩ := index_maps t
  show arr7 V c (((cfg4.win 7).blk t).view.emb (ix2 z j)) = arr7 V c (ix2 z j)
  refine congrArg (arr7 V c) ?_
  funext a; apply Fin.ext
  match a with
  | ⟨0, _⟩ => show win4_7.index t (0 : Fin 2) * 1 + 1 * z.val = z.val; omega
  | ⟨1, _⟩ => show win4_7.index t (1 : Fin 2) * 128 + 1 * j.val = j.val; omega

/-! ## One entry of the stored block -/

/-- Entry `(r, j)` of the block point `t` stores is entry `(4000 t + r, j)` of `GinSpec.mlp` of the eight arrays. -/
theorem stored_entry (c : Dev nD) (t : Fin cfg4.N) (r : Fin 4000) (j : Fin 128) (n : Fin 100000)
    (hn : n.val = t.val * 4000 + r.val) :
    k4_pay1 (F := Ideal) (blk0 V c t) (blk1 V c t) (blk2 V c t) (blk3 V c t) (blk4 V c t) (blk5 V c t) (blk6 V c t) (blk7 V c t) (ix2 r j)
      = Cert.GinSpec.mlp (arr0 V c) (arr1 V c) (arr2 V c) (arr3 V c) (arr4 V c) (arr5 V c) (arr6 V c) (arr7 V c) (ix2 n j) := by
  rw [PayGin.k4_pay1_apply]
  simp only [blk0_apply V c t r _ n hn, blk1_apply V c t r _ n hn, blk2_apply V c t, blk3_apply V c t, blk4_apply V c t,
    blk5_apply V c t, blk6_apply V c t, blk7_apply V c t]
  rfl

/-- The same at any index `y` of the block and any index `i` of the array whose row is `4000 t` plus `y`'s and whose
    lane is `y`'s. -/
theorem stored_at (c : Dev nD) (t : Fin cfg4.N) (y : S4000x128.Idx) (i : S100000x128.Idx)
    (h0 : (i 0).val = t.val * 4000 + (y 0).val) (h1 : (i 1).val = (y 1).val) :
    k4_pay1 (F := Ideal) (blk0 V c t) (blk1 V c t) (blk2 V c t) (blk3 V c t) (blk4 V c t) (blk5 V c t) (blk6 V c t) (blk7 V c t) y
      = Cert.GinSpec.mlp (arr0 V c) (arr1 V c) (arr2 V c) (arr3 V c) (arr4 V c) (arr5 V c) (arr6 V c) (arr7 V c) i := by
  obtain ⟨r, j, rfl⟩ : ∃ (r : Fin 4000) (j : Fin 128), y = ix2 r j := ⟨y 0, y 1, eq_ix2 y⟩
  obtain ⟨n, j', rfl⟩ : ∃ (n : Fin 100000) (j' : Fin 128), i = ix2 n j' := ⟨i 0, i 1, eq_ix2 i⟩
  obtain rfl : j' = j := Fin.ext h1
  exact stored_entry V c t r j' n h0

/-! ## What a point writes back, and the cover -/

/-- WHAT POINT `t` WRITES BACK is block `t` of `GinSpec.mlp` of the arrays as the region finds them. -/
theorem flushed_eq (c : Dev nD) (t : Fin cfg4.N) :
    (dat4 (F := Ideal) V c).flushed 8 t = ((cfg4.win 8).blk t).view.read (Elt Ideal)
      (Cert.GinSpec.mlp (arr0 V c) (arr1 V c) (arr2 V c) (arr3 V c) (arr4 V c) (arr5 V c) (arr6 V c) (arr7 V c)) := by
  show (cfg4.win 8).cut (grid4.coords t) ((dat4 (F := Ideal) V c).after 8 t) = _
  rw [after4_8]
  unfold out4_8
  rw [View.canon_unit_zero zero_off]
  simp only [View.ld_unit_zero (S := S4000x128) zero_off, View.ld_unit_zero (S := S128x128) zero_off,
    View.ld_unit_zero (S := S1x128) zero_off]
  obtain ⟨-, -, -, -, -, -, -, -, -, -, -, -, -, -, -, -, e0, e1⟩ := index_maps t
  funext y
  refine stored_at V c t ((cfg4.win 8).xinj (grid4.coords t) y) (((cfg4.win 8).blk t).view.emb y) ?_ ?_
  · show win4_8.index t (0 : Fin 2) * 4000 + 1 * (y 0).val = t.val * 4000 + (y 0).val; omega
  · show win4_8.index t (1 : Fin 2) * 128 + 1 * (y 1).val = (y 1).val; omega

/-- An index of the array is in point `t`'s block iff each coordinate is in the block's range on its axis. -/
theorem mem_block (t : Fin cfg4.N) (i : S100000x128.Idx) :
    i ∈ ((cfg4.win 8).blk t).view.set ↔ ∀ a : Fin 2, win4_8.index t a * S4000x128.size a ≤ (i a).val
      ∧ (i a).val < win4_8.index t a * S4000x128.size a + S4000x128.size a := by
  show i ∈ ((View.whole main_v144).slice (win4_8.rect t)).set ↔ _
  rw [View.set_slice_whole, Rect.mem_set_unit]
  exact Iff.rfl

/-- Every index of the array is in some point's block: row `n` is in the block of point `n / 4000`, and
    `25 · 4000 = 100000`. -/
theorem cover (i : S100000x128.Idx) :
    ∃ t : Fin cfg4.N, (cfg4.win 8).flush t = true ∧ i ∈ ((cfg4.win 8).blk t).view.set := by
  have hi0 : (i 0).val < 100000 := (i 0).isLt
  have hi1 : (i 1).val < 128 := (i 1).isLt
  have hN : cfg4.N = 25 := N_4
  have ht : (i 0).val / 4000 < cfg4.N := by rw [hN]; omega
  obtain ⟨-, -, -, -, -, -, -, -, -, -, -, -, -, -, -, -, e0, e1⟩ := index_maps ⟨(i 0).val / 4000, ht⟩
  have e0' : win4_8.index ⟨(i 0).val / 4000, ht⟩ (0 : Fin 2) = (i 0).val / 4000 := e0
  refine ⟨⟨(i 0).val / 4000, ht⟩, flush4_8 _, ?_⟩
  rw [mem_block]
  intro a
  match a with
  | ⟨0, _⟩ =>
    show win4_8.index ⟨(i 0).val / 4000, ht⟩ (0 : Fin 2) * 4000 ≤ (i 0).val
      ∧ (i 0).val < win4_8.index ⟨(i 0).val / 4000, ht⟩ (0 : Fin 2) * 4000 + 4000
    omega
  | ⟨1, _⟩ =>
    show win4_8.index ⟨(i 0).val / 4000, ht⟩ (1 : Fin 2) * 128 ≤ (i 1).val
      ∧ (i 1).val < win4_8.index ⟨(i 0).val / 4000, ht⟩ (1 : Fin 2) * 128 + 128
    omega

/-- THE OUTPUT ARRAY after the region: `GinSpec.mlp` of the arrays read. -/
theorem out_array (c : Dev nD) :
    (dat4 (F := Ideal) V c).arrAt 8 cfg4.N
      = Cert.GinSpec.mlp (arr0 V c) (arr1 V c) (arr2 V c) (arr3 V c) (arr4 V c) (arr5 V c) (arr6 V c) (arr7 V c) :=
  (dat4 (F := Ideal) V c).arrAt_eq_of_cover 8
    (Cert.GinSpec.mlp (arr0 V c) (arr1 V c) (arr2 V c) (arr3 V c) (arr4 V c) (arr5 V c) (arr6 V c) (arr7 V c))
    (fun t _ => flushed_eq V c t) cover

end Cert.KernelIdeal.Region4

end
-- ==== Proof.KLayer4.lean ====
/-
  Layer 5 on the kernel's side: the host operations before region 4 put into its windows' arrays the features, their
  aggregate over the graph, and slice 4 of the stacked parameters (the normalisation already folded into a scale row and a
  shift row); the region leaves `GinSpec.mlp` of those in its output array; and that is the reference's `GinSpec.layer 4` of
  the features, the aggregate and the stacked parameters, because the normalisation's parameters are real.
-/
import proofs.«114683_j20864951124664_1_alg».proof.Proof.Gen.KernelIdeal.Frame
import proofs.«114683_j20864951124664_1_alg».proof.Proof.Spec
import proofs.«114683_j20864951124664_1_alg».proof.Proof.KAgg
import proofs.«114683_j20864951124664_1_alg».proof.Proof.KPersist
import proofs.«114683_j20864951124664_1_alg».proof.Proof.KIdx
import proofs.«114683_j20864951124664_1_alg».proof.Proof.MlpLayer
import proofs.«114683_j20864951124664_1_alg».proof.Proof.Region4
import proofs.«114683_j20864951124664_1_alg».proof.Proof.KW1

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The features this layer starts from: what the previous region left in its output array. -/
abbrev hprev4 (c : Dev nD) : FVec Ideal S100000x128 .f32 := W8 (F := Ideal) m ρ c (Proc.devRef .tc main_v117)

set_option maxHeartbeats 4000000 in
/-- Window 1 holds the aggregate of the incoming features over the graph. -/
theorem l4_agg (c : Dev nD) :
    (W9 (F := Ideal) m ρ c (Proc.devRef .tc main_v127) : FVec Ideal S100000x128 .f32) = aggK (x1 m c) (hprev4 m ρ c) := by
  show StableHlo.after hostOps4 (W8 m ρ c) (Proc.devRef .tc main_v127) = _
  after_results_simp
  rw [KPersist.keep8 m ρ c main_v1 (by simp [KPersist.kept]), KPersist.keep8 m ρ c main_v3 (by simp [KPersist.kept]), W1_v1, W1_v3]
  rfl

set_option maxHeartbeats 4000000 in
/-- Window 2 holds slice 4 of the first weight stack. -/
theorem l4_W1 (c : Dev nD) (q k : Fin 128) :
    (W9 (F := Ideal) m ρ c (Proc.devRef .tc main_v129) : FVec Ideal S128x128 .f32) (ix2 q k) = x2 m c (ix3 4 q k) := by
  show StableHlo.after hostOps4 (W8 m ρ c) (Proc.devRef .tc main_v129) (ix2 q k) = _
  after_results_simp
  rw [KPersist.keep8 m ρ c main_arg2 (by simp [KPersist.kept]), KPersist.W1_arg m ρ c main_arg2 (by simp)]
  exact KIdx.sliceW4_apply (x2 m c) q k

set_option maxHeartbeats 4000000 in
/-- Window 3 holds row 4 of the first bias stack. -/
theorem l4_B1 (c : Dev nD) (k : Fin 128) :
    (W9 (F := Ideal) m ρ c (Proc.devRef .tc main_v140) : FVec Ideal S1x128 .f32) (ix2 0 k) = x3 m c (ix2 4 k) := by
  show StableHlo.after hostOps4 (W8 m ρ c) (Proc.devRef .tc main_v140) (ix2 0 k) = _
  after_results_simp
  rw [KPersist.keep8 m ρ c main_arg3 (by simp [KPersist.kept]), KPersist.W1_arg m ρ c main_arg3 (by simp)]
  exact KIdx.sliceRow4_apply (x3 m c) k

set_option maxHeartbeats 4000000 in
/-- Window 4 holds row 4 of the normalisation's scale. -/
theorem l4_S (c : Dev nD) (k : Fin 128) :
    (W9 (F := Ideal) m ρ c (Proc.devRef .tc main_v141) : FVec Ideal S1x128 .f32) (ix2 0 k) = Cert.GinSpec.bnScale eps (x4 m c) (x7 m c) 4 k := by
  show StableHlo.after hostOps4 (W8 m ρ c) (Proc.devRef .tc main_v141) (ix2 0 k) = _
  after_results_simp
  rw [KPersist.keep8 m ρ c main_v7 (by simp [KPersist.kept]), W1_v7]
  exact (KIdx.sliceRow4_apply _ k).trans (KIdx.scale_apply (x4 m c) (x7 m c) 4 k)

set_option maxHeartbeats 4000000 in
/-- Window 5 holds row 4 of the normalisation's shift. -/
theorem l4_SH (c : Dev nD) (k : Fin 128) :
    (W9 (F := Ideal) m ρ c (Proc.devRef .tc main_v142) : FVec Ideal S1x128 .f32) (ix2 0 k)
      = x5 m c (ix2 4 k) - x6 m c (ix2 4 k) * Cert.GinSpec.bnScale eps (x4 m c) (x7 m c) 4 k := by
  show StableHlo.after hostOps4 (W8 m ρ c) (Proc.devRef .tc main_v142) (ix2 0 k) = _
  after_results_simp
  rw [KPersist.keep8 m ρ c main_v9 (by simp [KPersist.kept]), W1_v9]
  exact (KIdx.sliceRow4_apply _ k).trans (KIdx.shift_apply (x4 m c) (x5 m c) (x6 m c) (x7 m c) 4 k)

set_option maxHeartbeats 4000000 in
/-- Window 6 holds slice 4 of the second weight stack. -/
theorem l4_W2 (c : Dev nD) (k j : Fin 128) :
    (W9 (F := Ideal) m ρ c (Proc.devRef .tc main_v137) : FVec Ideal S128x128 .f32) (ix2 k j) = x8 m c (ix3 4 k j) := by
  show StableHlo.after hostOps4 (W8 m ρ c) (Proc.devRef .tc main_v137) (ix2 k j) = _
  after_results_simp
  rw [KPersist.keep8 m ρ c main_arg8 (by simp [KPersist.kept]), KPersist.W1_arg m ρ c main_arg8 (by simp)]
  exact KIdx.sliceW4_apply (x8 m c) k j

set_option maxHeartbeats 4000000 in
/-- Window 7 holds row 4 of the second bias stack. -/
theorem l4_B2 (c : Dev nD) (j : Fin 128) :
    (W9 (F := Ideal) m ρ c (Proc.devRef .tc main_v143) : FVec Ideal S1x128 .f32) (ix2 0 j) = x9 m c (ix2 4 j) := by
  show StableHlo.after hostOps4 (W8 m ρ c) (Proc.devRef .tc main_v143) (ix2 0 j) = _
  after_results_simp
  rw [KPersist.keep8 m ρ c main_arg9 (by simp [KPersist.kept]), KPersist.W1_arg m ρ c main_arg9 (by simp)]
  exact KIdx.sliceRow4_apply (x9 m c) j

theorem layer4_out (c : Dev nD) (h4 : ∀ i, ∃ r : ℝ, x4 m c i = (r : EReal)) (h5 : ∀ i, ∃ r : ℝ, x5 m c i = (r : EReal)) (h6 : ∀ i, ∃ r : ℝ, x6 m c i = (r : EReal))
    (hpos : ∀ i, (0 : EReal) < x7 m c i + eps) :
    (W10 (F := Ideal) m ρ c (Proc.devRef .tc main_v144) : FVec Ideal S100000x128 .f32)
      = Cert.GinSpec.layer eps 4 (hprev4 m ρ c) (aggK (x1 m c) (hprev4 m ρ c)) (x2 m c) (x3 m c) (x4 m c) (x5 m c) (x6 m c) (x7 m c) (x8 m c) (x9 m c) := by
  -- The output window's array is what the region leaves: the row-wise network of its eight input arrays.
  have hout : (W10 (F := Ideal) m ρ c (Proc.devRef .tc main_v144) : FVec Ideal S100000x128 .f32)
      = Cert.GinSpec.mlp (Region4.arr0 (V9 m ρ) c) (Region4.arr1 (V9 m ρ) c) (Region4.arr2 (V9 m ρ) c) (Region4.arr3 (V9 m ρ) c) (Region4.arr4 (V9 m ρ) c) (Region4.arr5 (V9 m ρ) c) (Region4.arr6 (V9 m ρ) c) (Region4.arr7 (V9 m ρ) c) :=
    (W10_arr m ρ c 8).trans (Region4.out_array (V9 m ρ) c)
  -- Windows 0 and 1: the incoming features, untouched by the host operations, and their aggregate.
  have e0 : Region4.arr0 (V9 m ρ) c = hprev4 m ρ c := KPersist.h4_kept m ρ c
  have e1 : Region4.arr1 (V9 m ρ) c = aggK (x1 m c) (hprev4 m ρ c) := l4_agg m ρ c
  rw [hout, e0, e1]
  -- Windows 2 to 7 are slice 4 of the stacked parameters, the normalisation folded: the reference's layer.
  exact Cert.GinSpec.mlp_eq_layer eps 4 _ _ _ _ _ _ _ _ (x2 m c) (x3 m c) (x4 m c) (x5 m c) (x6 m c) (x7 m c) (x8 m c) (x9 m c)
    (l4_W1 m ρ c) (l4_B1 m ρ c) (l4_S m ρ c) (l4_SH m ρ c) (l4_W2 m ρ c) (l4_B2 m ρ c) h4 h5 h6 hpos

end Cert.KernelIdeal.KValue

end
-- ==== Proof.PayCls.lean ====
/-
  One grid point of the classifier kernel, as arithmetic: the 4000 × 128 block the body stores, read at row `r` and lane
  `j`, from the blocks it loads — features `v0`, the first weight matrix `v3` and bias row `v6`, the second (lane-padded)
  weight matrix `v13` and bias row `v17`.  The logits of a row, `∑_k max (∑_q v0 r q · v3 q k + v6 k) 0 · v13 k j + v17 j`,
  are masked to the mask constant on the lanes from 10 on; that constant is named `⊥` at the extended reals.  The entry is
  the masked logit minus the row's maximum minus the logarithm of the row's sum of exponentials of those differences.
-/
import proofs.«114683_j20864951124664_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayCls

open Cert.KernelIdeal Cert.KernelIdeal.Gen Idealize.ShloMosaic Idealize.ShloMosaic.ValueIdx

/-- A row's logit at lane `j`. -/
def logit (v0 : Vec Ideal S4000x128 .f32) (v3 : Vec Ideal S128x128 .f32) (v6 : Vec Ideal S1x128 .f32)
    (v13 : Vec Ideal S128x128 .f32) (v17 : Vec Ideal S1x128 .f32) (r : Fin 4000) (j : Fin 128) : EReal :=
  (∑ k : Fin 128, max ((∑ q : Fin 128, v0 (ix2 r q) * v3 (ix2 q k)) + v6 (ix2 0 k)) 0 * v13 (ix2 k j)) + v17 (ix2 0 j)

/-- The logit where the lane is a class, `⊥` on the padding lanes. -/
def masked (v0 : Vec Ideal S4000x128 .f32) (v3 : Vec Ideal S128x128 .f32) (v6 : Vec Ideal S1x128 .f32)
    (v13 : Vec Ideal S128x128 .f32) (v17 : Vec Ideal S1x128 .f32) (r : Fin 4000) (j : Fin 128) : EReal :=
  if j.val < 10 then logit v0 v3 v6 v13 v17 r j else ⊥

/-! ## Index bookkeeping of the layout operations -/

/-- The index over row `r` with lane `k` inserted is `(r, k)`. -/
theorem lift_row (h : S4000x128.Reduces [1] S4000) (r : Fin 4000) (k : Fin 128) :
    h.lift (ix1 r) k = ix2 r k := by
  funext c
  match c with
  | ⟨0, _⟩ => exact Fin.ext rfl
  | ⟨1, _⟩ => exact Fin.ext rfl

/-- A column of 4000 entries viewed as a `4000 × 1` block reads, at `(r, u)`, the entry `r`. -/
theorem col_apply {α : Type} (w : S4000.Idx → α) (h : S4000.ShapeCasts S4000x1) (r : Fin 4000) (u : Fin 1) :
    shapeCast S4000x1 w h (ix2 r u) = w (ix1 r) :=
  shapeCast_apply w h _ _ (by
    have hu : u.val = 0 := by omega
    rw [Shape.rowMajor_val_two, Shape.rowMajor_val_one]
    show r.val = r.val * 1 + u.val
    rw [hu, Nat.mul_one, Nat.add_zero])

/-- A `4000 × 1` block broadcast along the lanes reads, at `(r, j)`, its entry `(r, 0)`. -/
theorem bcol_apply {α : Type} (c : S4000x1.Idx → α) (h : S4000x1.Broadcasts S4000x128) (r : Fin 4000) (j : Fin 128) :
    broadcastTo S4000x128 c h (ix2 r j) = c (ix2 r (0 : Fin 1)) := by
  refine broadcastTo_apply c h (ix2 r j) (ix2 r (0 : Fin 1)) fun ax => ?_
  match ax with
  | ⟨0, _⟩ => rfl
  | ⟨1, _⟩ => rfl

/-- A `1 × 128` row broadcast over the rows reads, at `(r, j)`, its entry `(0, j)`. -/
theorem row_apply {α : Type} (v : S1x128.Idx → α) (h1 : S1x128.ShapeCasts S1x128) (h2 : S1x128.Broadcasts S4000x128)
    (r : Fin 4000) (j : Fin 128) :
    broadcastTo S4000x128 (shapeCast S1x128 v h1) h2 (ix2 r j) = v (ix2 (0 : Fin 1) j) := by
  rw [shapeCast_self]
  exact broadcastTo_1b_ab_apply v h2 r j

/-! ## The matrix product into a zero accumulator -/

theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- At the extended reals the product of a `4000 × 128` block with a `128 × 128` matrix into a zero accumulator is,
    at `(r, j)`, the plain sum over the contracted axis. -/
theorem mm_apply {φ₁ φ₂ : FTy} (lhs : FVec Ideal S4000x128 φ₁) (rhs : FVec Ideal S128x128 φ₂) (r : Fin 4000) (j : Fin 128) :
    matmul (F := Ideal) dot_S4000x128_S128x128_S4000x128_1_0_0_1_n_n none lhs rhs (constant S4000x128 .f32 0x00000000#32) (ix2 r j)
      = ∑ k : Fin 128, lhs (ix2 r k) * rhs (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

/-! ## The lane mask -/

/-- A lane number below 128, as a 32-bit word, is below ten as a signed word exactly when it is below ten. -/
theorem lane_lt (j : Fin 128) : (BitVec.ofNat 32 j.val).slt 10#32 = decide (j.val < 10) := by
  have hj := j.isLt
  have e : (BitVec.ofNat 32 j.val).toInt = (j.val : ℤ) := by
    rw [BitVec.toInt_eq_toNat_cond, BitVec.toNat_ofNat]
    have hm : j.val % 2 ^ 32 = j.val := Nat.mod_eq_of_lt (by omega)
    rw [hm, if_pos (by omega)]
  have h10 : (10#32 : BitVec 32).toInt = 10 := by decide
  rw [BitVec.slt, e, h10]
  simp

/-- Selecting by "lane number below ten" reads, at `(r, j)`, the first block on the lanes below ten and the second on the
    others. -/
theorem mask_apply {α : Type} (h : S4000x128.Iotas .tc 32 [1]) (a b : S4000x128.Idx → α) (r : Fin 4000) (j : Fin 128) :
    select (cmpi .slt (iota .tc S4000x128 32 [1] h) (broadcast S4000x128 10#32)) a b (ix2 r j)
      = if j.val < 10 then a (ix2 r j) else b (ix2 r j) := by
  show Scalar.select (IntOp.cmpi .slt (iota .tc S4000x128 32 [1] h (ix2 r j)) 10#32) _ _ = _
  rw [iota_single_apply]
  show Scalar.select (BitVec.ofBool ((BitVec.ofNat 32 j.val).slt 10#32)) _ _ = _
  rw [lane_lt]
  by_cases hj : j.val < 10
  · rw [if_pos hj, decide_eq_true hj]; exact select_one _ _
  · rw [if_neg hj, decide_eq_false hj]; exact select_zero _ _

/-- The mask constant is `⊥` at the extended reals. -/
theorem neg_big_bot : (Named.named (F := Ideal) κ "neg_big" (φ := .f32) 0xF149F2CA#32 : Ideal .f32) = ⊥ := rfl

/-! ## The reductions along the lanes -/

/-- The lane maximum of a block at row `r`: the fold of `max` from `⊥` over the row. -/
theorem rowMax_apply (X : FVec Ideal S4000x128 .f32) (r : Fin 4000) :
    multiReduction (F := Ideal) .maximumf [1] S4000 X 0xFF800000#32 reduces_S4000x128_S4000 (.inl rfl) rfl (ix1 r)
      = (Finset.univ : Finset (Fin 128)).fold max ⊥ (fun j => X (ix2 r j)) := by
  refine (Ideal.multiReduction_maximumf_single X _ reduces_S4000x128_S4000 _ _ (ix1 r)).trans ?_
  have hb : (FloatOps.ofBits (F := Ideal) .f32 0xFF800000#32 : Ideal .f32) = ⊥ := by simp [Ideal.ofBits, Ideal.ieee]
  have hf : (X ∘ reduces_S4000x128_S4000.lift (ix1 r)) = fun j : Fin 128 => X (ix2 r j) :=
    funext fun k => congrArg X (lift_row _ r k)
  rw [hb, hf]
  rfl

/-- The lane sum of a block at row `r`: the sum over the row. -/
theorem rowSum_apply (Y : FVec Ideal S4000x128 .f32) (r : Fin 4000) :
    multiReduction (F := Ideal) .add [1] S4000 Y 0x00000000#32 reduces_S4000x128_S4000 (.inl rfl) rfl (ix1 r)
      = ∑ j : Fin 128, Y (ix2 r j) := by
  refine (Ideal.multiReduction_add_single Y _ reduces_S4000x128_S4000 _ _ (ix1 r)).trans ?_
  exact Finset.sum_congr rfl fun k _ => congrArg Y (lift_row _ r k)

/-! ## The masked logits block -/

/-- The block of masked logits as the body computes it: two matrix products with their bias rows, the first clamped
    at zero, then the mask constant on the lanes from ten on. -/
def maskedVec (v0 : Vec Ideal S4000x128 .f32) (v3 : Vec Ideal S128x128 .f32) (v6 : Vec Ideal S1x128 .f32)
    (v13 : Vec Ideal S128x128 .f32) (v17 : Vec Ideal S1x128 .f32) : FVec Ideal S4000x128 .f32 :=
  select (cmpi .slt (iota .tc S4000x128 32 [1] iota_S4000x128_d1_w32) (broadcast S4000x128 10#32))
    (addf
      (matmul dot_S4000x128_S128x128_S4000x128_1_0_0_1_n_n none
        (truncf .bf16
          (maximumf
            (addf
              (matmul dot_S4000x128_S128x128_S4000x128_1_0_0_1_n_n none
                (truncf .bf16 (shapeCast S4000x128 v0 shapeCasts_S4000x128_S4000x128) bitsLt_bf16_f32)
                (truncf .bf16 v3 bitsLt_bf16_f32) (constant S4000x128 .f32 0x00000000#32))
              (broadcastTo S4000x128 (shapeCast S1x128 v6 shapeCasts_S1x128_S1x128) broadcasts_S1x128_S4000x128))
            (broadcast S4000x128 (Scalar.ofBits .f32 0x00000000#32)))
          bitsLt_bf16_f32)
        (truncf .bf16 (shapeCast S128x128 v13 shapeCasts_S128x128_S128x128) bitsLt_bf16_f32)
        (constant S4000x128 .f32 0x00000000#32))
      (broadcastTo S4000x128 (shapeCast S1x128 v17 shapeCasts_S1x128_S1x128) broadcasts_S1x128_S4000x128))
    (broadcast S4000x128 (Named.named κ "neg_big" 0xF149F2CA#32))

/-- The first layer's activation at `(r, k)`. -/
theorem hidden_apply (v0 : Vec Ideal S4000x128 .f32) (v3 : Vec Ideal S128x128 .f32) (v6 : Vec Ideal S1x128 .f32)
    (r : Fin 4000) (k : Fin 128) :
    (truncf (F := Ideal) .bf16
      (maximumf
        (addf
          (matmul dot_S4000x128_S128x128_S4000x128_1_0_0_1_n_n none
            (truncf .bf16 (shapeCast S4000x128 v0 shapeCasts_S4000x128_S4000x128) bitsLt_bf16_f32)
            (truncf .bf16 v3 bitsLt_bf16_f32) (constant S4000x128 .f32 0x00000000#32))
          (broadcastTo S4000x128 (shapeCast S1x128 v6 shapeCasts_S1x128_S1x128) broadcasts_S1x128_S4000x128))
        (broadcast S4000x128 (Scalar.ofBits .f32 0x00000000#32)))
      bitsLt_bf16_f32 : FVec Ideal S4000x128 .bf16) (ix2 r k)
      = max ((∑ q : Fin 128, v0 (ix2 r q) * v3 (ix2 q k)) + v6 (ix2 0 k)) 0 := by
  show max (matmul (F := Ideal) dot_S4000x128_S128x128_S4000x128_1_0_0_1_n_n none _ _ _ (ix2 r k)
      + broadcastTo S4000x128 (shapeCast S1x128 v6 shapeCasts_S1x128_S1x128) broadcasts_S1x128_S4000x128 (ix2 r k))
      (Ideal.ofBits .f32 0x00000000#32) = _
  rw [mm_apply, row_apply, Ideal.ofBits_zero_f32, shapeCast_self]
  rfl

/-- The masked logits block at `(r, j)`. -/
theorem maskedVec_apply (v0 : Vec Ideal S4000x128 .f32) (v3 : Vec Ideal S128x128 .f32) (v6 : Vec Ideal S1x128 .f32)
    (v13 : Vec Ideal S128x128 .f32) (v17 : Vec Ideal S1x128 .f32) (r : Fin 4000) (j : Fin 128) :
    maskedVec v0 v3 v6 v13 v17 (ix2 r j) = masked v0 v3 v6 v13 v17 r j := by
  unfold maskedVec masked logit
  rw [mask_apply]
  refine if_congr Iff.rfl ?_ neg_big_bot
  show matmul (F := Ideal) dot_S4000x128_S128x128_S4000x128_1_0_0_1_n_n none _ _ _ (ix2 r j)
      + broadcastTo S4000x128 (shapeCast S1x128 v17 shapeCasts_S1x128_S1x128) broadcasts_S1x128_S4000x128 (ix2 r j) = _
  rw [mm_apply, row_apply]
  refine congrArg (· + v17 (ix2 0 j)) (Finset.sum_congr rfl fun k _ => ?_)
  rw [hidden_apply, shapeCast_self]
  rfl

/-! ## The row-wise log-softmax -/

/-- What the body does to the masked block `X`: subtract the row's maximum, then the logarithm of the row's sum of
    exponentials of those differences. -/
def lsm (X : FVec Ideal S4000x128 .f32) : FVec Ideal S4000x128 .f32 :=
  subf
    (subf X
      (broadcastTo S4000x128
        (shapeCast S4000x1 (multiReduction .maximumf [1] S4000 X 0xFF800000#32 reduces_S4000x128_S4000 (.inl rfl) rfl)
          shapeCasts_S4000_S4000x1)
        broadcasts_S4000x1_S4000x128))
    (broadcastTo S4000x128
      (log
        (shapeCast S4000x1
          (multiReduction .add [1] S4000
            (exp
              (subf X
                (broadcastTo S4000x128
                  (shapeCast S4000x1
                    (multiReduction .maximumf [1] S4000 X 0xFF800000#32 reduces_S4000x128_S4000 (.inl rfl) rfl)
                    shapeCasts_S4000_S4000x1)
                  broadcasts_S4000x1_S4000x128)))
            0x00000000#32 reduces_S4000x128_S4000 (.inl rfl) rfl)
          shapeCasts_S4000_S4000x1))
      broadcasts_S4000x1_S4000x128)

/-- A block minus its rows' maxima (kept as a column and broadcast back), at `(r, j)`. -/
theorem shifted_apply (X : FVec Ideal S4000x128 .f32) (r : Fin 4000) (j : Fin 128) :
    subf X
      (broadcastTo S4000x128
        (shapeCast S4000x1 (multiReduction .maximumf [1] S4000 X 0xFF800000#32 reduces_S4000x128_S4000 (.inl rfl) rfl)
          shapeCasts_S4000_S4000x1)
        broadcasts_S4000x1_S4000x128) (ix2 r j)
      = X (ix2 r j) - (Finset.univ : Finset (Fin 128)).fold max ⊥ (fun j' => X (ix2 r j')) := by
  show X (ix2 r j) - broadcastTo S4000x128 _ broadcasts_S4000x1_S4000x128 (ix2 r j) = _
  rw [bcol_apply, col_apply, rowMax_apply]

/-- The log-softmax of a block at `(r, j)`. -/
theorem lsm_apply (X : FVec Ideal S4000x128 .f32) (r : Fin 4000) (j : Fin 128) :
    lsm X (ix2 r j)
      = (X (ix2 r j) - (Finset.univ : Finset (Fin 128)).fold max ⊥ (fun j' => X (ix2 r j')))
        - Ideal.log (∑ j' : Fin 128, Ideal.exp (X (ix2 r j')
            - (Finset.univ : Finset (Fin 128)).fold max ⊥ (fun j' => X (ix2 r j')))) := by
  unfold lsm
  show subf X _ (ix2 r j) - broadcastTo S4000x128 (log _) broadcasts_S4000x1_S4000x128 (ix2 r j) = _
  rw [shifted_apply, bcol_apply]
  show _ - Ideal.log (shapeCast S4000x1 _ shapeCasts_S4000_S4000x1 (ix2 r (0 : Fin 1))) = _
  rw [col_apply, rowSum_apply]
  refine congrArg (fun s => _ - Ideal.log s) (Finset.sum_congr rfl fun j' _ => ?_)
  show Ideal.exp (subf X _ (ix2 r j')) = _
  rw [shifted_apply]

/-- The stored block is the log-softmax of the masked logits block. -/
theorem k5_pay1_eq (v0 : Vec Ideal S4000x128 .f32) (v3 : Vec Ideal S128x128 .f32) (v6 : Vec Ideal S1x128 .f32)
    (v13 : Vec Ideal S128x128 .f32) (v17 : Vec Ideal S1x128 .f32) :
    k5_pay1 (F := Ideal) v0 v3 v6 v13 v17 = lsm (maskedVec v0 v3 v6 v13 v17) := rfl

/-- The stored block of the classifier kernel at row `r`, lane `j`. -/
theorem k5_pay1_apply (v0 : Vec Ideal S4000x128 .f32) (v3 : Vec Ideal S128x128 .f32) (v6 : Vec Ideal S1x128 .f32)
    (v13 : Vec Ideal S128x128 .f32) (v17 : Vec Ideal S1x128 .f32) (r : Fin 4000) (j : Fin 128) :
    k5_pay1 (F := Ideal) v0 v3 v6 v13 v17 (ix2 r j)
      = (masked v0 v3 v6 v13 v17 r j - (Finset.univ : Finset (Fin 128)).fold max ⊥ (masked v0 v3 v6 v13 v17 r))
        - Ideal.log (∑ j' : Fin 128, Ideal.exp (masked v0 v3 v6 v13 v17 r j'
            - (Finset.univ : Finset (Fin 128)).fold max ⊥ (masked v0 v3 v6 v13 v17 r))) := by
  have hf : (fun j' => maskedVec v0 v3 v6 v13 v17 (ix2 r j')) = masked v0 v3 v6 v13 v17 r :=
    funext fun j' => maskedVec_apply v0 v3 v6 v13 v17 r j'
  rw [k5_pay1_eq, lsm_apply, hf, maskedVec_apply]
  refine congrArg (fun s => _ - Ideal.log s) (Finset.sum_congr rfl fun j' _ => ?_)
  rw [maskedVec_apply]

end Cert.KernelIdeal.PayCls

end
-- ==== Proof.Region5.lean ====
/-
  What region 5 of the kernel's program (the classifier kernel over its 25 grid points) leaves in its 128-lane output
  array, as ONE function of the five arrays its windows read, whatever those hold when the region is entered: grid point
  `t` reads rows `4000 t … 4000 t + 3999` of the feature array and the whole of the four parameter arrays and writes those
  rows of the output; a row of the output depends on the same row of the features only, so the 25 blocks are the
  restrictions of one whole-array function, `GinSpec.clsArr`, and they cover the array.
-/
import proofs.«114683_j20864951124664_1_alg».proof.Proof.Gen.KernelIdeal.Frame
import proofs.«114683_j20864951124664_1_alg».proof.Proof.PayCls
import proofs.«114683_j20864951124664_1_alg».proof.Proof.Spec
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## One row, as arithmetic -/

/-- The masked logits of a block's row are the masked logits of the array's row it was read from. -/
theorem masked_eq (v0 : Vec Ideal S4000x128 .f32) (v3 : Vec Ideal S128x128 .f32) (v6 : Vec Ideal S1x128 .f32)
    (v13 : Vec Ideal S128x128 .f32) (v17 : Vec Ideal S1x128 .f32) (H : FVec Ideal S100000x128 .f32)
    (r : Fin 4000) (n : Fin 100000) (h : ∀ q : Fin 128, v0 (ix2 r q) = H (ix2 n q)) :
    PayCls.masked v0 v3 v6 v13 v17 r
      = fun j : Fin 128 => if j.val < 10 then
          Cert.GinSpec.aff (fun k => max (Cert.GinSpec.aff (fun q => H (ix2 n q)) (fun q k => v3 (ix2 q k)) (fun k => v6 (ix2 0 k)) k) 0)
            (fun k j => v13 (ix2 k j)) (fun j => v17 (ix2 0 j)) j
        else ⊥ := by
  funext j
  unfold PayCls.masked PayCls.logit Cert.GinSpec.aff
  simp only [h]

/-- The stored block at row `r`, lane `j` is the classifier's whole-array function at the array index of that row and lane. -/
theorem pay_eq_cls (v0 : Vec Ideal S4000x128 .f32) (v3 : Vec Ideal S128x128 .f32) (v6 : Vec Ideal S1x128 .f32)
    (v13 : Vec Ideal S128x128 .f32) (v17 : Vec Ideal S1x128 .f32) (H : FVec Ideal S100000x128 .f32)
    (r : Fin 4000) (j : Fin 128) (i : S100000x128.Idx) (h0 : ∀ q : Fin 128, v0 (ix2 r q) = H (ix2 (i 0) q)) (h1 : i 1 = j) :
    k5_pay1 (F := Ideal) v0 v3 v6 v13 v17 (ix2 r j) = Cert.GinSpec.clsArr H v3 v6 v13 v17 i := by
  rw [PayCls.k5_pay1_apply, masked_eq v0 v3 v6 v13 v17 H r (i 0) h0]
  subst h1
  rfl

/-- The same at an index of the block not yet split into row and lane. -/
theorem pay_eq_cls_idx (v0 : Vec Ideal S4000x128 .f32) (v3 : Vec Ideal S128x128 .f32) (v6 : Vec Ideal S1x128 .f32)
    (v13 : Vec Ideal S128x128 .f32) (v17 : Vec Ideal S1x128 .f32) (H : FVec Ideal S100000x128 .f32)
    (y : S4000x128.Idx) (i : S100000x128.Idx) (h0 : ∀ q : Fin 128, v0 (ix2 (y 0) q) = H (ix2 (i 0) q)) (h1 : i 1 = y 1) :
    k5_pay1 (F := Ideal) v0 v3 v6 v13 v17 y = Cert.GinSpec.clsArr H v3 v6 v13 v17 i := by
  rw [eq_ix2 y]
  exact pay_eq_cls v0 v3 v6 v13 v17 H (y 0) (y 1) i h0 h1

variable (V : (c : Dev nD) → (b : Ref sig .tc) → Buf (Elt Ideal) ((c : Thread nD τ).loc b))

/-- The five arrays the region's windows read, as the region finds them, at their literal types. -/
abbrev arr0 (c : Dev nD) : FVec Ideal S100000x128 .f32 := V c (Pipeline.arrRef spec5 0)
abbrev arr1 (c : Dev nD) : FVec Ideal S128x128 .f32 := V c (Pipeline.arrRef spec5 1)
abbrev arr2 (c : Dev nD) : FVec Ideal S1x128 .f32 := V c (Pipeline.arrRef spec5 2)
abbrev arr3 (c : Dev nD) : FVec Ideal S128x128 .f32 := V c (Pipeline.arrRef spec5 3)
abbrev arr4 (c : Dev nD) : FVec Ideal S1x128 .f32 := V c (Pipeline.arrRef spec5 4)

/-! ## Where each window's block sits -/

theorem hz : (![0, 0] : Fin 2 → Nat) = fun _ => 0 := funext fun a => by fin_cases a <;> rfl

/-- The printed index maps, decided over the 25 grid points: the feature window and the output window are at block
    `(t, 0)`, the four parameter windows at block `(0, 0)`. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The feature window's block at point `t` is rows `4000 t … 4000 t + 3999` of the feature array. -/
theorem blk0_apply (c : Dev nD) (t : Fin cfg5.N) (x : S4000x128.Idx) (k : S100000x128.Idx)
    (hk0 : (k 0).val = 4000 * t.val + (x 0).val) (hk1 : (k 1).val = (x 1).val) :
    (iblk5 V c 0 t : Vec Ideal S4000x128 .f32) x = arr0 V c k := by
  obtain ⟨e0, e1, -⟩ := idx_facts t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 4000 + 1 * (x 0).val = (k 0).val; rw [e0, hk0]; omega
  | ⟨1, _⟩ => show win5_0.index t (1 : Fin 2) * 128 + 1 * (x 1).val = (k 1).val; rw [e1, hk1]; omega

/-- Each parameter window's block, at every point, is its whole array. -/
theorem blk1_eq (c : Dev nD) (t : Fin cfg5.N) : (iblk5 V c 1 t : Vec Ideal S128x128 .f32) = arr1 V c := by
  obtain ⟨-, -, e0, e1, -⟩ := idx_facts t
  funext x
  unfold iblk5
  rw [View.read_apply]
  show V c (Pipeline.arrRef spec5 1) _ = V c (Pipeline.arrRef spec5 1) x
  congr 1
  funext a
  apply Fin.ext
  match a with
  | ⟨0, _⟩ => show win5_1.index t (0 : Fin 2) * 128 + 1 * (x 0).val = (x 0).val; rw [e0]; omega
  | ⟨1, _⟩ => show win5_1.index t (1 : Fin 2) * 128 + 1 * (x 1).val = (x 1).val; rw [e1]; omega

theorem blk2_eq (c : Dev nD) (t : Fin cfg5.N) : (iblk5 V c 2 t : Vec Ideal S1x128 .f32) = arr2 V c := by
  obtain ⟨-, -, -, -, e0, e1, -⟩ := idx_facts t
  funext x
  unfold iblk5
  rw [View.read_apply]
  show V c (Pipeline.arrRef spec5 2) _ = V c (Pipeline.arrRef spec5 2) x
  congr 1
  funext a
  apply Fin.ext
  match a with
  | ⟨0, _⟩ => show win5_2.index t (0 : Fin 2) * 1 + 1 * (x 0).val = (x 0).val; rw [e0]; omega
  | ⟨1, _⟩ => show win5_2.index t (1 : Fin 2) * 128 + 1 * (x 1).val = (x 1).val; rw [e1]; omega

theorem blk3_eq (c : Dev nD) (t : Fin cfg5.N) : (iblk5 V c 3 t : Vec Ideal S128x128 .f32) = arr3 V c := by
  obtain ⟨-, -, -, -, -, -, e0, e1, -⟩ := idx_facts t
  funext x
  unfold iblk5
  rw [View.read_apply]
  show V c (Pipeline.arrRef spec5 3) _ = V c (Pipeline.arrRef spec5 3) x
  congr 1
  funext a
  apply Fin.ext
  match a with
  | ⟨0, _⟩ => show win5_3.index t (0 : Fin 2) * 128 + 1 * (x 0).val = (x 0).val; rw [e0]; omega
  | ⟨1, _⟩ => show win5_3.index t (1 : Fin 2) * 128 + 1 * (x 1).val = (x 1).val; rw [e1]; omega

theorem blk4_eq (c : Dev nD) (t : Fin cfg5.N) : (iblk5 V c 4 t : Vec Ideal S1x128 .f32) = arr4 V c := by
  obtain ⟨-, -, -, -, -, -, -, -, e0, e1, -⟩ := idx_facts t
  funext x
  unfold iblk5
  rw [View.read_apply]
  show V c (Pipeline.arrRef spec5 4) _ = V c (Pipeline.arrRef spec5 4) x
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 128 + 1 * (x 1).val = (x 1).val; rw [e1]; omega

/-! ## What a point writes back, and the whole array -/

/-- The classifier's whole-array function of the five arrays the region reads. -/
abbrev G (c : Dev nD) : FVec Ideal S100000x128 .f32 :=
  Cert.GinSpec.clsArr (arr0 V c) (arr1 V c) (arr2 V c) (arr3 V c) (arr4 V c)

/-- WHAT POINT `t` WRITES BACK is block `t` of `G`: rows `4000 t … 4000 t + 3999`, all 128 lanes. -/
theorem flushed_eq (c : Dev nD) (t : Fin cfg5.N) :
    (dat5 (F := Ideal) V c).flushed 5 t = ((cfg5.win 5).blk t).view.read (Elt Ideal) (G V c) := by
  show (cfg5.win 5).cut (grid5.coords t) ((dat5 (F := Ideal) V c).after 5 t) = _
  rw [after5_5]
  unfold out5_5
  rw [View.canon_unit_zero hz]
  simp only [View.ld_unit_zero (S := S4000x128) hz, View.ld_unit_zero (S := S128x128) hz, View.ld_unit_zero (S := S1x128) hz]
  rw [blk1_eq V c t, blk2_eq V c t, blk3_eq V c t, blk4_eq V c t]
  obtain ⟨-, -, -, -, -, -, -, -, -, -, e0, e1⟩ := idx_facts t
  funext y
  rw [View.read_apply]
  refine pay_eq_cls_idx (iblk5 V c 0 t) (arr1 V c) (arr2 V c) (arr3 V c) (arr4 V c) (arr0 V c) y
    (((cfg5.win 5).blk t).view.emb y) (fun q => ?_) ?_
  · refine blk0_apply V c t (ix2 (y 0) q) (ix2 ((((cfg5.win 5).blk t).view.emb y) 0) q) ?_ rfl
    show win5_5.index t (0 : Fin 2) * 4000 + 1 * (y 0).val = 4000 * t.val + (y 0).val
    rw [e0]; omega
  · apply Fin.ext
    show win5_5.index t (1 : Fin 2) * 128 + 1 * (y 1).val = (y 1).val
    rw [e1]; omega

/-- An index of the array is in point `t`'s block iff each coordinate is in the block's range on its axis. -/
theorem mem_blk (t : Fin cfg5.N) (i : S100000x128.Idx) :
    i ∈ ((cfg5.win 5).blk t).view.set ↔ ∀ a : Fin 2, win5_5.index t a * S4000x128.size a ≤ (i a).val
      ∧ (i a).val < win5_5.index t a * S4000x128.size a + S4000x128.size a := by
  show i ∈ ((View.whole main_v149).slice (win5_5.rect t)).set ↔ _
  rw [View.set_slice_whole, Rect.mem_set_unit]
  exact Iff.rfl

/-- Row `r` is in the block of point `r / 4000`, and `25 · 4000 = 100000`: every index of the array is covered. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have ht : (i 0).val / 4000 < cfg5.N := by rw [show cfg5.N = 25 from N_5]; omega
  obtain ⟨-, -, -, -, -, -, -, -, -, -, e0, e1⟩ := idx_facts ⟨(i 0).val / 4000, ht⟩
  refine ⟨⟨(i 0).val / 4000, ht⟩, flush5_5 _, ?_⟩
  rw [mem_blk]
  intro a
  match a with
  | ⟨0, _⟩ =>
    show win5_5.index ⟨(i 0).val / 4000, ht⟩ (0 : Fin 2) * 4000 ≤ (i 0).val
      ∧ (i 0).val < win5_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win5_5.index ⟨(i 0).val / 4000, ht⟩ (1 : Fin 2) * 128 ≤ (i 1).val
      ∧ (i 1).val < win5_5.index ⟨(i 0).val / 4000, ht⟩ (1 : Fin 2) * 128 + 128
    rw [e1]; omega

/-- THE OUTPUT ARRAY after the region: `GinSpec.clsArr` of the arrays read. -/
theorem out_array (c : Dev nD) :
    (dat5 (F := Ideal) V c).arrAt 5 cfg5.N
      = Cert.GinSpec.clsArr (arr0 V c) (arr1 V c) (arr2 V c) (arr3 V c) (arr4 V c) :=
  (dat5 (F := Ideal) V c).arrAt_eq_of_cover 5 (G V c) (fun t _ => flushed_eq V c t) cover

end Cert.KernelIdeal.Region5

end
-- ==== Proof.KCls.lean ====
/-
  The classifier on the kernel's side: the host operations before region 5 pad the second weight matrix and bias with
  zeros to 128 lanes and reshape the two biases to rows; the region leaves `GinSpec.clsArr` of the last layer's features
  and those in its 128-lane output array; the last host operation slices out the first 10 lanes, which are the
  reference's `GinSpec.cls` of the features and the unpadded parameters.
-/
import proofs.«114683_j20864951124664_1_alg».proof.Proof.Gen.KernelIdeal.Frame
import proofs.«114683_j20864951124664_1_alg».proof.Proof.Spec
import proofs.«114683_j20864951124664_1_alg».proof.Proof.KAgg
import proofs.«114683_j20864951124664_1_alg».proof.Proof.KPersist
import proofs.«114683_j20864951124664_1_alg».proof.Proof.KIdx
import proofs.«114683_j20864951124664_1_alg».proof.Proof.MlpLayer
import proofs.«114683_j20864951124664_1_alg».proof.Proof.Region5

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The features the classifier starts from: what region 4 left in its output array. -/
abbrev hprev5 (c : Dev nD) : FVec Ideal S100000x128 .f32 := W10 (F := Ideal) m ρ c (Proc.devRef .tc main_v144)

/-- At region 4's exit a kept argument buffer still holds its launch contents. -/
theorem arg_at10 (c : Dev nD) (b : Ref sig .tc) (hk : b ∈ KPersist.kept)
    (ha : b ∈ [main_arg0, main_arg1, main_arg2, main_arg3, main_arg4, main_arg5, main_arg6, main_arg7, main_arg8,
      main_arg9, main_arg10, main_arg11, main_arg12, main_arg13]) :
    W10 (F := Ideal) m ρ c (Proc.devRef .tc b) = m ((c : Thread nD τ).loc b) :=
  (KPersist.keep10 m ρ c b hk).trans (KPersist.W1_arg m ρ c b ha)

/-- Window 0 of region 5 reads the last layer's features. -/
theorem cls_win0 (c : Dev nD) : Region5.arr0 (V15 (F := Ideal) m ρ) c = hprev5 m ρ c :=
  KPersist.h5_kept m ρ c

/-- Window 1 reads the first classifier weight matrix as launched. -/
theorem cls_win1 (c : Dev nD) : Region5.arr1 (V15 (F := Ideal) m ρ) c = x10 m c :=
  (KPersist.keep15 m ρ c main_arg10 (by simp [KPersist.kept])).trans (KPersist.W1_arg m ρ c main_arg10 (by simp))

set_option maxHeartbeats 4000000 in
/-- Window 2 reads the first classifier bias as a row. -/
theorem cls_win2 (c : Dev nD) (k : Fin 128) :
    Region5.arr2 (V15 (F := Ideal) m ρ) c (ix2 0 k) = x11 m c (ix1 k) := by
  show StableHlo.after hostOps5_4 (W14 (F := Ideal) m ρ c) (Proc.devRef .tc main_v147) (ix2 0 k) = _
  after_results_simp
  rw [arg_at10 m ρ c main_arg11 (by simp [KPersist.kept]) (by simp)]
  exact KIdx.row_apply (x11 m c) k

set_option maxHeartbeats 4000000 in
/-- Window 3 reads the second classifier weight matrix padded to 128 lanes: on the first 10 lanes, the matrix itself. -/
theorem cls_win3 (c : Dev nD) (k : Fin 128) (j : Fin 10) :
    Region5.arr3 (V15 (F := Ideal) m ρ) c (ix2 k ⟨j.val, by have := j.isLt; omega⟩) = x12 m c (ix2 k j) := by
  show StableHlo.after hostOps5_4 (W14 (F := Ideal) m ρ c) (Proc.devRef .tc main_v145) (ix2 k ⟨j.val, _⟩) = _
  after_results_simp
  show pad S128x128 ![0, 0] ![0, 118] ![0, 0] (W10 (F := Ideal) m ρ c (Proc.devRef .tc main_arg12) : FVec Ideal S128x10 .f32) _
      pads_S128x10_S128x128_000_01180 h_S_ (ix2 k ⟨j.val, _⟩) = _
  rw [arg_at10 m ρ c main_arg12 (by simp [KPersist.kept]) (by simp)]
  exact KIdx.padW_apply (x12 m c) _ k j

set_option maxHeartbeats 4000000 in
/-- Window 4 reads the second classifier bias padded to 128 lanes, as a row: on the first 10 lanes, the bias itself. -/
theorem cls_win4 (c : Dev nD) (j : Fin 10) :
    Region5.arr4 (V15 (F := Ideal) m ρ) c (ix2 0 ⟨j.val, by have := j.isLt; omega⟩) = x13 m c (ix1 j) := by
  show StableHlo.after hostOps5_4 (W14 (F := Ideal) m ρ c) (Proc.devRef .tc main_v148) (ix2 0 ⟨j.val, _⟩) = _
  after_results_simp
  show shapeCast S1x128 (pad S128 ![0] ![118] ![0] (W10 (F := Ideal) m ρ c (Proc.devRef .tc main_arg13) : FVec Ideal S10 .f32) _
      pads_S10_S128_01180 h_S_) shapeCasts_S128_S1x128 (ix2 0 ⟨j.val, _⟩) = _
  rw [arg_at10 m ρ c main_arg13 (by simp [KPersist.kept]) (by simp)]
  refine (KIdx.row_apply _ _).trans ?_
  exact KIdx.padB_apply (x13 m c) _ j

/-- Region 5's output array is `GinSpec.clsArr` of the arrays its windows read. -/
theorem cls_win5 (c : Dev nD) :
    (W16 (F := Ideal) m ρ c (Proc.devRef .tc main_v149) : FVec Ideal S100000x128 .f32)
      = Cert.GinSpec.clsArr (Region5.arr0 (V15 (F := Ideal) m ρ) c) (Region5.arr1 (V15 (F := Ideal) m ρ) c)
          (Region5.arr2 (V15 (F := Ideal) m ρ) c) (Region5.arr3 (V15 (F := Ideal) m ρ) c) (Region5.arr4 (V15 (F := Ideal) m ρ) c) :=
  (W16_arr m ρ c 5).trans (Region5.out_array (V15 (F := Ideal) m ρ) c)

set_option maxHeartbeats 4000000 in
/-- The returned array is the first 10 lanes of region 5's output array. -/
theorem out_slice (c : Dev nD) :
    (W17 (F := Ideal) m ρ c (Proc.devRef .tc main_v150) : FVec Ideal S100000x10 .f32)
      = extractStridedSlice S100000x10 ![0, 0] (W16 (F := Ideal) m ρ c (Proc.devRef .tc main_v149) : FVec Ideal S100000x128 .f32)
          slices_S100000x128_S100000x10_0_0 := by
  show StableHlo.after hostOps6 (W16 (F := Ideal) m ρ c) (Proc.devRef .tc main_v150) = _
  after_results_simp

theorem cls_out (c : Dev nD) :
    (W17 (F := Ideal) m ρ c (Proc.devRef .tc main_v150) : FVec Ideal S100000x10 .f32)
      = Cert.GinSpec.cls (hprev5 m ρ c) (x10 m c) (x11 m c) (x12 m c) (x13 m c) := by
  funext i
  obtain ⟨r, j, rfl⟩ : ∃ (r : Fin 100000) (j : Fin 10), i = ix2 r j := ⟨i 0, i 1, eq_ix2 i⟩
  refine (congrFun (out_slice m ρ c) (ix2 r j)).trans ?_
  refine (KIdx.slice10_apply _ r j).trans ?_
  rw [cls_win5, cls_win0, cls_win1]
  exact Cert.GinSpec.clsArr_eq_cls (hprev5 m ρ c) (x10 m c) _ _ _ (x10 m c) (x11 m c) (x12 m c) (x13 m c)
    (fun _ _ => rfl) (cls_win2 m ρ c) (cls_win3 m ρ c) (cls_win4 m ρ c) r j

end Cert.KernelIdeal.KValue

end
-- ==== Proof.KNet.lean ====
/-
  The kernel's program computes the network: its result buffer, after the last host operation, holds `GinSpec.net` of the
  launch memory's argument arrays with the kernel program's aggregation — the five layer readings chained (each layer starts
  from what the previous region left), then the classifier reading.
-/
import proofs.«114683_j20864951124664_1_alg».proof.Proof.Spec
import proofs.«114683_j20864951124664_1_alg».proof.Proof.KAgg
import proofs.«114683_j20864951124664_1_alg».proof.Proof.KLayer0
import proofs.«114683_j20864951124664_1_alg».proof.Proof.KLayer1
import proofs.«114683_j20864951124664_1_alg».proof.Proof.KLayer2
import proofs.«114683_j20864951124664_1_alg».proof.Proof.KLayer3
import proofs.«114683_j20864951124664_1_alg».proof.Proof.KLayer4
import proofs.«114683_j20864951124664_1_alg».proof.Proof.KCls

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem net_out (c : Dev nD) (h4 : ∀ i, ∃ r : ℝ, x4 m c i = (r : EReal)) (h5 : ∀ i, ∃ r : ℝ, x5 m c i = (r : EReal))
    (h6 : ∀ i, ∃ r : ℝ, x6 m c i = (r : EReal)) (hpos : ∀ i, (0 : EReal) < x7 m c i + eps) :
    (W17 (F := Ideal) m ρ c (Proc.devRef .tc main_v150) : FVec Ideal S100000x10 .f32)
      = Cert.GinSpec.net (aggK (x1 m c)) eps (x0 m c) (x2 m c) (x3 m c) (x4 m c) (x5 m c) (x6 m c) (x7 m c) (x8 m c) (x9 m c)
          (x10 m c) (x11 m c) (x12 m c) (x13 m c) := by
  have e1 := layer0_out m ρ c h4 h5 h6 hpos
  have e2 := layer1_out m ρ c h4 h5 h6 hpos
  have e3 := layer2_out m ρ c h4 h5 h6 hpos
  have e4 := layer3_out m ρ c h4 h5 h6 hpos
  have e5 := layer4_out m ρ c h4 h5 h6 hpos
  rw [cls_out m ρ c]
  unfold Cert.GinSpec.net
  dsimp only [hprev5, hprev4, hprev3, hprev2, hprev1] at e2 e3 e4 e5 ⊢
  rw [e5, e4, e3, e2, e1]

end Cert.KernelIdeal.KValue

end
-- ==== Proof.PreFacts.lean ====
/-
  What the precondition says of the batch-normalisation parameters, read at the extended reals: every entry of the
  scale γ, the offset β, the running mean and the running variance is a real number (its absolute value is below +∞), and
  every entry of the variance plus ε is positive.
-/
import proofs.«114683_j20864951124664_1_alg».proof.Defs
import proofs.«114683_j20864951124664_1_alg».proof.Proof.Gen.Pre_finite_inputs
import Idealize.ShloMosaic.Lib.ReduceAll
import Idealize.ShloMosaic.Lib.ValueIdx
import Idealize.ShloMosaic.Lib.StableHlo.Predicate

noncomputable section

namespace Cert.Proof.PreFacts

open Idealize.ShloMosaic Idealize.SL.Sem

/-- The stacked `5 × 128` parameter arrays as the launch memory holds them on device `c`: scale, offset, mean, variance. -/
abbrev gam (m : (ℓ : Loc Cert.KernelIdeal.nD Cert.KernelIdeal.τ Cert.KernelIdeal.sig) → Buf (Elt Ideal) ℓ) (c : Dev Cert.KernelIdeal.nD) :
    FVec Ideal Cert.KernelIdeal.S5x128 .f32 := m ((c.tc : Thread Cert.KernelIdeal.nD Cert.KernelIdeal.τ).loc Cert.KernelIdeal.main_arg4)
abbrev bet (m : (ℓ : Loc Cert.KernelIdeal.nD Cert.KernelIdeal.τ Cert.KernelIdeal.sig) → Buf (Elt Ideal) ℓ) (c : Dev Cert.KernelIdeal.nD) :
    FVec Ideal Cert.KernelIdeal.S5x128 .f32 := m ((c.tc : Thread Cert.KernelIdeal.nD Cert.KernelIdeal.τ).loc Cert.KernelIdeal.main_arg5)
abbrev mea (m : (ℓ : Loc Cert.KernelIdeal.nD Cert.KernelIdeal.τ Cert.KernelIdeal.sig) → Buf (Elt Ideal) ℓ) (c : Dev Cert.KernelIdeal.nD) :
    FVec Ideal Cert.KernelIdeal.S5x128 .f32 := m ((c.tc : Thread Cert.KernelIdeal.nD Cert.KernelIdeal.τ).loc Cert.KernelIdeal.main_arg6)
abbrev vari (m : (ℓ : Loc Cert.KernelIdeal.nD Cert.KernelIdeal.τ Cert.KernelIdeal.sig) → Buf (Elt Ideal) ℓ) (c : Dev Cert.KernelIdeal.nD) :
    FVec Ideal Cert.KernelIdeal.S5x128 .f32 := m ((c.tc : Thread Cert.KernelIdeal.nD Cert.KernelIdeal.τ).loc Cert.KernelIdeal.main_arg7)

/-- The scalar shape has exactly one index. -/
local instance : Subsingleton Cert.Pre_finite_inputs.S_.Idx := ⟨fun a b => funext fun d => d.elim0⟩

/-- The pattern `0x7F800000` denotes `+∞`. -/
theorem inf_bits : Ideal.ofBits .f32 0x7F800000#32 = (⊤ : EReal) := by
  simp [Ideal.ofBits, Ideal.ieee]

/-- The pattern `0x00000000` denotes `0`. -/
theorem zero_bits : Ideal.ofBits .f32 0x00000000#32 = (0 : EReal) := by
  simp [Ideal.ofBits, Ideal.ieee]

/-- An extended real whose absolute value `max x (-x)` is below `+∞` is a real: `|⊥| = |⊤| = ⊤`. -/
theorem real_of_abs_lt (x : EReal) (h : Ideal.cmp .olt (max x (-x)) (Ideal.ofBits .f32 0x7F800000#32) = 1#1) :
    ∃ r : ℝ, x = (r : EReal) := by
  rw [inf_bits] at h
  simp only [Ideal.cmp, StableHlo.Predicate.ofBool_eq_one_iff, decide_eq_true_eq] at h
  induction x using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- The comparison `y > 0` read at the extended reals. -/
theorem pos_of_cmp (y : EReal) (h : Ideal.cmp .ogt y (Ideal.ofBits .f32 0x00000000#32) = 1#1) : (0 : EReal) < y := by
  rw [zero_bits] at h
  simpa only [Ideal.cmp, StableHlo.Predicate.ofBool_eq_one_iff, decide_eq_true_eq] using h

/-- The parameters of the normalisation are real and `var + ε` is positive, entry by entry, on every device. -/
theorem of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, gam m c i = (r : EReal)) ∧ (∀ i, ∃ r : ℝ, bet m c i = (r : EReal)) ∧ (∀ i, ∃ r : ℝ, mea m c i = (r : EReal))
    ∧ (∀ i, ∃ r : ℝ, vari m c i = (r : EReal)) ∧ (∀ i, (0 : EReal) < vari m c i + Ideal.ofBits .f32 0x3727C5AC#32) := by
  -- The precondition is one bit; at the scalar index it is a conjunction of fourteen `all`s.
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨-, -⟩, -⟩, h4⟩, h5⟩, h6⟩, h7⟩, -⟩, -⟩, -⟩, -⟩, -⟩, -⟩, hp⟩ := e
  -- Each `all` gives its comparison at every entry; the comparison `|x| < +∞` says `x` is real.
  refine ⟨fun i => ?_, fun i => ?_, fun i => ?_, fun i => ?_, fun i => ?_⟩
  · exact real_of_abs_lt _ (Host.reduce_andi_all _ _ _ _ _ h4 i)
  · exact real_of_abs_lt _ (Host.reduce_andi_all _ _ _ _ _ h5 i)
  · exact real_of_abs_lt _ (Host.reduce_andi_all _ _ _ _ _ h6 i)
  · exact real_of_abs_lt _ (Host.reduce_andi_all _ _ _ _ _ h7 i)
  · exact pos_of_cmp _ (Host.reduce_andi_all _ _ _ _ _ hp i)

end Cert.Proof.PreFacts

end
-- ==== Proof.RefRunStage0.lean ====
/-
  The reference's first stretch, read: operations 1 … 62 of its @main (the two rows of the edge-index array taken out and
  flattened, then layer 1: gather along the edges, scatter-add into the nodes, the two affine maps with the batch
  normalisation and the two rectifiers).  From any buffer contents whose argument buffers hold `x0 … x9`, the stretch
  leaves layer 1's output at `val_main_v53 x0 … x9` and the two index rows at `val_main_v1 x1`, `val_main_v3 x1` —
  the operations' results composed (one rewriting pass over the 62 results), which is those definitions unfolded —
  and it writes no argument buffer.
-/
import proofs.«114683_j20864951124664_1_alg».proof.Proof.RefRunOps0
import proofs.«114683_j20864951124664_1_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The first stretch (the edge indices and layer 1), from ANY contents `W` whose argument buffers hold `x0 … x9`: it
    leaves layer 1's output and the two rows of edge indices at the values the operations, read one at a time, give. -/
theorem stage0 (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F))
    (hH : W (Proc.devRef .tc main_arg0) = x0) (ha1 : W (Proc.devRef .tc main_arg1) = x1)
    (ha2 : W (Proc.devRef .tc main_arg2) = x2) (ha3 : W (Proc.devRef .tc main_arg3) = x3)
    (ha4 : W (Proc.devRef .tc main_arg4) = x4) (ha5 : W (Proc.devRef .tc main_arg5) = x5)
    (ha6 : W (Proc.devRef .tc main_arg6) = x6) (ha7 : W (Proc.devRef .tc main_arg7) = x7)
    (ha8 : W (Proc.devRef .tc main_arg8) = x8) (ha9 : W (Proc.devRef .tc main_arg9) = x9) :
    after ops0 W (Proc.devRef .tc main_v53) = val_main_v53 (F := F) x0 x1 x2 x3 x4 x5 x6 x7 x8 x9
      ∧ after ops0 W (Proc.devRef .tc main_v1) = val_main_v1 (F := F) x1
      ∧ after ops0 W (Proc.devRef .tc main_v3) = val_main_v3 (F := F) x1 := by
  subst hH ha1 ha2 ha3 ha4 ha5 ha6 ha7 ha8 ha9
  refine ⟨?_, ?_, ?_⟩
  · after_results_simp
    rfl
  · after_results_simp
    rfl
  · after_results_simp
    rfl

/-- The buffers the stretch's operations write, one per operation, in order. -/
abbrev wr0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_cst_1, main_v32, main_v33, main_v34, main_v35, main_v36, main_v37, main_v38, main_v39, main_v40, main_v41, main_v42, main_v43, main_call0_cst, main_call0_v0, main_v44, main_v45, main_v46, main_v47, main_v48, main_v49, main_v50, main_v51, main_v52, main_call1_cst, main_call1_v0, main_v53]

set_option maxRecDepth 8192 in
set_option maxHeartbeats 4000000 in
/-- Each operation of the stretch writes its one result buffer, which is in that list. -/
theorem ops0_writes : (ops0 : List (HloOp τ sig (Elt F))).Forall fun op =>
    op.writes ⊆ (wr0.map (Proc.devRef (τ := τ) .tc)).toFinset := by
  simp only [ops0, List.Forall, nullary_writes, unary_writes, binary_writes, ternary_writes, reshape_writes,
    Finset.singleton_subset_iff, List.mem_toFinset]
  repeat' apply And.intro
  all_goals exact List.mem_map_of_mem (by decide)

/-- The stretch writes no argument buffer: each keeps its contents. -/
theorem keep0 (W : Valuation τ sig (Elt F)) :
    ∀ b ∈ [main_arg0, main_arg1, main_arg2, main_arg3, main_arg4, main_arg5, main_arg6, main_arg7, main_arg8, main_arg9, main_arg10, main_arg11, main_arg12, main_arg13],
      after ops0 W (Proc.devRef .tc b) = W (Proc.devRef .tc b) :=
  fun b hb => after_of_writes_sub ops0 W ops0_writes ((by decide : ∀ b ∈ [main_arg0, main_arg1, main_arg2, main_arg3, main_arg4, main_arg5, main_arg6, main_arg7, main_arg8, main_arg9, main_arg10, main_arg11, main_arg12, main_arg13], b ∉ wr0) b hb)

end Cert.ReferenceIdeal.RefRun

end
-- ==== Proof.RefRunStage1.lean ====
/-
  The reference's stretch of layer 2, read: operations 63 … 120 of its @main (the edge indices wrapped once more, gather
  along the edges from layer 1's output, scatter-add into the nodes, the two affine maps with the batch normalisation and
  the two rectifiers, on the layer's slices of the stacked parameters).  From any buffer contents that hold layer 1's
  output at `val_main_v53 x0 … x9`, the two index rows at `val_main_v1 x1`, `val_main_v3 x1` and the parameter buffers at
  `x2 … x9`, the stretch leaves layer 2's output at `val_main_v103 x0 … x9`: the operations' results composed (one rewriting
  pass over the stretch's 58 results) are that definition unfolded down to the three values taken over, which stay folded on
  both sides.  The stretch writes neither index row and no argument buffer.
-/
import proofs.«114683_j20864951124664_1_alg».proof.Proof.RefRunOps1
import proofs.«114683_j20864951124664_1_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The stretch of layer 2, from ANY contents `W` that hold layer 1's output, the two rows of edge indices and the
    layer's parameter arrays at their values in `x0 … x9`: it leaves layer 2's output at the value the operations, read one
    at a time, give. -/
theorem stage1 (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F))
    (hH : W (Proc.devRef .tc main_v53) = val_main_v53 (F := F) x0 x1 x2 x3 x4 x5 x6 x7 x8 x9)
    (h1 : W (Proc.devRef .tc main_v1) = val_main_v1 (F := F) x1) (h3 : W (Proc.devRef .tc main_v3) = val_main_v3 (F := F) x1)
    (ha2 : W (Proc.devRef .tc main_arg2) = x2) (ha3 : W (Proc.devRef .tc main_arg3) = x3)
    (ha4 : W (Proc.devRef .tc main_arg4) = x4) (ha5 : W (Proc.devRef .tc main_arg5) = x5)
    (ha6 : W (Proc.devRef .tc main_arg6) = x6) (ha7 : W (Proc.devRef .tc main_arg7) = x7)
    (ha8 : W (Proc.devRef .tc main_arg8) = x8) (ha9 : W (Proc.devRef .tc main_arg9) = x9) :
    after ops1 W (Proc.devRef .tc main_v103) = val_main_v103 (F := F) x0 x1 x2 x3 x4 x5 x6 x7 x8 x9 := by
  subst ha2 ha3 ha4 ha5 ha6 ha7 ha8 ha9
  after_results_simp
  rw [hH, h1, h3]
  rfl

/-- The buffers the stretch's operations write, one per operation, in order. -/
abbrev wr1 : List (Ref sig .tc) :=
  [main_c_2, main_v54, main_v55, main_c_3, main_v56, main_v57, main_v58, main_v59, main_v60, main_cst_4, main_v61, main_v62, main_v63, main_v64, main_v65, main_v66, main_v67, main_v68, main_v69, main_v70, main_v71, main_v72, main_v73, main_v74, main_v75, main_v76, main_v77, main_v78, main_v79, main_v80, main_v81, main_cst_5, main_v82, main_v83, main_v84, main_v85, main_v86, main_v87, main_v88, main_v89, main_v90, main_v91, main_v92, main_v93, main_call2_cst, main_call2_v0, main_v94, main_v95, main_v96, main_v97, main_v98, main_v99, main_v100, main_v101, main_v102, main_call3_cst, main_call3_v0, main_v103]

set_option maxRecDepth 8192 in
set_option maxHeartbeats 4000000 in
/-- Each operation of the stretch writes its one result buffer, which is in that list. -/
theorem ops1_writes : (ops1 : List (HloOp τ sig (Elt F))).Forall fun op =>
    op.writes ⊆ (wr1.map (Proc.devRef (τ := τ) .tc)).toFinset := by
  simp only [ops1, List.Forall, nullary_writes, unary_writes, binary_writes, ternary_writes, reshape_writes,
    Finset.singleton_subset_iff, List.mem_toFinset]
  repeat' apply And.intro
  all_goals exact List.mem_map_of_mem (by decide)

/-- The stretch writes neither row of edge indices and no argument buffer: each keeps its contents. -/
theorem keep1 (W : Valuation τ sig (Elt F)) :
    ∀ b ∈ [main_v1, main_v3, main_arg0, main_arg1, main_arg2, main_arg3, main_arg4, main_arg5, main_arg6, main_arg7, main_arg8, main_arg9, main_arg10, main_arg11, main_arg12, main_arg13],
      after ops1 W (Proc.devRef .tc b) = W (Proc.devRef .tc b) :=
  fun b hb => after_of_writes_sub ops1 W ops1_writes ((by decide : ∀ b ∈ [main_v1, main_v3, main_arg0, main_arg1, main_arg2, main_arg3, main_arg4, main_arg5, main_arg6, main_arg7, main_arg8, main_arg9, main_arg10, main_arg11, main_arg12, main_arg13], b ∉ wr1) b hb)

end Cert.ReferenceIdeal.RefRun

end
-- ==== Proof.RefRunStage2.lean ====
/-
  The reference's stretch of layer 3, read: operations 121 … 178 of its @main (the edge indices wrapped once more, gather
  along the edges from layer 2's output, scatter-add into the nodes, the two affine maps with the batch normalisation and
  the two rectifiers, on the layer's slices of the stacked parameters).  From any buffer contents that hold layer 2's
  output at `val_main_v103 x0 … x9`, the two index rows at `val_main_v1 x1`, `val_main_v3 x1` and the parameter buffers at
  `x2 … x9`, the stretch leaves layer 3's output at `val_main_v153 x0 … x9`: the operations' results composed (one rewriting
  pass over the stretch's 58 results) are that definition unfolded down to the three values taken over, which stay folded on
  both sides.  The stretch writes neither index row and no argument buffer.
-/
import proofs.«114683_j20864951124664_1_alg».proof.Proof.RefRunOps2
import proofs.«114683_j20864951124664_1_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The stretch of layer 3, from ANY contents `W` that hold layer 2's output, the two rows of edge indices and the
    layer's parameter arrays at their values in `x0 … x9`: it leaves layer 3's output at the value the operations, read one
    at a time, give. -/
theorem stage2 (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F))
    (hH : W (Proc.devRef .tc main_v103) = val_main_v103 (F := F) x0 x1 x2 x3 x4 x5 x6 x7 x8 x9)
    (h1 : W (Proc.devRef .tc main_v1) = val_main_v1 (F := F) x1) (h3 : W (Proc.devRef .tc main_v3) = val_main_v3 (F := F) x1)
    (ha2 : W (Proc.devRef .tc main_arg2) = x2) (ha3 : W (Proc.devRef .tc main_arg3) = x3)
    (ha4 : W (Proc.devRef .tc main_arg4) = x4) (ha5 : W (Proc.devRef .tc main_arg5) = x5)
    (ha6 : W (Proc.devRef .tc main_arg6) = x6) (ha7 : W (Proc.devRef .tc main_arg7) = x7)
    (ha8 : W (Proc.devRef .tc main_arg8) = x8) (ha9 : W (Proc.devRef .tc main_arg9) = x9) :
    after ops2 W (Proc.devRef .tc main_v153) = val_main_v153 (F := F) x0 x1 x2 x3 x4 x5 x6 x7 x8 x9 := by
  subst ha2 ha3 ha4 ha5 ha6 ha7 ha8 ha9
  after_results_simp
  rw [hH, h1, h3]
  rfl

/-- The buffers the stretch's operations write, one per operation, in order. -/
abbrev wr2 : List (Ref sig .tc) :=
  [main_c_6, main_v104, main_v105, main_c_7, main_v106, main_v107, main_v108, main_v109, main_v110, main_cst_8, main_v111, main_v112, main_v113, main_v114, main_v115, main_v116, main_v117, main_v118, main_v119, main_v120, main_v121, main_v122, main_v123, main_v124, main_v125, main_v126, main_v127, main_v128, main_v129, main_v130, main_v131, main_cst_9, main_v132, main_v133, main_v134, main_v135, main_v136, main_v137, main_v138, main_v139, main_v140, main_v141, main_v142, main_v143, main_call4_cst, main_call4_v0, main_v144, main_v145, main_v146, main_v147, main_v148, main_v149, main_v150, main_v151, main_v152, main_call5_cst, main_call5_v0, main_v153]

set_option maxRecDepth 8192 in
set_option maxHeartbeats 4000000 in
/-- Each operation of the stretch writes its one result buffer, which is in that list. -/
theorem ops2_writes : (ops2 : List (HloOp τ sig (Elt F))).Forall fun op =>
    op.writes ⊆ (wr2.map (Proc.devRef (τ := τ) .tc)).toFinset := by
  simp only [ops2, List.Forall, nullary_writes, unary_writes, binary_writes, ternary_writes, reshape_writes,
    Finset.singleton_subset_iff, List.mem_toFinset]
  repeat' apply And.intro
  all_goals exact List.mem_map_of_mem (by decide)

/-- The stretch writes neither row of edge indices and no argument buffer: each keeps its contents. -/
theorem keep2 (W : Valuation τ sig (Elt F)) :
    ∀ b ∈ [main_v1, main_v3, main_arg0, main_arg1, main_arg2, main_arg3, main_arg4, main_arg5, main_arg6, main_arg7, main_arg8, main_arg9, main_arg10, main_arg11, main_arg12, main_arg13],
      after ops2 W (Proc.devRef .tc b) = W (Proc.devRef .tc b) :=
  fun b hb => after_of_writes_sub ops2 W ops2_writes ((by decide : ∀ b ∈ [main_v1, main_v3, main_arg0, main_arg1, main_arg2, main_arg3, main_arg4, main_arg5, main_arg6, main_arg7, main_arg8, main_arg9, main_arg10, main_arg11, main_arg12, main_arg13], b ∉ wr2) b hb)

end Cert.ReferenceIdeal.RefRun

end
-- ==== Proof.RefRunStage3.lean ====
/-
  The reference's stretch of layer 4, read: operations 179 … 236 of its @main (the edge indices wrapped once more, gather
  along the edges from layer 3's output, scatter-add into the nodes, the two affine maps with the batch normalisation and
  the two rectifiers, on the layer's slices of the stacked parameters).  From any buffer contents that hold layer 3's
  output at `val_main_v153 x0 … x9`, the two index rows at `val_main_v1 x1`, `val_main_v3 x1` and the parameter buffers at
  `x2 … x9`, the stretch leaves layer 4's output at `val_main_v203 x0 … x9`: the operations' results composed are that
  definition unfolded down to the three values taken over, which stay folded on both sides.  The stretch writes neither
  index row and no argument buffer.
-/
import proofs.«114683_j20864951124664_1_alg».proof.Proof.RefRunOps3
import proofs.«114683_j20864951124664_1_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The stretch of layer 4, from ANY contents `W` that hold layer 3's output, the two rows of edge indices and the
    layer's parameter arrays at their values in `x0 … x9`: it leaves layer 4's output at the value the operations, read one
    at a time, give. -/
theorem stage3 (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F))
    (hH : W (Proc.devRef .tc main_v153) = val_main_v153 (F := F) x0 x1 x2 x3 x4 x5 x6 x7 x8 x9)
    (h1 : W (Proc.devRef .tc main_v1) = val_main_v1 (F := F) x1) (h3 : W (Proc.devRef .tc main_v3) = val_main_v3 (F := F) x1)
    (ha2 : W (Proc.devRef .tc main_arg2) = x2) (ha3 : W (Proc.devRef .tc main_arg3) = x3)
    (ha4 : W (Proc.devRef .tc main_arg4) = x4) (ha5 : W (Proc.devRef .tc main_arg5) = x5)
    (ha6 : W (Proc.devRef .tc main_arg6) = x6) (ha7 : W (Proc.devRef .tc main_arg7) = x7)
    (ha8 : W (Proc.devRef .tc main_arg8) = x8) (ha9 : W (Proc.devRef .tc main_arg9) = x9) :
    after ops3 W (Proc.devRef .tc main_v203) = val_main_v203 (F := F) x0 x1 x2 x3 x4 x5 x6 x7 x8 x9 := by
  after_results_simp
  rw [hH, h1, h3, ha2, ha3, ha4, ha5, ha6, ha7, ha8, ha9]
  rfl

/-- The buffers the stretch's operations write, one per operation, in order. -/
abbrev wr3 : List (Ref sig .tc) :=
  [main_c_10, main_v154, main_v155, main_c_11, main_v156, main_v157, main_v158, main_v159, main_v160, main_cst_12, main_v161, main_v162, main_v163, main_v164, main_v165, main_v166, main_v167, main_v168, main_v169, main_v170, main_v171, main_v172, main_v173, main_v174, main_v175, main_v176, main_v177, main_v178, main_v179, main_v180, main_v181, main_cst_13, main_v182, main_v183, main_v184, main_v185, main_v186, main_v187, main_v188, main_v189, main_v190, main_v191, main_v192, main_v193, main_call6_cst, main_call6_v0, main_v194, main_v195, main_v196, main_v197, main_v198, main_v199, main_v200, main_v201, main_v202, main_call7_cst, main_call7_v0, main_v203]

set_option maxRecDepth 8192 in
set_option maxHeartbeats 4000000 in
/-- Each operation of the stretch writes its one result buffer, which is in that list. -/
theorem ops3_writes : (ops3 : List (HloOp τ sig (Elt F))).Forall fun op =>
    op.writes ⊆ (wr3.map (Proc.devRef (τ := τ) .tc)).toFinset := by
  simp only [ops3, List.Forall, nullary_writes, unary_writes, binary_writes, ternary_writes, reshape_writes,
    Finset.singleton_subset_iff, List.mem_toFinset]
  repeat' apply And.intro
  all_goals exact List.mem_map_of_mem (by decide)

/-- The stretch writes neither row of edge indices and no argument buffer: each keeps its contents. -/
theorem keep3 (W : Valuation τ sig (Elt F)) :
    ∀ b ∈ [main_v1, main_v3, main_arg0, main_arg1, main_arg2, main_arg3, main_arg4, main_arg5, main_arg6, main_arg7, main_arg8, main_arg9, main_arg10, main_arg11, main_arg12, main_arg13],
      after ops3 W (Proc.devRef .tc b) = W (Proc.devRef .tc b) :=
  fun b hb => after_of_writes_sub ops3 W ops3_writes ((by decide : ∀ b ∈ [main_v1, main_v3, main_arg0, main_arg1, main_arg2, main_arg3, main_arg4, main_arg5, main_arg6, main_arg7, main_arg8, main_arg9, main_arg10, main_arg11, main_arg12, main_arg13], b ∉ wr3) b hb)

end Cert.ReferenceIdeal.RefRun

end
-- ==== Proof.RefRunStage4.lean ====
/-
  The reference's stretch of layer 5, read: operations 237 … 294 of its @main (the edge indices wrapped once more, gather
  along the edges from layer 4's output, scatter-add into the nodes, the two affine maps with the batch normalisation and
  the two rectifiers, on the layer's slices of the stacked parameters).  From any buffer contents that hold layer 4's
  output at `val_main_v203 x0 … x9`, the two index rows at `val_main_v1 x1`, `val_main_v3 x1` and the parameter buffers at
  `x2 … x9`, the stretch leaves layer 5's output at `val_main_v253 x0 … x9`: the operations' results composed are that
  definition unfolded down to the three values taken over, which stay folded on both sides.  The stretch writes neither
  index row and no argument buffer.
-/
import proofs.«114683_j20864951124664_1_alg».proof.Proof.RefRunOps4
import proofs.«114683_j20864951124664_1_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The stretch of layer 5, from ANY contents `W` that hold layer 4's output, the two rows of edge indices and the
    layer's parameter arrays at their values in `x0 … x9`: it leaves layer 5's output at the value the operations, read one
    at a time, give. -/
theorem stage4 (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F))
    (hH : W (Proc.devRef .tc main_v203) = val_main_v203 (F := F) x0 x1 x2 x3 x4 x5 x6 x7 x8 x9)
    (h1 : W (Proc.devRef .tc main_v1) = val_main_v1 (F := F) x1) (h3 : W (Proc.devRef .tc main_v3) = val_main_v3 (F := F) x1)
    (ha2 : W (Proc.devRef .tc main_arg2) = x2) (ha3 : W (Proc.devRef .tc main_arg3) = x3)
    (ha4 : W (Proc.devRef .tc main_arg4) = x4) (ha5 : W (Proc.devRef .tc main_arg5) = x5)
    (ha6 : W (Proc.devRef .tc main_arg6) = x6) (ha7 : W (Proc.devRef .tc main_arg7) = x7)
    (ha8 : W (Proc.devRef .tc main_arg8) = x8) (ha9 : W (Proc.devRef .tc main_arg9) = x9) :
    after ops4 W (Proc.devRef .tc main_v253) = val_main_v253 (F := F) x0 x1 x2 x3 x4 x5 x6 x7 x8 x9 := by
  after_results_simp
  rw [hH, h1, h3, ha2, ha3, ha4, ha5, ha6, ha7, ha8, ha9]
  rfl

/-- The buffers the stretch's operations write, one per operation, in order. -/
abbrev wr4 : List (Ref sig .tc) :=
  [main_c_14, main_v204, main_v205, main_c_15, main_v206, main_v207, main_v208, main_v209, main_v210, main_cst_16, main_v211, main_v212, main_v213, main_v214, main_v215, main_v216, main_v217, main_v218, main_v219, main_v220, main_v221, main_v222, main_v223, main_v224, main_v225, main_v226, main_v227, main_v228, main_v229, main_v230, main_v231, main_cst_17, main_v232, main_v233, main_v234, main_v235, main_v236, main_v237, main_v238, main_v239, main_v240, main_v241, main_v242, main_v243, main_call8_cst, main_call8_v0, main_v244, main_v245, main_v246, main_v247, main_v248, main_v249, main_v250, main_v251, main_v252, main_call9_cst, main_call9_v0, main_v253]

set_option maxRecDepth 8192 in
set_option maxHeartbeats 4000000 in
/-- Each operation of the stretch writes its one result buffer, which is in that list. -/
theorem ops4_writes : (ops4 : List (HloOp τ sig (Elt F))).Forall fun op =>
    op.writes ⊆ (wr4.map (Proc.devRef (τ := τ) .tc)).toFinset := by
  simp only [ops4, List.Forall, nullary_writes, unary_writes, binary_writes, ternary_writes, reshape_writes,
    Finset.singleton_subset_iff, List.mem_toFinset]
  repeat' apply And.intro
  all_goals exact List.mem_map_of_mem (by decide)

/-- The stretch writes neither row of edge indices and no argument buffer: each keeps its contents. -/
theorem keep4 (W : Valuation τ sig (Elt F)) :
    ∀ b ∈ [main_v1, main_v3, main_arg0, main_arg1, main_arg2, main_arg3, main_arg4, main_arg5, main_arg6, main_arg7, main_arg8, main_arg9, main_arg10, main_arg11, main_arg12, main_arg13],
      after ops4 W (Proc.devRef .tc b) = W (Proc.devRef .tc b) :=
  fun b hb => after_of_writes_sub ops4 W ops4_writes ((by decide : ∀ b ∈ [main_v1, main_v3, main_arg0, main_arg1, main_arg2, main_arg3, main_arg4, main_arg5, main_arg6, main_arg7, main_arg8, main_arg9, main_arg10, main_arg11, main_arg12, main_arg13], b ∉ wr4) b hb)

end Cert.ReferenceIdeal.RefRun

end
-- ==== Proof.RefRunStage5.lean ====
/-
  The reference's last stretch, read: operations 295 … 320 of its @main (the classifier's two affine maps with the
  rectifier between them, then the row-wise log-softmax over the 10 classes: the row maximum, the shifted exponentials,
  their sum, its logarithm).  From any buffer contents that hold layer 5's output at `val_main_v253 x0 … x9` and the
  classifier's four parameter buffers at `x10 … x13`, the stretch leaves the result at `val_main_v263 x0 … x13`: the
  operations' results composed are that definition unfolded down to the one value taken over, which stays folded on both
  sides.  The stretch writes neither index row and no argument buffer.
-/
import proofs.«114683_j20864951124664_1_alg».proof.Proof.RefRunOps5
import proofs.«114683_j20864951124664_1_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's first 11 operations: the two affine maps with the rectifier between them. -/
abbrev ops5a : List (HloOp τ sig (Elt F)) :=
  [ binary main_v253 main_arg10 main_v254 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v255 (broadcastInDim S1x128 ![1] bcast_S128_S1x128_1 : (⟨S128, .f32⟩ : BufTy).Contents (Elt F) → (⟨S1x128, .f32⟩ : BufTy).Contents (Elt F)),
    unary main_v255 main_v256 (broadcastInDim S100000x128 ![0, 1] bcast_S1x128_S100000x128_0_1 : (⟨S1x128, .f32⟩ : BufTy).Contents (Elt F) → (⟨S100000x128, .f32⟩ : BufTy).Contents (Elt F)),
    binary main_v254 main_v256 main_v257 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v257) (TRef.of (T := ⟨S100000x128, .f32⟩) main_call10_v0) (TRef.of (T := ⟨S100000x128, .f32⟩) main_v258) maximumf,
    binary main_v258 main_arg12 main_v259 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_arg13 main_v260 (broadcastInDim S1x10 ![1] bcast_S10_S1x10_1 : (⟨S10, .f32⟩ : BufTy).Contents (Elt F) → (⟨S1x10, .f32⟩ : BufTy).Contents (Elt F)),
    unary main_v260 main_v261 (broadcastInDim S100000x10 ![0, 1] bcast_S1x10_S100000x10_0_1 : (⟨S1x10, .f32⟩ : BufTy).Contents (Elt F) → (⟨S100000x10, .f32⟩ : BufTy).Contents (Elt F)),
    binary main_v259 main_v261 main_v262 (addf : (⟨S100000x10, .f32⟩ : BufTy).Contents (Elt F) → (⟨S100000x10, .f32⟩ : BufTy).Contents (Elt F) → (⟨S100000x10, .f32⟩ : BufTy).Contents (Elt F)) ]

/-- The next 8 operations: the row maximum and the logits shifted by it. -/
abbrev ops5b : List (HloOp τ sig (Elt F)) :=
  [ TRef.nullary (TRef.of (T := ⟨S_, .f32⟩) main_call11_cst) (constant S_ .f32 0xFF800000#32),
    TRef.binary (TRef.of (T := ⟨S100000x10, .f32⟩) main_v262) (TRef.of (T := ⟨S_, .f32⟩) main_call11_cst) (TRef.of (T := ⟨S100000, .f32⟩) main_call11_v0) (fun x v => Host.reduce FloatOps.maximumf x v reducesTo_S100000x10_S100000_d1 h_S_),
    TRef.nullary (TRef.of (T := ⟨S_, .f32⟩) main_call11_cst_0) (constant S_ .f32 0xFF800000#32),
    TRef.unary (TRef.of (T := ⟨S_, .f32⟩) main_call11_cst_0) (TRef.of (T := ⟨S100000, .f32⟩) main_call11_v1) (broadcastInDim S100000 ![] bcast_S_S100000),
    TRef.binary (TRef.of (T := ⟨S100000, .f32⟩) main_call11_v1) (TRef.of (T := ⟨S100000, .f32⟩) main_call11_v0) (TRef.of (T := ⟨S100000, .f32⟩) main_call11_v2) maximumf,
    TRef.unary (TRef.of (T := ⟨S100000, .f32⟩) main_call11_v2) (TRef.of (T := ⟨S100000x1, .f32⟩) main_call11_v3) (broadcastInDim S100000x1 ![0] bcast_S100000_S100000x1_0),
    TRef.unary (TRef.of (T := ⟨S100000x1, .f32⟩) main_call11_v3) (TRef.of (T := ⟨S100000x10, .f32⟩) main_call11_v4) (broadcastInDim S100000x10 ![0, 1] bcast_S100000x1_S100000x10_0_1),
    TRef.binary (TRef.of (T := ⟨S100000x10, .f32⟩) main_v262) (TRef.of (T := ⟨S100000x10, .f32⟩) main_call11_v4) (TRef.of (T := ⟨S100000x10, .f32⟩) main_call11_v5) subf ]

/-- The last 7 operations: the exponentials, their row sum, its logarithm, and the difference. -/
abbrev ops5c : List (HloOp τ sig (Elt F)) :=
  [ TRef.unary (TRef.of (T := ⟨S100000x10, .f32⟩) main_call11_v5) (TRef.of (T := ⟨S100000x10, .f32⟩) main_call11_v6) Host.exp,
    TRef.nullary (TRef.of (T := ⟨S_, .f32⟩) main_call11_cst_1) (constant S_ .f32 0x00000000#32),
    TRef.binary (TRef.of (T := ⟨S100000x10, .f32⟩) main_call11_v6) (TRef.of (T := ⟨S_, .f32⟩) main_call11_cst_1) (TRef.of (T := ⟨S100000, .f32⟩) main_call11_v7) (fun x v => Host.reduceAdd x v reducesTo_S100000x10_S100000_d1 h_S_),
    TRef.unary (TRef.of (T := ⟨S100000, .f32⟩) main_call11_v7) (TRef.of (T := ⟨S100000x1, .f32⟩) main_call11_v8) (broadcastInDim S100000x1 ![0] bcast_S100000_S100000x1_0),
    TRef.unary (TRef.of (T := ⟨S100000x1, .f32⟩) main_call11_v8) (TRef.of (T := ⟨S100000x1, .f32⟩) main_call11_v9) Host.log,
    TRef.unary (TRef.of (T := ⟨S100000x1, .f32⟩) main_call11_v9) (TRef.of (T := ⟨S100000x10, .f32⟩) main_call11_v10) (broadcastInDim S100000x10 ![0, 1] bcast_S100000x1_S100000x10_0_1),
    TRef.binary (TRef.of (T := ⟨S100000x10, .f32⟩) main_call11_v5) (TRef.of (T := ⟨S100000x10, .f32⟩) main_call11_v10) (TRef.of (T := ⟨S100000x10, .f32⟩) main_v263) subf ]

/-- The stretch is the three parts in order. -/
theorem ops5_split : (ops5 : List (HloOp τ sig (Elt F))) = ops5a ++ (ops5b ++ ops5c) := rfl

/-- The contents after two lines run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents moved to a buffer's own type and back are the contents. -/
theorem ofBuf_toBuf {T : BufTy} (x : TRef sig T) (v : T.Contents (Elt F)) : x.ofBuf (x.toBuf v) = v := by
  obtain ⟨ref, h, od, us⟩ := x
  subst h
  rfl

/-- Contents of the logits' buffer, read at the logits' literal type. -/
theorem ofBuf_v262 (v : main_v262.ty.Contents (Elt F)) : (TRef.of (T := ⟨S100000x10, .f32⟩) main_v262).ofBuf v = v := rfl
/-- Contents of the result's buffer, read at the result's literal type. -/
theorem ofBuf_v263 (v : main_v263.ty.Contents (Elt F)) : (TRef.of (T := ⟨S100000x10, .f32⟩) main_v263).ofBuf v = v := rfl

set_option maxRecDepth 8192 in
set_option maxHeartbeats 4000000 in
/-- The logits, from ANY contents that hold layer 5's output and the classifier's four parameter arrays. -/
theorem stage5a (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F))
    (hH : W (Proc.devRef .tc main_v253) = val_main_v253 (F := F) x0 x1 x2 x3 x4 x5 x6 x7 x8 x9)
    (ha10 : W (Proc.devRef .tc main_arg10) = x10) (ha11 : W (Proc.devRef .tc main_arg11) = x11)
    (ha12 : W (Proc.devRef .tc main_arg12) = x12) (ha13 : W (Proc.devRef .tc main_arg13) = x13) :
    after ops5a W (Proc.devRef .tc main_v262) = val_main_v262 (F := F) x0 x1 x2 x3 x4 x5 x6 x7 x8 x9 x10 x11 x12 x13 := by
  subst ha10 ha11 ha12 ha13
  after_results_simp
  rw [hH]
  rfl

set_option maxRecDepth 8192 in
set_option maxHeartbeats 4000000 in
/-- The logits shifted by their row maximum, from ANY contents that hold the logits (both read at the literal type). -/
theorem stage5b (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F))
    (hL : (TRef.of (T := ⟨S100000x10, .f32⟩) main_v262).ofBuf (W (Proc.devRef .tc main_v262))
      = val_main_v262 (F := F) x0 x1 x2 x3 x4 x5 x6 x7 x8 x9 x10 x11 x12 x13) :
    (TRef.of (T := ⟨S100000x10, .f32⟩) main_call11_v5).ofBuf (after ops5b W (Proc.devRef .tc main_call11_v5))
      = val_main_call11_v5 (F := F) x0 x1 x2 x3 x4 x5 x6 x7 x8 x9 x10 x11 x12 x13 := by
  after_results_simp
  rw [hL]
  simp only [ofBuf_toBuf]
  rfl

set_option maxRecDepth 8192 in
set_option maxHeartbeats 4000000 in
/-- The log-softmax, from ANY contents that hold the shifted logits (both read at the literal type). -/
theorem stage5c (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F))
    (hS : (TRef.of (T := ⟨S100000x10, .f32⟩) main_call11_v5).ofBuf (W (Proc.devRef .tc main_call11_v5))
      = val_main_call11_v5 (F := F) x0 x1 x2 x3 x4 x5 x6 x7 x8 x9 x10 x11 x12 x13) :
    (TRef.of (T := ⟨S100000x10, .f32⟩) main_v263).ofBuf (after ops5c W (Proc.devRef .tc main_v263))
      = val_main_v263 (F := F) x0 x1 x2 x3 x4 x5 x6 x7 x8 x9 x10 x11 x12 x13 := by
  after_results_simp
  rw [hS]
  simp only [ofBuf_toBuf]
  rfl

/-- The stretch's result, from ANY contents `W` that hold what the stretch reads at the values named. -/
theorem stage5 (W : Valuation τ sig (Elt F)) (x0 : (⟨S100000x128, .f32⟩ : BufTy).Contents (Elt F)) (x1 : (⟨S2x1600000, .i32⟩ : BufTy).Contents (Elt F)) (x2 : (⟨S5x128x128, .f32⟩ : BufTy).Contents (Elt F)) (x3 x4 x5 x6 x7 : (⟨S5x128, .f32⟩ : BufTy).Contents (Elt F)) (x8 : (⟨S5x128x128, .f32⟩ : BufTy).Contents (Elt F)) (x9 : (⟨S5x128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F))
    (hH : W (Proc.devRef .tc main_v253) = val_main_v253 (F := F) x0 x1 x2 x3 x4 x5 x6 x7 x8 x9)
    (ha10 : W (Proc.devRef .tc main_arg10) = x10) (ha11 : W (Proc.devRef .tc main_arg11) = x11)
    (ha12 : W (Proc.devRef .tc main_arg12) = x12) (ha13 : W (Proc.devRef .tc main_arg13) = x13) :
    after ops5 W (Proc.devRef .tc main_v263) = val_main_v263 (F := F) x0 x1 x2 x3 x4 x5 x6 x7 x8 x9 x10 x11 x12 x13 := by
  rw [ops5_split, after_app, after_app]
  refine (ofBuf_v263 _).symm.trans ?_
  exact stage5c _ x0 x1 x2 x3 x4 x5 x6 x7 x8 x9 x10 x11 x12 x13 (stage5b _ x0 x1 x2 x3 x4 x5 x6 x7 x8 x9 x10 x11 x12 x13
    ((ofBuf_v262 _).trans (stage5a W x0 x1 x2 x3 x4 x5 x6 x7 x8 x9 x10 x11 x12 x13 hH ha10 ha11 ha12 ha13)))

/-- The buffers the stretch's operations write, one per operation, in order. -/
abbrev wr5 : List (Ref sig .tc) :=
  [main_v254, main_v255, main_v256, main_v257, main_call10_cst, main_call10_v0, main_v258, main_v259, main_v260, main_v261, main_v262,
    main_call11_cst, main_call11_v0, main_call11_cst_0, main_call11_v1, main_call11_v2, main_call11_v3, main_call11_v4, main_call11_v5,
    main_call11_v6, main_call11_cst_1, main_call11_v7, main_call11_v8, main_call11_v9, main_call11_v10, main_v263]

set_option maxRecDepth 8192 in
set_option maxHeartbeats 4000000 in
/-- Each operation of the stretch writes its one result buffer, which is in that list. -/
theorem ops5_writes : (ops5 : List (HloOp τ sig (Elt F))).Forall fun op =>
    op.writes ⊆ (wr5.map (Proc.devRef (τ := τ) .tc)).toFinset := by
  simp only [ops5, List.Forall, nullary_writes, unary_writes, binary_writes, ternary_writes, reshape_writes,
    Finset.singleton_subset_iff, List.mem_toFinset]
  repeat' apply And.intro
  all_goals exact List.mem_map_of_mem (by decide)

/-- The stretch writes neither row of edge indices and no argument buffer: each keeps its contents. -/
theorem keep5 (W : Valuation τ sig (Elt F)) :
    ∀ b ∈ [main_v1, main_v3, main_arg0, main_arg1, main_arg2, main_arg3, main_arg4, main_arg5, main_arg6, main_arg7, main_arg8, main_arg9, main_arg10, main_arg11, main_arg12, main_arg13],
      after ops5 W (Proc.devRef .tc b) = W (Proc.devRef .tc b) :=
  fun b hb => after_of_writes_sub ops5 W ops5_writes ((by decide : ∀ b ∈ [main_v1, main_v3, main_arg0, main_arg1, main_arg2, main_arg3, main_arg4, main_arg5, main_arg6, main_arg7, main_arg8, main_arg9, main_arg10, main_arg11, main_arg12, main_arg13], b ∉ wr5) b hb)

end Cert.ReferenceIdeal.RefRun

end
-- ==== Proof.RefRun.lean ====
/-
  The reference's run: from any memory with zero counters every weakly fair execution of its @main (320 host operations,
  no kernel) terminates, nothing faulting; the result buffer ends at the last stage of the operations read one at a time
  (`Read.val_main_v263` of the argument arrays), and the argument arrays end as launched.  The operations are run in
  stretches — the edge indices and the first layer, the four further layers, the classifier — each stretch from the
  contents the one before left, so that no stretch's term repeats an earlier stretch's.
-/
import proofs.«114683_j20864951124664_1_alg».proof.Proof.RefRead
import proofs.«114683_j20864951124664_1_alg».proof.Proof.RefRunStage0
import proofs.«114683_j20864951124664_1_alg».proof.Proof.RefRunStage1
import proofs.«114683_j20864951124664_1_alg».proof.Proof.RefRunStage2
import proofs.«114683_j20864951124664_1_alg».proof.Proof.RefRunStage3
import proofs.«114683_j20864951124664_1_alg».proof.Proof.RefRunStage4
import proofs.«114683_j20864951124664_1_alg».proof.Proof.RefRunStage5

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## @main as one line of operations -/

/-- @main's 320 operations: the six stretches in a row. -/
abbrev opsAll : List (HloOp τ sig (Elt F)) := ops0 ++ (ops1 ++ (ops2 ++ (ops3 ++ (ops4 ++ ops5))))

set_option maxRecDepth 16384 in
set_option maxHeartbeats 4000000 in
/-- The printed @main is that line, operation by operation. -/
theorem main_eq (c : Dev nD) : main (F := F) c = seq opsAll := rfl
/-- The signature scopes no TensorCore buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- What holds of every element of two lists holds of every element of their concatenation. -/
theorem forall_append {α : Type _} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- Every operation touches TensorCore references only. -/
theorem opsAll_sub : (opsAll : List (HloOp τ sig (Elt F))).Forall fun op => op.bufs ⊆ tcRefs τ sig :=
  forall_append ops0_sub (forall_append ops1_sub (forall_append ops2_sub (forall_append ops3_sub
    (forall_append ops4_sub ops5_sub))))

/-- Every operation determines its results. -/
theorem opsAll_fresh : ∀ op ∈ (opsAll : List (HloOp τ sig (Elt F))), op.fresh = ∅ := fun op h =>
  (List.mem_append.mp h).elim (ops0_fresh op) fun h => (List.mem_append.mp h).elim (ops1_fresh op) fun h =>
  (List.mem_append.mp h).elim (ops2_fresh op) fun h => (List.mem_append.mp h).elim (ops3_fresh op) fun h =>
  (List.mem_append.mp h).elim (ops4_fresh op) (ops5_fresh op)

/-! ## The buffer contents stretch by stretch -/

section Chain

variable (m : (ℓ : Loc nD τ sig) → Buf (Elt F) ℓ) (d : Dev nD)

/-! The launch contents of the fourteen argument arrays on device `d`. -/
abbrev A0 : (⟨S100000x128, .f32⟩ : BufTy).Contents (Elt F) := m ((d.tc : Thread nD τ).loc main_arg0)
abbrev A1 : (⟨S2x1600000, .i32⟩ : BufTy).Contents (Elt F) := m ((d.tc : Thread nD τ).loc main_arg1)
abbrev A2 : (⟨S5x128x128, .f32⟩ : BufTy).Contents (Elt F) := m ((d.tc : Thread nD τ).loc main_arg2)
abbrev A3 : (⟨S5x128, .f32⟩ : BufTy).Contents (Elt F) := m ((d.tc : Thread nD τ).loc main_arg3)
abbrev A4 : (⟨S5x128, .f32⟩ : BufTy).Contents (Elt F) := m ((d.tc : Thread nD τ).loc main_arg4)
abbrev A5 : (⟨S5x128, .f32⟩ : BufTy).Contents (Elt F) := m ((d.tc : Thread nD τ).loc main_arg5)
abbrev A6 : (⟨S5x128, .f32⟩ : BufTy).Contents (Elt F) := m ((d.tc : Thread nD τ).loc main_arg6)
abbrev A7 : (⟨S5x128, .f32⟩ : BufTy).Contents (Elt F) := m ((d.tc : Thread nD τ).loc main_arg7)
abbrev A8 : (⟨S5x128x128, .f32⟩ : BufTy).Contents (Elt F) := m ((d.tc : Thread nD τ).loc main_arg8)
abbrev A9 : (⟨S5x128, .f32⟩ : BufTy).Contents (Elt F) := m ((d.tc : Thread nD τ).loc main_arg9)
abbrev A10 : (⟨S128x128, .f32⟩ : BufTy).Contents (Elt F) := m ((d.tc : Thread nD τ).loc main_arg10)
abbrev A11 : (⟨S128, .f32⟩ : BufTy).Contents (Elt F) := m ((d.tc : Thread nD τ).loc main_arg11)
abbrev A12 : (⟨S128x10, .f32⟩ : BufTy).Contents (Elt F) := m ((d.tc : Thread nD τ).loc main_arg12)
abbrev A13 : (⟨S10, .f32⟩ : BufTy).Contents (Elt F) := m ((d.tc : Thread nD τ).loc main_arg13)

/-! The contents after the first stretch, the first two, …, all six. -/
abbrev S1 : Valuation τ sig (Elt F) := after ops0 (launchContents m d)
abbrev S2 : Valuation τ sig (Elt F) := after ops1 (S1 m d)
abbrev S3 : Valuation τ sig (Elt F) := after ops2 (S2 m d)
abbrev S4 : Valuation τ sig (Elt F) := after ops3 (S3 m d)
abbrev S5 : Valuation τ sig (Elt F) := after ops4 (S4 m d)
abbrev S6 : Valuation τ sig (Elt F) := after ops5 (S5 m d)

/-- The whole line leaves what the six stretches, run one from the other's contents, leave. -/
theorem after_opsAll : after opsAll (launchContents m d) = S6 m d := by
  show after (ops0 ++ (ops1 ++ (ops2 ++ (ops3 ++ (ops4 ++ ops5))))) (launchContents m d) = _
  rw [after_append, after_append, after_append, after_append, after_append]

/-- The argument buffers. -/
abbrev args : List (Ref sig .tc) := [main_arg0, main_arg1, main_arg2, main_arg3, main_arg4, main_arg5, main_arg6, main_arg7, main_arg8, main_arg9, main_arg10, main_arg11, main_arg12, main_arg13]

/-! No stretch writes an argument buffer: each holds its launch contents throughout. -/
theorem arg_S1 : ∀ b ∈ args, S1 m d (Proc.devRef .tc b) = m ((d.tc : Thread nD τ).loc b) :=
  fun b hb => keep0 (launchContents m d) b hb
theorem arg_S2 : ∀ b ∈ args, S2 m d (Proc.devRef .tc b) = m ((d.tc : Thread nD τ).loc b) :=
  fun b hb => (keep1 (S1 m d) b (List.mem_cons_of_mem _ (List.mem_cons_of_mem _ hb))).trans (arg_S1 m d b hb)
theorem arg_S3 : ∀ b ∈ args, S3 m d (Proc.devRef .tc b) = m ((d.tc : Thread nD τ).loc b) :=
  fun b hb => (keep2 (S2 m d) b (List.mem_cons_of_mem _ (List.mem_cons_of_mem _ hb))).trans (arg_S2 m d b hb)
theorem arg_S4 : ∀ b ∈ args, S4 m d (Proc.devRef .tc b) = m ((d.tc : Thread nD τ).loc b) :=
  fun b hb => (keep3 (S3 m d) b (List.mem_cons_of_mem _ (List.mem_cons_of_mem _ hb))).trans (arg_S3 m d b hb)
theorem arg_S5 : ∀ b ∈ args, S5 m d (Proc.devRef .tc b) = m ((d.tc : Thread nD τ).loc b) :=
  fun b hb => (keep4 (S4 m d) b (List.mem_cons_of_mem _ (List.mem_cons_of_mem _ hb))).trans (arg_S4 m d b hb)
theorem arg_S6 : ∀ b ∈ args, S6 m d (Proc.devRef .tc b) = m ((d.tc : Thread nD τ).loc b) :=
  fun b hb => (keep5 (S5 m d) b (List.mem_cons_of_mem _ (List.mem_cons_of_mem _ hb))).trans (arg_S5 m d b hb)

/-- The first stretch leaves layer 1's output and the two rows of edge indices at their values. -/
theorem first : S1 m d (Proc.devRef .tc main_v53) = val_main_v53 (F := F) (A0 m d) (A1 m d) (A2 m d) (A3 m d) (A4 m d) (A5 m d) (A6 m d) (A7 m d) (A8 m d) (A9 m d)
    ∧ S1 m d (Proc.devRef .tc main_v1) = val_main_v1 (F := F) (A1 m d)
    ∧ S1 m d (Proc.devRef .tc main_v3) = val_main_v3 (F := F) (A1 m d) :=
  stage0 (launchContents m d) _ _ _ _ _ _ _ _ _ _ rfl rfl rfl rfl rfl rfl rfl rfl rfl rfl

/-! No later stretch writes the two rows of edge indices. -/
theorem idx_S1 : S1 m d (Proc.devRef .tc main_v1) = val_main_v1 (F := F) (A1 m d)
    ∧ S1 m d (Proc.devRef .tc main_v3) = val_main_v3 (F := F) (A1 m d) := (first m d).2
theorem idx_S2 : S2 m d (Proc.devRef .tc main_v1) = val_main_v1 (F := F) (A1 m d)
    ∧ S2 m d (Proc.devRef .tc main_v3) = val_main_v3 (F := F) (A1 m d) :=
  ⟨(keep1 (S1 m d) main_v1 List.mem_cons_self).trans (idx_S1 m d).1,
    (keep1 (S1 m d) main_v3 (List.mem_cons_of_mem _ List.mem_cons_self)).trans (idx_S1 m d).2⟩
theorem idx_S3 : S3 m d (Proc.devRef .tc main_v1) = val_main_v1 (F := F) (A1 m d)
    ∧ S3 m d (Proc.devRef .tc main_v3) = val_main_v3 (F := F) (A1 m d) :=
  ⟨(keep2 (S2 m d) main_v1 List.mem_cons_self).trans (idx_S2 m d).1,
    (keep2 (S2 m d) main_v3 (List.mem_cons_of_mem _ List.mem_cons_self)).trans (idx_S2 m d).2⟩
theorem idx_S4 : S4 m d (Proc.devRef .tc main_v1) = val_main_v1 (F := F) (A1 m d)
    ∧ S4 m d (Proc.devRef .tc main_v3) = val_main_v3 (F := F) (A1 m d) :=
  ⟨(keep3 (S3 m d) main_v1 List.mem_cons_self).trans (idx_S3 m d).1,
    (keep3 (S3 m d) main_v3 (List.mem_cons_of_mem _ List.mem_cons_self)).trans (idx_S3 m d).2⟩
theorem idx_S5 : S5 m d (Proc.devRef .tc main_v1) = val_main_v1 (F := F) (A1 m d)
    ∧ S5 m d (Proc.devRef .tc main_v3) = val_main_v3 (F := F) (A1 m d) :=
  ⟨(keep4 (S4 m d) main_v1 List.mem_cons_self).trans (idx_S4 m d).1,
    (keep4 (S4 m d) main_v3 (List.mem_cons_of_mem _ List.mem_cons_self)).trans (idx_S4 m d).2⟩

/-! Each layer's output, from the one before. -/
theorem out53 : S1 m d (Proc.devRef .tc main_v53) = val_main_v53 (F := F) (A0 m d) (A1 m d) (A2 m d) (A3 m d) (A4 m d) (A5 m d) (A6 m d) (A7 m d) (A8 m d) (A9 m d) := (first m d).1
theorem out103 : S2 m d (Proc.devRef .tc main_v103) = val_main_v103 (F := F) (A0 m d) (A1 m d) (A2 m d) (A3 m d) (A4 m d) (A5 m d) (A6 m d) (A7 m d) (A8 m d) (A9 m d) :=
  stage1 (S1 m d) _ _ _ _ _ _ _ _ _ _ (out53 m d) (idx_S1 m d).1 (idx_S1 m d).2
    (arg_S1 m d main_arg2 (List.mem_cons_of_mem _ (List.mem_cons_of_mem _ (List.mem_cons_self))))
    (arg_S1 m d main_arg3 (List.mem_cons_of_mem _ (List.mem_cons_of_mem _ (List.mem_cons_of_mem _ (List.mem_cons_self)))))
    (arg_S1 m d main_arg4 (List.mem_cons_of_mem _ (List.mem_cons_of_mem _ (List.mem_cons_of_mem _ (List.mem_cons_of_mem _ (List.mem_cons_self))))))
    (arg_S1 m d main_arg5 (List.mem_cons_of_mem _ (List.mem_cons_of_mem _ (List.mem_cons_of_mem _ (List.mem_cons_of_mem _ (List.mem_cons_of_mem _ (List.mem_cons_self)))))))
    (arg_S1 m d main_arg6 (List.mem_cons_of_mem _ (List.mem_cons_of_mem _ (List.mem_cons_of_mem _ (List.mem_cons_of_mem _ (List.mem_cons_of_mem _ (List.mem_cons_of_mem _ (List.mem_cons_self))))))))
    (arg_S1 m d main_arg7 (List.mem_cons_of_mem _ (List.mem_cons_of_mem _ (List.mem_cons_of_mem _ (List.mem_cons_of_mem _ (List.mem_cons_of_mem _ (List.mem_cons_of_mem _ (List.mem_cons_of_mem _ (List.mem_cons_self)))))))))
    (arg_S1 m d main_arg8 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
    (arg_S1 m d main_arg9 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
theorem out153 : S3 m d (Proc.devRef .tc main_v153) = val_main_v153 (F := F) (A0 m d) (A1 m d) (A2 m d) (A3 m d) (A4 m d) (A5 m d) (A6 m d) (A7 m d) (A8 m d) (A9 m d) :=
  stage2 (S2 m d) _ _ _ _ _ _ _ _ _ _ (out103 m d) (idx_S2 m d).1 (idx_S2 m d).2
    (arg_S2 m d main_arg2 (List.mem_cons_of_mem _ (List.mem_cons_of_mem _ (List.mem_cons_self))))
    (arg_S2 m d main_arg3 (List.mem_cons_of_mem _ (List.mem_cons_of_mem _ (List.mem_cons_of_mem _ (List.mem_cons_self)))))
    (arg_S2 m d main_arg4 (List.mem_cons_of_mem _ (List.mem_cons_of_mem _ (List.mem_cons_of_mem _ (List.mem_cons_of_mem _ (List.mem_cons_self))))))
    (arg_S2 m d main_arg5 (List.mem_cons_of_mem _ (List.mem_cons_of_mem _ (List.mem_cons_of_mem _ (List.mem_cons_of_mem _ (List.mem_cons_of_mem _ (List.mem_cons_self)))))))
    (arg_S2 m d main_arg6 (List.mem_cons_of_mem _ (List.mem_cons_of_mem _ (List.mem_cons_of_mem _ (List.mem_cons_of_mem _ (List.mem_cons_of_mem _ (List.mem_cons_of_mem _ (List.mem_cons_self))))))))
    (arg_S2 m d main_arg7 (List.mem_cons_of_mem _ (List.mem_cons_of_mem _ (List.mem_cons_of_mem _ (List.mem_cons_of_mem _ (List.mem_cons_of_mem _ (List.mem_cons_of_mem _ (List.mem_cons_of_mem _ (List.mem_cons_self)))))))))
    (arg_S2 m d main_arg8 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
    (arg_S2 m d main_arg9 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
theorem out203 : S4 m d (Proc.devRef .tc main_v203) = val_main_v203 (F := F) (A0 m d) (A1 m d) (A2 m d) (A3 m d) (A4 m d) (A5 m d) (A6 m d) (A7 m d) (A8 m d) (A9 m d) :=
  stage3 (S3 m d) _ _ _ _ _ _ _ _ _ _ (out153 m d) (idx_S3 m d).1 (idx_S3 m d).2
    (arg_S3 m d main_arg2 (List.mem_cons_of_mem _ (List.mem_cons_of_mem _ (List.mem_cons_self))))
    (arg_S3 m d main_arg3 (List.mem_cons_of_mem _ (List.mem_cons_of_mem _ (List.mem_cons_of_mem _ (List.mem_cons_self)))))
    (arg_S3 m d main_arg4 (List.mem_cons_of_mem _ (List.mem_cons_of_mem _ (List.mem_cons_of_mem _ (List.mem_cons_of_mem _ (List.mem_cons_self))))))
    (arg_S3 m d main_arg5 (List.mem_cons_of_mem _ (List.mem_cons_of_mem _ (List.mem_cons_of_mem _ (List.mem_cons_of_mem _ (List.mem_cons_of_mem _ (List.mem_cons_self)))))))
    (arg_S3 m d main_arg6 (List.mem_cons_of_mem _ (List.mem_cons_of_mem _ (List.mem_cons_of_mem _ (List.mem_cons_of_mem _ (List.mem_cons_of_mem _ (List.mem_cons_of_mem _ (List.mem_cons_self))))))))
    (arg_S3 m d main_arg7 (List.mem_cons_of_mem _ (List.mem_cons_of_mem _ (List.mem_cons_of_mem _ (List.mem_cons_of_mem _ (List.mem_cons_of_mem _ (List.mem_cons_of_mem _ (List.mem_cons_of_mem _ (List.mem_cons_self)))))))))
    (arg_S3 m d main_arg8 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
    (arg_S3 m d main_arg9 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
theorem out253 : S5 m d (Proc.devRef .tc main_v253) = val_main_v253 (F := F) (A0 m d) (A1 m d) (A2 m d) (A3 m d) (A4 m d) (A5 m d) (A6 m d) (A7 m d) (A8 m d) (A9 m d) :=
  stage4 (S4 m d) _ _ _ _ _ _ _ _ _ _ (out203 m d) (idx_S4 m d).1 (idx_S4 m d).2
    (arg_S4 m d main_arg2 (List.mem_cons_of_mem _ (List.mem_cons_of_mem _ (List.mem_cons_self))))
    (arg_S4 m d main_arg3 (List.mem_cons_of_mem _ (List.mem_cons_of_mem _ (List.mem_cons_of_mem _ (List.mem_cons_self)))))
    (arg_S4 m d main_arg4 (List.mem_cons_of_mem _ (List.mem_cons_of_mem _ (List.mem_cons_of_mem _ (List.mem_cons_of_mem _ (List.mem_cons_self))))))
    (arg_S4 m d main_arg5 (List.mem_cons_of_mem _ (List.mem_cons_of_mem _ (List.mem_cons_of_mem _ (List.mem_cons_of_mem _ (List.mem_cons_of_mem _ (List.mem_cons_self)))))))
    (arg_S4 m d main_arg6 (List.mem_cons_of_mem _ (List.mem_cons_of_mem _ (List.mem_cons_of_mem _ (List.mem_cons_of_mem _ (List.mem_cons_of_mem _ (List.mem_cons_of_mem _ (List.mem_cons_self))))))))
    (arg_S4 m d main_arg7 (List.mem_cons_of_mem _ (List.mem_cons_of_mem _ (List.mem_cons_of_mem _ (List.mem_cons_of_mem _ (List.mem_cons_of_mem _ (List.mem_cons_of_mem _ (List.mem_cons_of_mem _ (List.mem_cons_self)))))))))
    (arg_S4 m d main_arg8 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
    (arg_S4 m d main_arg9 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
/-- The classifier's output, from layer 5's. -/
theorem out263 : S6 m d (Proc.devRef .tc main_v263) = val_main_v263 (F := F) (A0 m d) (A1 m d) (A2 m d) (A3 m d) (A4 m d) (A5 m d) (A6 m d) (A7 m d) (A8 m d) (A9 m d) (A10 m d) (A11 m d) (A12 m d) (A13 m d) :=
  stage5 (S5 m d) _ _ _ _ _ _ _ _ _ _ _ _ _ _ (out253 m d)
    (arg_S5 m d main_arg10 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))
    (arg_S5 m d main_arg11 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))
    (arg_S5 m d main_arg12 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))
    (arg_S5 m d main_arg13 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))

end Chain

/-! ## The run -/
/-- On every device, for any float values, from any memory with zero counters: every weakly fair execution of @main
    terminates, the result buffer at the last stage of the operations read one at a time and the argument arrays as
    launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v263)
        = val_main_v263 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c main_v263).trans ((congrFun (after_opsAll m c) _).trans (out263 m c)),
        (h c main_arg0).trans ((congrFun (after_opsAll m c) _).trans (arg_S6 m c main_arg0 List.mem_cons_self)),
        (h c main_arg1).trans ((congrFun (after_opsAll m c) _).trans (arg_S6 m c main_arg1 (List.mem_cons_of_mem _ (List.mem_cons_self)))),
        (h c main_arg2).trans ((congrFun (after_opsAll m c) _).trans (arg_S6 m c main_arg2 (List.mem_cons_of_mem _ (List.mem_cons_of_mem _ (List.mem_cons_self))))),
        (h c main_arg3).trans ((congrFun (after_opsAll m c) _).trans (arg_S6 m c main_arg3 (List.mem_cons_of_mem _ (List.mem_cons_of_mem _ (List.mem_cons_of_mem _ (List.mem_cons_self)))))),
        (h c main_arg4).trans ((congrFun (after_opsAll m c) _).trans (arg_S6 m c main_arg4 (List.mem_cons_of_mem _ (List.mem_cons_of_mem _ (List.mem_cons_of_mem _ (List.mem_cons_of_mem _ (List.mem_cons_self))))))),
        (h c main_arg5).trans ((congrFun (after_opsAll m c) _).trans (arg_S6 m c main_arg5 (List.mem_cons_of_mem _ (List.mem_cons_of_mem _ (List.mem_cons_of_mem _ (List.mem_cons_of_mem _ (List.mem_cons_of_mem _ (List.mem_cons_self)))))))),
        (h c main_arg6).trans ((congrFun (after_opsAll m c) _).trans (arg_S6 m c main_arg6 (List.mem_cons_of_mem _ (List.mem_cons_of_mem _ (List.mem_cons_of_mem _ (List.mem_cons_of_mem _ (List.mem_cons_of_mem _ (List.mem_cons_of_mem _ (List.mem_cons_self))))))))),
        (h c main_arg7).trans ((congrFun (after_opsAll m c) _).trans (arg_S6 m c main_arg7 (List.mem_cons_of_mem _ (List.mem_cons_of_mem _ (List.mem_cons_of_mem _ (List.mem_cons_of_mem _ (List.mem_cons_of_mem _ (List.mem_cons_of_mem _ (List.mem_cons_of_mem _ (List.mem_cons_self)))))))))),
        (h c main_arg8).trans ((congrFun (after_opsAll m c) _).trans (arg_S6 m c main_arg8 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))),
        (h c main_arg9).trans ((congrFun (after_opsAll m c) _).trans (arg_S6 m c main_arg9 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))),
        (h c main_arg10).trans ((congrFun (after_opsAll m c) _).trans (arg_S6 m c main_arg10 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))),
        (h c main_arg11).trans ((congrFun (after_opsAll m c) _).trans (arg_S6 m c main_arg11 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))),
        (h c main_arg12).trans ((congrFun (after_opsAll m c) _).trans (arg_S6 m c main_arg12 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))),
        (h c main_arg13).trans ((congrFun (after_opsAll m c) _).trans (arg_S6 m c main_arg13 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))⟩)
    (run_seq scopedRefs_eq scopedSems_eq defs main (fun _ => opsAll) main_eq (fun _ => opsAll_sub) m ρ
      (hfresh := fun _ => opsAll_fresh))

end Cert.ReferenceIdeal.RefRun

end
-- ==== Proof.RefAgg.lean ====
/-
  The neighbourhood aggregation of the reference, as ONE function of the edge list `E` and the node features `H`: the
  source indices (wrapped once if negative) gather rows of `H`, which are scatter-added into a zero array at the
  destination indices.  Every layer of the reference aggregates by this same function; it is carried opaquely.
-/
import proofs.«114683_j20864951124664_1_alg».proof.Proof.RefRead
import proofs.«114683_j20864951124664_1_alg».proof.Proof.Spec

noncomputable section

namespace Cert.ReferenceIdeal.RefValue

open Cert.ReferenceIdeal Cert.ReferenceIdeal.Gen Cert.ReferenceIdeal.Read Idealize.ShloMosaic

/-- ε of the batch normalisation: the value of the f32 word both programs print. -/
abbrev eps : EReal := Ideal.ofBits .f32 0x3727C5AC#32

/-- The aggregation over the graph. -/
def aggR (E : IVec S2x1600000 32) (H : FVec Ideal S100000x128 .f32) : FVec Ideal S100000x128 .f32 :=
  Host.scatterAdd scatter_S100000x128_S1600000x1_S1600000x128_1_0_0_1 (val_main_v11 (F := Ideal)) (val_main_v12 (F := Ideal) E)
    (Host.gather gather_S100000x128_S1600000x1_S1600000x128_1_0_n_n_0_1_1128 H (val_main_v9 (F := Ideal) E))

/-! The later layers rebuild the same three index-side arrays of the edge list under other names: the zero array, the
    destination column, and the source column wrapped once where negative. -/

theorem zero1 : val_main_v61 (F := Ideal) = val_main_v11 (F := Ideal) := by
  unfold val_main_v61 val_main_v11 val_main_cst_4 val_main_cst
  rfl
theorem dst1 (x1 : IVec S2x1600000 32) : val_main_v62 (F := Ideal) x1 = val_main_v12 (F := Ideal) x1 := by
  unfold val_main_v62 val_main_v12
  rfl
theorem src1 (x1 : IVec S2x1600000 32) : val_main_v59 (F := Ideal) x1 = val_main_v9 (F := Ideal) x1 := by
  unfold val_main_v59 val_main_v58 val_main_v55 val_main_v57 val_main_v54 val_main_v56 val_main_c_2 val_main_c_3
    val_main_v9 val_main_v8 val_main_v5 val_main_v7 val_main_v4 val_main_v6 val_main_c val_main_c_0
  rfl
theorem zero2 : val_main_v111 (F := Ideal) = val_main_v11 (F := Ideal) := by
  unfold val_main_v111 val_main_v11 val_main_cst_8 val_main_cst
  rfl
theorem dst2 (x1 : IVec S2x1600000 32) : val_main_v112 (F := Ideal) x1 = val_main_v12 (F := Ideal) x1 := by
  unfold val_main_v112 val_main_v12
  rfl
theorem src2 (x1 : IVec S2x1600000 32) : val_main_v109 (F := Ideal) x1 = val_main_v9 (F := Ideal) x1 := by
  unfold val_main_v109 val_main_v108 val_main_v105 val_main_v107 val_main_v104 val_main_v106 val_main_c_6 val_main_c_7
    val_main_v9 val_main_v8 val_main_v5 val_main_v7 val_main_v4 val_main_v6 val_main_c val_main_c_0
  rfl
theorem zero3 : val_main_v161 (F := Ideal) = val_main_v11 (F := Ideal) := by
  unfold val_main_v161 val_main_v11 val_main_cst_12 val_main_cst
  rfl
theorem dst3 (x1 : IVec S2x1600000 32) : val_main_v162 (F := Ideal) x1 = val_main_v12 (F := Ideal) x1 := by
  unfold val_main_v162 val_main_v12
  rfl
theorem src3 (x1 : IVec S2x1600000 32) : val_main_v159 (F := Ideal) x1 = val_main_v9 (F := Ideal) x1 := by
  unfold val_main_v159 val_main_v158 val_main_v155 val_main_v157 val_main_v154 val_main_v156 val_main_c_10 val_main_c_11
    val_main_v9 val_main_v8 val_main_v5 val_main_v7 val_main_v4 val_main_v6 val_main_c val_main_c_0
  rfl
theorem zero4 : val_main_v211 (F := Ideal) = val_main_v11 (F := Ideal) := by
  unfold val_main_v211 val_main_v11 val_main_cst_16 val_main_cst
  rfl
theorem dst4 (x1 : IVec S2x1600000 32) : val_main_v212 (F := Ideal) x1 = val_main_v12 (F := Ideal) x1 := by
  unfold val_main_v212 val_main_v12
  rfl
theorem src4 (x1 : IVec S2x1600000 32) : val_main_v209 (F := Ideal) x1 = val_main_v9 (F := Ideal) x1 := by
  unfold val_main_v209 val_main_v208 val_main_v205 val_main_v207 val_main_v204 val_main_v206 val_main_c_14 val_main_c_15
    val_main_v9 val_main_v8 val_main_v5 val_main_v7 val_main_v4 val_main_v6 val_main_c val_main_c_0
  rfl

/-- Layer 1's aggregate is that function of the input features; the later layers' of the previous layer's output. -/
theorem agg0 (x0 : FVec Ideal S100000x128 .f32) (x1 : IVec S2x1600000 32) : val_main_v13 (F := Ideal) x0 x1 = aggR x1 x0 := by
  unfold val_main_v13 val_main_v10 aggR
  rfl
theorem agg1 (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v63 (F := Ideal) x0 x1 x2 x3 x4 x5 x6 x7 x8 x9 = aggR x1 (val_main_v53 (F := Ideal) x0 x1 x2 x3 x4 x5 x6 x7 x8 x9) := by
  unfold val_main_v63 val_main_v60 aggR
  rw [zero1, dst1, src1]
theorem agg2 (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v113 (F := Ideal) x0 x1 x2 x3 x4 x5 x6 x7 x8 x9 = aggR x1 (val_main_v103 (F := Ideal) x0 x1 x2 x3 x4 x5 x6 x7 x8 x9) := by
  unfold val_main_v113 val_main_v110 aggR
  rw [zero2, dst2, src2]
theorem agg3 (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v163 (F := Ideal) x0 x1 x2 x3 x4 x5 x6 x7 x8 x9 = aggR x1 (val_main_v153 (F := Ideal) x0 x1 x2 x3 x4 x5 x6 x7 x8 x9) := by
  unfold val_main_v163 val_main_v160 aggR
  rw [zero3, dst3, src3]
theorem agg4 (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v213 (F := Ideal) x0 x1 x2 x3 x4 x5 x6 x7 x8 x9 = aggR x1 (val_main_v203 (F := Ideal) x0 x1 x2 x3 x4 x5 x6 x7 x8 x9) := by
  unfold val_main_v213 val_main_v210 aggR
  rw [zero4, dst4, src4]

end Cert.ReferenceIdeal.RefValue

end
-- ==== Proof.RefLayer0.lean ====
/-
  Layer 1 of the reference, read index by index: its result array is `GinSpec.layer` of the features it starts from,
  their aggregate, and the stacked parameters sliced at 0: a matrix product, the bias, the normalisation (subtract the
  mean, times γ / √(var + ε), plus the offset), a rectifier, the second product and bias, a rectifier.
-/
import proofs.«114683_j20864951124664_1_alg».proof.Proof.RefRead
import proofs.«114683_j20864951124664_1_alg».proof.Proof.Spec
import proofs.«114683_j20864951124664_1_alg».proof.Proof.RefAgg

noncomputable section

namespace Cert.ReferenceIdeal.RefValue

open Cert.ReferenceIdeal Cert.ReferenceIdeal.Gen Cert.ReferenceIdeal.Read Idealize.ShloMosaic Idealize.ShloMosaic.ValueIdx

/-! ## The parameters of the layer: each is the stacked array read at the slice 0 -/

/-- The first weight matrix at `(q, k)` is the stacked array at `(0, q, k)`: a slice of one matrix, its unit axis dropped. -/
private theorem w1_0 (x2 : FVec Ideal S5x128x128 .f32) (q k : Fin 128) :
    val_main_v16 (F := Ideal) x2 (ix2 q k) = x2 (ix3 0 q k) := by
  rw [val_main_v16_apply, val_main_v15_apply]
  refine congrArg x2 (funext fun a => Fin.ext ?_)
  have hq : q.val < 128 := q.isLt
  have hk : k.val < 128 := k.isLt
  match a with
  | ⟨0, _⟩ => rfl
  | ⟨1, _⟩ => show (q.val * 128 + k.val) / 128 % 128 = q.val; omega
  | ⟨2, _⟩ => show (q.val * 128 + k.val) % 128 = k.val; omega

/-- The second weight matrix at `(k, j)` is the stacked array at `(0, k, j)`. -/
private theorem w2_0 (x8 : FVec Ideal S5x128x128 .f32) (k j : Fin 128) :
    val_main_v46 (F := Ideal) x8 (ix2 k j) = x8 (ix3 0 k j) := by
  rw [val_main_v46_apply, val_main_v45_apply]
  refine congrArg x8 (funext fun a => Fin.ext ?_)
  have hk : k.val < 128 := k.isLt
  have hj : j.val < 128 := j.isLt
  match a with
  | ⟨0, _⟩ => rfl
  | ⟨1, _⟩ => show (k.val * 128 + j.val) / 128 % 128 = k.val; omega
  | ⟨2, _⟩ => show (k.val * 128 + j.val) % 128 = j.val; omega

/-- The first bias, broadcast over the rows: at `(r, k)` it is the stacked array at `(0, k)`. -/
private theorem b1_0 (x3 : FVec Ideal S5x128 .f32) (i : S100000x128.Idx) :
    val_main_v21 (F := Ideal) x3 i = x3 (ix2 0 (i 1)) := by
  rw [val_main_v21_apply, val_main_v20_apply, val_main_v19_apply, val_main_v18_apply]
  refine congrArg x3 (funext fun a => Fin.ext ?_)
  have h1 : (i 1).val < 128 := (i 1).isLt
  match a with
  | ⟨0, _⟩ => rfl
  | ⟨1, _⟩ => show (i 1).val % 128 = (i 1).val; omega

/-- The mean of the normalisation, broadcast over the rows. -/
private theorem mu_0 (x6 : FVec Ideal S5x128 .f32) (i : S100000x128.Idx) :
    val_main_v26 (F := Ideal) x6 i = x6 (ix2 0 (i 1)) := by
  rw [val_main_v26_apply, val_main_v25_apply, val_main_v24_apply, val_main_v23_apply]
  refine congrArg x6 (funext fun a => Fin.ext ?_)
  have h1 : (i 1).val < 128 := (i 1).isLt
  match a with
  | ⟨0, _⟩ => rfl
  | ⟨1, _⟩ => show (i 1).val % 128 = (i 1).val; omega

/-- The offset of the normalisation, broadcast over the rows. -/
private theorem be_0 (x5 : FVec Ideal S5x128 .f32) (i : S100000x128.Idx) :
    val_main_v42 (F := Ideal) x5 i = x5 (ix2 0 (i 1)) := by
  rw [val_main_v42_apply, val_main_v41_apply, val_main_v40_apply, val_main_v39_apply]
  refine congrArg x5 (funext fun a => Fin.ext ?_)
  have h1 : (i 1).val < 128 := (i 1).isLt
  match a with
  | ⟨0, _⟩ => rfl
  | ⟨1, _⟩ => show (i 1).val % 128 = (i 1).val; omega

/-- The second bias, broadcast over the rows. -/
private theorem b2_0 (x9 : FVec Ideal S5x128 .f32) (i : S100000x128.Idx) :
    val_main_v51 (F := Ideal) x9 i = x9 (ix2 0 (i 1)) := by
  rw [val_main_v51_apply, val_main_v50_apply, val_main_v49_apply, val_main_v48_apply]
  refine congrArg x9 (funext fun a => Fin.ext ?_)
  have h1 : (i 1).val < 128 := (i 1).isLt
  match a with
  | ⟨0, _⟩ => rfl
  | ⟨1, _⟩ => show (i 1).val % 128 = (i 1).val; omega

/-- The scale vector γ at `k` is the stacked array at `(0, k)`. -/
private theorem ga_0 (x4 : FVec Ideal S5x128 .f32) (i : S128.Idx) :
    val_main_v29 (F := Ideal) x4 i = x4 (ix2 0 (i 0)) := by
  rw [val_main_v29_apply, val_main_v28_apply]
  refine congrArg x4 (funext fun a => Fin.ext ?_)
  have h0 : (i 0).val < 128 := (i 0).isLt
  match a with
  | ⟨0, _⟩ => rfl
  | ⟨1, _⟩ => show (i 0).val % 128 = (i 0).val; omega

/-- The variance vector at `k` is the stacked array at `(0, k)`. -/
private theorem va_0 (x7 : FVec Ideal S5x128 .f32) (i : S128.Idx) :
    val_main_v31 (F := Ideal) x7 i = x7 (ix2 0 (i 0)) := by
  rw [val_main_v31_apply, val_main_v30_apply]
  refine congrArg x7 (funext fun a => Fin.ext ?_)
  have h0 : (i 0).val < 128 := (i 0).isLt
  match a with
  | ⟨0, _⟩ => rfl
  | ⟨1, _⟩ => show (i 0).val % 128 = (i 0).val; omega

/-- The normalisation's scale, broadcast over the rows: γ / √(var + ε) at the column. -/
private theorem sc_0 (x4 x7 : FVec Ideal S5x128 .f32) (i : S100000x128.Idx) :
    val_main_v37 (F := Ideal) x4 x7 i = Cert.GinSpec.bnScale eps x4 x7 0 (i 1) := by
  rw [val_main_v37_apply, val_main_v36_apply, val_main_v35_apply, val_main_v34_apply, val_main_v33_apply,
    val_main_v32_apply, val_main_cst_1_apply, ga_0, va_0]
  rfl

/-- The rectifiers' zero arrays. -/
private theorem z0_0 (i : S100000x128.Idx) : val_main_call0_v0 (F := Ideal) i = 0 := by
  rw [val_main_call0_v0_apply, val_main_call0_cst_apply]
  exact Ideal.ofBits_zero_f32
private theorem z1_0 (i : S100000x128.Idx) : val_main_call1_v0 (F := Ideal) i = 0 := by
  rw [val_main_call1_v0_apply, val_main_call1_cst_apply]
  exact Ideal.ofBits_zero_f32

/-! ## The hidden row -/

/-- The hidden activations at `(r, k)`: the first product over row `r` of `H + A`, the bias, the normalisation and the
    rectifier, with the aggregate `A` a variable. -/
private theorem hid_0 (x0 : FVec Ideal S100000x128 .f32) (x1 : IVec S2x1600000 32) (x2 : FVec Ideal S5x128x128 .f32)
    (x3 x4 x5 x6 x7 : FVec Ideal S5x128 .f32) (r : Fin 100000) (k : Fin 128) :
    val_main_v44 (F := Ideal) x0 x1 x2 x3 x4 x5 x6 x7 (ix2 r k)
      = Cert.GinSpec.hidR (fun q => x0 (ix2 r q) + val_main_v13 (F := Ideal) x0 x1 (ix2 r q))
          (fun q k => x2 (ix3 0 q k)) (fun k => x3 (ix2 0 k)) (fun k => x6 (ix2 0 k))
          (Cert.GinSpec.bnScale eps x4 x7 0) (fun k => x5 (ix2 0 k)) k := by
  have hl : ∀ q : Fin 128, lidx_main_v17 (ix2 r k) q = ix2 r q := fun q => funext fun a => Fin.ext (by
    match a with
    | ⟨0, _⟩ => rfl
    | ⟨1, _⟩ => rfl)
  have hr : ∀ q : Fin 128, ridx_main_v17 (ix2 r k) q = ix2 q k := fun q => funext fun a => Fin.ext (by
    match a with
    | ⟨0, _⟩ => rfl
    | ⟨1, _⟩ => rfl)
  rw [val_main_v44_apply, val_main_v43_apply, val_main_v38_apply, val_main_v27_apply, val_main_v22_apply,
    val_main_v17_apply, b1_0, mu_0, sc_0, be_0, z0_0]
  simp only [hl, hr, val_main_v14_apply, w1_0]
  generalize val_main_v13 (F := Ideal) x0 x1 = A
  simp only [Ideal.maximumf_def, Ideal.addf_def, Ideal.mulf_def, Ideal.subf_def]
  rfl

/-! ## The layer -/

/-- Layer 1's output over the aggregate `A` held as a variable (so the aggregation is never opened). -/
theorem layer0_eq (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v53 (F := Ideal) x0 x1 x2 x3 x4 x5 x6 x7 x8 x9
      = Cert.GinSpec.layer eps 0 x0 (val_main_v13 (F := Ideal) x0 x1) x2 x3 x4 x5 x6 x7 x8 x9 := by
  funext i
  obtain ⟨r, j, rfl⟩ : ∃ (r : Fin 100000) (j : Fin 128), i = ix2 r j := ⟨i 0, i 1, eq_ix2 i⟩
  have hl : ∀ k : Fin 128, lidx_main_v47 (ix2 r j) k = ix2 r k := fun k => funext fun a => Fin.ext (by
    match a with
    | ⟨0, _⟩ => rfl
    | ⟨1, _⟩ => rfl)
  have hr : ∀ k : Fin 128, ridx_main_v47 (ix2 r j) k = ix2 k j := fun k => funext fun a => Fin.ext (by
    match a with
    | ⟨0, _⟩ => rfl
    | ⟨1, _⟩ => rfl)
  rw [val_main_v53_apply, val_main_v52_apply, val_main_v47_apply, b2_0, z1_0]
  simp only [hl, hr, hid_0, w2_0]
  generalize val_main_v13 (F := Ideal) x0 x1 = A
  simp only [Ideal.maximumf_def, Ideal.addf_def]
  rfl

end Cert.ReferenceIdeal.RefValue

end
-- ==== Proof.RefLayer1.lean ====
/-
  Layer 2 of the reference, read index by index: its result array is `GinSpec.layer` of the features it starts from,
  their aggregate, and the stacked parameters sliced at 1: a matrix product, the bias, the normalisation (subtract the
  mean, times γ / √(var + ε), plus the offset), a rectifier, the second product and bias, a rectifier.
-/
import proofs.«114683_j20864951124664_1_alg».proof.Proof.RefRead
import proofs.«114683_j20864951124664_1_alg».proof.Proof.Spec
import proofs.«114683_j20864951124664_1_alg».proof.Proof.RefAgg

noncomputable section

namespace Cert.ReferenceIdeal.RefValue

open Cert.ReferenceIdeal Cert.ReferenceIdeal.Gen Cert.ReferenceIdeal.Read Idealize.ShloMosaic Idealize.ShloMosaic.ValueIdx

/-! ## The parameters of the layer: each is the stacked array read at the slice 1 -/

/-- The first weight matrix at `(q, k)` is the stacked array at `(1, q, k)`: a slice of one matrix, its unit axis dropped. -/
private theorem w1_1 (x2 : FVec Ideal S5x128x128 .f32) (q k : Fin 128) :
    val_main_v66 (F := Ideal) x2 (ix2 q k) = x2 (ix3 1 q k) := by
  rw [val_main_v66_apply, val_main_v65_apply]
  refine congrArg x2 (funext fun a => Fin.ext ?_)
  have hq : q.val < 128 := q.isLt
  have hk : k.val < 128 := k.isLt
  match a with
  | ⟨0, _⟩ => rfl
  | ⟨1, _⟩ => show (q.val * 128 + k.val) / 128 % 128 = q.val; omega
  | ⟨2, _⟩ => show (q.val * 128 + k.val) % 128 = k.val; omega

/-- The second weight matrix at `(k, j)` is the stacked array at `(1, k, j)`. -/
private theorem w2_1 (x8 : FVec Ideal S5x128x128 .f32) (k j : Fin 128) :
    val_main_v96 (F := Ideal) x8 (ix2 k j) = x8 (ix3 1 k j) := by
  rw [val_main_v96_apply, val_main_v95_apply]
  refine congrArg x8 (funext fun a => Fin.ext ?_)
  have hk : k.val < 128 := k.isLt
  have hj : j.val < 128 := j.isLt
  match a with
  | ⟨0, _⟩ => rfl
  | ⟨1, _⟩ => show (k.val * 128 + j.val) / 128 % 128 = k.val; omega
  | ⟨2, _⟩ => show (k.val * 128 + j.val) % 128 = j.val; omega

/-- The first bias, broadcast over the rows: at `(r, k)` it is the stacked array at `(1, k)`. -/
private theorem b1_1 (x3 : FVec Ideal S5x128 .f32) (i : S100000x128.Idx) :
    val_main_v71 (F := Ideal) x3 i = x3 (ix2 1 (i 1)) := by
  rw [val_main_v71_apply, val_main_v70_apply, val_main_v69_apply, val_main_v68_apply]
  refine congrArg x3 (funext fun a => Fin.ext ?_)
  have h1 : (i 1).val < 128 := (i 1).isLt
  match a with
  | ⟨0, _⟩ => rfl
  | ⟨1, _⟩ => show (i 1).val % 128 = (i 1).val; omega

/-- The mean of the normalisation, broadcast over the rows. -/
private theorem mu_1 (x6 : FVec Ideal S5x128 .f32) (i : S100000x128.Idx) :
    val_main_v76 (F := Ideal) x6 i = x6 (ix2 1 (i 1)) := by
  rw [val_main_v76_apply, val_main_v75_apply, val_main_v74_apply, val_main_v73_apply]
  refine congrArg x6 (funext fun a => Fin.ext ?_)
  have h1 : (i 1).val < 128 := (i 1).isLt
  match a with
  | ⟨0, _⟩ => rfl
  | ⟨1, _⟩ => show (i 1).val % 128 = (i 1).val; omega

/-- The offset of the normalisation, broadcast over the rows. -/
private theorem be_1 (x5 : FVec Ideal S5x128 .f32) (i : S100000x128.Idx) :
    val_main_v92 (F := Ideal) x5 i = x5 (ix2 1 (i 1)) := by
  rw [val_main_v92_apply, val_main_v91_apply, val_main_v90_apply, val_main_v89_apply]
  refine congrArg x5 (funext fun a => Fin.ext ?_)
  have h1 : (i 1).val < 128 := (i 1).isLt
  match a with
  | ⟨0, _⟩ => rfl
  | ⟨1, _⟩ => show (i 1).val % 128 = (i 1).val; omega

/-- The second bias, broadcast over the rows. -/
private theorem b2_1 (x9 : FVec Ideal S5x128 .f32) (i : S100000x128.Idx) :
    val_main_v101 (F := Ideal) x9 i = x9 (ix2 1 (i 1)) := by
  rw [val_main_v101_apply, val_main_v100_apply, val_main_v99_apply, val_main_v98_apply]
  refine congrArg x9 (funext fun a => Fin.ext ?_)
  have h1 : (i 1).val < 128 := (i 1).isLt
  match a with
  | ⟨0, _⟩ => rfl
  | ⟨1, _⟩ => show (i 1).val % 128 = (i 1).val; omega

/-- The scale vector γ at `k` is the stacked array at `(1, k)`. -/
private theorem ga_1 (x4 : FVec Ideal S5x128 .f32) (i : S128.Idx) :
    val_main_v79 (F := Ideal) x4 i = x4 (ix2 1 (i 0)) := by
  rw [val_main_v79_apply, val_main_v78_apply]
  refine congrArg x4 (funext fun a => Fin.ext ?_)
  have h0 : (i 0).val < 128 := (i 0).isLt
  match a with
  | ⟨0, _⟩ => rfl
  | ⟨1, _⟩ => show (i 0).val % 128 = (i 0).val; omega

/-- The variance vector at `k` is the stacked array at `(1, k)`. -/
private theorem va_1 (x7 : FVec Ideal S5x128 .f32) (i : S128.Idx) :
    val_main_v81 (F := Ideal) x7 i = x7 (ix2 1 (i 0)) := by
  rw [val_main_v81_apply, val_main_v80_apply]
  refine congrArg x7 (funext fun a => Fin.ext ?_)
  have h0 : (i 0).val < 128 := (i 0).isLt
  match a with
  | ⟨0, _⟩ => rfl
  | ⟨1, _⟩ => show (i 0).val % 128 = (i 0).val; omega

/-- The normalisation's scale, broadcast over the rows: γ / √(var + ε) at the column. -/
private theorem sc_1 (x4 x7 : FVec Ideal S5x128 .f32) (i : S100000x128.Idx) :
    val_main_v87 (F := Ideal) x4 x7 i = Cert.GinSpec.bnScale eps x4 x7 1 (i 1) := by
  rw [val_main_v87_apply, val_main_v86_apply, val_main_v85_apply, val_main_v84_apply, val_main_v83_apply,
    val_main_v82_apply, val_main_cst_5_apply, ga_1, va_1]
  rfl

/-- The rectifiers' zero arrays. -/
private theorem z0_1 (i : S100000x128.Idx) : val_main_call2_v0 (F := Ideal) i = 0 := by
  rw [val_main_call2_v0_apply, val_main_call2_cst_apply]
  exact Ideal.ofBits_zero_f32
private theorem z1_1 (i : S100000x128.Idx) : val_main_call3_v0 (F := Ideal) i = 0 := by
  rw [val_main_call3_v0_apply, val_main_call3_cst_apply]
  exact Ideal.ofBits_zero_f32

/-! ## The hidden row -/

/-- The hidden activations at `(r, k)`: the first product over row `r` of `H + A`, the bias, the normalisation and the
    rectifier, with the previous layer's features `H` and their aggregate `A` variables. -/
private theorem hid_1 (x0 : FVec Ideal S100000x128 .f32) (x1 : IVec S2x1600000 32) (x2 : FVec Ideal S5x128x128 .f32)
    (x3 x4 x5 x6 x7 : FVec Ideal S5x128 .f32) (x8 : FVec Ideal S5x128x128 .f32) (x9 : FVec Ideal S5x128 .f32)
    (r : Fin 100000) (k : Fin 128) :
    val_main_v94 (F := Ideal) x0 x1 x2 x3 x4 x5 x6 x7 x8 x9 (ix2 r k)
      = Cert.GinSpec.hidR (fun q => val_main_v53 (F := Ideal) x0 x1 x2 x3 x4 x5 x6 x7 x8 x9 (ix2 r q)
            + val_main_v63 (F := Ideal) x0 x1 x2 x3 x4 x5 x6 x7 x8 x9 (ix2 r q))
          (fun q k => x2 (ix3 1 q k)) (fun k => x3 (ix2 1 k)) (fun k => x6 (ix2 1 k))
          (Cert.GinSpec.bnScale eps x4 x7 1) (fun k => x5 (ix2 1 k)) k := by
  have hl : ∀ q : Fin 128, lidx_main_v67 (ix2 r k) q = ix2 r q := fun q => funext fun a => Fin.ext (by
    match a with
    | ⟨0, _⟩ => rfl
    | ⟨1, _⟩ => rfl)
  have hr : ∀ q : Fin 128, ridx_main_v67 (ix2 r k) q = ix2 q k := fun q => funext fun a => Fin.ext (by
    match a with
    | ⟨0, _⟩ => rfl
    | ⟨1, _⟩ => rfl)
  rw [val_main_v94_apply, val_main_v93_apply, val_main_v88_apply, val_main_v77_apply, val_main_v72_apply,
    val_main_v67_apply, b1_1, mu_1, sc_1, be_1, z0_1]
  simp only [hl, hr, val_main_v64_apply, w1_1]
  generalize val_main_v63 (F := Ideal) x0 x1 x2 x3 x4 x5 x6 x7 x8 x9 = A
  generalize val_main_v53 (F := Ideal) x0 x1 x2 x3 x4 x5 x6 x7 x8 x9 = H
  simp only [Ideal.maximumf_def, Ideal.addf_def, Ideal.mulf_def, Ideal.subf_def]
  rfl

/-! ## The layer -/

/-- Layer 2's output over the aggregate `A` held as a variable (so the aggregation is never opened). -/
theorem layer1_eq (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v103 (F := Ideal) x0 x1 x2 x3 x4 x5 x6 x7 x8 x9
      = Cert.GinSpec.layer eps 1 (val_main_v53 (F := Ideal) x0 x1 x2 x3 x4 x5 x6 x7 x8 x9) (val_main_v63 (F := Ideal) x0 x1 x2 x3 x4 x5 x6 x7 x8 x9) x2 x3 x4 x5 x6 x7 x8 x9 := by
  funext i
  obtain ⟨r, j, rfl⟩ : ∃ (r : Fin 100000) (j : Fin 128), i = ix2 r j := ⟨i 0, i 1, eq_ix2 i⟩
  have hl : ∀ k : Fin 128, lidx_main_v97 (ix2 r j) k = ix2 r k := fun k => funext fun a => Fin.ext (by
    match a with
    | ⟨0, _⟩ => rfl
    | ⟨1, _⟩ => rfl)
  have hr : ∀ k : Fin 128, ridx_main_v97 (ix2 r j) k = ix2 k j := fun k => funext fun a => Fin.ext (by
    match a with
    | ⟨0, _⟩ => rfl
    | ⟨1, _⟩ => rfl)
  rw [val_main_v103_apply, val_main_v102_apply, val_main_v97_apply, b2_1, z1_1]
  simp only [hl, hr, hid_1, w2_1]
  generalize val_main_v63 (F := Ideal) x0 x1 x2 x3 x4 x5 x6 x7 x8 x9 = A
  generalize val_main_v53 (F := Ideal) x0 x1 x2 x3 x4 x5 x6 x7 x8 x9 = H
  simp only [Ideal.maximumf_def, Ideal.addf_def]
  rfl

end Cert.ReferenceIdeal.RefValue

end
-- ==== Proof.RefLayer2.lean ====
/-
  Layer 3 of the reference, read index by index: its result array is `GinSpec.layer` of the features it starts from,
  their aggregate, and the stacked parameters sliced at 2: a matrix product, the bias, the normalisation (subtract the
  mean, times γ / √(var + ε), plus the offset), a rectifier, the second product and bias, a rectifier.
-/
import proofs.«114683_j20864951124664_1_alg».proof.Proof.RefRead
import proofs.«114683_j20864951124664_1_alg».proof.Proof.Spec
import proofs.«114683_j20864951124664_1_alg».proof.Proof.RefAgg

noncomputable section

namespace Cert.ReferenceIdeal.RefValue

open Cert.ReferenceIdeal Cert.ReferenceIdeal.Gen Cert.ReferenceIdeal.Read Idealize.ShloMosaic Idealize.ShloMosaic.ValueIdx

/-! ## The parameters of the layer: each is the stacked array read at the slice 2 -/

/-- The first weight matrix at `(q, k)` is the stacked array at `(2, q, k)`: a slice of one matrix, its unit axis dropped. -/
private theorem w1_2 (x2 : FVec Ideal S5x128x128 .f32) (q k : Fin 128) :
    val_main_v116 (F := Ideal) x2 (ix2 q k) = x2 (ix3 2 q k) := by
  rw [val_main_v116_apply, val_main_v115_apply]
  refine congrArg x2 (funext fun a => Fin.ext ?_)
  have hq : q.val < 128 := q.isLt
  have hk : k.val < 128 := k.isLt
  match a with
  | ⟨0, _⟩ => rfl
  | ⟨1, _⟩ => show (q.val * 128 + k.val) / 128 % 128 = q.val; omega
  | ⟨2, _⟩ => show (q.val * 128 + k.val) % 128 = k.val; omega

/-- The second weight matrix at `(k, j)` is the stacked array at `(2, k, j)`. -/
private theorem w2_2 (x8 : FVec Ideal S5x128x128 .f32) (k j : Fin 128) :
    val_main_v146 (F := Ideal) x8 (ix2 k j) = x8 (ix3 2 k j) := by
  rw [val_main_v146_apply, val_main_v145_apply]
  refine congrArg x8 (funext fun a => Fin.ext ?_)
  have hk : k.val < 128 := k.isLt
  have hj : j.val < 128 := j.isLt
  match a with
  | ⟨0, _⟩ => rfl
  | ⟨1, _⟩ => show (k.val * 128 + j.val) / 128 % 128 = k.val; omega
  | ⟨2, _⟩ => show (k.val * 128 + j.val) % 128 = j.val; omega

/-- The first bias, broadcast over the rows: at `(r, k)` it is the stacked array at `(2, k)`. -/
private theorem b1_2 (x3 : FVec Ideal S5x128 .f32) (i : S100000x128.Idx) :
    val_main_v121 (F := Ideal) x3 i = x3 (ix2 2 (i 1)) := by
  rw [val_main_v121_apply, val_main_v120_apply, val_main_v119_apply, val_main_v118_apply]
  refine congrArg x3 (funext fun a => Fin.ext ?_)
  have h1 : (i 1).val < 128 := (i 1).isLt
  match a with
  | ⟨0, _⟩ => rfl
  | ⟨1, _⟩ => show (i 1).val % 128 = (i 1).val; omega

/-- The mean of the normalisation, broadcast over the rows. -/
private theorem mu_2 (x6 : FVec Ideal S5x128 .f32) (i : S100000x128.Idx) :
    val_main_v126 (F := Ideal) x6 i = x6 (ix2 2 (i 1)) := by
  rw [val_main_v126_apply, val_main_v125_apply, val_main_v124_apply, val_main_v123_apply]
  refine congrArg x6 (funext fun a => Fin.ext ?_)
  have h1 : (i 1).val < 128 := (i 1).isLt
  match a with
  | ⟨0, _⟩ => rfl
  | ⟨1, _⟩ => show (i 1).val % 128 = (i 1).val; omega

/-- The offset of the normalisation, broadcast over the rows. -/
private theorem be_2 (x5 : FVec Ideal S5x128 .f32) (i : S100000x128.Idx) :
    val_main_v142 (F := Ideal) x5 i = x5 (ix2 2 (i 1)) := by
  rw [val_main_v142_apply, val_main_v141_apply, val_main_v140_apply, val_main_v139_apply]
  refine congrArg x5 (funext fun a => Fin.ext ?_)
  have h1 : (i 1).val < 128 := (i 1).isLt
  match a with
  | ⟨0, _⟩ => rfl
  | ⟨1, _⟩ => show (i 1).val % 128 = (i 1).val; omega

/-- The second bias, broadcast over the rows. -/
private theorem b2_2 (x9 : FVec Ideal S5x128 .f32) (i : S100000x128.Idx) :
    val_main_v151 (F := Ideal) x9 i = x9 (ix2 2 (i 1)) := by
  rw [val_main_v151_apply, val_main_v150_apply, val_main_v149_apply, val_main_v148_apply]
  refine congrArg x9 (funext fun a => Fin.ext ?_)
  have h1 : (i 1).val < 128 := (i 1).isLt
  match a with
  | ⟨0, _⟩ => rfl
  | ⟨1, _⟩ => show (i 1).val % 128 = (i 1).val; omega

/-- The scale vector γ at `k` is the stacked array at `(2, k)`. -/
private theorem ga_2 (x4 : FVec Ideal S5x128 .f32) (i : S128.Idx) :
    val_main_v129 (F := Ideal) x4 i = x4 (ix2 2 (i 0)) := by
  rw [val_main_v129_apply, val_main_v128_apply]
  refine congrArg x4 (funext fun a => Fin.ext ?_)
  have h0 : (i 0).val < 128 := (i 0).isLt
  match a with
  | ⟨0, _⟩ => rfl
  | ⟨1, _⟩ => show (i 0).val % 128 = (i 0).val; omega

/-- The variance vector at `k` is the stacked array at `(2, k)`. -/
private theorem va_2 (x7 : FVec Ideal S5x128 .f32) (i : S128.Idx) :
    val_main_v131 (F := Ideal) x7 i = x7 (ix2 2 (i 0)) := by
  rw [val_main_v131_apply, val_main_v130_apply]
  refine congrArg x7 (funext fun a => Fin.ext ?_)
  have h0 : (i 0).val < 128 := (i 0).isLt
  match a with
  | ⟨0, _⟩ => rfl
  | ⟨1, _⟩ => show (i 0).val % 128 = (i 0).val; omega

/-- The normalisation's scale, broadcast over the rows: γ / √(var + ε) at the column. -/
private theorem sc_2 (x4 x7 : FVec Ideal S5x128 .f32) (i : S100000x128.Idx) :
    val_main_v137 (F := Ideal) x4 x7 i = Cert.GinSpec.bnScale eps x4 x7 2 (i 1) := by
  rw [val_main_v137_apply, val_main_v136_apply, val_main_v135_apply, val_main_v134_apply, val_main_v133_apply,
    val_main_v132_apply, val_main_cst_9_apply, ga_2, va_2]
  rfl

/-- The rectifiers' zero arrays. -/
private theorem z0_2 (i : S100000x128.Idx) : val_main_call4_v0 (F := Ideal) i = 0 := by
  rw [val_main_call4_v0_apply, val_main_call4_cst_apply]
  exact Ideal.ofBits_zero_f32
private theorem z1_2 (i : S100000x128.Idx) : val_main_call5_v0 (F := Ideal) i = 0 := by
  rw [val_main_call5_v0_apply, val_main_call5_cst_apply]
  exact Ideal.ofBits_zero_f32

/-! ## The hidden row -/

/-- The hidden activations at `(r, k)`: the first product over row `r` of `H + A`, the bias, the normalisation and the
    rectifier, with the previous layer's features `H` and their aggregate `A` variables. -/
private theorem hid_2 (x0 : FVec Ideal S100000x128 .f32) (x1 : IVec S2x1600000 32) (x2 : FVec Ideal S5x128x128 .f32)
    (x3 x4 x5 x6 x7 : FVec Ideal S5x128 .f32) (x8 : FVec Ideal S5x128x128 .f32) (x9 : FVec Ideal S5x128 .f32)
    (r : Fin 100000) (k : Fin 128) :
    val_main_v144 (F := Ideal) x0 x1 x2 x3 x4 x5 x6 x7 x8 x9 (ix2 r k)
      = Cert.GinSpec.hidR (fun q => val_main_v103 (F := Ideal) x0 x1 x2 x3 x4 x5 x6 x7 x8 x9 (ix2 r q)
            + val_main_v113 (F := Ideal) x0 x1 x2 x3 x4 x5 x6 x7 x8 x9 (ix2 r q))
          (fun q k => x2 (ix3 2 q k)) (fun k => x3 (ix2 2 k)) (fun k => x6 (ix2 2 k))
          (Cert.GinSpec.bnScale eps x4 x7 2) (fun k => x5 (ix2 2 k)) k := by
  have hl : ∀ q : Fin 128, lidx_main_v117 (ix2 r k) q = ix2 r q := fun q => funext fun a => Fin.ext (by
    match a with
    | ⟨0, _⟩ => rfl
    | ⟨1, _⟩ => rfl)
  have hr : ∀ q : Fin 128, ridx_main_v117 (ix2 r k) q = ix2 q k := fun q => funext fun a => Fin.ext (by
    match a with
    | ⟨0, _⟩ => rfl
    | ⟨1, _⟩ => rfl)
  rw [val_main_v144_apply, val_main_v143_apply, val_main_v138_apply, val_main_v127_apply, val_main_v122_apply,
    val_main_v117_apply, b1_2, mu_2, sc_2, be_2, z0_2]
  simp only [hl, hr, val_main_v114_apply, w1_2]
  generalize val_main_v113 (F := Ideal) x0 x1 x2 x3 x4 x5 x6 x7 x8 x9 = A
  generalize val_main_v103 (F := Ideal) x0 x1 x2 x3 x4 x5 x6 x7 x8 x9 = H
  simp only [Ideal.maximumf_def, Ideal.addf_def, Ideal.mulf_def, Ideal.subf_def]
  rfl

/-! ## The layer -/

/-- Layer 3's output over the aggregate `A` held as a variable (so the aggregation is never opened). -/
theorem layer2_eq (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v153 (F := Ideal) x0 x1 x2 x3 x4 x5 x6 x7 x8 x9
      = Cert.GinSpec.layer eps 2 (val_main_v103 (F := Ideal) x0 x1 x2 x3 x4 x5 x6 x7 x8 x9) (val_main_v113 (F := Ideal) x0 x1 x2 x3 x4 x5 x6 x7 x8 x9) x2 x3 x4 x5 x6 x7 x8 x9 := by
  funext i
  obtain ⟨r, j, rfl⟩ : ∃ (r : Fin 100000) (j : Fin 128), i = ix2 r j := ⟨i 0, i 1, eq_ix2 i⟩
  have hl : ∀ k : Fin 128, lidx_main_v147 (ix2 r j) k = ix2 r k := fun k => funext fun a => Fin.ext (by
    match a with
    | ⟨0, _⟩ => rfl
    | ⟨1, _⟩ => rfl)
  have hr : ∀ k : Fin 128, ridx_main_v147 (ix2 r j) k = ix2 k j := fun k => funext fun a => Fin.ext (by
    match a with
    | ⟨0, _⟩ => rfl
    | ⟨1, _⟩ => rfl)
  rw [val_main_v153_apply, val_main_v152_apply, val_main_v147_apply, b2_2, z1_2]
  simp only [hl, hr, hid_2, w2_2]
  generalize val_main_v113 (F := Ideal) x0 x1 x2 x3 x4 x5 x6 x7 x8 x9 = A
  generalize val_main_v103 (F := Ideal) x0 x1 x2 x3 x4 x5 x6 x7 x8 x9 = H
  simp only [Ideal.maximumf_def, Ideal.addf_def]
  rfl

end Cert.ReferenceIdeal.RefValue

end
-- ==== Proof.RefLayer3.lean ====
/-
  Layer 4 of the reference, read index by index: its result array is `GinSpec.layer` of the features it starts from,
  their aggregate, and the stacked parameters sliced at 3: a matrix product, the bias, the normalisation (subtract the
  mean, times γ / √(var + ε), plus the offset), a rectifier, the second product and bias, a rectifier.
-/
import proofs.«114683_j20864951124664_1_alg».proof.Proof.RefRead
import proofs.«114683_j20864951124664_1_alg».proof.Proof.Spec
import proofs.«114683_j20864951124664_1_alg».proof.Proof.RefAgg

noncomputable section

namespace Cert.ReferenceIdeal.RefValue

open Cert.ReferenceIdeal Cert.ReferenceIdeal.Gen Cert.ReferenceIdeal.Read Idealize.ShloMosaic Idealize.ShloMosaic.ValueIdx

/-! ## The parameters of the layer: each is the stacked array read at the slice 3 -/

/-- The first weight matrix at `(q, k)` is the stacked array at `(3, q, k)`: a slice of one matrix, its unit axis dropped. -/
private theorem w1_3 (x2 : FVec Ideal S5x128x128 .f32) (q k : Fin 128) :
    val_main_v166 (F := Ideal) x2 (ix2 q k) = x2 (ix3 3 q k) := by
  rw [val_main_v166_apply, val_main_v165_apply]
  refine congrArg x2 (funext fun a => Fin.ext ?_)
  have hq : q.val < 128 := q.isLt
  have hk : k.val < 128 := k.isLt
  match a with
  | ⟨0, _⟩ => rfl
  | ⟨1, _⟩ => show (q.val * 128 + k.val) / 128 % 128 = q.val; omega
  | ⟨2, _⟩ => show (q.val * 128 + k.val) % 128 = k.val; omega

/-- The second weight matrix at `(k, j)` is the stacked array at `(3, k, j)`. -/
private theorem w2_3 (x8 : FVec Ideal S5x128x128 .f32) (k j : Fin 128) :
    val_main_v196 (F := Ideal) x8 (ix2 k j) = x8 (ix3 3 k j) := by
  rw [val_main_v196_apply, val_main_v195_apply]
  refine congrArg x8 (funext fun a => Fin.ext ?_)
  have hk : k.val < 128 := k.isLt
  have hj : j.val < 128 := j.isLt
  match a with
  | ⟨0, _⟩ => rfl
  | ⟨1, _⟩ => show (k.val * 128 + j.val) / 128 % 128 = k.val; omega
  | ⟨2, _⟩ => show (k.val * 128 + j.val) % 128 = j.val; omega

/-- The first bias, broadcast over the rows: at `(r, k)` it is the stacked array at `(3, k)`. -/
private theorem b1_3 (x3 : FVec Ideal S5x128 .f32) (i : S100000x128.Idx) :
    val_main_v171 (F := Ideal) x3 i = x3 (ix2 3 (i 1)) := by
  rw [val_main_v171_apply, val_main_v170_apply, val_main_v169_apply, val_main_v168_apply]
  refine congrArg x3 (funext fun a => Fin.ext ?_)
  have h1 : (i 1).val < 128 := (i 1).isLt
  match a with
  | ⟨0, _⟩ => rfl
  | ⟨1, _⟩ => show (i 1).val % 128 = (i 1).val; omega

/-- The mean of the normalisation, broadcast over the rows. -/
private theorem mu_3 (x6 : FVec Ideal S5x128 .f32) (i : S100000x128.Idx) :
    val_main_v176 (F := Ideal) x6 i = x6 (ix2 3 (i 1)) := by
  rw [val_main_v176_apply, val_main_v175_apply, val_main_v174_apply, val_main_v173_apply]
  refine congrArg x6 (funext fun a => Fin.ext ?_)
  have h1 : (i 1).val < 128 := (i 1).isLt
  match a with
  | ⟨0, _⟩ => rfl
  | ⟨1, _⟩ => show (i 1).val % 128 = (i 1).val; omega

/-- The offset of the normalisation, broadcast over the rows. -/
private theorem be_3 (x5 : FVec Ideal S5x128 .f32) (i : S100000x128.Idx) :
    val_main_v192 (F := Ideal) x5 i = x5 (ix2 3 (i 1)) := by
  rw [val_main_v192_apply, val_main_v191_apply, val_main_v190_apply, val_main_v189_apply]
  refine congrArg x5 (funext fun a => Fin.ext ?_)
  have h1 : (i 1).val < 128 := (i 1).isLt
  match a with
  | ⟨0, _⟩ => rfl
  | ⟨1, _⟩ => show (i 1).val % 128 = (i 1).val; omega

/-- The second bias, broadcast over the rows. -/
private theorem b2_3 (x9 : FVec Ideal S5x128 .f32) (i : S100000x128.Idx) :
    val_main_v201 (F := Ideal) x9 i = x9 (ix2 3 (i 1)) := by
  rw [val_main_v201_apply, val_main_v200_apply, val_main_v199_apply, val_main_v198_apply]
  refine congrArg x9 (funext fun a => Fin.ext ?_)
  have h1 : (i 1).val < 128 := (i 1).isLt
  match a with
  | ⟨0, _⟩ => rfl
  | ⟨1, _⟩ => show (i 1).val % 128 = (i 1).val; omega

/-- The scale vector γ at `k` is the stacked array at `(3, k)`. -/
private theorem ga_3 (x4 : FVec Ideal S5x128 .f32) (i : S128.Idx) :
    val_main_v179 (F := Ideal) x4 i = x4 (ix2 3 (i 0)) := by
  rw [val_main_v179_apply, val_main_v178_apply]
  refine congrArg x4 (funext fun a => Fin.ext ?_)
  have h0 : (i 0).val < 128 := (i 0).isLt
  match a with
  | ⟨0, _⟩ => rfl
  | ⟨1, _⟩ => show (i 0).val % 128 = (i 0).val; omega

/-- The variance vector at `k` is the stacked array at `(3, k)`. -/
private theorem va_3 (x7 : FVec Ideal S5x128 .f32) (i : S128.Idx) :
    val_main_v181 (F := Ideal) x7 i = x7 (ix2 3 (i 0)) := by
  rw [val_main_v181_apply, val_main_v180_apply]
  refine congrArg x7 (funext fun a => Fin.ext ?_)
  have h0 : (i 0).val < 128 := (i 0).isLt
  match a with
  | ⟨0, _⟩ => rfl
  | ⟨1, _⟩ => show (i 0).val % 128 = (i 0).val; omega

/-- The normalisation's scale, broadcast over the rows: γ / √(var + ε) at the column. -/
private theorem sc_3 (x4 x7 : FVec Ideal S5x128 .f32) (i : S100000x128.Idx) :
    val_main_v187 (F := Ideal) x4 x7 i = Cert.GinSpec.bnScale eps x4 x7 3 (i 1) := by
  rw [val_main_v187_apply, val_main_v186_apply, val_main_v185_apply, val_main_v184_apply, val_main_v183_apply,
    val_main_v182_apply, val_main_cst_13_apply, ga_3, va_3]
  rfl

/-- The rectifiers' zero arrays. -/
private theorem z0_3 (i : S100000x128.Idx) : val_main_call6_v0 (F := Ideal) i = 0 := by
  rw [val_main_call6_v0_apply, val_main_call6_cst_apply]
  exact Ideal.ofBits_zero_f32
private theorem z1_3 (i : S100000x128.Idx) : val_main_call7_v0 (F := Ideal) i = 0 := by
  rw [val_main_call7_v0_apply, val_main_call7_cst_apply]
  exact Ideal.ofBits_zero_f32

/-! ## The hidden row -/

/-- The hidden activations at `(r, k)`: the first product over row `r` of `H + A`, the bias, the normalisation and the
    rectifier, with the previous layer's features `H` and their aggregate `A` variables. -/
private theorem hid_3 (x0 : FVec Ideal S100000x128 .f32) (x1 : IVec S2x1600000 32) (x2 : FVec Ideal S5x128x128 .f32)
    (x3 x4 x5 x6 x7 : FVec Ideal S5x128 .f32) (x8 : FVec Ideal S5x128x128 .f32) (x9 : FVec Ideal S5x128 .f32)
    (r : Fin 100000) (k : Fin 128) :
    val_main_v194 (F := Ideal) x0 x1 x2 x3 x4 x5 x6 x7 x8 x9 (ix2 r k)
      = Cert.GinSpec.hidR (fun q => val_main_v153 (F := Ideal) x0 x1 x2 x3 x4 x5 x6 x7 x8 x9 (ix2 r q)
            + val_main_v163 (F := Ideal) x0 x1 x2 x3 x4 x5 x6 x7 x8 x9 (ix2 r q))
          (fun q k => x2 (ix3 3 q k)) (fun k => x3 (ix2 3 k)) (fun k => x6 (ix2 3 k))
          (Cert.GinSpec.bnScale eps x4 x7 3) (fun k => x5 (ix2 3 k)) k := by
  have hl : ∀ q : Fin 128, lidx_main_v167 (ix2 r k) q = ix2 r q := fun q => funext fun a => Fin.ext (by
    match a with
    | ⟨0, _⟩ => rfl
    | ⟨1, _⟩ => rfl)
  have hr : ∀ q : Fin 128, ridx_main_v167 (ix2 r k) q = ix2 q k := fun q => funext fun a => Fin.ext (by
    match a with
    | ⟨0, _⟩ => rfl
    | ⟨1, _⟩ => rfl)
  rw [val_main_v194_apply, val_main_v193_apply, val_main_v188_apply, val_main_v177_apply, val_main_v172_apply,
    val_main_v167_apply, b1_3, mu_3, sc_3, be_3, z0_3]
  simp only [hl, hr, val_main_v164_apply, w1_3]
  generalize val_main_v163 (F := Ideal) x0 x1 x2 x3 x4 x5 x6 x7 x8 x9 = A
  generalize val_main_v153 (F := Ideal) x0 x1 x2 x3 x4 x5 x6 x7 x8 x9 = H
  simp only [Ideal.maximumf_def, Ideal.addf_def, Ideal.mulf_def, Ideal.subf_def]
  rfl

/-! ## The layer -/

/-- Layer 4's output over the aggregate `A` held as a variable (so the aggregation is never opened). -/
theorem layer3_eq (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v203 (F := Ideal) x0 x1 x2 x3 x4 x5 x6 x7 x8 x9
      = Cert.GinSpec.layer eps 3 (val_main_v153 (F := Ideal) x0 x1 x2 x3 x4 x5 x6 x7 x8 x9) (val_main_v163 (F := Ideal) x0 x1 x2 x3 x4 x5 x6 x7 x8 x9) x2 x3 x4 x5 x6 x7 x8 x9 := by
  funext i
  obtain ⟨r, j, rfl⟩ : ∃ (r : Fin 100000) (j : Fin 128), i = ix2 r j := ⟨i 0, i 1, eq_ix2 i⟩
  have hl : ∀ k : Fin 128, lidx_main_v197 (ix2 r j) k = ix2 r k := fun k => funext fun a => Fin.ext (by
    match a with
    | ⟨0, _⟩ => rfl
    | ⟨1, _⟩ => rfl)
  have hr : ∀ k : Fin 128, ridx_main_v197 (ix2 r j) k = ix2 k j := fun k => funext fun a => Fin.ext (by
    match a with
    | ⟨0, _⟩ => rfl
    | ⟨1, _⟩ => rfl)
  rw [val_main_v203_apply, val_main_v202_apply, val_main_v197_apply, b2_3, z1_3]
  simp only [hl, hr, hid_3, w2_3]
  generalize val_main_v163 (F := Ideal) x0 x1 x2 x3 x4 x5 x6 x7 x8 x9 = A
  generalize val_main_v153 (F := Ideal) x0 x1 x2 x3 x4 x5 x6 x7 x8 x9 = H
  simp only [Ideal.maximumf_def, Ideal.addf_def]
  rfl

end Cert.ReferenceIdeal.RefValue

end
-- ==== Proof.RefLayer4.lean ====
/-
  Layer 5 of the reference, read index by index: its result array is `GinSpec.layer` of the features it starts from,
  their aggregate, and the stacked parameters sliced at 4: a matrix product, the bias, the normalisation (subtract the
  mean, times γ / √(var + ε), plus the offset), a rectifier, the second product and bias, a rectifier.
-/
import proofs.«114683_j20864951124664_1_alg».proof.Proof.RefRead
import proofs.«114683_j20864951124664_1_alg».proof.Proof.Spec
import proofs.«114683_j20864951124664_1_alg».proof.Proof.RefAgg

noncomputable section

namespace Cert.ReferenceIdeal.RefValue

open Cert.ReferenceIdeal Cert.ReferenceIdeal.Gen Cert.ReferenceIdeal.Read Idealize.ShloMosaic Idealize.ShloMosaic.ValueIdx

/-! ## The parameters of the layer: each is the stacked array read at the slice 4 -/

/-- The first weight matrix at `(q, k)` is the stacked array at `(4, q, k)`: a slice of one matrix, its unit axis dropped. -/
private theorem w1_4 (x2 : FVec Ideal S5x128x128 .f32) (q k : Fin 128) :
    val_main_v216 (F := Ideal) x2 (ix2 q k) = x2 (ix3 4 q k) := by
  rw [val_main_v216_apply, val_main_v215_apply]
  refine congrArg x2 (funext fun a => Fin.ext ?_)
  have hq : q.val < 128 := q.isLt
  have hk : k.val < 128 := k.isLt
  match a with
  | ⟨0, _⟩ => rfl
  | ⟨1, _⟩ => show (q.val * 128 + k.val) / 128 % 128 = q.val; omega
  | ⟨2, _⟩ => show (q.val * 128 + k.val) % 128 = k.val; omega

/-- The second weight matrix at `(k, j)` is the stacked array at `(4, k, j)`. -/
private theorem w2_4 (x8 : FVec Ideal S5x128x128 .f32) (k j : Fin 128) :
    val_main_v246 (F := Ideal) x8 (ix2 k j) = x8 (ix3 4 k j) := by
  rw [val_main_v246_apply, val_main_v245_apply]
  refine congrArg x8 (funext fun a => Fin.ext ?_)
  have hk : k.val < 128 := k.isLt
  have hj : j.val < 128 := j.isLt
  match a with
  | ⟨0, _⟩ => rfl
  | ⟨1, _⟩ => show (k.val * 128 + j.val) / 128 % 128 = k.val; omega
  | ⟨2, _⟩ => show (k.val * 128 + j.val) % 128 = j.val; omega

/-- The first bias, broadcast over the rows: at `(r, k)` it is the stacked array at `(4, k)`. -/
private theorem b1_4 (x3 : FVec Ideal S5x128 .f32) (i : S100000x128.Idx) :
    val_main_v221 (F := Ideal) x3 i = x3 (ix2 4 (i 1)) := by
  rw [val_main_v221_apply, val_main_v220_apply, val_main_v219_apply, val_main_v218_apply]
  refine congrArg x3 (funext fun a => Fin.ext ?_)
  have h1 : (i 1).val < 128 := (i 1).isLt
  match a with
  | ⟨0, _⟩ => rfl
  | ⟨1, _⟩ => show (i 1).val % 128 = (i 1).val; omega

/-- The mean of the normalisation, broadcast over the rows. -/
private theorem mu_4 (x6 : FVec Ideal S5x128 .f32) (i : S100000x128.Idx) :
    val_main_v226 (F := Ideal) x6 i = x6 (ix2 4 (i 1)) := by
  rw [val_main_v226_apply, val_main_v225_apply, val_main_v224_apply, val_main_v223_apply]
  refine congrArg x6 (funext fun a => Fin.ext ?_)
  have h1 : (i 1).val < 128 := (i 1).isLt
  match a with
  | ⟨0, _⟩ => rfl
  | ⟨1, _⟩ => show (i 1).val % 128 = (i 1).val; omega

/-- The offset of the normalisation, broadcast over the rows. -/
private theorem be_4 (x5 : FVec Ideal S5x128 .f32) (i : S100000x128.Idx) :
    val_main_v242 (F := Ideal) x5 i = x5 (ix2 4 (i 1)) := by
  rw [val_main_v242_apply, val_main_v241_apply, val_main_v240_apply, val_main_v239_apply]
  refine congrArg x5 (funext fun a => Fin.ext ?_)
  have h1 : (i 1).val < 128 := (i 1).isLt
  match a with
  | ⟨0, _⟩ => rfl
  | ⟨1, _⟩ => show (i 1).val % 128 = (i 1).val; omega

/-- The second bias, broadcast over the rows. -/
private theorem b2_4 (x9 : FVec Ideal S5x128 .f32) (i : S100000x128.Idx) :
    val_main_v251 (F := Ideal) x9 i = x9 (ix2 4 (i 1)) := by
  rw [val_main_v251_apply, val_main_v250_apply, val_main_v249_apply, val_main_v248_apply]
  refine congrArg x9 (funext fun a => Fin.ext ?_)
  have h1 : (i 1).val < 128 := (i 1).isLt
  match a with
  | ⟨0, _⟩ => rfl
  | ⟨1, _⟩ => show (i 1).val % 128 = (i 1).val; omega

/-- The scale vector γ at `k` is the stacked array at `(4, k)`. -/
private theorem ga_4 (x4 : FVec Ideal S5x128 .f32) (i : S128.Idx) :
    val_main_v229 (F := Ideal) x4 i = x4 (ix2 4 (i 0)) := by
  rw [val_main_v229_apply, val_main_v228_apply]
  refine congrArg x4 (funext fun a => Fin.ext ?_)
  have h0 : (i 0).val < 128 := (i 0).isLt
  match a with
  | ⟨0, _⟩ => rfl
  | ⟨1, _⟩ => show (i 0).val % 128 = (i 0).val; omega

/-- The variance vector at `k` is the stacked array at `(4, k)`. -/
private theorem va_4 (x7 : FVec Ideal S5x128 .f32) (i : S128.Idx) :
    val_main_v231 (F := Ideal) x7 i = x7 (ix2 4 (i 0)) := by
  rw [val_main_v231_apply, val_main_v230_apply]
  refine congrArg x7 (funext fun a => Fin.ext ?_)
  have h0 : (i 0).val < 128 := (i 0).isLt
  match a with
  | ⟨0, _⟩ => rfl
  | ⟨1, _⟩ => show (i 0).val % 128 = (i 0).val; omega

/-- The normalisation's scale, broadcast over the rows: γ / √(var + ε) at the column. -/
private theorem sc_4 (x4 x7 : FVec Ideal S5x128 .f32) (i : S100000x128.Idx) :
    val_main_v237 (F := Ideal) x4 x7 i = Cert.GinSpec.bnScale eps x4 x7 4 (i 1) := by
  rw [val_main_v237_apply, val_main_v236_apply, val_main_v235_apply, val_main_v234_apply, val_main_v233_apply,
    val_main_v232_apply, val_main_cst_17_apply, ga_4, va_4]
  rfl

/-- The rectifiers' zero arrays. -/
private theorem z0_4 (i : S100000x128.Idx) : val_main_call8_v0 (F := Ideal) i = 0 := by
  rw [val_main_call8_v0_apply, val_main_call8_cst_apply]
  exact Ideal.ofBits_zero_f32
private theorem z1_4 (i : S100000x128.Idx) : val_main_call9_v0 (F := Ideal) i = 0 := by
  rw [val_main_call9_v0_apply, val_main_call9_cst_apply]
  exact Ideal.ofBits_zero_f32

/-! ## The hidden row -/

/-- The hidden activations at `(r, k)`: the first product over row `r` of `H + A`, the bias, the normalisation and the
    rectifier, with the previous layer's features `H` and their aggregate `A` variables. -/
private theorem hid_4 (x0 : FVec Ideal S100000x128 .f32) (x1 : IVec S2x1600000 32) (x2 : FVec Ideal S5x128x128 .f32)
    (x3 x4 x5 x6 x7 : FVec Ideal S5x128 .f32) (x8 : FVec Ideal S5x128x128 .f32) (x9 : FVec Ideal S5x128 .f32)
    (r : Fin 100000) (k : Fin 128) :
    val_main_v244 (F := Ideal) x0 x1 x2 x3 x4 x5 x6 x7 x8 x9 (ix2 r k)
      = Cert.GinSpec.hidR (fun q => val_main_v203 (F := Ideal) x0 x1 x2 x3 x4 x5 x6 x7 x8 x9 (ix2 r q)
            + val_main_v213 (F := Ideal) x0 x1 x2 x3 x4 x5 x6 x7 x8 x9 (ix2 r q))
          (fun q k => x2 (ix3 4 q k)) (fun k => x3 (ix2 4 k)) (fun k => x6 (ix2 4 k))
          (Cert.GinSpec.bnScale eps x4 x7 4) (fun k => x5 (ix2 4 k)) k := by
  have hl : ∀ q : Fin 128, lidx_main_v217 (ix2 r k) q = ix2 r q := fun q => funext fun a => Fin.ext (by
    match a with
    | ⟨0, _⟩ => rfl
    | ⟨1, _⟩ => rfl)
  have hr : ∀ q : Fin 128, ridx_main_v217 (ix2 r k) q = ix2 q k := fun q => funext fun a => Fin.ext (by
    match a with
    | ⟨0, _⟩ => rfl
    | ⟨1, _⟩ => rfl)
  rw [val_main_v244_apply, val_main_v243_apply, val_main_v238_apply, val_main_v227_apply, val_main_v222_apply,
    val_main_v217_apply, b1_4, mu_4, sc_4, be_4, z0_4]
  simp only [hl, hr, val_main_v214_apply, w1_4]
  generalize val_main_v213 (F := Ideal) x0 x1 x2 x3 x4 x5 x6 x7 x8 x9 = A
  generalize val_main_v203 (F := Ideal) x0 x1 x2 x3 x4 x5 x6 x7 x8 x9 = H
  simp only [Ideal.maximumf_def, Ideal.addf_def, Ideal.mulf_def, Ideal.subf_def]
  rfl

/-! ## The layer -/

/-- Layer 5's output over the aggregate `A` held as a variable (so the aggregation is never opened). -/
theorem layer4_eq (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32) :
    val_main_v253 (F := Ideal) x0 x1 x2 x3 x4 x5 x6 x7 x8 x9
      = Cert.GinSpec.layer eps 4 (val_main_v203 (F := Ideal) x0 x1 x2 x3 x4 x5 x6 x7 x8 x9) (val_main_v213 (F := Ideal) x0 x1 x2 x3 x4 x5 x6 x7 x8 x9) x2 x3 x4 x5 x6 x7 x8 x9 := by
  funext i
  obtain ⟨r, j, rfl⟩ : ∃ (r : Fin 100000) (j : Fin 128), i = ix2 r j := ⟨i 0, i 1, eq_ix2 i⟩
  have hl : ∀ k : Fin 128, lidx_main_v247 (ix2 r j) k = ix2 r k := fun k => funext fun a => Fin.ext (by
    match a with
    | ⟨0, _⟩ => rfl
    | ⟨1, _⟩ => rfl)
  have hr : ∀ k : Fin 128, ridx_main_v247 (ix2 r j) k = ix2 k j := fun k => funext fun a => Fin.ext (by
    match a with
    | ⟨0, _⟩ => rfl
    | ⟨1, _⟩ => rfl)
  rw [val_main_v253_apply, val_main_v252_apply, val_main_v247_apply, b2_4, z1_4]
  simp only [hl, hr, hid_4, w2_4]
  generalize val_main_v213 (F := Ideal) x0 x1 x2 x3 x4 x5 x6 x7 x8 x9 = A
  generalize val_main_v203 (F := Ideal) x0 x1 x2 x3 x4 x5 x6 x7 x8 x9 = H
  simp only [Ideal.maximumf_def, Ideal.addf_def]
  rfl

end Cert.ReferenceIdeal.RefValue

end
-- ==== Proof.RefCls.lean ====
/-
  The reference's classifier and log-softmax, read index by index: a matrix product, bias and rectifier, the second
  product and bias onto 10 classes, then each row minus its maximum minus the logarithm of its sum of exponentials.
-/
import proofs.«114683_j20864951124664_1_alg».proof.Proof.RefRead
import proofs.«114683_j20864951124664_1_alg».proof.Proof.Spec
import proofs.«114683_j20864951124664_1_alg».proof.Proof.RefAgg

noncomputable section

namespace Cert.ReferenceIdeal.RefValue

open Cert.ReferenceIdeal Cert.ReferenceIdeal.Gen Cert.ReferenceIdeal.Read Idealize.ShloMosaic Idealize.ShloMosaic.ValueIdx

/-! ## The row maximum -/

/-- The f32 word of −∞ is the bottom of the extended reals. -/
theorem negInf_f32 : Ideal.ofBits .f32 0xFF800000#32 = (⊥ : EReal) := by simp [Ideal.ofBits, Ideal.ieee]

/-- Row `r` with the class coordinate `c` put back is `(r, c)`. -/
theorem lift_row (h : S100000x10.Reduces [1] S100000) (r : Fin 100000) (c : Fin (S100000x10.size 1)) :
    h.lift (ix1 r) c = ix2 r (⟨c.val, c.isLt⟩ : Fin 10) := by
  funext a; apply Fin.ext
  match a with
  | ⟨0, _⟩ => rfl
  | ⟨1, _⟩ => rfl

/-- A maximum reduction over the class axis is, at row `r`, the fold of `max` from the initial value over that row. -/
theorem rowMax_read (Lg : FVec Ideal S100000x10 .f32) (init : FVec Ideal S_ .f32) (r : Fin 100000) :
    Host.reduce FloatOps.maximumf Lg init reducesTo_S100000x10_S100000_d1 h_S_ (ix1 r)
      = (Finset.univ : Finset (Fin 10)).fold max (init (Shape.Idx.first h_S_)) (fun c => Lg (ix2 r c)) := by
  have h : S100000x10.Reduces [1] S100000 := by decide
  rw [Host.reduce_eq_fold_single FloatOps.maximumf Lg init reducesTo_S100000x10_S100000_d1 h h_S_]
  have hf : (Lg ∘ h.lift (ix1 r)) = fun c : Fin 10 => Lg (ix2 r c) := funext fun c => congrArg Lg (lift_row h r c)
  exact congrArg (fun f => Finset.fold max (init (Shape.Idx.first h_S_)) f (Finset.univ : Finset (Fin 10))) hf

/-- The reference's row maximum, from −∞, is `rowMax` of the row of logits. -/
theorem rowMax_v0 (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32)
    (x10 : FVec Ideal S128x128 .f32) (x11 : FVec Ideal S128 .f32) (x12 : FVec Ideal S128x10 .f32) (x13 : FVec Ideal S10 .f32) (r : Fin 100000) :
    val_main_call11_v0 (F := Ideal) x0 x1 x2 x3 x4 x5 x6 x7 x8 x9 x10 x11 x12 x13 (ix1 r)
      = Cert.GinSpec.rowMax (fun c : Fin 10 => val_main_v262 (F := Ideal) x0 x1 x2 x3 x4 x5 x6 x7 x8 x9 x10 x11 x12 x13 (ix2 r c)) := by
  unfold val_main_call11_v0
  generalize val_main_v262 (F := Ideal) x0 x1 x2 x3 x4 x5 x6 x7 x8 x9 x10 x11 x12 x13 = Lg
  rw [rowMax_read, val_main_call11_cst_apply, Ideal.ofBits_def, negInf_f32]
  rfl

/-- The shift of row `r`: its maximum taken once more against −∞. -/
theorem rowShift (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32)
    (x10 : FVec Ideal S128x128 .f32) (x11 : FVec Ideal S128 .f32) (x12 : FVec Ideal S128x10 .f32) (x13 : FVec Ideal S10 .f32) (r : Fin 100000) :
    val_main_call11_v2 (F := Ideal) x0 x1 x2 x3 x4 x5 x6 x7 x8 x9 x10 x11 x12 x13 (ix1 r)
      = max ⊥ (Cert.GinSpec.rowMax (fun c : Fin 10 => val_main_v262 (F := Ideal) x0 x1 x2 x3 x4 x5 x6 x7 x8 x9 x10 x11 x12 x13 (ix2 r c))) := by
  rw [val_main_call11_v2_apply, val_main_call11_v1_apply, val_main_call11_cst_0_apply, rowMax_v0, Ideal.maximumf_def, Ideal.ofBits_def,
    negInf_f32]

/-! ## The logits -/

/-- The logits at `(r, c)`: the two affine maps with the rectifier between, of row `r` of the last layer's output. -/
theorem logits_eq (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32)
    (x10 : FVec Ideal S128x128 .f32) (x11 : FVec Ideal S128 .f32) (x12 : FVec Ideal S128x10 .f32) (x13 : FVec Ideal S10 .f32) (r : Fin 100000) (c : Fin 10) :
    val_main_v262 (F := Ideal) x0 x1 x2 x3 x4 x5 x6 x7 x8 x9 x10 x11 x12 x13 (ix2 r c)
      = Cert.GinSpec.aff (fun k => max (Cert.GinSpec.aff (fun q => val_main_v253 (F := Ideal) x0 x1 x2 x3 x4 x5 x6 x7 x8 x9 (ix2 r q))
          (fun q k => x10 (ix2 q k)) (fun k => x11 (ix1 k)) k) 0) (fun k j => x12 (ix2 k j)) (fun j => x13 (ix1 j)) c := by
  have e1 : ∀ k : Fin 128, ridx_main_v259 (ix2 r c) k = ix2 k c := fun k =>
    funext fun a => Fin.ext (by match a with | ⟨0, _⟩ => rfl | ⟨1, _⟩ => rfl)
  have e2 : idx_main_v260 (idx_main_v261 (ix2 r c)) = ix1 c :=
    funext fun a => Fin.ext (by match a with | ⟨0, _⟩ => rfl)
  have e3 : ∀ k q : Fin 128, lidx_main_v254 (lidx_main_v259 (ix2 r c) k) q = ix2 r q := fun k q =>
    funext fun a => Fin.ext (by match a with | ⟨0, _⟩ => rfl | ⟨1, _⟩ => rfl)
  have e4 : ∀ k q : Fin 128, ridx_main_v254 (lidx_main_v259 (ix2 r c) k) q = ix2 q k := fun k q =>
    funext fun a => Fin.ext (by match a with | ⟨0, _⟩ => rfl | ⟨1, _⟩ => rfl)
  have e5 : ∀ k : Fin 128, idx_main_v255 (idx_main_v256 (lidx_main_v259 (ix2 r c) k)) = ix1 k := fun k =>
    funext fun a => Fin.ext (by match a with | ⟨0, _⟩ => rfl)
  -- the second product and its bias
  rw [val_main_v262_apply, val_main_v259_apply, val_main_v261_apply, val_main_v260_apply, e2]
  simp only [e1]
  -- the rectifier, the first bias
  simp only [val_main_v258_apply, val_main_v257_apply, val_main_call10_v0_apply, val_main_call10_cst_apply, val_main_v256_apply,
    val_main_v255_apply, e5]
  -- the first product
  simp only [val_main_v254_apply]
  simp only [e3, e4]
  simp only [Ideal.addf_def, Ideal.maximumf_def, Ideal.ofBits_def, Ideal.ofBits_zero_f32]
  generalize val_main_v253 (F := Ideal) x0 x1 x2 x3 x4 x5 x6 x7 x8 x9 = H
  unfold Cert.GinSpec.aff
  rfl

/-! ## The log-softmax -/

/-- The specification's classifier at `(r, c)`. -/
theorem cls_apply (H : FVec Ideal S100000x128 .f32) (x10 : FVec Ideal S128x128 .f32) (x11 : FVec Ideal S128 .f32) (x12 : FVec Ideal S128x10 .f32) (x13 : FVec Ideal S10 .f32) (r : Fin 100000) (c : Fin 10) :
    Cert.GinSpec.cls H x10 x11 x12 x13 (ix2 r c)
      = Cert.GinSpec.lsmR (Cert.GinSpec.aff (fun k => max (Cert.GinSpec.aff (fun q => H (ix2 r q)) (fun q k => x10 (ix2 q k))
          (fun k => x11 (ix1 k)) k) 0) (fun k j => x12 (ix2 k j)) (fun j => x13 (ix1 j))) c := rfl

theorem cls_eq (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32)
    (x10 : FVec Ideal S128x128 .f32) (x11 : FVec Ideal S128 .f32) (x12 : FVec Ideal S128x10 .f32) (x13 : FVec Ideal S10 .f32) :
    val_main_v263 (F := Ideal) x0 x1 x2 x3 x4 x5 x6 x7 x8 x9 x10 x11 x12 x13
      = Cert.GinSpec.cls (val_main_v253 (F := Ideal) x0 x1 x2 x3 x4 x5 x6 x7 x8 x9) x10 x11 x12 x13 := by
  funext i
  obtain ⟨r, j, rfl⟩ : ∃ (r : Fin 100000) (j : Fin 10), i = ix2 r j := ⟨i 0, i 1, eq_ix2 i⟩
  have e1 : ∀ c : Fin 10, idx_main_call11_v3 (idx_main_call11_v4 (ix2 r c)) = ix1 r := fun c =>
    funext fun a => Fin.ext (by match a with | ⟨0, _⟩ => rfl)
  have e2 : ∀ k : Fin 10, idx_main_call11_v7 (idx_main_call11_v8 (idx_main_call11_v10 (ix2 r j))) k = ix2 r k := fun k =>
    funext fun a => Fin.ext (by match a with | ⟨0, _⟩ => rfl | ⟨1, _⟩ => rfl)
  rw [cls_apply]
  -- the result, the logarithm of the row's sum, the sum
  simp only [val_main_v263_apply, val_main_call11_v10_apply, val_main_call11_v9_apply, val_main_call11_v8_apply,
    val_main_call11_v7_apply, e2]
  -- each exponential's argument: the logit minus the row's shift
  simp only [val_main_call11_v6_apply, val_main_call11_v5_apply, val_main_call11_v4_apply, val_main_call11_v3_apply, e1]
  rw [rowShift, val_main_call11_cst_1_apply]
  simp only [Ideal.subf_def, Ideal.hostUnary_exp_def, Ideal.hostUnary_log_def, Ideal.ofBits_def, Ideal.ofBits_zero_f32]
  -- the row of logits is the affine image the specification names
  rw [← show (fun c : Fin 10 => val_main_v262 (F := Ideal) x0 x1 x2 x3 x4 x5 x6 x7 x8 x9 x10 x11 x12 x13 (ix2 r c)) = _ from
    funext fun c => logits_eq x0 x1 x2 x3 x4 x5 x6 x7 x8 x9 x10 x11 x12 x13 r c]
  generalize val_main_v262 (F := Ideal) x0 x1 x2 x3 x4 x5 x6 x7 x8 x9 x10 x11 x12 x13 = Lg
  rfl

end Cert.ReferenceIdeal.RefValue

end
-- ==== Proof.RefNet.lean ====
/-
  The reference's result is the network `GinSpec.net` of its arguments, with the reference's aggregation: the five layer
  readings chained (each layer's aggregate is the one aggregation function of the previous layer's output), then the
  classifier reading.
-/
import proofs.«114683_j20864951124664_1_alg».proof.Proof.RefRead
import proofs.«114683_j20864951124664_1_alg».proof.Proof.Spec
import proofs.«114683_j20864951124664_1_alg».proof.Proof.RefAgg
import proofs.«114683_j20864951124664_1_alg».proof.Proof.RefLayer0
import proofs.«114683_j20864951124664_1_alg».proof.Proof.RefLayer1
import proofs.«114683_j20864951124664_1_alg».proof.Proof.RefLayer2
import proofs.«114683_j20864951124664_1_alg».proof.Proof.RefLayer3
import proofs.«114683_j20864951124664_1_alg».proof.Proof.RefLayer4
import proofs.«114683_j20864951124664_1_alg».proof.Proof.RefCls

noncomputable section

namespace Cert.ReferenceIdeal.RefValue

open Cert.ReferenceIdeal Cert.ReferenceIdeal.Gen Cert.ReferenceIdeal.Read Idealize.ShloMosaic Idealize.SL.Sem

theorem net_eq (x0 : FVec Ideal S100000x128 .f32) (x1 : IVec S2x1600000 32) (x2 : FVec Ideal S5x128x128 .f32) (x3 x4 x5 x6 x7 : FVec Ideal S5x128 .f32)
    (x8 : FVec Ideal S5x128x128 .f32) (x9 : FVec Ideal S5x128 .f32)
    (x10 : FVec Ideal S128x128 .f32) (x11 : FVec Ideal S128 .f32) (x12 : FVec Ideal S128x10 .f32) (x13 : FVec Ideal S10 .f32) :
    val_main_v263 (F := Ideal) x0 x1 x2 x3 x4 x5 x6 x7 x8 x9 x10 x11 x12 x13
      = Cert.GinSpec.net (aggR x1) eps x0 x2 x3 x4 x5 x6 x7 x8 x9 x10 x11 x12 x13 := by
  -- from the result inwards: the classifier, then each layer and, inside it, its aggregate
  rw [cls_eq, layer4_eq, agg4, layer3_eq, agg3, layer2_eq, agg2, layer1_eq, agg1, layer0_eq, agg0]
  unfold Cert.GinSpec.net
  -- the aggregation and ε stay opaque: both sides are now the same composition of `layer` and `cls`
  generalize aggR x1 = agg
  generalize eps = e
  rfl

end Cert.ReferenceIdeal.RefValue

end
-- ==== Proof.AggBridge.lean ====
/-
  The two programs aggregate over the graph by the same host operations — the same wrap of negative source indices, the
  same gather, the same scatter-add into a zero array — so the kernel program's aggregate and the reference's are one
  function of the edge list and the features.
-/
import proofs.«114683_j20864951124664_1_alg».proof.Proof.KAgg
import proofs.«114683_j20864951124664_1_alg».proof.Proof.RefAgg

noncomputable section

namespace Cert.Proof.Bridge

open Idealize.ShloMosaic

/-- The two programs print the scatter's dimension numbers alike: the records differ in nothing but the proof they carry. -/
private theorem scatter_eq :
    Cert.KernelIdeal.scatter_S100000x128_S1600000x1_S1600000x128_1_0_0_1
      = Cert.ReferenceIdeal.scatter_S100000x128_S1600000x1_S1600000x128_1_0_0_1 := rfl

/-- The two programs print the gather's dimension numbers alike. -/
private theorem gather_eq :
    Cert.KernelIdeal.gather_S100000x128_S1600000x1_S1600000x128_1_0_n_n_0_1_1128
      = Cert.ReferenceIdeal.gather_S100000x128_S1600000x1_S1600000x128_1_0_n_n_0_1_1128 := rfl

/-- A scatter-add of gathered rows is one function of its dimension records, its initial array, its two index arrays and
    the features: equal parts give equal aggregates (neither operation is opened). -/
private theorem agg_congr {s si u si' : Shape} {w w' : Nat} {φ : FTy} {d d' : ScatterDims s si u} {g g' : GatherDims s si' u}
    {z z' : FVec Ideal s φ} {i i' : IVec si w} {j j' : IVec si' w'} (H : FVec Ideal s φ)
    (hd : d = d') (hg : g = g') (hz : z = z') (hi : i = i') (hj : j = j') :
    Host.scatterAdd d z i (Host.gather g H j) = Host.scatterAdd d' z' i' (Host.gather g' H j') := by
  subst hd hg hz hi hj
  rfl

theorem agg_eq (E : IVec Cert.KernelIdeal.S2x1600000 32) (H : FVec Ideal Cert.KernelIdeal.S100000x128 .f32) :
    Cert.KernelIdeal.KValue.aggK E H = Cert.ReferenceIdeal.RefValue.aggR E H := by
  unfold Cert.KernelIdeal.KValue.aggK Cert.KernelIdeal.KValue.aggOf Cert.ReferenceIdeal.RefValue.aggR
  refine agg_congr H scatter_eq gather_eq ?_ ?_ ?_
  · -- the zero array: the same zero word broadcast over the same shape
    unfold Cert.ReferenceIdeal.Read.val_main_v11 Cert.ReferenceIdeal.Read.val_main_cst
    rfl
  · -- the destination column: row 1 of the edge list, as a column
    unfold Cert.KernelIdeal.KValue.dstOf Cert.ReferenceIdeal.Read.val_main_v12 Cert.ReferenceIdeal.Read.val_main_v3 Cert.ReferenceIdeal.Read.val_main_v2
    rfl
  · -- the source column: row 0 of the edge list, wrapped once where negative, as a column
    unfold Cert.KernelIdeal.KValue.srcOf Cert.ReferenceIdeal.Read.val_main_v9 Cert.ReferenceIdeal.Read.val_main_v8 Cert.ReferenceIdeal.Read.val_main_v5 Cert.ReferenceIdeal.Read.val_main_v7 Cert.ReferenceIdeal.Read.val_main_v4
      Cert.ReferenceIdeal.Read.val_main_v6 Cert.ReferenceIdeal.Read.val_main_c Cert.ReferenceIdeal.Read.val_main_c_0 Cert.ReferenceIdeal.Read.val_main_v1 Cert.ReferenceIdeal.Read.val_main_v0
    rfl

theorem eps_eq : Cert.KernelIdeal.KValue.eps = Cert.ReferenceIdeal.RefValue.eps := rfl

end Cert.Proof.Bridge

end
-- ==== Proof.lean ====
/-
  The certificate of a five-layer graph-isomorphism network with a two-layer classifier and log-softmax: a Pallas kernel
  per layer (and one for the classifier) over 25 blocks of 4000 nodes, against the plain jnp reference.

  The three frames: the kernel's two programs by their frame certificates; the reference by its run with the result dropped.
  The idealization names ONE constant: the finite fill the classifier kernel puts on its 118 padding lanes before the row
  maximum and the sum of exponentials is read as `-∞` (`preserves`).
  The value claim: both programs compute `GinSpec.net` of the arguments.  On the kernel's side each region's 25 blocks are the
  restrictions of one whole-array function of the arrays its windows read, the host operations between regions slice the
  stacked parameters and aggregate over the graph, and the folded batch normalisation `z · s + (β - μ · s)` is the reference's
  `(z - μ) · s + β` because `μ`, `β` and `s = γ / √(var + ε)` are real under the precondition (finite inputs, `var + ε > 0`); the
  classifier's masked 128-lane log-softmax is the 10-class one on its first 10 lanes.  On the reference's side the run is
  read one operation at a time.  The two aggregations are the same host operations, so one function.
-/
import proofs.«114683_j20864951124664_1_alg».proof.Defs
import proofs.«114683_j20864951124664_1_alg».proof.Proof.Gen.Kernel
import proofs.«114683_j20864951124664_1_alg».proof.Proof.Gen.Kernel.Frame
import proofs.«114683_j20864951124664_1_alg».proof.Proof.Gen.KernelIdeal
import proofs.«114683_j20864951124664_1_alg».proof.Proof.Gen.KernelIdeal.Frame
import proofs.«114683_j20864951124664_1_alg».proof.Proof.Gen.ReferenceIdeal
import proofs.«114683_j20864951124664_1_alg».proof.Proof.Gen.Pre_finite_inputs
import proofs.«114683_j20864951124664_1_alg».proof.Proof.KRun
import proofs.«114683_j20864951124664_1_alg».proof.Proof.KNet
import proofs.«114683_j20864951124664_1_alg».proof.Proof.PreFacts
import proofs.«114683_j20864951124664_1_alg».proof.Proof.RefRun
import proofs.«114683_j20864951124664_1_alg».proof.Proof.RefNet
import proofs.«114683_j20864951124664_1_alg».proof.Proof.AggBridge
import Idealize.ShloMosaic.Adequacy
import Idealize.ShloMosaic.Init
import Idealize.ShloMosaic.PureOps.IdealRules

noncomputable section

namespace Cert.Proof

open Idealize.ShloMosaic Idealize.SL.Sem

/-- The word-level kernel program runs and keeps its arguments: its frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The one named constant: the padding lanes' fill denotes `-∞` by the certificate's table. -/
theorem preserves : Cert.preserves_Kernel_KernelIdeal :=
  IdealRules.named_const.statement Cert.KernelIdeal.κ "neg_big" .f32 0xF149F2CA#32 ⊥ rfl

/-- Both programs end with `GinSpec.net` of the arguments in their result buffers. -/
theorem algebraic : Cert.algebraic_KernelIdeal_ReferenceIdeal := by
  intro m ρ m' ρ' hpre hagree
  refine ⟨fun c => Cert.GinSpec.net (Cert.KernelIdeal.KValue.aggK (Cert.KernelIdeal.KValue.x1 m c)) Cert.KernelIdeal.KValue.eps (Cert.KernelIdeal.KValue.x0 m c) (Cert.KernelIdeal.KValue.x2 m c) (Cert.KernelIdeal.KValue.x3 m c) (Cert.KernelIdeal.KValue.x4 m c) (Cert.KernelIdeal.KValue.x5 m c) (Cert.KernelIdeal.KValue.x6 m c) (Cert.KernelIdeal.KValue.x7 m c) (Cert.KernelIdeal.KValue.x8 m c) (Cert.KernelIdeal.KValue.x9 m c) (Cert.KernelIdeal.KValue.x10 m c) (Cert.KernelIdeal.KValue.x11 m c) (Cert.KernelIdeal.KValue.x12 m c) (Cert.KernelIdeal.KValue.x13 m c), ?_, ?_⟩
  · refine (θ_run Cert.KernelIdeal.defs _ _).mono (fun r h c => ?_) (Cert.KernelIdeal.KRun.run_result (F := Ideal) m ρ)
    obtain ⟨h4, h5, h6, -, hpos⟩ := Cert.Proof.PreFacts.of_pre m hpre c
    exact ⟨(h c).1.trans (Cert.KernelIdeal.KValue.net_out m ρ c h4 h5 h6 hpos), (h c).2⟩
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5, a6, a7, a8, a9, a10, a11, a12, a13⟩ := hagree c
    rw [Cert.ReferenceIdeal.RefValue.net_eq, a0, a1, a2, a3, a4, a5, a6, a7, a8, a9, a10, a11, a12, a13]
    have hagg : Cert.ReferenceIdeal.RefValue.aggR (Cert.KernelIdeal.KValue.x1 m c) = Cert.KernelIdeal.KValue.aggK (Cert.KernelIdeal.KValue.x1 m c) :=
      funext fun H => (Cert.Proof.Bridge.agg_eq _ H).symm
    exact congrArg (fun g => Cert.GinSpec.net g Cert.KernelIdeal.KValue.eps (Cert.KernelIdeal.KValue.x0 m c) (Cert.KernelIdeal.KValue.x2 m c) (Cert.KernelIdeal.KValue.x3 m c) (Cert.KernelIdeal.KValue.x4 m c) (Cert.KernelIdeal.KValue.x5 m c) (Cert.KernelIdeal.KValue.x6 m c) (Cert.KernelIdeal.KValue.x7 m c) (Cert.KernelIdeal.KValue.x8 m c) (Cert.KernelIdeal.KValue.x9 m c) (Cert.KernelIdeal.KValue.x10 m c) (Cert.KernelIdeal.KValue.x11 m c) (Cert.KernelIdeal.KValue.x12 m c) (Cert.KernelIdeal.KValue.x13 m c)) hagg

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
